-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v175)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v175) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v241) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x64 : Shape := ⟨2, ![128, 64]⟩
abbrev S64 : Shape := ⟨1, ![64]⟩
abbrev S8x64x64 : Shape := ⟨3, ![8, 64, 64]⟩
abbrev S8x64 : Shape := ⟨2, ![8, 64]⟩
abbrev S64x64 : Shape := ⟨2, ![64, 64]⟩
abbrev S128x1 : Shape := ⟨2, ![128, 1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S8x64x64 : S_.BroadcastsInDim S8x64x64 (![] : Fin 0 → Fin S8x64x64.rank)
  reducesTo_S8x64x64_S_d0_1_2 : S8x64x64.ReducesTo [0, 1, 2] S_
  bcast_S_S8x64 : S_.BroadcastsInDim S8x64 (![] : Fin 0 → Fin S8x64.rank)
  reducesTo_S8x64_S_d0_1 : S8x64.ReducesTo [0, 1] S_
  bcast_S_S64x64 : S_.BroadcastsInDim S64x64 (![] : Fin 0 → Fin S64x64.rank)
  reducesTo_S64x64_S_d0_1 : S64x64.ReducesTo [0, 1] S_
  bcast_S_S128x1 : S_.BroadcastsInDim S128x1 (![] : Fin 0 → Fin S128x1.rank)
  reducesTo_S128x1_S_d0_1 : S128x1.ReducesTo [0, 1] S_
  bcast_S_S50000 : S_.BroadcastsInDim S50000 (![] : Fin 0 → Fin S50000.rank)
  reducesTo_S50000_S_d0 : S50000.ReducesTo [0] S_

variable [Facts]

def fn_part2 {F : FTy → Type} [FloatOps F] (main_arg2 : IVec S50000 32) (main_arg9 : FVec F S128x1 .f32) (main_v33 : IVec S_ 1) : IVec S_ 1 :=
  let main_v34 : FVec F S128x1 .f32 := Host.absf main_arg9
  let main_cst_12 : FVec F S_ .f32 := constant S_ .f32 0x7F800000#32
  let main_v35 : FVec F S128x1 .f32 := broadcastInDim S128x1 ![] bcast_S_S128x1 main_cst_12
  let main_v36 : IVec S128x1 1 := cmpf .olt main_v34 main_v35
  let main_c_13 : IVec S_ 1 := constantI S_ 1 1#1
  let main_v37 : IVec S_ 1 := (fun x v => Host.reduce IntOp.andi x v reducesTo_S128x1_S_d0_1 h_S_) main_v36 main_c_13
  let main_v38 : IVec S_ 1 := andi main_v33 main_v37
  let main_c_14 : IVec S_ 32 := constantI S_ 32 0#32
  let main_v39 : IVec S50000 32 := broadcastInDim S50000 ![] bcast_S_S50000 main_c_14
  let main_v40 : IVec S50000 1 := cmpi .sge main_arg2 main_v39
  let main_c_15 : IVec S_ 32 := constantI S_ 32 256#32
  let main_v41 : IVec S50000 32 := broadcastInDim S50000 ![] bcast_S_S50000 main_c_15
  let main_v42 : IVec S50000 1 := cmpi .slt main_arg2 main_v41
  let main_v43 : IVec S50000 1 := andi main_v40 main_v42
  let main_c_16 : IVec S_ 1 := constantI S_ 1 1#1
  let main_v44 : IVec S_ 1 := (fun x v => Host.reduce IntOp.andi x v reducesTo_S50000_S_d0 h_S_) main_v43 main_c_16
  let main_v45 : IVec S_ 1 := andi main_v38 main_v44
  main_v45

def fn_part1 {F : FTy → Type} [FloatOps F] (main_arg2 : IVec S50000 32) (main_arg6 : FVec F S8x64 .f32) (main_arg7 : FVec F S64x64 .f32) (main_arg8 : FVec F S64x64 .f32) (main_arg9 : FVec F S128x1 .f32) (main_v13 : IVec S_ 1) (main_v16 : IVec S8x64x64 1) : IVec S_ 1 :=
  let main_c_5 : IVec S_ 1 := constantI S_ 1 1#1
  let main_v17 : IVec S_ 1 := (fun x v => Host.reduce IntOp.andi x v reducesTo_S8x64x64_S_d0_1_2 h_S_) main_v16 main_c_5
  let main_v18 : IVec S_ 1 := andi main_v13 main_v17
  let main_v19 : FVec F S8x64 .f32 := Host.absf main_arg6
  let main_cst_6 : FVec F S_ .f32 := constant S_ .f32 0x7F800000#32
  let main_v20 : FVec F S8x64 .f32 := broadcastInDim S8x64 ![] bcast_S_S8x64 main_cst_6
  let main_v21 : IVec S8x64 1 := cmpf .olt main_v19 main_v20
  let main_c_7 : IVec S_ 1 := constantI S_ 1 1#1
  let main_v22 : IVec S_ 1 := (fun x v => Host.reduce IntOp.andi x v reducesTo_S8x64_S_d0_1 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64x64 .f32 := Host.absf main_arg8
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg2 main_arg9 main_v33

def fn {F : FTy → Type} [FloatOps F] (main_arg0 : FVec F S50000x128 .f32) (main_arg1 : IVec S2x800000 32) (main_arg2 : IVec S50000 32) (main_arg3 : FVec F S128x64 .f32) (main_arg4 : FVec F S64 .f32) (main_arg5 : FVec F S8x64x64 .f32) (main_arg6 : FVec F S8x64 .f32) (main_arg7 : FVec F S64x64 .f32) (main_arg8 : FVec F S64x64 .f32) (main_arg9 : FVec F S128x1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S8x64x64 .f32 := Host.absf main_arg5
  let main_cst_4 : FVec F S_ .f32 := constant S_ .f32 0x7F800000#32
  let main_v15 : FVec F S8x64x64 .f32 := broadcastInDim S8x64x64 ![] bcast_S_S8x64x64 main_cst_4
  let main_v16 : IVec S8x64x64 1 := cmpf .olt main_v14 main_v15
  fn_part1 (F := F) main_arg2 main_arg6 main_arg7 main_arg8 main_arg9 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x64 : Shape := ⟨2, ![128, 64]⟩
abbrev S64 : Shape := ⟨1, ![64]⟩
abbrev S8x64x64 : Shape := ⟨3, ![8, 64, 64]⟩
abbrev S8x64 : Shape := ⟨2, ![8, 64]⟩
abbrev S64x64 : Shape := ⟨2, ![64, 64]⟩
abbrev S128x1 : Shape := ⟨2, ![128, 1]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S50000x64 : Shape := ⟨2, ![50000, 64]⟩
abbrev S5000x128 : Shape := ⟨2, ![5000, 128]⟩
abbrev S5000x1 : Shape := ⟨2, ![5000, 1]⟩
abbrev S5000x64 : Shape := ⟨2, ![5000, 64]⟩
abbrev S850000x64 : Shape := ⟨2, ![850000, 64]⟩
abbrev S1x64 : Shape := ⟨2, ![1, 64]⟩
abbrev S1x64x64 : Shape := ⟨3, ![1, 64, 64]⟩
abbrev S256x64 : Shape := ⟨2, ![256, 64]⟩
abbrev S64x1 : Shape := ⟨2, ![64, 1]⟩
abbrev S2000x64 : Shape := ⟨2, ![2000, 64]⟩
abbrev S2000x1 : Shape := ⟨2, ![2000, 1]⟩
abbrev S2000x256 : Shape := ⟨2, ![2000, 256]⟩

abbrev nBuf : Space → Nat
  | .hbm => 221
  | .vmem => 88
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x64, .f32⟩
  | 4 => ⟨S64, .f32⟩
  | 5 => ⟨S8x64x64, .f32⟩
  | 6 => ⟨S8x64, .f32⟩
  | 7 => ⟨S64x64, .f32⟩
  | 8 => ⟨S64x64, .f32⟩
  | 9 => ⟨S128x1, .f32⟩
  | 10 => ⟨S50000, .i32⟩
  | 11 => ⟨S1x800000, .i32⟩
  | 12 => ⟨S800000, .i32⟩
  | 13 => ⟨S850000, .i32⟩
  | 14 => ⟨S1x800000, .i32⟩
  | 15 => ⟨S800000, .i32⟩
  | 16 => ⟨S850000, .i32⟩
  | 17 => ⟨S_, .f32⟩
  | 18 => ⟨S850000, .f32⟩
  | 19 => ⟨S_, .f32⟩
  | 20 => ⟨S50000, .f32⟩
  | 21 => ⟨S850000x1, .i32⟩
  | 22 => ⟨S50000, .f32⟩
  | 23 => ⟨S_, .f32⟩
  | 24 => ⟨S50000, .f32⟩
  | 25 => ⟨S50000, .i1⟩
  | 26 => ⟨S_, .f32⟩
  | 27 => ⟨S50000, .f32⟩
  | 28 => ⟨S50000, .f32⟩
  | 29 => ⟨S50000, .f32⟩
  | 30 => ⟨S_, .f32⟩
  | 31 => ⟨S_, .f32⟩
  | 32 => ⟨S50000, .f32⟩
  | 33 => ⟨S50000, .f32⟩
  | 34 => ⟨S50000x1, .f32⟩
  | 35 => ⟨S50000x1, .i32⟩
  | 36 => ⟨S50000x64, .bf16⟩
  | 37 => ⟨S_, .i32⟩
  | 38 => ⟨S850000, .i32⟩
  | 39 => ⟨S850000, .i1⟩
  | 40 => ⟨S_, .i32⟩
  | 41 => ⟨S850000, .i32⟩
  | 42 => ⟨S850000, .i32⟩
  | 43 => ⟨S850000, .i32⟩
  | 44 => ⟨S850000x1, .i32⟩
  | 45 => ⟨S850000x64, .bf16⟩
  | 46 => ⟨S850000x64, .f32⟩
  | 47 => ⟨S_, .f32⟩
  | 48 => ⟨S50000x64, .f32⟩
  | 49 => ⟨S850000x1, .i32⟩
  | 50 => ⟨S50000x64, .f32⟩
  | 51 => ⟨S1x64, .f32⟩
  | 52 => ⟨S64, .f32⟩
  | 53 => ⟨S1x64, .f32⟩
  | 54 => ⟨S64, .f32⟩
  | 55 => ⟨S1x64, .f32⟩
  | 56 => ⟨S64, .f32⟩
  | 57 => ⟨S1x64, .f32⟩
  | 58 => ⟨S64, .f32⟩
  | 59 => ⟨S1x64, .f32⟩
  | 60 => ⟨S64, .f32⟩
  | 61 => ⟨S1x64, .f32⟩
  | 62 => ⟨S64, .f32⟩
  | 63 => ⟨S1x64, .f32⟩
  | 64 => ⟨S64, .f32⟩
  | 65 => ⟨S1x64, .f32⟩
  | 66 => ⟨S64, .f32⟩
  | 67 => ⟨S1x64x64, .f32⟩
  | 68 => ⟨S64x64, .f32⟩
  | 69 => ⟨S1x64x64, .f32⟩
  | 70 => ⟨S64x64, .f32⟩
  | 71 => ⟨S1x64x64, .f32⟩
  | 72 => ⟨S64x64, .f32⟩
  | 73 => ⟨S1x64x64, .f32⟩
  | 74 => ⟨S64x64, .f32⟩
  | 75 => ⟨S1x64x64, .f32⟩
  | 76 => ⟨S64x64, .f32⟩
  | 77 => ⟨S1x64x64, .f32⟩
  | 78 => ⟨S64x64, .f32⟩
  | 79 => ⟨S1x64x64, .f32⟩
  | 80 => ⟨S64x64, .f32⟩
  | 81 => ⟨S1x64x64, .f32⟩
  | 82 => ⟨S64x64, .f32⟩
  | 83 => ⟨S1x64, .f32⟩
  | 84 => ⟨S50000x64, .bf16⟩
  | 85 => ⟨S_, .i32⟩
  | 86 => ⟨S850000, .i32⟩
  | 87 => ⟨S850000, .i1⟩
  | 88 => ⟨S_, .i32⟩
  | 89 => ⟨S850000, .i32⟩
  | 90 => ⟨S850000, .i32⟩
  | 91 => ⟨S850000, .i32⟩
  | 92 => ⟨S850000x1, .i32⟩
  | 93 => ⟨S850000x64, .bf16⟩
  | 94 => ⟨S850000x64, .f32⟩
  | 95 => ⟨S_, .f32⟩
  | 96 => ⟨S50000x64, .f32⟩
  | 97 => ⟨S850000x1, .i32⟩
  | 98 => ⟨S50000x64, .f32⟩
  | 99 => ⟨S1x64, .f32⟩
  | 100 => ⟨S50000x64, .bf16⟩
  | 101 => ⟨S_, .i32⟩
  | 102 => ⟨S850000, .i32⟩
  | 103 => ⟨S850000, .i1⟩
  | 104 => ⟨S_, .i32⟩
  | 105 => ⟨S850000, .i32⟩
  | 106 => ⟨S850000, .i32⟩
  | 107 => ⟨S850000, .i32⟩
  | 108 => ⟨S850000x1, .i32⟩
  | 109 => ⟨S850000x64, .bf16⟩
  | 110 => ⟨S850000x64, .f32⟩
  | 111 => ⟨S_, .f32⟩
  | 112 => ⟨S50000x64, .f32⟩
  | 113 => ⟨S850000x1, .i32⟩
  | 114 => ⟨S50000x64, .f32⟩
  | 115 => ⟨S1x64, .f32⟩
  | 116 => ⟨S50000x64, .bf16⟩
  | 117 => ⟨S_, .i32⟩
  | 118 => ⟨S850000, .i32⟩
  | 119 => ⟨S850000, .i1⟩
  | 120 => ⟨S_, .i32⟩
  | 121 => ⟨S850000, .i32⟩
  | 122 => ⟨S850000, .i32⟩
  | 123 => ⟨S850000, .i32⟩
  | 124 => ⟨S850000x1, .i32⟩
  | 125 => ⟨S850000x64, .bf16⟩
  | 126 => ⟨S850000x64, .f32⟩
  | 127 => ⟨S_, .f32⟩
  | _ => ⟨S50000x128, .f32⟩

abbrev hbmTy0_1 (i : Nat) : BufTy := match i % 128 with
  | 0 => ⟨S50000x64, .f32⟩
  | 1 => ⟨S850000x1, .i32⟩
  | 2 => ⟨S50000x64, .f32⟩
  | 3 => ⟨S1x64, .f32⟩
  | 4 => ⟨S50000x64, .bf16⟩
  | 5 => ⟨S_, .i32⟩
  | 6 => ⟨S850000, .i32⟩
  | 7 => ⟨S850000, .i1⟩
  | 8 => ⟨S_, .i32⟩
  | 9 => ⟨S850000, .i32⟩
  | 10 => ⟨S850000, .i32⟩
  | 11 => ⟨S850000, .i32⟩
  | 12 => ⟨S850000x1, .i32⟩
  | 13 => ⟨S850000x64, .bf16⟩
  | 14 => ⟨S850000x64, .f32⟩
  | 15 => ⟨S_, .f32⟩
  | 16 => ⟨S50000x64, .f32⟩
  | 17 => ⟨S850000x1, .i32⟩
  | 18 => ⟨S50000x64, .f32⟩
  | 19 => ⟨S1x64, .f32⟩
  | 20 => ⟨S50000x64, .bf16⟩
  | 21 => ⟨S_, .i32⟩
  | 22 => ⟨S850000, .i32⟩
  | 23 => ⟨S850000, .i1⟩
  | 24 => ⟨S_, .i32⟩
  | 25 => ⟨S850000, .i32⟩
  | 26 => ⟨S850000, .i32⟩
  | 27 => ⟨S850000, .i32⟩
  | 28 => ⟨S850000x1, .i32⟩
  | 29 => ⟨S850000x64, .bf16⟩
  | 30 => ⟨S850000x64, .f32⟩
  | 31 => ⟨S_, .f32⟩
  | 32 => ⟨S50000x64, .f32⟩
  | 33 => ⟨S850000x1, .i32⟩
  | 34 => ⟨S50000x64, .f32⟩
  | 35 => ⟨S1x64, .f32⟩
  | 36 => ⟨S50000x64, .bf16⟩
  | 37 => ⟨S_, .i32⟩
  | 38 => ⟨S850000, .i32⟩
  | 39 => ⟨S850000, .i1⟩
  | 40 => ⟨S_, .i32⟩
  | 41 => ⟨S850000, .i32⟩
  | 42 => ⟨S850000, .i32⟩
  | 43 => ⟨S850000, .i32⟩
  | 44 => ⟨S850000x1, .i32⟩
  | 45 => ⟨S850000x64, .bf16⟩
  | 46 => ⟨S850000x64, .f32⟩
  | 47 => ⟨S_, .f32⟩
  | 48 => ⟨S50000x64, .f32⟩
  | 49 => ⟨S850000x1, .i32⟩
  | 50 => ⟨S50000x64, .f32⟩
  | 51 => ⟨S1x64, .f32⟩
  | 52 => ⟨S50000x64, .bf16⟩
  | 53 => ⟨S_, .i32⟩
  | 54 => ⟨S850000, .i32⟩
  | 55 => ⟨S850000, .i1⟩
  | 56 => ⟨S_, .i32⟩
  | 57 => ⟨S850000, .i32⟩
  | 58 => ⟨S850000, .i32⟩
  | 59 => ⟨S850000, .i32⟩
  | 60 => ⟨S850000x1, .i32⟩
  | 61 => ⟨S850000x64, .bf16⟩
  | 62 => ⟨S850000x64, .f32⟩
  | 63 => ⟨S_, .f32⟩
  | 64 => ⟨S50000x64, .f32⟩
  | 65 => ⟨S850000x1, .i32⟩
  | 66 => ⟨S50000x64, .f32⟩
  | 67 => ⟨S1x64, .f32⟩
  | 68 => ⟨S50000x64, .bf16⟩
  | 69 => ⟨S_, .i32⟩
  | 70 => ⟨S850000, .i32⟩
  | 71 => ⟨S850000, .i1⟩
  | 72 => ⟨S_, .i32⟩
  | 73 => ⟨S850000, .i32⟩
  | 74 => ⟨S850000, .i32⟩
  | 75 => ⟨S850000, .i32⟩
  | 76 => ⟨S850000x1, .i32⟩
  | 77 => ⟨S850000x64, .bf16⟩
  | 78 => ⟨S850000x64, .f32⟩
  | 79 => ⟨S_, .f32⟩
  | 80 => ⟨S50000x64, .f32⟩
  | 81 => ⟨S850000x1, .i32⟩
  | 82 => ⟨S50000x64, .f32⟩
  | 83 => ⟨S1x64, .f32⟩
  | 84 => ⟨S50000x64, .f32⟩
  | 85 => ⟨S_, .f32⟩
  | 86 => ⟨S256x64, .f32⟩
  | 87 => ⟨S50000x1, .i32⟩
  | 88 => ⟨S256x64, .f32⟩
  | 89 => ⟨S256x64, .f32⟩
  | 90 => ⟨S64x1, .f32⟩
  | 91 => ⟨S64x1, .f32⟩
  | 92 => ⟨S50000x1, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S128x64, .f32⟩
  | .local _ .vmem, ⟨5, _⟩ => ⟨S5000x64, .bf16⟩
  | .local _ .vmem, ⟨6, _⟩ => ⟨S5000x64, .bf16⟩
  | .local _ .vmem, ⟨7, _⟩ => ⟨S5000x64, .f32⟩
  | .local _ .vmem, ⟨8, _⟩ => ⟨S5000x64, .f32⟩
  | .local _ .vmem, ⟨9, _⟩ => ⟨S5000x1, .f32⟩
  | .local _ .vmem, ⟨10, _⟩ => ⟨S5000x1, .f32⟩
  | .local _ .vmem, ⟨11, _⟩ => ⟨S1x64, .f32⟩
  | .local _ .vmem, ⟨12, _⟩ => ⟨S64x64, .f32⟩
  | .local _ .vmem, ⟨13, _⟩ => ⟨S5000x64, .bf16⟩
  | .local _ .vmem, ⟨14, _⟩ => ⟨S5000x64, .bf16⟩
  | .local _ .vmem, ⟨15, _⟩ => ⟨S5000x64, .f32⟩
  | .local _ .vmem, ⟨16, _⟩ => ⟨S5000x64, .f32⟩
  | .local _ .vmem, ⟨17, _⟩ => ⟨S5000x1, .f32⟩
  | .local _ .vmem, ⟨18, _⟩ => ⟨S5000x1, .f32⟩
  | .local _ .vmem, ⟨19, _⟩ => ⟨S1x64, .f32⟩
  | .local _ .vmem, ⟨20, _⟩ => ⟨S64x64, .f32⟩
  | .local _ .vmem, ⟨21, _⟩ => ⟨S5000x64, .bf16⟩
  | .local _ .vmem, ⟨22, _⟩ => ⟨S5000x64, .bf16⟩
  | .local _ .vmem, ⟨23, _⟩ => ⟨S5000x64, .f32⟩
  | .local _ .vmem, ⟨24, _⟩ => ⟨S5000x64, .f32⟩
  | .local _ .vmem, ⟨25, _⟩ => ⟨S5000x1, .f32⟩
  | .local _ .vmem, ⟨26, _⟩ => ⟨S5000x1, .f32⟩
  | .local _ .vmem, ⟨27, _⟩ => ⟨S1x64, .f32⟩
  | .local _ .vmem, ⟨28, _⟩ => ⟨S64x64, .f32⟩
  | .local _ .vmem, ⟨29, _⟩ => ⟨S5000x64, .bf16⟩
  | .local _ .vmem, ⟨30, _⟩ => ⟨S5000x64, .bf16⟩
  | .local _ .vmem, ⟨31, _⟩ => ⟨S5000x64, .f32⟩
  | .local _ .vmem, ⟨32, _⟩ => ⟨S5000x64, .f32⟩
  | .local _ .vmem, ⟨33, _⟩ => ⟨S5000x1, .f32⟩
  | .local _ .vmem, ⟨34, _⟩ => ⟨S5000x1, .f32⟩
  | .local _ .vmem, ⟨35, _⟩ => ⟨S1x64, .f32⟩
  | .local _ .vmem, ⟨36, _⟩ => ⟨S64x64, .f32⟩
  | .local _ .vmem, ⟨37, _⟩ => ⟨S5000x64, .bf16⟩
  | .local _ .vmem, ⟨38, _⟩ => ⟨S5000x64, .bf16⟩
  | .local _ .vmem, ⟨39, _⟩ => ⟨S5000x64, .f32⟩
  | .local _ .vmem, ⟨40, _⟩ => ⟨S5000x64, .f32⟩
  | .local _ .vmem, ⟨41, _⟩ => ⟨S5000x1, .f32⟩
  | .local _ .vmem, ⟨42, _⟩ => ⟨S5000x1, .f32⟩
  | .local _ .vmem, ⟨43, _⟩ => ⟨S1x64, .f32⟩
  | .local _ .vmem, ⟨44, _⟩ => ⟨S64x64, .f32⟩
  | .local _ .vmem, ⟨45, _⟩ => ⟨S5000x64, .bf16⟩
  | .local _ .vmem, ⟨46, _⟩ => ⟨S5000x64, .bf16⟩
  | .local _ .vmem, ⟨47, _⟩ => ⟨S5000x64, .f32⟩
  | .local _ .vmem, ⟨48, _⟩ => ⟨S5000x64, .f32⟩
  | .local _ .vmem, ⟨49, _⟩ => ⟨S5000x1, .f32⟩
  | .local _ .vmem, ⟨50, _⟩ => ⟨S5000x1, .f32⟩
  | .local _ .vmem, ⟨51, _⟩ => ⟨S1x64, .f32⟩
  | .local _ .vmem, ⟨52, _⟩ => ⟨S64x64, .f32⟩
  | .local _ .vmem, ⟨53, _⟩ => ⟨S5000x64, .bf16⟩
  | .local _ .vmem, ⟨54, _⟩ => ⟨S5000x64, .bf16⟩
  | .local _ .vmem, ⟨55, _⟩ => ⟨S5000x64, .f32⟩
  | .local _ .vmem, ⟨56, _⟩ => ⟨S5000x64, .f32⟩
  | .local _ .vmem, ⟨57, _⟩ => ⟨S5000x1, .f32⟩
  | .local _ .vmem, ⟨58, _⟩ => ⟨S5000x1, .f32⟩
  | .local _ .vmem, ⟨59, _⟩ => ⟨S1x64, .f32⟩
  | .local _ .vmem, ⟨60, _⟩ => ⟨S64x64, .f32⟩
  | .local _ .vmem, ⟨61, _⟩ => ⟨S5000x64, .bf16⟩
  | .local _ .vmem, ⟨62, _⟩ => ⟨S5000x64, .bf16⟩
  | .local _ .vmem, ⟨63, _⟩ => ⟨S5000x64, .f32⟩
  | .local _ .vmem, ⟨64, _⟩ => ⟨S5000x64, .f32⟩
  | .local _ .vmem, ⟨65, _⟩ => ⟨S5000x1, .f32⟩
  | .local _ .vmem, ⟨66, _⟩ => ⟨S5000x1, .f32⟩
  | .local _ .vmem, ⟨67, _⟩ => ⟨S1x64, .f32⟩
  | .local _ .vmem, ⟨68, _⟩ => ⟨S64x64, .f32⟩
  | .local _ .vmem, ⟨69, _⟩ => ⟨S5000x64, .bf16⟩
  | .local _ .vmem, ⟨70, _⟩ => ⟨S5000x64, .bf16⟩
  | .local _ .vmem, ⟨71, _⟩ => ⟨S5000x64, .f32⟩
  | .local _ .vmem, ⟨72, _⟩ => ⟨S5000x64, .f32⟩
  | .local _ .vmem, ⟨73, _⟩ => ⟨S5000x1, .f32⟩
  | .local _ .vmem, ⟨74, _⟩ => ⟨S5000x1, .f32⟩
  | .local _ .vmem, ⟨75, _⟩ => ⟨S1x64, .f32⟩
  | .local _ .vmem, ⟨76, _⟩ => ⟨S64x64, .f32⟩
  | .local _ .vmem, ⟨77, _⟩ => ⟨S5000x64, .f32⟩
  | .local _ .vmem, ⟨78, _⟩ => ⟨S5000x64, .f32⟩
  | .local _ .vmem, ⟨79, _⟩ => ⟨S2000x64, .f32⟩
  | .local _ .vmem, ⟨80, _⟩ => ⟨S2000x64, .f32⟩
  | .local _ .vmem, ⟨81, _⟩ => ⟨S2000x1, .i32⟩
  | .local _ .vmem, ⟨82, _⟩ => ⟨S2000x1, .i32⟩
  | .local _ .vmem, ⟨83, _⟩ => ⟨S256x64, .f32⟩
  | .local _ .vmem, ⟨84, _⟩ => ⟨S64x1, .f32⟩
  | .local _ .vmem, ⟨85, _⟩ => ⟨S64x1, .f32⟩
  | .local _ .vmem, ⟨86, _⟩ => ⟨S2000x1, .f32⟩
  | .local _ .vmem, ⟨87, _⟩ => ⟨S2000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | _, _ => false

abbrev semScoped : Fin 0 → Bool
  | ⟨_, h⟩ => absurd h (Nat.not_lt_zero _)

abbrev dmaSemScoped : Fin 88 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | _ => false

abbrev sig : RefSig :=
  ofTc nBuf bufTy 0 88 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_c : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_5 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_c_6 : Ref sig .tc := ⟨.hbm, 85, rfl⟩
abbrev main_v65 : Ref sig .tc := ⟨.hbm, 86, rfl⟩
abbrev main_v66 : Ref sig .tc := ⟨.hbm, 87, rfl⟩
abbrev main_c_7 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_cst_8 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_c_9 : Ref sig .tc := ⟨.hbm, 101, rfl⟩
abbrev main_v78 : Ref sig .tc := ⟨.hbm, 102, rfl⟩
abbrev main_v79 : Ref sig .tc := ⟨.hbm, 103, rfl⟩
abbrev main_c_10 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_cst_11 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_c_12 : Ref sig .tc := ⟨.hbm, 117, rfl⟩
abbrev main_v91 : Ref sig .tc := ⟨.hbm, 118, rfl⟩
abbrev main_v92 : Ref sig .tc := ⟨.hbm, 119, rfl⟩
abbrev main_c_13 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_cst_14 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_c_15 : Ref sig .tc := ⟨.hbm, 133, rfl⟩
abbrev main_v104 : Ref sig .tc := ⟨.hbm, 134, rfl⟩
abbrev main_v105 : Ref sig .tc := ⟨.hbm, 135, rfl⟩
abbrev main_c_16 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_cst_17 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_c_18 : Ref sig .tc := ⟨.hbm, 149, rfl⟩
abbrev main_v117 : Ref sig .tc := ⟨.hbm, 150, rfl⟩
abbrev main_v118 : Ref sig .tc := ⟨.hbm, 151, rfl⟩
abbrev main_c_19 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_cst_20 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_c_21 : Ref sig .tc := ⟨.hbm, 165, rfl⟩
abbrev main_v130 : Ref sig .tc := ⟨.hbm, 166, rfl⟩
abbrev main_v131 : Ref sig .tc := ⟨.hbm, 167, rfl⟩
abbrev main_c_22 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_cst_23 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_c_24 : Ref sig .tc := ⟨.hbm, 181, rfl⟩
abbrev main_v143 : Ref sig .tc := ⟨.hbm, 182, rfl⟩
abbrev main_v144 : Ref sig .tc := ⟨.hbm, 183, rfl⟩
abbrev main_c_25 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev main_cst_26 : Ref sig .tc := ⟨.hbm, 191, rfl⟩
abbrev main_v151 : Ref sig .tc := ⟨.hbm, 192, rfl⟩
abbrev main_v152 : Ref sig .tc := ⟨.hbm, 193, rfl⟩
abbrev main_v153 : Ref sig .tc := ⟨.hbm, 194, rfl⟩
abbrev main_v154 : Ref sig .tc := ⟨.hbm, 195, rfl⟩
abbrev main_v155 : Ref sig .tc := ⟨.hbm, 196, rfl⟩
abbrev main_c_27 : Ref sig .tc := ⟨.hbm, 197, rfl⟩
abbrev main_v156 : Ref sig .tc := ⟨.hbm, 198, rfl⟩
abbrev main_v157 : Ref sig .tc := ⟨.hbm, 199, rfl⟩
abbrev main_c_28 : Ref sig .tc := ⟨.hbm, 200, rfl⟩
abbrev main_v158 : Ref sig .tc := ⟨.hbm, 201, rfl⟩
abbrev main_v159 : Ref sig .tc := ⟨.hbm, 202, rfl⟩
abbrev main_v160 : Ref sig .tc := ⟨.hbm, 203, rfl⟩
abbrev main_v161 : Ref sig .tc := ⟨.hbm, 204, rfl⟩
abbrev main_v162 : Ref sig .tc := ⟨.hbm, 205, rfl⟩
abbrev main_v163 : Ref sig .tc := ⟨.hbm, 206, rfl⟩
abbrev main_cst_29 : Ref sig .tc := ⟨.hbm, 207, rfl⟩
abbrev main_v164 : Ref sig .tc := ⟨.hbm, 208, rfl⟩
abbrev main_v165 : Ref sig .tc := ⟨.hbm, 209, rfl⟩
abbrev main_v166 : Ref sig .tc := ⟨.hbm, 210, rfl⟩
abbrev main_v167 : Ref sig .tc := ⟨.hbm, 211, rfl⟩
abbrev main_v168 : Ref sig .tc := ⟨.hbm, 212, rfl⟩
abbrev main_cst_30 : Ref sig .tc := ⟨.hbm, 213, rfl⟩
abbrev main_v169 : Ref sig .tc := ⟨.hbm, 214, rfl⟩
abbrev main_v170 : Ref sig .tc := ⟨.hbm, 215, rfl⟩
abbrev main_v171 : Ref sig .tc := ⟨.hbm, 216, rfl⟩
abbrev main_v172 : Ref sig .tc := ⟨.hbm, 217, rfl⟩
abbrev main_v173 : Ref sig .tc := ⟨.hbm, 218, rfl⟩
abbrev main_v174 : Ref sig .tc := ⟨.hbm, 219, rfl⟩
abbrev main_v175 : Ref sig .tc := ⟨.hbm, 220, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg4_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg4_1 : Ref sig .tc := ⟨.vmem, 30, rfl⟩
abbrev cc4_stg0_0 : Ref sig .tc := ⟨.vmem, 31, rfl⟩
abbrev cc4_stg0_1 : Ref sig .tc := ⟨.vmem, 32, rfl⟩
abbrev cc4_stg1_0 : Ref sig .tc := ⟨.vmem, 33, rfl⟩
abbrev cc4_stg1_1 : Ref sig .tc := ⟨.vmem, 34, rfl⟩
abbrev cc4_stg2_0 : Ref sig .tc := ⟨.vmem, 35, rfl⟩
abbrev cc4_stg3_0 : Ref sig .tc := ⟨.vmem, 36, rfl⟩
abbrev cc4_stg4_0 : Ref sig .tc := ⟨.vmem, 37, rfl⟩
abbrev cc4_stg4_1 : Ref sig .tc := ⟨.vmem, 38, rfl⟩
abbrev cc5_stg0_0 : Ref sig .tc := ⟨.vmem, 39, rfl⟩
abbrev cc5_stg0_1 : Ref sig .tc := ⟨.vmem, 40, rfl⟩
abbrev cc5_stg1_0 : Ref sig .tc := ⟨.vmem, 41, rfl⟩
abbrev cc5_stg1_1 : Ref sig .tc := ⟨.vmem, 42, rfl⟩
abbrev cc5_stg2_0 : Ref sig .tc := ⟨.vmem, 43, rfl⟩
abbrev cc5_stg3_0 : Ref sig .tc := ⟨.vmem, 44, rfl⟩
abbrev cc5_stg4_0 : Ref sig .tc := ⟨.vmem, 45, rfl⟩
abbrev cc5_stg4_1 : Ref sig .tc := ⟨.vmem, 46, rfl⟩
abbrev cc6_stg0_0 : Ref sig .tc := ⟨.vmem, 47, rfl⟩
abbrev cc6_stg0_1 : Ref sig .tc := ⟨.vmem, 48, rfl⟩
abbrev cc6_stg1_0 : Ref sig .tc := ⟨.vmem, 49, rfl⟩
abbrev cc6_stg1_1 : Ref sig .tc := ⟨.vmem, 50, rfl⟩
abbrev cc6_stg2_0 : Ref sig .tc := ⟨.vmem, 51, rfl⟩
abbrev cc6_stg3_0 : Ref sig .tc := ⟨.vmem, 52, rfl⟩
abbrev cc6_stg4_0 : Ref sig .tc := ⟨.vmem, 53, rfl⟩
abbrev cc6_stg4_1 : Ref sig .tc := ⟨.vmem, 54, rfl⟩
abbrev cc7_stg0_0 : Ref sig .tc := ⟨.vmem, 55, rfl⟩
abbrev cc7_stg0_1 : Ref sig .tc := ⟨.vmem, 56, rfl⟩
abbrev cc7_stg1_0 : Ref sig .tc := ⟨.vmem, 57, rfl⟩
abbrev cc7_stg1_1 : Ref sig .tc := ⟨.vmem, 58, rfl⟩
abbrev cc7_stg2_0 : Ref sig .tc := ⟨.vmem, 59, rfl⟩
abbrev cc7_stg3_0 : Ref sig .tc := ⟨.vmem, 60, rfl⟩
abbrev cc7_stg4_0 : Ref sig .tc := ⟨.vmem, 61, rfl⟩
abbrev cc7_stg4_1 : Ref sig .tc := ⟨.vmem, 62, rfl⟩
abbrev cc8_stg0_0 : Ref sig .tc := ⟨.vmem, 63, rfl⟩
abbrev cc8_stg0_1 : Ref sig .tc := ⟨.vmem, 64, rfl⟩
abbrev cc8_stg1_0 : Ref sig .tc := ⟨.vmem, 65, rfl⟩
abbrev cc8_stg1_1 : Ref sig .tc := ⟨.vmem, 66, rfl⟩
abbrev cc8_stg2_0 : Ref sig .tc := ⟨.vmem, 67, rfl⟩
abbrev cc8_stg3_0 : Ref sig .tc := ⟨.vmem, 68, rfl⟩
abbrev cc8_stg4_0 : Ref sig .tc := ⟨.vmem, 69, rfl⟩
abbrev cc8_stg4_1 : Ref sig .tc := ⟨.vmem, 70, rfl⟩
abbrev cc9_stg0_0 : Ref sig .tc := ⟨.vmem, 71, rfl⟩
abbrev cc9_stg0_1 : Ref sig .tc := ⟨.vmem, 72, rfl⟩
abbrev cc9_stg1_0 : Ref sig .tc := ⟨.vmem, 73, rfl⟩
abbrev cc9_stg1_1 : Ref sig .tc := ⟨.vmem, 74, rfl⟩
abbrev cc9_stg2_0 : Ref sig .tc := ⟨.vmem, 75, rfl⟩
abbrev cc9_stg3_0 : Ref sig .tc := ⟨.vmem, 76, rfl⟩
abbrev cc9_stg4_0 : Ref sig .tc := ⟨.vmem, 77, rfl⟩
abbrev cc9_stg4_1 : Ref sig .tc := ⟨.vmem, 78, rfl⟩
abbrev cc10_stg0_0 : Ref sig .tc := ⟨.vmem, 79, rfl⟩
abbrev cc10_stg0_1 : Ref sig .tc := ⟨.vmem, 80, rfl⟩
abbrev cc10_stg1_0 : Ref sig .tc := ⟨.vmem, 81, rfl⟩
abbrev cc10_stg1_1 : Ref sig .tc := ⟨.vmem, 82, rfl⟩
abbrev cc10_stg2_0 : Ref sig .tc := ⟨.vmem, 83, rfl⟩
abbrev cc10_stg3_0 : Ref sig .tc := ⟨.vmem, 84, rfl⟩
abbrev cc10_stg4_0 : Ref sig .tc := ⟨.vmem, 85, rfl⟩
abbrev cc10_stg5_0 : Ref sig .tc := ⟨.vmem, 86, rfl⟩
abbrev cc10_stg5_1 : Ref sig .tc := ⟨.vmem, 87, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem4_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem3_0 : DmaSem sig := 28
abbrev cc3_sem4_0 : DmaSem sig := 29
abbrev cc3_sem4_1 : DmaSem sig := 30
abbrev cc4_sem0_0 : DmaSem sig := 31
abbrev cc4_sem0_1 : DmaSem sig := 32
abbrev cc4_sem1_0 : DmaSem sig := 33
abbrev cc4_sem1_1 : DmaSem sig := 34
abbrev cc4_sem2_0 : DmaSem sig := 35
abbrev cc4_sem3_0 : DmaSem sig := 36
abbrev cc4_sem4_0 : DmaSem sig := 37
abbrev cc4_sem4_1 : DmaSem sig := 38
abbrev cc5_sem0_0 : DmaSem sig := 39
abbrev cc5_sem0_1 : DmaSem sig := 40
abbrev cc5_sem1_0 : DmaSem sig := 41
abbrev cc5_sem1_1 : DmaSem sig := 42
abbrev cc5_sem2_0 : DmaSem sig := 43
abbrev cc5_sem3_0 : DmaSem sig := 44
abbrev cc5_sem4_0 : DmaSem sig := 45
abbrev cc5_sem4_1 : DmaSem sig := 46
abbrev cc6_sem0_0 : DmaSem sig := 47
abbrev cc6_sem0_1 : DmaSem sig := 48
abbrev cc6_sem1_0 : DmaSem sig := 49
abbrev cc6_sem1_1 : DmaSem sig := 50
abbrev cc6_sem2_0 : DmaSem sig := 51
abbrev cc6_sem3_0 : DmaSem sig := 52
abbrev cc6_sem4_0 : DmaSem sig := 53
abbrev cc6_sem4_1 : DmaSem sig := 54
abbrev cc7_sem0_0 : DmaSem sig := 55
abbrev cc7_sem0_1 : DmaSem sig := 56
abbrev cc7_sem1_0 : DmaSem sig := 57
abbrev cc7_sem1_1 : DmaSem sig := 58
abbrev cc7_sem2_0 : DmaSem sig := 59
abbrev cc7_sem3_0 : DmaSem sig := 60
abbrev cc7_sem4_0 : DmaSem sig := 61
abbrev cc7_sem4_1 : DmaSem sig := 62
abbrev cc8_sem0_0 : DmaSem sig := 63
abbrev cc8_sem0_1 : DmaSem sig := 64
abbrev cc8_sem1_0 : DmaSem sig := 65
abbrev cc8_sem1_1 : DmaSem sig := 66
abbrev cc8_sem2_0 : DmaSem sig := 67
abbrev cc8_sem3_0 : DmaSem sig := 68
abbrev cc8_sem4_0 : DmaSem sig := 69
abbrev cc8_sem4_1 : DmaSem sig := 70
abbrev cc9_sem0_0 : DmaSem sig := 71
abbrev cc9_sem0_1 : DmaSem sig := 72
abbrev cc9_sem1_0 : DmaSem sig := 73
abbrev cc9_sem1_1 : DmaSem sig := 74
abbrev cc9_sem2_0 : DmaSem sig := 75
abbrev cc9_sem3_0 : DmaSem sig := 76
abbrev cc9_sem4_0 : DmaSem sig := 77
abbrev cc9_sem4_1 : DmaSem sig := 78
abbrev cc10_sem0_0 : DmaSem sig := 79
abbrev cc10_sem0_1 : DmaSem sig := 80
abbrev cc10_sem1_0 : DmaSem sig := 81
abbrev cc10_sem1_1 : DmaSem sig := 82
abbrev cc10_sem2_0 : DmaSem sig := 83
abbrev cc10_sem3_0 : DmaSem sig := 84
abbrev cc10_sem4_0 : DmaSem sig := 85
abbrev cc10_sem5_0 : DmaSem sig := 86
abbrev cc10_sem5_1 : DmaSem sig := 87

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x64 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x64 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S5000x64 .bf16 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S64x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x64 .bf16 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x1 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S64x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S5000x64 .bf16 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x1 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S1x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S64x64 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 2 → Memref sig .tc .vmem S5000x64 .bf16 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S5000x1 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S1x64 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S64x64 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 2 → Memref sig .tc .vmem S5000x64 .bf16 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S5000x1 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S1x64 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S64x64 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 2 → Memref sig .tc .vmem S5000x64 .f32 := fun | 0 => Memref.whole cc9_stg4_0 | 1 => Memref.whole cc9_stg4_1 | ⟨_ + 2, h⟩ => absurd h (Nat.not_lt.2 (Nat.le_add_left _ _))
abbrev sem9_4 : Fin 2 → DmaSem sig := fun | 0 => cc9_sem4_0 | 1 => cc9_sem4_1 | ⟨_ + 2, h⟩ => absurd h (Nat.not_lt.2 (Nat.le_add_left _ _))
abbrev reads9_4 : Fin grid9.rank → Bool := ![true]

abbrev grid10 : Pipeline.Grid := ⟨1, ![25], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S2000x64 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S2000x1 .i32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 1 → Memref sig .tc .vmem S256x64 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S64x1 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S64x1 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 2 → Memref sig .tc .vmem S2000x1 .f32 := fun | 0 => Memref.whole cc10_stg5_0 | 1 => Memref.whole cc10_stg5_1 | ⟨_ + 2, h⟩ => absurd h (Nat.not_lt.2 (Nat.le_add_left _ _))
abbrev sem10_5 : Fin 2 → DmaSem sig := fun | 0 => cc10_sem5_0 | 1 => cc10_sem5_1 | ⟨_ + 2, h⟩ => absurd h (Nat.not_lt.2 (Nat.le_add_left _ _))
abbrev reads10_5 : Fin grid10.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  shapeCasts_S50000_S50000x1 : S50000.ShapeCasts S50000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  packedbf16_S5000x64_S5000x64_0_0 : (Rect.unit (s := S5000x64) ![0, 0] S5000x64.size inb_S5000x64_S5000x64_0_0).PackedRows (EltTy.packing .bf16)
  bcast_S_S50000x64 : S_.BroadcastsInDim S50000x64 (![] : Fin 0 → Fin S50000x64.rank)
  slices_S8x64_S1x64_0_0 : S8x64.Slices ![0, 0] S1x64
  shapeCasts_S1x64_S64 : S1x64.ShapeCasts S64
  slices_S8x64_S1x64_1_0 : S8x64.Slices ![1, 0] S1x64
  slices_S8x64_S1x64_2_0 : S8x64.Slices ![2, 0] S1x64
  slices_S8x64_S1x64_3_0 : S8x64.Slices ![3, 0] S1x64
  slices_S8x64_S1x64_4_0 : S8x64.Slices ![4, 0] S1x64
  slices_S8x64_S1x64_5_0 : S8x64.Slices ![5, 0] S1x64
  slices_S8x64_S1x64_6_0 : S8x64.Slices ![6, 0] S1x64
  slices_S8x64_S1x64_7_0 : S8x64.Slices ![7, 0] S1x64
  slices_S8x64x64_S1x64x64_0_0_0 : S8x64x64.Slices ![0, 0, 0] S1x64x64
  shapeCasts_S1x64x64_S64x64 : S1x64x64.ShapeCasts S64x64
  slices_S8x64x64_S1x64x64_1_0_0 : S8x64x64.Slices ![1, 0, 0] S1x64x64
  slices_S8x64x64_S1x64x64_2_0_0 : S8x64x64.Slices ![2, 0, 0] S1x64x64
  slices_S8x64x64_S1x64x64_3_0_0 : S8x64x64.Slices ![3, 0, 0] S1x64x64
  slices_S8x64x64_S1x64x64_4_0_0 : S8x64x64.Slices ![4, 0, 0] S1x64x64
  slices_S8x64x64_S1x64x64_5_0_0 : S8x64x64.Slices ![5, 0, 0] S1x64x64
  slices_S8x64x64_S1x64x64_6_0_0 : S8x64x64.Slices ![6, 0, 0] S1x64x64
  slices_S8x64x64_S1x64x64_7_0_0 : S8x64x64.Slices ![7, 0, 0] S1x64x64
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  bcast_S_S256x64 : S_.BroadcastsInDim S256x64 (![] : Fin 0 → Fin S256x64.rank)
  bcast_S50000_S50000x1_0 : S50000.BroadcastsInDim S50000x1 (![0] : Fin 1 → Fin S50000x1.rank)
  slices_S128x1_S64x1_0_0 : S128x1.Slices ![0, 0] S64x1
  slices_S128x1_S64x1_64_0 : S128x1.Slices ![64, 0] S64x1
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  iota_S2000x256_d1_w32 : S2000x256.Iotas .tc 32 [1]
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x256 : S2000x1.Broadcasts S2000x256
  natLt_1_32 : 1 < 32
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S64x1_S64x1_0_0 : ∀ a, (![0, 0] : Fin 2 → Nat) a + S64x1.size a ≤ S64x1.size a
  h_S64x1 : 0 < S64x1.numel
  shapeCasts_S64x1_S64x1 : S64x1.ShapeCasts S64x1
  scatter_S50000_S850000x1_S850000_n_0_0_1_wf : ScatterDims.WF S50000 S850000x1 S850000 [] [0] [0] 1
  dot_S5000x128_S128x64_S5000x64_1_0_0_1_n_n_wf : DotDims.WF S5000x128 S128x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S5000x64_S64x64_S5000x64_1_0_0_1_n_n_wf : DotDims.WF S5000x64 S64x64 S5000x64 [1] [0] [0] [1] [] []
  scatter_S256x64_S50000x1_S50000x64_1_0_0_1_wf : ScatterDims.WF S256x64 S50000x1 S50000x64 [1] [0] [0] 1
  dot_S256x64_S64x64_S256x64_1_0_0_1_n_n_wf : DotDims.WF S256x64 S64x64 S256x64 [1] [0] [0] [1] [] []
  dot_S2000x256_S256x64_S2000x64_1_0_0_1_n_n_wf : DotDims.WF S2000x256 S256x64 S2000x64 [1] [0] [0] [1] [] []
  dot_S2000x64_S64x1_S2000x1_1_0_0_1_n_n_wf : DotDims.WF S2000x64 S64x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S50000x64.size a
  hwx0_3 : ∀ i : grid0.Coords, EltTy.bits .bf16 = 32 ∨ (Rect.block (s := S50000x64) S5000x64.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S50000x64.size a
  hwx1_4 : ∀ i : grid1.Coords, EltTy.bits .bf16 = 32 ∨ (Rect.block (s := S50000x64) S5000x64.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x64.size a ≤ S50000x64.size a
  hwx2_4 : ∀ i : grid2.Coords, EltTy.bits .bf16 = 32 ∨ (Rect.block (s := S50000x64) S5000x64.size (cc2_transform_4 i) (hinb2_4 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S50000x1.size a
  hwx3_1 : ∀ i : grid3.Coords, EltTy.bits .f32 = 32 ∨ (Rect.block (s := S50000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .f32 = 32 ∨ (Rect.block (s := S64x64) S64x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x64.size a ≤ S50000x64.size a
  hwx3_4 : ∀ i : grid3.Coords, EltTy.bits .bf16 = 32 ∨ (Rect.block (s := S50000x64) S5000x64.size (cc3_transform_4 i) (hinb3_4 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S50000x64.size a
  hwx4_0 : ∀ i : grid4.Coords, EltTy.bits .f32 = 32 ∨ (Rect.block (s := S50000x64) S5000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x1.size a ≤ S50000x1.size a
  hwx4_1 : ∀ i : grid4.Coords, EltTy.bits .f32 = 32 ∨ (Rect.block (s := S50000x1) S5000x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x64.size a ≤ S64x64.size a
  hwx4_3 : ∀ i : grid4.Coords, EltTy.bits .f32 = 32 ∨ (Rect.block (s := S64x64) S64x64.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x64.size a ≤ S50000x64.size a
  hwx4_4 : ∀ i : grid4.Coords, EltTy.bits .bf16 = 32 ∨ (Rect.block (s := S50000x64) S5000x64.size (cc4_transform_4 i) (hinb4_4 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S50000x64.size a
  hwx5_0 : ∀ i : grid5.Coords, EltTy.bits .f32 = 32 ∨ (Rect.block (s := S50000x64) S5000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x1.size a ≤ S50000x1.size a
  hwx5_1 : ∀ i : grid5.Coords, EltTy.bits .f32 = 32 ∨ (Rect.block (s := S50000x1) S5000x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S64x64.size a ≤ S64x64.size a
  hwx5_3 : ∀ i : grid5.Coords, EltTy.bits .f32 = 32 ∨ (Rect.block (s := S64x64) S64x64.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x64.size a ≤ S50000x64.size a
  hwx5_4 : ∀ i : grid5.Coords, EltTy.bits .bf16 = 32 ∨ (Rect.block (s := S50000x64) S5000x64.size (cc5_transform_4 i) (hinb5_4 i)).WholeWords (EltTy.packing .bf16)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S50000x64.size a
  hwx6_0 : ∀ i : grid6.Coords, EltTy.bits .f32 = 32 ∨ (Rect.block (s := S50000x64) S5000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x1.size a ≤ S50000x1.size a
  hwx6_1 : ∀ i : grid6.Coords, EltTy.bits .f32 = 32 ∨ (Rect.block (s := S50000x1) S5000x1.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S64x64.size a ≤ S64x64.size a
  hwx6_3 : ∀ i : grid6.Coords, EltTy.bits .f32 = 32 ∨ (Rect.block (s := S64x64) S64x64.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S5000x64.size a ≤ S50000x64.size a
  hwx6_4 : ∀ i : grid6.Coords, EltTy.bits .bf16 = 32 ∨ (Rect.block (s := S50000x64) S5000x64.size (cc6_transform_4 i) (hinb6_4 i)).WholeWords (EltTy.packing .bf16)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x64.size a ≤ S50000x64.size a
  hwx7_0 : ∀ i : grid7.Coords, EltTy.bits .f32 = 32 ∨ (Rect.block (s := S50000x64) S5000x64.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x1.size a ≤ S50000x1.size a
  hwx7_1 : ∀ i : grid7.Coords, EltTy.bits .f32 = 32 ∨ (Rect.block (s := S50000x1) S5000x1.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x64.size a ≤ S1x64.size a
  hwx7_2 : ∀ i : grid7.Coords, EltTy.bits .f32 = 32 ∨ (Rect.block (s := S1x64) S1x64.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S64x64.size a ≤ S64x64.size a
  hwx7_3 : ∀ i : grid7.Coords, EltTy.bits .f32 = 32 ∨ (Rect.block (s := S64x64) S64x64.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S5000x64.size a ≤ S50000x64.size a
  hwx7_4 : ∀ i : grid7.Coords, EltTy.bits .bf16 = 32 ∨ (Rect.block (s := S50000x64) S5000x64.size (cc7_transform_4 i) (hinb7_4 i)).WholeWords (EltTy.packing .bf16)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x64.size a ≤ S50000x64.size a
  hwx8_0 : ∀ i : grid8.Coords, EltTy.bits .f32 = 32 ∨ (Rect.block (s := S50000x64) S5000x64.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S5000x1.size a ≤ S50000x1.size a
  hwx8_1 : ∀ i : grid8.Coords, EltTy.bits .f32 = 32 ∨ (Rect.block (s := S50000x1) S5000x1.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x64.size a ≤ S1x64.size a
  hwx8_2 : ∀ i : grid8.Coords, EltTy.bits .f32 = 32 ∨ (Rect.block (s := S1x64) S1x64.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S64x64.size a ≤ S64x64.size a
  hwx8_3 : ∀ i : grid8.Coords, EltTy.bits .f32 = 32 ∨ (Rect.block (s := S64x64) S64x64.size (cc8_transform_3 i) (hinb8_3 i)).WholeWords (EltTy.packing .f32)
  hstage8_4 : ∀ j, (stage8_4 j).IsWhole
  nbuf8_4 : grid8.bufCount reads8_4 false = 2
  hreads8_4 : ∀ i i' : grid8.Coords, (∀ a, reads8_4 a = true → i a = i' a) → cc8_transform_4 i = cc8_transform_4 i'
  hinb8_4 : ∀ (i : grid8.Coords) a, (cc8_transform_4 i a + 1) * S5000x64.size a ≤ S50000x64.size a
  hwx8_4 : ∀ i : grid8.Coords, EltTy.bits .bf16 = 32 ∨ (Rect.block (s := S50000x64) S5000x64.size (cc8_transform_4 i) (hinb8_4 i)).WholeWords (EltTy.packing .bf16)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x64.size a ≤ S50000x64.size a
  hwx9_0 : ∀ i : grid9.Coords, EltTy.bits .f32 = 32 ∨ (Rect.block (s := S50000x64) S5000x64.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S5000x1.size a ≤ S50000x1.size a
  hwx9_1 : ∀ i : grid9.Coords, EltTy.bits .f32 = 32 ∨ (Rect.block (s := S50000x1) S5000x1.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x64.size a ≤ S1x64.size a
  hwx9_2 : ∀ i : grid9.Coords, EltTy.bits .f32 = 32 ∨ (Rect.block (s := S1x64) S1x64.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S64x64.size a ≤ S64x64.size a
  hwx9_3 : ∀ i : grid9.Coords, EltTy.bits .f32 = 32 ∨ (Rect.block (s := S64x64) S64x64.size (cc9_transform_3 i) (hinb9_3 i)).WholeWords (EltTy.packing .f32)
  hstage9_4 : ∀ j, (stage9_4 j).IsWhole
  nbuf9_4 : grid9.bufCount reads9_4 false = 2
  hreads9_4 : ∀ i i' : grid9.Coords, (∀ a, reads9_4 a = true → i a = i' a) → cc9_transform_4 i = cc9_transform_4 i'
  hinb9_4 : ∀ (i : grid9.Coords) a, (cc9_transform_4 i a + 1) * S5000x64.size a ≤ S50000x64.size a
  hwx9_4 : ∀ i : grid9.Coords, EltTy.bits .f32 = 32 ∨ (Rect.block (s := S50000x64) S5000x64.size (cc9_transform_4 i) (hinb9_4 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S2000x64.size a ≤ S50000x64.size a
  hwx10_0 : ∀ i : grid10.Coords, EltTy.bits .f32 = 32 ∨ (Rect.block (s := S50000x64) S2000x64.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S2000x1.size a ≤ S50000x1.size a
  hwx10_1 : ∀ i : grid10.Coords, EltTy.bits .i32 = 32 ∨ (Rect.block (s := S50000x1) S2000x1.size (cc10_transform_1 i) (hinb10_1 i)).WholeWords (EltTy.packing .i32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S256x64.size a ≤ S256x64.size a
  hwx10_2 : ∀ i : grid10.Coords, EltTy.bits .f32 = 32 ∨ (Rect.block (s := S256x64) S256x64.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S64x1.size a ≤ S64x1.size a
  hwx10_3 : ∀ i : grid10.Coords, EltTy.bits .f32 = 32 ∨ (Rect.block (s := S64x1) S64x1.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S64x1.size a ≤ S64x1.size a
  hwx10_4 : ∀ i : grid10.Coords, EltTy.bits .f32 = 32 ∨ (Rect.block (s := S64x1) S64x1.size (cc10_transform_4 i) (hinb10_4 i)).WholeWords (EltTy.packing .f32)
  hstage10_5 : ∀ j, (stage10_5 j).IsWhole
  nbuf10_5 : grid10.bufCount reads10_5 false = 2
  hreads10_5 : ∀ i i' : grid10.Coords, (∀ a, reads10_5 a = true → i a = i' a) → cc10_transform_5 i = cc10_transform_5 i'
  hinb10_5 : ∀ (i : grid10.Coords) a, (cc10_transform_5 i a + 1) * S2000x1.size a ≤ S50000x1.size a
  hwx10_5 : ∀ i : grid10.Coords, EltTy.bits .f32 = 32 ∨ (Rect.block (s := S50000x1) S2000x1.size (cc10_transform_5 i) (hinb10_5 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S256x64_S50000x1_S50000x64_1_0_0_1 : ScatterDims S256x64 S50000x1 S50000x64 where
  updateWindowDims := [1]
  insertedWindowDims := [0]
  scatterDimsToOperandDims := [0]
  indexVectorDim := 1
  wf := scatter_S256x64_S50000x1_S50000x64_1_0_0_1_wf
def dot_S256x64_S64x64_S256x64_1_0_0_1_n_n : DotDims S256x64 S64x64 S256x64 where
  lhsContracting := [1]
  rhsContracting := [0]
  lhsNonContracting := [0]
  rhsNonContracting := [1]
  lhsBatch := []
  rhsBatch := []
  wf := dot_S256x64_S64x64_S256x64_1_0_0_1_n_n_wf
def dot_S2000x256_S256x64_S2000x64_1_0_0_1_n_n : DotDims S2000x256 S256x64 S2000x64 where
  lhsContracting := [1]
  rhsContracting := [0]
  lhsNonContracting := [0]
  rhsNonContracting := [1]
  lhsBatch := []
  rhsBatch := []
  wf := dot_S2000x256_S256x64_S2000x64_1_0_0_1_n_n_wf
def dot_S2000x64_S64x1_S2000x1_1_0_0_1_n_n : DotDims S2000x64 S64x1 S2000x1 where
  lhsContracting := [1]
  rhsContracting := [0]
  lhsNonContracting := [0]
  rhsNonContracting := [1]
  lhsBatch := []
  rhsBatch := []
  wf := dot_S2000x64_S64x1_S2000x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v30) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v63) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v64) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v75) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v17) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v76) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v50) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v77) S5000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v88) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v17) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v89) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v52) S64x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v90) S5000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v101) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v17) S5000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v102) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v54) S64x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v103) S5000x64.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v114) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v17) S5000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v115) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v56) S64x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v116) S5000x64.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v127) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v17) S5000x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v128) S1x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v58) S64x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v129) S5000x64.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

abbrev win7_0 : Pipeline.Window sig grid7 :=
  Pipeline.Window.ofSpec (Memref.whole main_v140) S5000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v17) S5000x1.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v141) S1x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v60) S64x64.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v142) S5000x64.size cc7_transform_4 reads7_4 true false 2 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

abbrev win8_0 : Pipeline.Window sig grid8 :=
  Pipeline.Window.ofSpec (Memref.whole main_v153) S5000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v17) S5000x1.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v154) S1x64.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v62) S64x64.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v155) S5000x64.size cc8_transform_4 reads8_4 true false 2 stage8_4 sem8_4
    hrank8 hreads8_4 hinb8_4 nbuf8_4 (Memref.isWhole_whole _) hwx8_4 hstage8_4

abbrev win8 : Fin 5 → Pipeline.Window sig grid8 := fun | 0 => win8_0 | 1 => win8_1 | 2 => win8_2 | 3 => win8_3 | 4 => win8_4 | ⟨_ + 5, h⟩ => absurd h (Nat.not_lt.2 (Nat.le_add_left _ _))
abbrev spec8 : Fin 5 → Pipeline.WinSpec sig grid8.rank := fun w => (win8 w).toWinSpec

abbrev win9_0 : Pipeline.Window sig grid9 :=
  Pipeline.Window.ofSpec (Memref.whole main_v166) S5000x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v17) S5000x1.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v167) S1x64.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_arg7) S64x64.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v168) S5000x64.size cc9_transform_4 reads9_4 true false 2 stage9_4 sem9_4
    hrank9 hreads9_4 hinb9_4 nbuf9_4 (Memref.isWhole_whole _) hwx9_4 hstage9_4

abbrev win9 : Fin 5 → Pipeline.Window sig grid9 := fun | 0 => win9_0 | 1 => win9_1 | 2 => win9_2 | 3 => win9_3 | 4 => win9_4 | ⟨_ + 5, h⟩ => absurd h (Nat.not_lt.2 (Nat.le_add_left _ _))
abbrev spec9 : Fin 5 → Pipeline.WinSpec sig grid9.rank := fun w => (win9 w).toWinSpec

abbrev win10_0 : Pipeline.Window sig grid10 :=
  Pipeline.Window.ofSpec (Memref.whole main_v168) S2000x64.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v18) S2000x1.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v172) S256x64.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v173) S64x1.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v174) S64x1.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_v175) S2000x1.size cc10_transform_5 reads10_5 true false 2 stage10_5 sem10_5
    hrank10 hreads10_5 hinb10_5 nbuf10_5 (Memref.isWhole_whole _) hwx10_5 hstage10_5

abbrev win10 : Fin 6 → Pipeline.Window sig grid10 := fun | 0 => win10_0 | 1 => win10_1 | 2 => win10_2 | 3 => win10_3 | 4 => win10_4 | 5 => win10_5 | ⟨_ + 6, h⟩ => absurd h (Nat.not_lt.2 (Nat.le_add_left _ _))
abbrev spec10 : Fin 6 → Pipeline.WinSpec sig grid10.rank := fun w => (win10 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x64 : Shape := ⟨2, ![128, 64]⟩
abbrev S64 : Shape := ⟨1, ![64]⟩
abbrev S8x64x64 : Shape := ⟨3, ![8, 64, 64]⟩
abbrev S8x64 : Shape := ⟨2, ![8, 64]⟩
abbrev S64x64 : Shape := ⟨2, ![64, 64]⟩
abbrev S128x1 : Shape := ⟨2, ![128, 1]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x64 : Shape := ⟨2, ![50000, 64]⟩
abbrev S850000x64 : Shape := ⟨2, ![850000, 64]⟩
abbrev S1x64 : Shape := ⟨2, ![1, 64]⟩
abbrev S1x64x64 : Shape := ⟨3, ![1, 64, 64]⟩
abbrev S256x64 : Shape := ⟨2, ![256, 64]⟩
abbrev S50000x1 : Shape := ⟨2, ![50000, 1]⟩

abbrev nBuf : Space → Nat
  | .hbm => 313
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x64, .f32⟩
  | 4 => ⟨S64, .f32⟩
  | 5 => ⟨S8x64x64, .f32⟩
  | 6 => ⟨S8x64, .f32⟩
  | 7 => ⟨S64x64, .f32⟩
  | 8 => ⟨S64x64, .f32⟩
  | 9 => ⟨S128x1, .f32⟩
  | 10 => ⟨S50000, .i32⟩
  | 11 => ⟨S1x800000, .i32⟩
  | 12 => ⟨S800000, .i32⟩
  | 13 => ⟨S850000, .i32⟩
  | 14 => ⟨S1x800000, .i32⟩
  | 15 => ⟨S800000, .i32⟩
  | 16 => ⟨S850000, .i32⟩
  | 17 => ⟨S_, .f32⟩
  | 18 => ⟨S850000, .f32⟩
  | 19 => ⟨S_, .f32⟩
  | 20 => ⟨S50000, .f32⟩
  | 21 => ⟨S850000x1, .i32⟩
  | 22 => ⟨S50000, .f32⟩
  | 23 => ⟨S_, .f32⟩
  | 24 => ⟨S50000, .f32⟩
  | 25 => ⟨S50000, .i1⟩
  | 26 => ⟨S_, .f32⟩
  | 27 => ⟨S50000, .f32⟩
  | 28 => ⟨S50000, .f32⟩
  | 29 => ⟨S50000, .f32⟩
  | 30 => ⟨S_, .f32⟩
  | 31 => ⟨S_, .f32⟩
  | 32 => ⟨S50000, .f32⟩
  | 33 => ⟨S50000, .f32⟩
  | 34 => ⟨S_, .i32⟩
  | 35 => ⟨S850000, .i32⟩
  | 36 => ⟨S850000, .i1⟩
  | 37 => ⟨S_, .i32⟩
  | 38 => ⟨S850000, .i32⟩
  | 39 => ⟨S850000, .i32⟩
  | 40 => ⟨S850000, .i32⟩
  | 41 => ⟨S850000x1, .i32⟩
  | 42 => ⟨S850000, .f32⟩
  | 43 => ⟨S_, .i32⟩
  | 44 => ⟨S850000, .i32⟩
  | 45 => ⟨S850000, .i1⟩
  | 46 => ⟨S_, .i32⟩
  | 47 => ⟨S850000, .i32⟩
  | 48 => ⟨S850000, .i32⟩
  | 49 => ⟨S850000, .i32⟩
  | 50 => ⟨S850000x1, .i32⟩
  | 51 => ⟨S850000, .f32⟩
  | 52 => ⟨S850000, .f32⟩
  | 53 => ⟨S50000x64, .f32⟩
  | 54 => ⟨S_, .i32⟩
  | 55 => ⟨S850000, .i32⟩
  | 56 => ⟨S850000, .i1⟩
  | 57 => ⟨S_, .i32⟩
  | 58 => ⟨S850000, .i32⟩
  | 59 => ⟨S850000, .i32⟩
  | 60 => ⟨S850000, .i32⟩
  | 61 => ⟨S850000x1, .i32⟩
  | 62 => ⟨S850000x64, .f32⟩
  | 63 => ⟨S850000x1, .f32⟩
  | 64 => ⟨S850000x64, .f32⟩
  | 65 => ⟨S850000x64, .f32⟩
  | 66 => ⟨S_, .f32⟩
  | 67 => ⟨S50000x64, .f32⟩
  | 68 => ⟨S850000x1, .i32⟩
  | 69 => ⟨S50000x64, .f32⟩
  | 70 => ⟨S1x64, .f32⟩
  | 71 => ⟨S50000x64, .f32⟩
  | 72 => ⟨S50000x64, .f32⟩
  | 73 => ⟨S_, .f32⟩
  | 74 => ⟨S50000x64, .f32⟩
  | 75 => ⟨S50000x64, .f32⟩
  | 76 => ⟨S1x64x64, .f32⟩
  | 77 => ⟨S64x64, .f32⟩
  | 78 => ⟨S1x64, .f32⟩
  | 79 => ⟨S64, .f32⟩
  | 80 => ⟨S50000x64, .f32⟩
  | 81 => ⟨S_, .i32⟩
  | 82 => ⟨S850000, .i32⟩
  | 83 => ⟨S850000, .i1⟩
  | 84 => ⟨S_, .i32⟩
  | 85 => ⟨S850000, .i32⟩
  | 86 => ⟨S850000, .i32⟩
  | 87 => ⟨S850000, .i32⟩
  | 88 => ⟨S850000x1, .i32⟩
  | 89 => ⟨S850000x64, .f32⟩
  | 90 => ⟨S850000x1, .f32⟩
  | 91 => ⟨S850000x64, .f32⟩
  | 92 => ⟨S850000x64, .f32⟩
  | 93 => ⟨S_, .f32⟩
  | 94 => ⟨S50000x64, .f32⟩
  | 95 => ⟨S850000x1, .i32⟩
  | 96 => ⟨S50000x64, .f32⟩
  | 97 => ⟨S1x64, .f32⟩
  | 98 => ⟨S50000x64, .f32⟩
  | 99 => ⟨S50000x64, .f32⟩
  | 100 => ⟨S_, .f32⟩
  | 101 => ⟨S50000x64, .f32⟩
  | 102 => ⟨S50000x64, .f32⟩
  | 103 => ⟨S1x64x64, .f32⟩
  | 104 => ⟨S64x64, .f32⟩
  | 105 => ⟨S1x64, .f32⟩
  | 106 => ⟨S64, .f32⟩
  | 107 => ⟨S50000x64, .f32⟩
  | 108 => ⟨S_, .i32⟩
  | 109 => ⟨S850000, .i32⟩
  | 110 => ⟨S850000, .i1⟩
  | 111 => ⟨S_, .i32⟩
  | 112 => ⟨S850000, .i32⟩
  | 113 => ⟨S850000, .i32⟩
  | 114 => ⟨S850000, .i32⟩
  | 115 => ⟨S850000x1, .i32⟩
  | 116 => ⟨S850000x64, .f32⟩
  | 117 => ⟨S850000x1, .f32⟩
  | 118 => ⟨S850000x64, .f32⟩
  | 119 => ⟨S850000x64, .f32⟩
  | 120 => ⟨S_, .f32⟩
  | 121 => ⟨S50000x64, .f32⟩
  | 122 => ⟨S850000x1, .i32⟩
  | 123 => ⟨S50000x64, .f32⟩
  | 124 => ⟨S1x64, .f32⟩
  | 125 => ⟨S50000x64, .f32⟩
  | 126 => ⟨S50000x64, .f32⟩
  | 127 => ⟨S_, .f32⟩
  | _ => ⟨S50000x128, .f32⟩

abbrev hbmTy0_1 (i : Nat) : BufTy := match i % 128 with
  | 0 => ⟨S50000x64, .f32⟩
  | 1 => ⟨S50000x64, .f32⟩
  | 2 => ⟨S1x64x64, .f32⟩
  | 3 => ⟨S64x64, .f32⟩
  | 4 => ⟨S1x64, .f32⟩
  | 5 => ⟨S64, .f32⟩
  | 6 => ⟨S50000x64, .f32⟩
  | 7 => ⟨S_, .i32⟩
  | 8 => ⟨S850000, .i32⟩
  | 9 => ⟨S850000, .i1⟩
  | 10 => ⟨S_, .i32⟩
  | 11 => ⟨S850000, .i32⟩
  | 12 => ⟨S850000, .i32⟩
  | 13 => ⟨S850000, .i32⟩
  | 14 => ⟨S850000x1, .i32⟩
  | 15 => ⟨S850000x64, .f32⟩
  | 16 => ⟨S850000x1, .f32⟩
  | 17 => ⟨S850000x64, .f32⟩
  | 18 => ⟨S850000x64, .f32⟩
  | 19 => ⟨S_, .f32⟩
  | 20 => ⟨S50000x64, .f32⟩
  | 21 => ⟨S850000x1, .i32⟩
  | 22 => ⟨S50000x64, .f32⟩
  | 23 => ⟨S1x64, .f32⟩
  | 24 => ⟨S50000x64, .f32⟩
  | 25 => ⟨S50000x64, .f32⟩
  | 26 => ⟨S_, .f32⟩
  | 27 => ⟨S50000x64, .f32⟩
  | 28 => ⟨S50000x64, .f32⟩
  | 29 => ⟨S1x64x64, .f32⟩
  | 30 => ⟨S64x64, .f32⟩
  | 31 => ⟨S1x64, .f32⟩
  | 32 => ⟨S64, .f32⟩
  | 33 => ⟨S50000x64, .f32⟩
  | 34 => ⟨S_, .i32⟩
  | 35 => ⟨S850000, .i32⟩
  | 36 => ⟨S850000, .i1⟩
  | 37 => ⟨S_, .i32⟩
  | 38 => ⟨S850000, .i32⟩
  | 39 => ⟨S850000, .i32⟩
  | 40 => ⟨S850000, .i32⟩
  | 41 => ⟨S850000x1, .i32⟩
  | 42 => ⟨S850000x64, .f32⟩
  | 43 => ⟨S850000x1, .f32⟩
  | 44 => ⟨S850000x64, .f32⟩
  | 45 => ⟨S850000x64, .f32⟩
  | 46 => ⟨S_, .f32⟩
  | 47 => ⟨S50000x64, .f32⟩
  | 48 => ⟨S850000x1, .i32⟩
  | 49 => ⟨S50000x64, .f32⟩
  | 50 => ⟨S1x64, .f32⟩
  | 51 => ⟨S50000x64, .f32⟩
  | 52 => ⟨S50000x64, .f32⟩
  | 53 => ⟨S_, .f32⟩
  | 54 => ⟨S50000x64, .f32⟩
  | 55 => ⟨S50000x64, .f32⟩
  | 56 => ⟨S1x64x64, .f32⟩
  | 57 => ⟨S64x64, .f32⟩
  | 58 => ⟨S1x64, .f32⟩
  | 59 => ⟨S64, .f32⟩
  | 60 => ⟨S50000x64, .f32⟩
  | 61 => ⟨S_, .i32⟩
  | 62 => ⟨S850000, .i32⟩
  | 63 => ⟨S850000, .i1⟩
  | 64 => ⟨S_, .i32⟩
  | 65 => ⟨S850000, .i32⟩
  | 66 => ⟨S850000, .i32⟩
  | 67 => ⟨S850000, .i32⟩
  | 68 => ⟨S850000x1, .i32⟩
  | 69 => ⟨S850000x64, .f32⟩
  | 70 => ⟨S850000x1, .f32⟩
  | 71 => ⟨S850000x64, .f32⟩
  | 72 => ⟨S850000x64, .f32⟩
  | 73 => ⟨S_, .f32⟩
  | 74 => ⟨S50000x64, .f32⟩
  | 75 => ⟨S850000x1, .i32⟩
  | 76 => ⟨S50000x64, .f32⟩
  | 77 => ⟨S1x64, .f32⟩
  | 78 => ⟨S50000x64, .f32⟩
  | 79 => ⟨S50000x64, .f32⟩
  | 80 => ⟨S_, .f32⟩
  | 81 => ⟨S50000x64, .f32⟩
  | 82 => ⟨S50000x64, .f32⟩
  | 83 => ⟨S1x64x64, .f32⟩
  | 84 => ⟨S64x64, .f32⟩
  | 85 => ⟨S1x64, .f32⟩
  | 86 => ⟨S64, .f32⟩
  | 87 => ⟨S50000x64, .f32⟩
  | 88 => ⟨S_, .i32⟩
  | 89 => ⟨S850000, .i32⟩
  | 90 => ⟨S850000, .i1⟩
  | 91 => ⟨S_, .i32⟩
  | 92 => ⟨S850000, .i32⟩
  | 93 => ⟨S850000, .i32⟩
  | 94 => ⟨S850000, .i32⟩
  | 95 => ⟨S850000x1, .i32⟩
  | 96 => ⟨S850000x64, .f32⟩
  | 97 => ⟨S850000x1, .f32⟩
  | 98 => ⟨S850000x64, .f32⟩
  | 99 => ⟨S850000x64, .f32⟩
  | 100 => ⟨S_, .f32⟩
  | 101 => ⟨S50000x64, .f32⟩
  | 102 => ⟨S850000x1, .i32⟩
  | 103 => ⟨S50000x64, .f32⟩
  | 104 => ⟨S1x64, .f32⟩
  | 105 => ⟨S50000x64, .f32⟩
  | 106 => ⟨S50000x64, .f32⟩
  | 107 => ⟨S_, .f32⟩
  | 108 => ⟨S50000x64, .f32⟩
  | 109 => ⟨S50000x64, .f32⟩
  | 110 => ⟨S1x64x64, .f32⟩
  | 111 => ⟨S64x64, .f32⟩
  | 112 => ⟨S1x64, .f32⟩
  | 113 => ⟨S64, .f32⟩
  | 114 => ⟨S50000x64, .f32⟩
  | 115 => ⟨S_, .i32⟩
  | 116 => ⟨S850000, .i32⟩
  | 117 => ⟨S850000, .i1⟩
  | 118 => ⟨S_, .i32⟩
  | 119 => ⟨S850000, .i32⟩
  | 120 => ⟨S850000, .i32⟩
  | 121 => ⟨S850000, .i32⟩
  | 122 => ⟨S850000x1, .i32⟩
  | 123 => ⟨S850000x64, .f32⟩
  | 124 => ⟨S850000x1, .f32⟩
  | 125 => ⟨S850000x64, .f32⟩
  | 126 => ⟨S850000x64, .f32⟩
  | 127 => ⟨S_, .f32⟩
  | _ => ⟨S50000x128, .f32⟩

abbrev hbmTy0_2 (i : Nat) : BufTy := match i % 128 with
  | 0 => ⟨S50000x64, .f32⟩
  | 1 => ⟨S850000x1, .i32⟩
  | 2 => ⟨S50000x64, .f32⟩
  | 3 => ⟨S1x64, .f32⟩
  | 4 => ⟨S50000x64, .f32⟩
  | 5 => ⟨S50000x64, .f32⟩
  | 6 => ⟨S_, .f32⟩
  | 7 => ⟨S50000x64, .f32⟩
  | 8 => ⟨S50000x64, .f32⟩
  | 9 => ⟨S1x64x64, .f32⟩
  | 10 => ⟨S64x64, .f32⟩
  | 11 => ⟨S1x64, .f32⟩
  | 12 => ⟨S64, .f32⟩
  | 13 => ⟨S50000x64, .f32⟩
  | 14 => ⟨S_, .i32⟩
  | 15 => ⟨S850000, .i32⟩
  | 16 => ⟨S850000, .i1⟩
  | 17 => ⟨S_, .i32⟩
  | 18 => ⟨S850000, .i32⟩
  | 19 => ⟨S850000, .i32⟩
  | 20 => ⟨S850000, .i32⟩
  | 21 => ⟨S850000x1, .i32⟩
  | 22 => ⟨S850000x64, .f32⟩
  | 23 => ⟨S850000x1, .f32⟩
  | 24 => ⟨S850000x64, .f32⟩
  | 25 => ⟨S850000x64, .f32⟩
  | 26 => ⟨S_, .f32⟩
  | 27 => ⟨S50000x64, .f32⟩
  | 28 => ⟨S850000x1, .i32⟩
  | 29 => ⟨S50000x64, .f32⟩
  | 30 => ⟨S1x64, .f32⟩
  | 31 => ⟨S50000x64, .f32⟩
  | 32 => ⟨S50000x64, .f32⟩
  | 33 => ⟨S_, .f32⟩
  | 34 => ⟨S50000x64, .f32⟩
  | 35 => ⟨S50000x64, .f32⟩
  | 36 => ⟨S50000x64, .f32⟩
  | 37 => ⟨S_, .f32⟩
  | 38 => ⟨S256x64, .f32⟩
  | 39 => ⟨S50000x1, .i32⟩
  | 40 => ⟨S256x64, .f32⟩
  | 41 => ⟨S256x64, .f32⟩
  | 42 => ⟨S_, .i32⟩
  | 43 => ⟨S50000, .i32⟩
  | 44 => ⟨S50000, .i1⟩
  | 45 => ⟨S_, .i32⟩
  | 46 => ⟨S50000, .i32⟩
  | 47 => ⟨S50000, .i32⟩
  | 48 => ⟨S50000, .i32⟩
  | 49 => ⟨S50000x1, .i32⟩
  | 50 => ⟨S50000x64, .f32⟩
  | 51 => ⟨S50000x128, .f32⟩
  | 52 => ⟨S_, .f32⟩
  | 53 => ⟨S50000x128, .f32⟩
  | 54 => ⟨S50000x128, .f32⟩
  | 55 => ⟨S50000x1, .f32⟩
  | 56 => ⟨S50000x1, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v16 : Ref sig .tc := ⟨.hbm, 33, rfl⟩
abbrev main_c : Ref sig .tc := ⟨.hbm, 34, rfl⟩
abbrev main_v17 : Ref sig .tc := ⟨.hbm, 35, rfl⟩
abbrev main_v18 : Ref sig .tc := ⟨.hbm, 36, rfl⟩
abbrev main_c_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_c_6 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_c_8 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_9 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_call1_cst : Ref sig .tc := ⟨.hbm, 73, rfl⟩
abbrev main_call1_v0 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_c_10 : Ref sig .tc := ⟨.hbm, 81, rfl⟩
abbrev main_v55 : Ref sig .tc := ⟨.hbm, 82, rfl⟩
abbrev main_v56 : Ref sig .tc := ⟨.hbm, 83, rfl⟩
abbrev main_c_11 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_cst_12 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_call2_cst : Ref sig .tc := ⟨.hbm, 100, rfl⟩
abbrev main_call2_v0 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_c_13 : Ref sig .tc := ⟨.hbm, 108, rfl⟩
abbrev main_v77 : Ref sig .tc := ⟨.hbm, 109, rfl⟩
abbrev main_v78 : Ref sig .tc := ⟨.hbm, 110, rfl⟩
abbrev main_c_14 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_cst_15 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_call3_cst : Ref sig .tc := ⟨.hbm, 127, rfl⟩
abbrev main_call3_v0 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_c_16 : Ref sig .tc := ⟨.hbm, 135, rfl⟩
abbrev main_v99 : Ref sig .tc := ⟨.hbm, 136, rfl⟩
abbrev main_v100 : Ref sig .tc := ⟨.hbm, 137, rfl⟩
abbrev main_c_17 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_cst_18 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_call4_cst : Ref sig .tc := ⟨.hbm, 154, rfl⟩
abbrev main_call4_v0 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_c_19 : Ref sig .tc := ⟨.hbm, 162, rfl⟩
abbrev main_v121 : Ref sig .tc := ⟨.hbm, 163, rfl⟩
abbrev main_v122 : Ref sig .tc := ⟨.hbm, 164, rfl⟩
abbrev main_c_20 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_cst_21 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_call5_cst : Ref sig .tc := ⟨.hbm, 181, rfl⟩
abbrev main_call5_v0 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_c_22 : Ref sig .tc := ⟨.hbm, 189, rfl⟩
abbrev main_v143 : Ref sig .tc := ⟨.hbm, 190, rfl⟩
abbrev main_v144 : Ref sig .tc := ⟨.hbm, 191, rfl⟩
abbrev main_c_23 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_v148 : Ref sig .tc := ⟨.hbm, 196, rfl⟩
abbrev main_v149 : Ref sig .tc := ⟨.hbm, 197, rfl⟩
abbrev main_v150 : Ref sig .tc := ⟨.hbm, 198, rfl⟩
abbrev main_v151 : Ref sig .tc := ⟨.hbm, 199, rfl⟩
abbrev main_v152 : Ref sig .tc := ⟨.hbm, 200, rfl⟩
abbrev main_cst_24 : Ref sig .tc := ⟨.hbm, 201, rfl⟩
abbrev main_v153 : Ref sig .tc := ⟨.hbm, 202, rfl⟩
abbrev main_v154 : Ref sig .tc := ⟨.hbm, 203, rfl⟩
abbrev main_v155 : Ref sig .tc := ⟨.hbm, 204, rfl⟩
abbrev main_v156 : Ref sig .tc := ⟨.hbm, 205, rfl⟩
abbrev main_v157 : Ref sig .tc := ⟨.hbm, 206, rfl⟩
abbrev main_v158 : Ref sig .tc := ⟨.hbm, 207, rfl⟩
abbrev main_call6_cst : Ref sig .tc := ⟨.hbm, 208, rfl⟩
abbrev main_call6_v0 : Ref sig .tc := ⟨.hbm, 209, rfl⟩
abbrev main_v159 : Ref sig .tc := ⟨.hbm, 210, rfl⟩
abbrev main_v160 : Ref sig .tc := ⟨.hbm, 211, rfl⟩
abbrev main_v161 : Ref sig .tc := ⟨.hbm, 212, rfl⟩
abbrev main_v162 : Ref sig .tc := ⟨.hbm, 213, rfl⟩
abbrev main_v163 : Ref sig .tc := ⟨.hbm, 214, rfl⟩
abbrev main_v164 : Ref sig .tc := ⟨.hbm, 215, rfl⟩
abbrev main_c_25 : Ref sig .tc := ⟨.hbm, 216, rfl⟩
abbrev main_v165 : Ref sig .tc := ⟨.hbm, 217, rfl⟩
abbrev main_v166 : Ref sig .tc := ⟨.hbm, 218, rfl⟩
abbrev main_c_26 : Ref sig .tc := ⟨.hbm, 219, rfl⟩
abbrev main_v167 : Ref sig .tc := ⟨.hbm, 220, rfl⟩
abbrev main_v168 : Ref sig .tc := ⟨.hbm, 221, rfl⟩
abbrev main_v169 : Ref sig .tc := ⟨.hbm, 222, rfl⟩
abbrev main_v170 : Ref sig .tc := ⟨.hbm, 223, rfl⟩
abbrev main_v171 : Ref sig .tc := ⟨.hbm, 224, rfl⟩
abbrev main_v172 : Ref sig .tc := ⟨.hbm, 225, rfl⟩
abbrev main_v173 : Ref sig .tc := ⟨.hbm, 226, rfl⟩
abbrev main_v174 : Ref sig .tc := ⟨.hbm, 227, rfl⟩
abbrev main_cst_27 : Ref sig .tc := ⟨.hbm, 228, rfl⟩
abbrev main_v175 : Ref sig .tc := ⟨.hbm, 229, rfl⟩
abbrev main_v176 : Ref sig .tc := ⟨.hbm, 230, rfl⟩
abbrev main_v177 : Ref sig .tc := ⟨.hbm, 231, rfl⟩
abbrev main_v178 : Ref sig .tc := ⟨.hbm, 232, rfl⟩
abbrev main_v179 : Ref sig .tc := ⟨.hbm, 233, rfl⟩
abbrev main_v180 : Ref sig .tc := ⟨.hbm, 234, rfl⟩
abbrev main_call7_cst : Ref sig .tc := ⟨.hbm, 235, rfl⟩
abbrev main_call7_v0 : Ref sig .tc := ⟨.hbm, 236, rfl⟩
abbrev main_v181 : Ref sig .tc := ⟨.hbm, 237, rfl⟩
abbrev main_v182 : Ref sig .tc := ⟨.hbm, 238, rfl⟩
abbrev main_v183 : Ref sig .tc := ⟨.hbm, 239, rfl⟩
abbrev main_v184 : Ref sig .tc := ⟨.hbm, 240, rfl⟩
abbrev main_v185 : Ref sig .tc := ⟨.hbm, 241, rfl⟩
abbrev main_v186 : Ref sig .tc := ⟨.hbm, 242, rfl⟩
abbrev main_c_28 : Ref sig .tc := ⟨.hbm, 243, rfl⟩
abbrev main_v187 : Ref sig .tc := ⟨.hbm, 244, rfl⟩
abbrev main_v188 : Ref sig .tc := ⟨.hbm, 245, rfl⟩
abbrev main_c_29 : Ref sig .tc := ⟨.hbm, 246, rfl⟩
abbrev main_v189 : Ref sig .tc := ⟨.hbm, 247, rfl⟩
abbrev main_v190 : Ref sig .tc := ⟨.hbm, 248, rfl⟩
abbrev main_v191 : Ref sig .tc := ⟨.hbm, 249, rfl⟩
abbrev main_v192 : Ref sig .tc := ⟨.hbm, 250, rfl⟩
abbrev main_v193 : Ref sig .tc := ⟨.hbm, 251, rfl⟩
abbrev main_v194 : Ref sig .tc := ⟨.hbm, 252, rfl⟩
abbrev main_v195 : Ref sig .tc := ⟨.hbm, 253, rfl⟩
abbrev main_v196 : Ref sig .tc := ⟨.hbm, 254, rfl⟩
abbrev main_cst_30 : Ref sig .tc := ⟨.hbm, 255, rfl⟩
abbrev main_v197 : Ref sig .tc := ⟨.hbm, 256, rfl⟩
abbrev main_v198 : Ref sig .tc := ⟨.hbm, 257, rfl⟩
abbrev main_v199 : Ref sig .tc := ⟨.hbm, 258, rfl⟩
abbrev main_v200 : Ref sig .tc := ⟨.hbm, 259, rfl⟩
abbrev main_v201 : Ref sig .tc := ⟨.hbm, 260, rfl⟩
abbrev main_v202 : Ref sig .tc := ⟨.hbm, 261, rfl⟩
abbrev main_call8_cst : Ref sig .tc := ⟨.hbm, 262, rfl⟩
abbrev main_call8_v0 : Ref sig .tc := ⟨.hbm, 263, rfl⟩
abbrev main_v203 : Ref sig .tc := ⟨.hbm, 264, rfl⟩
abbrev main_v204 : Ref sig .tc := ⟨.hbm, 265, rfl⟩
abbrev main_v205 : Ref sig .tc := ⟨.hbm, 266, rfl⟩
abbrev main_v206 : Ref sig .tc := ⟨.hbm, 267, rfl⟩
abbrev main_v207 : Ref sig .tc := ⟨.hbm, 268, rfl⟩
abbrev main_v208 : Ref sig .tc := ⟨.hbm, 269, rfl⟩
abbrev main_c_31 : Ref sig .tc := ⟨.hbm, 270, rfl⟩
abbrev main_v209 : Ref sig .tc := ⟨.hbm, 271, rfl⟩
abbrev main_v210 : Ref sig .tc := ⟨.hbm, 272, rfl⟩
abbrev main_c_32 : Ref sig .tc := ⟨.hbm, 273, rfl⟩
abbrev main_v211 : Ref sig .tc := ⟨.hbm, 274, rfl⟩
abbrev main_v212 : Ref sig .tc := ⟨.hbm, 275, rfl⟩
abbrev main_v213 : Ref sig .tc := ⟨.hbm, 276, rfl⟩
abbrev main_v214 : Ref sig .tc := ⟨.hbm, 277, rfl⟩
abbrev main_v215 : Ref sig .tc := ⟨.hbm, 278, rfl⟩
abbrev main_v216 : Ref sig .tc := ⟨.hbm, 279, rfl⟩
abbrev main_v217 : Ref sig .tc := ⟨.hbm, 280, rfl⟩
abbrev main_v218 : Ref sig .tc := ⟨.hbm, 281, rfl⟩
abbrev main_cst_33 : Ref sig .tc := ⟨.hbm, 282, rfl⟩
abbrev main_v219 : Ref sig .tc := ⟨.hbm, 283, rfl⟩
abbrev main_v220 : Ref sig .tc := ⟨.hbm, 284, rfl⟩
abbrev main_v221 : Ref sig .tc := ⟨.hbm, 285, rfl⟩
abbrev main_v222 : Ref sig .tc := ⟨.hbm, 286, rfl⟩
abbrev main_v223 : Ref sig .tc := ⟨.hbm, 287, rfl⟩
abbrev main_v224 : Ref sig .tc := ⟨.hbm, 288, rfl⟩
abbrev main_call9_cst : Ref sig .tc := ⟨.hbm, 289, rfl⟩
abbrev main_call9_v0 : Ref sig .tc := ⟨.hbm, 290, rfl⟩
abbrev main_v225 : Ref sig .tc := ⟨.hbm, 291, rfl⟩
abbrev main_v226 : Ref sig .tc := ⟨.hbm, 292, rfl⟩
abbrev main_cst_34 : Ref sig .tc := ⟨.hbm, 293, rfl⟩
abbrev main_v227 : Ref sig .tc := ⟨.hbm, 294, rfl⟩
abbrev main_v228 : Ref sig .tc := ⟨.hbm, 295, rfl⟩
abbrev main_v229 : Ref sig .tc := ⟨.hbm, 296, rfl⟩
abbrev main_v230 : Ref sig .tc := ⟨.hbm, 297, rfl⟩
abbrev main_c_35 : Ref sig .tc := ⟨.hbm, 298, rfl⟩
abbrev main_v231 : Ref sig .tc := ⟨.hbm, 299, rfl⟩
abbrev main_v232 : Ref sig .tc := ⟨.hbm, 300, rfl⟩
abbrev main_c_36 : Ref sig .tc := ⟨.hbm, 301, rfl⟩
abbrev main_v233 : Ref sig .tc := ⟨.hbm, 302, rfl⟩
abbrev main_v234 : Ref sig .tc := ⟨.hbm, 303, rfl⟩
abbrev main_v235 : Ref sig .tc := ⟨.hbm, 304, rfl⟩
abbrev main_v236 : Ref sig .tc := ⟨.hbm, 305, rfl⟩
abbrev main_v237 : Ref sig .tc := ⟨.hbm, 306, rfl⟩
abbrev main_v238 : Ref sig .tc := ⟨.hbm, 307, rfl⟩
abbrev main_call10_cst : Ref sig .tc := ⟨.hbm, 308, rfl⟩
abbrev main_call10_v0 : Ref sig .tc := ⟨.hbm, 309, rfl⟩
abbrev main_v239 : Ref sig .tc := ⟨.hbm, 310, rfl⟩
abbrev main_v240 : Ref sig .tc := ⟨.hbm, 311, rfl⟩
abbrev main_v241 : Ref sig .tc := ⟨.hbm, 312, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  slices_S8x64x64_S1x64x64_0_0_0 : S8x64x64.Slices ![0, 0, 0] S1x64x64
  shapeCasts_S1x64x64_S64x64 : S1x64x64.ShapeCasts S64x64
  slices_S8x64_S1x64_0_0 : S8x64.Slices ![0, 0] S1x64
  shapeCasts_S1x64_S64 : S1x64.ShapeCasts S64
  slices_S8x64x64_S1x64x64_1_0_0 : S8x64x64.Slices ![1, 0, 0] S1x64x64
  slices_S8x64_S1x64_1_0 : S8x64.Slices ![1, 0] S1x64
  slices_S8x64x64_S1x64x64_2_0_0 : S8x64x64.Slices ![2, 0, 0] S1x64x64
  slices_S8x64_S1x64_2_0 : S8x64.Slices ![2, 0] S1x64
  slices_S8x64x64_S1x64x64_3_0_0 : S8x64x64.Slices ![3, 0, 0] S1x64x64
  slices_S8x64_S1x64_3_0 : S8x64.Slices ![3, 0] S1x64
  slices_S8x64x64_S1x64x64_4_0_0 : S8x64x64.Slices ![4, 0, 0] S1x64x64
  slices_S8x64_S1x64_4_0 : S8x64.Slices ![4, 0] S1x64
  slices_S8x64x64_S1x64x64_5_0_0 : S8x64x64.Slices ![5, 0, 0] S1x64x64
  slices_S8x64_S1x64_5_0 : S8x64.Slices ![5, 0] S1x64
  slices_S8x64x64_S1x64x64_6_0_0 : S8x64x64.Slices ![6, 0, 0] S1x64x64
  slices_S8x64_S1x64_6_0 : S8x64.Slices ![6, 0] S1x64
  slices_S8x64x64_S1x64x64_7_0_0 : S8x64x64.Slices ![7, 0, 0] S1x64x64
  slices_S8x64_S1x64_7_0 : S8x64.Slices ![7, 0] S1x64
  bcast_S_S256x64 : S_.BroadcastsInDim S256x64 (![] : Fin 0 → Fin S256x64.rank)
  bcast_S50000_S50000x1_0 : S50000.BroadcastsInDim S50000x1 (![0] : Fin 1 → Fin S50000x1.rank)
  concatenates_S50000x64_S50000x64_S50000x128_d1 : Shape.Concatenates [S50000x64, S50000x64] S50000x128 1
  bcast_S_S50000x128 : S_.BroadcastsInDim S50000x128 (![] : Fin 0 → Fin S50000x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x64_S50000x64_1_0_0_1_n_n_wf : DotDims.WF S50000x64 S64x64 S50000x64 [1] [0] [0] [1] [] []
  scatter_S256x64_S50000x1_S50000x64_1_0_0_1_wf : ScatterDims.WF S256x64 S50000x1 S50000x64 [1] [0] [0] 1
  dot_S256x64_S64x64_S256x64_1_0_0_1_n_n_wf : DotDims.WF S256x64 S64x64 S256x64 [1] [0] [0] [1] [] []
  gather_S256x64_S50000x1_S50000x64_1_0_n_n_0_1_164_wf : GatherDims.WF S256x64 S50000x1 S50000x64 [1] [0] [] [0] [] 1 ![1, 64]
  dot_S50000x128_S128x1_S50000x1_1_0_0_1_n_n_wf : DotDims.WF S50000x128 S128x1 S50000x1 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def scatter_S256x64_S50000x1_S50000x64_1_0_0_1 : ScatterDims S256x64 S50000x1 S50000x64 where
  updateWindowDims := [1]
  insertedWindowDims := [0]
  scatterDimsToOperandDims := [0]
  indexVectorDim := 1
  wf := scatter_S256x64_S50000x1_S50000x64_1_0_0_1_wf
def dot_S256x64_S64x64_S256x64_1_0_0_1_n_n : DotDims S256x64 S64x64 S256x64 where
  lhsContracting := [1]
  rhsContracting := [0]
  lhsNonContracting := [0]
  rhsNonContracting := [1]
  lhsBatch := []
  rhsBatch := []
  wf := dot_S256x64_S64x64_S256x64_1_0_0_1_n_n_wf
def gather_S256x64_S50000x1_S50000x64_1_0_n_n_0_1_164 : GatherDims S256x64 S50000x1 S50000x64 where
  offsetDims := [1]
  collapsedSliceDims := [0]
  operandBatchingDims := []
  startIndicesBatchingDims := []
  startIndexMap := [0]
  indexVectorDim := 1
  sliceSizes := ![1, 64]
  wf := gather_S256x64_S50000x1_S50000x64_1_0_n_n_0_1_164_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf

class Facts : Prop extends Facts₀ where

variable [Facts]
-- ==== Proof.KV.lean ====
/-
  The idealized kernel program as ONE pure function of its argument arrays, stage by stage, at the ideal instance
  (every float an extended real). Nine graph-convolution layers, then a readout:
    deg(i)  = the number of edges (self loops appended) whose target lands on node i
    dis(i)  = rsqrt(max(deg i, 1)) where deg i > 0, else 0
    T₀      = x · w0, row i scaled by dis(i)                              (the first pallas_call)
    Aₖ(i,·) = the sum, over the edges e landing on i, of Tₖ(src e, ·)      (host gather, then scatter-add)
    Tₖ₊₁    = relu(Aₖ · dis + bₖ) · Wₖ₊₁, row i scaled by dis(i)           (a fused pallas_call)
    HNT     = relu(A₈ · dis + b₈) · w_node                                (the last fused call, unscaled)
    PT      = (HNT summed per graph id) · w_grph
    OUT(i)  = tanh(relu(HNT i) · wa₁ + relu(onehot(nb i) · PT) · wa₂)     (the readout call)
  The block-wise pallas_calls are stated as whole-array functions, index by index (G0, Gf, Gp, G10); the host
  stretches between them as the host operations' own terms.
-/
import proofs.«430747_j26834955666046_2_alg».proof.Proof.Gen.KernelIdeal
import Idealize.ShloMosaic.PureOps.Ideal
import Idealize.ShloMosaic.Lib.ValueIdx

noncomputable section

namespace Cert.KernelIdeal.KV

open Idealize.ShloMosaic Idealize.ShloMosaic.ValueIdx Cert.KernelIdeal Cert.KernelIdeal.Facts₀ Cert.KernelIdeal.Facts

/-- The contents of a buffer of shape `s` and element type `e` at the ideal instance. -/
abbrev C (s : Shape) (e : EltTy) := (⟨s, e⟩ : BufTy).Contents (Elt Ideal)

/-! ## The graph bookkeeping: the host operations before the first call -/

/-- Edge sources, the self loops appended. -/
def src (x1 : C S2x800000 .i32) : C S850000 .i32 :=
  concatenate S850000 0 [⟨S800000, shapeCast _ (extractStridedSlice S1x800000 ![0, 0] x1 slices_S2x800000_S1x800000_0_0) shapeCasts_S1x800000_S800000⟩, ⟨S50000, iotaInDim S50000 32 0⟩] concatenates_S800000_S50000_S850000_d0
/-- Edge targets, the self loops appended. -/
def dst (x1 : C S2x800000 .i32) : C S850000 .i32 :=
  concatenate S850000 0 [⟨S800000, shapeCast _ (extractStridedSlice S1x800000 ![1, 0] x1 slices_S2x800000_S1x800000_1_0) shapeCasts_S1x800000_S800000⟩, ⟨S50000, iotaInDim S50000 32 0⟩] concatenates_S800000_S50000_S850000_d0
/-- The targets as the column of scatter indices. -/
def dstB (x1 : C S2x800000 .i32) : C S850000x1 .i32 :=
  broadcastInDim S850000x1 ![0] bcast_S850000_S850000x1_0 (dst x1)
/-- The sources, a negative one wrapped once, as the column of gather start indices. -/
def srcN (x1 : C S2x800000 .i32) : C S850000x1 .i32 :=
  broadcastInDim S850000x1 ![0] bcast_S850000_S850000x1_0
    (select (cmpi .slt (src x1) (broadcastInDim S850000 ![] bcast_S_S850000 (constantI S_ 32 0#32)))
      (addi (src x1) (broadcastInDim S850000 ![] bcast_S_S850000 (constantI S_ 32 50000#32))) (src x1))
/-- In-degree: ones scattered onto the targets. -/
def deg (x1 : C S2x800000 .i32) : C S50000 .f32 :=
  Host.scatterAdd (F := Ideal) scatter_S50000_S850000x1_S850000_n_0_0_1 (broadcastInDim S50000 ![] bcast_S_S50000 (constant (F := Ideal) S_ .f32 0x00000000#32))
    (dstB x1) (broadcastInDim S850000 ![] bcast_S_S850000 (constant (F := Ideal) S_ .f32 0x3F800000#32))
/-- The symmetric normalisation's per-node factor. -/
def dis (x1 : C S2x800000 .i32) : C S50000 .f32 :=
  select (cmpf .ogt (deg x1) (broadcastInDim S50000 ![] bcast_S_S50000 (constant (F := Ideal) S_ .f32 0x00000000#32)))
    (Host.rsqrt (F := Ideal) (maximumf (deg x1) (broadcastInDim S50000 ![] bcast_S_S50000 (constant (F := Ideal) S_ .f32 0x3F800000#32))))
    (broadcastInDim S50000 ![] bcast_S_S50000 (constant (F := Ideal) S_ .f32 0x00000000#32))
/-- The factor as a column (what the calls' second window reads). -/
def disCol (x1 : C S2x800000 .i32) : C S50000x1 .f32 := shapeCast S50000x1 (dis x1) shapeCasts_S50000_S50000x1
/-- The graph ids as a column. -/
def nbCol (x2 : C S50000 .i32) : C S50000x1 .i32 := shapeCast S50000x1 x2 shapeCasts_S50000_S50000x1

/-! ## One aggregation: gather the table's rows at the sources, add them up at the targets -/

def agg (T : C S50000x64 .bf16) (x1 : C S2x800000 .i32) : C S50000x64 .f32 :=
  Host.scatterAdd (F := Ideal) scatter_S50000x64_S850000x1_S850000x64_1_0_0_1 (broadcastInDim S50000x64 ![] bcast_S_S50000x64 (constant (F := Ideal) S_ .f32 0x00000000#32))
    (dstB x1) (extf .f32 (Host.gather gather_S50000x64_S850000x1_S850000x64_1_0_n_n_0_1_164 T (srcN x1)) bitsLt_bf16_f32)

/-! ## The calls, as whole-array functions, index by index -/

/-- The first call: (x · w), row i scaled by d(i). -/
def G0 (x : C S50000x128 .f32) (d : C S50000x1 .f32) (w : C S128x64 .f32) : C S50000x64 .bf16 := fun i =>
  (∑ k : Fin 128, x (ix2 (⟨(i 0).val, (i 0).isLt⟩ : Fin 50000) k) * w (ix2 k (⟨(i 1).val, (i 1).isLt⟩ : Fin 64)))
    * d (ix2 (⟨(i 0).val, (i 0).isLt⟩ : Fin 50000) (0 : Fin 1))
/-- The activation a fused call forms first: relu(a · d + b). -/
def act (a : C S50000x64 .f32) (d : C S50000x1 .f32) (b : C S1x64 .f32) (r : Fin 50000) (k : Fin 64) : EReal :=
  max (a (ix2 r k) * d (ix2 r (0 : Fin 1)) + b (ix2 (0 : Fin 1) k)) 0
/-- A fused call whose output feeds the next gather: (relu(a · d + b) · w), row i scaled by d(i). -/
def Gf (a : C S50000x64 .f32) (d : C S50000x1 .f32) (b : C S1x64 .f32) (w : C S64x64 .f32) : C S50000x64 .bf16 := fun i =>
  (∑ k : Fin 64, act a d b ⟨(i 0).val, (i 0).isLt⟩ k * w (ix2 k (⟨(i 1).val, (i 1).isLt⟩ : Fin 64)))
    * d (ix2 (⟨(i 0).val, (i 0).isLt⟩ : Fin 50000) (0 : Fin 1))
/-- The last fused call: relu(a · d + b) · w, unscaled. -/
def Gp (a : C S50000x64 .f32) (d : C S50000x1 .f32) (b : C S1x64 .f32) (w : C S64x64 .f32) : C S50000x64 .f32 := fun i =>
  ∑ k : Fin 64, act a d b ⟨(i 0).val, (i 0).isLt⟩ k * w (ix2 k (⟨(i 1).val, (i 1).isLt⟩ : Fin 64))
/-- Entry g of the one-hot row of graph id n. -/
def oneHot (n : BitVec 32) (g : Fin 256) : EReal := if BitVec.ofNat 32 g.val = n then 1 else 0
/-- The readout call. -/
def G10 (h : C S50000x64 .f32) (nb : C S50000x1 .i32) (pt : C S256x64 .f32) (wa1 wa2 : C S64x1 .f32) : C S50000x1 .f32 := fun i =>
  Ideal.tanh ((∑ k : Fin 64, max (h (ix2 (⟨(i 0).val, (i 0).isLt⟩ : Fin 50000) k)) 0 * wa1 (ix2 k (0 : Fin 1)))
    + ∑ k : Fin 64, max (∑ g : Fin 256, oneHot (nb (ix2 (⟨(i 0).val, (i 0).isLt⟩ : Fin 50000) (0 : Fin 1))) g * pt (ix2 g k)) 0 * wa2 (ix2 k (0 : Fin 1)))

/-! ## The weights and biases the host slices out -/

/-- Hidden layer j's weight matrix: slice j of the stack, its leading unit axis dropped. -/
def wsl : Fin 8 → C S8x64x64 .f32 → C S64x64 .f32
  | ⟨0, _⟩, x5 => shapeCast _ (extractStridedSlice S1x64x64 ![0, 0, 0] x5 slices_S8x64x64_S1x64x64_0_0_0) shapeCasts_S1x64x64_S64x64
  | ⟨1, _⟩, x5 => shapeCast _ (extractStridedSlice S1x64x64 ![1, 0, 0] x5 slices_S8x64x64_S1x64x64_1_0_0) shapeCasts_S1x64x64_S64x64
  | ⟨2, _⟩, x5 => shapeCast _ (extractStridedSlice S1x64x64 ![2, 0, 0] x5 slices_S8x64x64_S1x64x64_2_0_0) shapeCasts_S1x64x64_S64x64
  | ⟨3, _⟩, x5 => shapeCast _ (extractStridedSlice S1x64x64 ![3, 0, 0] x5 slices_S8x64x64_S1x64x64_3_0_0) shapeCasts_S1x64x64_S64x64
  | ⟨4, _⟩, x5 => shapeCast _ (extractStridedSlice S1x64x64 ![4, 0, 0] x5 slices_S8x64x64_S1x64x64_4_0_0) shapeCasts_S1x64x64_S64x64
  | ⟨5, _⟩, x5 => shapeCast _ (extractStridedSlice S1x64x64 ![5, 0, 0] x5 slices_S8x64x64_S1x64x64_5_0_0) shapeCasts_S1x64x64_S64x64
  | ⟨6, _⟩, x5 => shapeCast _ (extractStridedSlice S1x64x64 ![6, 0, 0] x5 slices_S8x64x64_S1x64x64_6_0_0) shapeCasts_S1x64x64_S64x64
  | ⟨7, _⟩, x5 => shapeCast _ (extractStridedSlice S1x64x64 ![7, 0, 0] x5 slices_S8x64x64_S1x64x64_7_0_0) shapeCasts_S1x64x64_S64x64
  | ⟨_ + 8, h⟩, _ => absurd h (Nat.not_lt.2 (Nat.le_add_left _ _))
/-- Hidden layer j's bias: row j of the stack as a vector, then as a one-row matrix. -/
def bsl : Fin 8 → C S8x64 .f32 → C S1x64 .f32
  | ⟨0, _⟩, x6 => shapeCast S1x64 (shapeCast S64 (extractStridedSlice S1x64 ![0, 0] x6 slices_S8x64_S1x64_0_0) shapeCasts_S1x64_S64) shapeCasts_S64_S1x64
  | ⟨1, _⟩, x6 => shapeCast S1x64 (shapeCast S64 (extractStridedSlice S1x64 ![1, 0] x6 slices_S8x64_S1x64_1_0) shapeCasts_S1x64_S64) shapeCasts_S64_S1x64
  | ⟨2, _⟩, x6 => shapeCast S1x64 (shapeCast S64 (extractStridedSlice S1x64 ![2, 0] x6 slices_S8x64_S1x64_2_0) shapeCasts_S1x64_S64) shapeCasts_S64_S1x64
  | ⟨3, _⟩, x6 => shapeCast S1x64 (shapeCast S64 (extractStridedSlice S1x64 ![3, 0] x6 slices_S8x64_S1x64_3_0) shapeCasts_S1x64_S64) shapeCasts_S64_S1x64
  | ⟨4, _⟩, x6 => shapeCast S1x64 (shapeCast S64 (extractStridedSlice S1x64 ![4, 0] x6 slices_S8x64_S1x64_4_0) shapeCasts_S1x64_S64) shapeCasts_S64_S1x64
  | ⟨5, _⟩, x6 => shapeCast S1x64 (shapeCast S64 (extractStridedSlice S1x64 ![5, 0] x6 slices_S8x64_S1x64_5_0) shapeCasts_S1x64_S64) shapeCasts_S64_S1x64
  | ⟨6, _⟩, x6 => shapeCast S1x64 (shapeCast S64 (extractStridedSlice S1x64 ![6, 0] x6 slices_S8x64_S1x64_6_0) shapeCasts_S1x64_S64) shapeCasts_S64_S1x64
  | ⟨7, _⟩, x6 => shapeCast S1x64 (shapeCast S64 (extractStridedSlice S1x64 ![7, 0] x6 slices_S8x64_S1x64_7_0) shapeCasts_S1x64_S64) shapeCasts_S64_S1x64
  | ⟨_ + 8, h⟩, _ => absurd h (Nat.not_lt.2 (Nat.le_add_left _ _))
/-- The first layer's bias, as a row. -/
def b0row (x4 : C S64 .f32) : C S1x64 .f32 := shapeCast S1x64 x4 shapeCasts_S64_S1x64

/-! ## The pooled table and the readout weights -/

def pt (hnt : C S50000x64 .f32) (x2 : C S50000 .i32) (x8 : C S64x64 .f32) : C S256x64 .f32 :=
  Host.dotGeneral (F := Ideal) (φ₁ := .f32) (φ₂ := .f32) dot_S256x64_S64x64_S256x64_1_0_0_1_n_n none
    (Host.scatterAdd (F := Ideal) scatter_S256x64_S50000x1_S50000x64_1_0_0_1 (broadcastInDim S256x64 ![] bcast_S_S256x64 (constant (F := Ideal) S_ .f32 0x00000000#32))
      (broadcastInDim S50000x1 ![0] bcast_S50000_S50000x1_0 x2) hnt) (x8 : FVec Ideal S64x64 .f32)
def wa1 (x9 : C S128x1 .f32) : C S64x1 .f32 := extractStridedSlice S64x1 ![0, 0] x9 slices_S128x1_S64x1_0_0
def wa2 (x9 : C S128x1 .f32) : C S64x1 .f32 := extractStridedSlice S64x1 ![64, 0] x9 slices_S128x1_S64x1_64_0

/-! ## The chain -/

section Chain
variable (x0 : C S50000x128 .f32) (x1 : C S2x800000 .i32) (x2 : C S50000 .i32) (x3 : C S128x64 .f32) (x4 : C S64 .f32)
  (x5 : C S8x64x64 .f32) (x6 : C S8x64 .f32) (x7 x8 : C S64x64 .f32) (x9 : C S128x1 .f32)

/-- Bias of fused call t (t = 0 … 8): b0, then the hidden biases. -/
def bias : Fin 9 → C S1x64 .f32
  | ⟨0, _⟩ => b0row x4
  | ⟨t + 1, h⟩ => bsl ⟨t, by omega⟩ x6
/-- Weight of fused call t (t = 0 … 8): the hidden weights, then w_node. -/
def weight : Fin 9 → C S64x64 .f32
  | ⟨8, _⟩ => x7
  | ⟨t, h⟩ => if h8 : t < 8 then wsl ⟨t, h8⟩ x5 else x7

/-- The table after call t (t = 0: the first call; t = k + 1: fused call k), for t = 0 … 8. -/
def T : (t : Nat) → C S50000x64 .bf16
  | 0 => G0 x0 (disCol x1) x3
  | t + 1 => Gf (agg (T t) x1) (disCol x1) (if h : t < 9 then bias x4 x6 ⟨t, h⟩ else b0row x4) (if h : t < 9 then weight x5 x7 ⟨t, h⟩ else x7)
/-- The node transform's output. -/
def HNT : C S50000x64 .f32 := Gp (agg (T x0 x1 x3 x4 x5 x6 x7 8) x1) (disCol x1) (bias x4 x6 8) (weight x5 x7 8)
/-- The program's result. -/
def OUT : C S50000x1 .f32 :=
  G10 (HNT x0 x1 x3 x4 x5 x6 x7) (nbCol x2) (pt (HNT x0 x1 x3 x4 x5 x6 x7) x2 x8) (wa1 x9) (wa2 x9)

/-! The chain unfolded, one equation per call. -/

theorem T_0 : T x0 x1 x3 x4 x5 x6 x7 0 = G0 x0 (disCol x1) x3 := rfl
theorem T_1 : T x0 x1 x3 x4 x5 x6 x7 1 = Gf (agg (T x0 x1 x3 x4 x5 x6 x7 0) x1) (disCol x1) (b0row x4) (wsl 0 x5) := rfl
theorem T_2 : T x0 x1 x3 x4 x5 x6 x7 2 = Gf (agg (T x0 x1 x3 x4 x5 x6 x7 1) x1) (disCol x1) (bsl 0 x6) (wsl 1 x5) := rfl
theorem T_3 : T x0 x1 x3 x4 x5 x6 x7 3 = Gf (agg (T x0 x1 x3 x4 x5 x6 x7 2) x1) (disCol x1) (bsl 1 x6) (wsl 2 x5) := rfl
theorem T_4 : T x0 x1 x3 x4 x5 x6 x7 4 = Gf (agg (T x0 x1 x3 x4 x5 x6 x7 3) x1) (disCol x1) (bsl 2 x6) (wsl 3 x5) := rfl
theorem T_5 : T x0 x1 x3 x4 x5 x6 x7 5 = Gf (agg (T x0 x1 x3 x4 x5 x6 x7 4) x1) (disCol x1) (bsl 3 x6) (wsl 4 x5) := rfl
theorem T_6 : T x0 x1 x3 x4 x5 x6 x7 6 = Gf (agg (T x0 x1 x3 x4 x5 x6 x7 5) x1) (disCol x1) (bsl 4 x6) (wsl 5 x5) := rfl
theorem T_7 : T x0 x1 x3 x4 x5 x6 x7 7 = Gf (agg (T x0 x1 x3 x4 x5 x6 x7 6) x1) (disCol x1) (bsl 5 x6) (wsl 6 x5) := rfl
theorem T_8 : T x0 x1 x3 x4 x5 x6 x7 8 = Gf (agg (T x0 x1 x3 x4 x5 x6 x7 7) x1) (disCol x1) (bsl 6 x6) (wsl 7 x5) := rfl
theorem HNT_eq : HNT x0 x1 x3 x4 x5 x6 x7 = Gp (agg (T x0 x1 x3 x4 x5 x6 x7 8) x1) (disCol x1) (bsl 7 x6) x7 := rfl
theorem OUT_eq : OUT x0 x1 x2 x3 x4 x5 x6 x7 x8 x9 =
    G10 (HNT x0 x1 x3 x4 x5 x6 x7) (nbCol x2) (pt (HNT x0 x1 x3 x4 x5 x6 x7) x2 x8) (wa1 x9) (wa2 x9) := rfl

end Chain

end Cert.KernelIdeal.KV

end
-- ==== Proof.Keep.lean ====
import proofs.«430747_j26834955666046_2_alg».proof.Proof.Gen.KernelIdeal.Frame

/-! # Which buffers each segment of @main leaves unchanged

@main is 13 stretches of host operations and 11 regions; the frame gives the buffer contents at the 25 boundaries
`Gen.W0 … Gen.W24`. A host stretch changes only the references its operations write; a region changes only its output
array (its input windows' arrays are read back as entered, every other buffer is untouched). Per boundary `j` the set
`S j` of references that may change across it, the step `W j = W (j-1)` off `S j`, and the steps chained back to
boundary 3 (region 0's entry), to boundary 5 (region 1's entry), and from boundary 3 to the launch memory. -/

noncomputable section

namespace Cert.KernelIdeal.Keep

open Idealize.ShloMosaic Idealize.ShloMosaic.TcCoe
open Cert.KernelIdeal.Gen (hostOps0 hostOps0_1 hostOps0_2 hostOps1 hostOps2 hostOps3 hostOps4 hostOps5 hostOps6 hostOps7 hostOps8 hostOps9 hostOps10)

variable {F : FTy → Type} [FloatOps F]
variable (m : (ℓ : Loc nD τ sig) → Buf (Elt F) ℓ) (ρ : Dev nD → PrngReg)

/-! ## What the host stretches write -/

/-- Every operation of a host stretch writes a reference of the given list: the stretch is unfolded to its
    operations, each operation's written set is a singleton, and the singleton's member is found in the list. -/
macro "writes_in_list" : tactic => `(tactic| (
  simp only [List.Forall, StableHlo.nullary_writes, StableHlo.unary_writes, StableHlo.binary_writes,
    StableHlo.ternary_writes, StableHlo.quaternary_writes, StableHlo.reshape_writes, StableHlo.binaryIndexed_writes,
    StableHlo.unaryIndexed_writes, StableHlo.nary_writes, Finset.singleton_subset_iff, List.mem_toFinset]
  repeat' apply And.intro
  all_goals exact List.mem_map_of_mem (by decide)))

/-- The 21 references `hostOps0`'s operations write. -/
abbrev hostOps0_W : List (Ref sig .tc) := [main_v0, main_v1, main_v2, main_v3, main_v4, main_v5, main_v6, main_cst, main_v7, main_cst_0, main_v8, main_v9, main_v10, main_cst_1, main_v11, main_v12, main_cst_2, main_v13, main_v14, main_v15, main_cst_3]
theorem hostOps0_writes : (hostOps0 : List (HloOp τ sig (Elt F))).Forall fun op => op.writes ⊆ (hostOps0_W.map (Proc.devRef (τ := τ) .tc)).toFinset := by
  writes_in_list
/-- The 3 references `hostOps0_1`'s operations write. -/
abbrev hostOps0_1_W : List (Ref sig .tc) := [main_call0_v0, main_call0_v1, main_v16]
theorem hostOps0_1_writes : (hostOps0_1 : List (HloOp τ sig (Elt F))).Forall fun op => op.writes ⊆ (hostOps0_1_W.map (Proc.devRef (τ := τ) .tc)).toFinset := by
  writes_in_list
/-- The 2 references `hostOps0_2`'s operations write. -/
abbrev hostOps0_2_W : List (Ref sig .tc) := [main_v17, main_v18]
theorem hostOps0_2_writes : (hostOps0_2 : List (HloOp τ sig (Elt F))).Forall fun op => op.writes ⊆ (hostOps0_2_W.map (Proc.devRef (τ := τ) .tc)).toFinset := by
  writes_in_list
/-- The 47 references `hostOps1`'s operations write. -/
abbrev hostOps1_W : List (Ref sig .tc) := [main_c, main_v20, main_v21, main_c_4, main_v22, main_v23, main_v24, main_v25, main_v26, main_v27, main_cst_5, main_v28, main_v29, main_v30, main_v31, main_v32, main_v33, main_v34, main_v35, main_v36, main_v37, main_v38, main_v39, main_v40, main_v41, main_v42, main_v43, main_v44, main_v45, main_v46, main_v47, main_v48, main_v49, main_v50, main_v51, main_v52, main_v53, main_v54, main_v55, main_v56, main_v57, main_v58, main_v59, main_v60, main_v61, main_v62, main_v63]
theorem hostOps1_writes : (hostOps1 : List (HloOp τ sig (Elt F))).Forall fun op => op.writes ⊆ (hostOps1_W.map (Proc.devRef (τ := τ) .tc)).toFinset := by
  writes_in_list
/-- The 15 references `hostOps2`'s operations write. -/
abbrev hostOps2_W : List (Ref sig .tc) := [main_c_6, main_v65, main_v66, main_c_7, main_v67, main_v68, main_v69, main_v70, main_v71, main_v72, main_cst_8, main_v73, main_v74, main_v75, main_v76]
theorem hostOps2_writes : (hostOps2 : List (HloOp τ sig (Elt F))).Forall fun op => op.writes ⊆ (hostOps2_W.map (Proc.devRef (τ := τ) .tc)).toFinset := by
  writes_in_list
/-- The 15 references `hostOps3`'s operations write. -/
abbrev hostOps3_W : List (Ref sig .tc) := [main_c_9, main_v78, main_v79, main_c_10, main_v80, main_v81, main_v82, main_v83, main_v84, main_v85, main_cst_11, main_v86, main_v87, main_v88, main_v89]
theorem hostOps3_writes : (hostOps3 : List (HloOp τ sig (Elt F))).Forall fun op => op.writes ⊆ (hostOps3_W.map (Proc.devRef (τ := τ) .tc)).toFinset := by
  writes_in_list
/-- The 15 references `hostOps4`'s operations write. -/
abbrev hostOps4_W : List (Ref sig .tc) := [main_c_12, main_v91, main_v92, main_c_13, main_v93, main_v94, main_v95, main_v96, main_v97, main_v98, main_cst_14, main_v99, main_v100, main_v101, main_v102]
theorem hostOps4_writes : (hostOps4 : List (HloOp τ sig (Elt F))).Forall fun op => op.writes ⊆ (hostOps4_W.map (Proc.devRef (τ := τ) .tc)).toFinset := by
  writes_in_list
/-- The 15 references `hostOps5`'s operations write. -/
abbrev hostOps5_W : List (Ref sig .tc) := [main_c_15, main_v104, main_v105, main_c_16, main_v106, main_v107, main_v108, main_v109, main_v110, main_v111, main_cst_17, main_v112, main_v113, main_v114, main_v115]
theorem hostOps5_writes : (hostOps5 : List (HloOp τ sig (Elt F))).Forall fun op => op.writes ⊆ (hostOps5_W.map (Proc.devRef (τ := τ) .tc)).toFinset := by
  writes_in_list
/-- The 15 references `hostOps6`'s operations write. -/
abbrev hostOps6_W : List (Ref sig .tc) := [main_c_18, main_v117, main_v118, main_c_19, main_v119, main_v120, main_v121, main_v122, main_v123, main_v124, main_cst_20, main_v125, main_v126, main_v127, main_v128]
theorem hostOps6_writes : (hostOps6 : List (HloOp τ sig (Elt F))).Forall fun op => op.writes ⊆ (hostOps6_W.map (Proc.devRef (τ := τ) .tc)).toFinset := by
  writes_in_list
/-- The 15 references `hostOps7`'s operations write. -/
abbrev hostOps7_W : List (Ref sig .tc) := [main_c_21, main_v130, main_v131, main_c_22, main_v132, main_v133, main_v134, main_v135, main_v136, main_v137, main_cst_23, main_v138, main_v139, main_v140, main_v141]
theorem hostOps7_writes : (hostOps7 : List (HloOp τ sig (Elt F))).Forall fun op => op.writes ⊆ (hostOps7_W.map (Proc.devRef (τ := τ) .tc)).toFinset := by
  writes_in_list
/-- The 15 references `hostOps8`'s operations write. -/
abbrev hostOps8_W : List (Ref sig .tc) := [main_c_24, main_v143, main_v144, main_c_25, main_v145, main_v146, main_v147, main_v148, main_v149, main_v150, main_cst_26, main_v151, main_v152, main_v153, main_v154]
theorem hostOps8_writes : (hostOps8 : List (HloOp τ sig (Elt F))).Forall fun op => op.writes ⊆ (hostOps8_W.map (Proc.devRef (τ := τ) .tc)).toFinset := by
  writes_in_list
/-- The 15 references `hostOps9`'s operations write. -/
abbrev hostOps9_W : List (Ref sig .tc) := [main_c_27, main_v156, main_v157, main_c_28, main_v158, main_v159, main_v160, main_v161, main_v162, main_v163, main_cst_29, main_v164, main_v165, main_v166, main_v167]
theorem hostOps9_writes : (hostOps9 : List (HloOp τ sig (Elt F))).Forall fun op => op.writes ⊆ (hostOps9_W.map (Proc.devRef (τ := τ) .tc)).toFinset := by
  writes_in_list
/-- The 7 references `hostOps10`'s operations write. -/
abbrev hostOps10_W : List (Ref sig .tc) := [main_cst_30, main_v169, main_v170, main_v171, main_v172, main_v173, main_v174]
theorem hostOps10_writes : (hostOps10 : List (HloOp τ sig (Elt F))).Forall fun op => op.writes ⊆ (hostOps10_W.map (Proc.devRef (τ := τ) .tc)).toFinset := by
  writes_in_list

/-! ## A region's windows other than its output are inputs -/

/-- Region 0: a window whose array is not `main_v19` is an input window. -/
theorem in0 (w : Fin cfg0.W) (h : Pipeline.arrRef spec0 w ∉ ([main_v19] : List (Ref sig .tc))) : (cfg0.win w).isOut = false := by
  revert h; fin_cases w <;> first | (intro _; rfl) | (intro h; exact absurd (by decide) h)
/-- Region 1: a window whose array is not `main_v64` is an input window. -/
theorem in1 (w : Fin cfg1.W) (h : Pipeline.arrRef spec1 w ∉ ([main_v64] : List (Ref sig .tc))) : (cfg1.win w).isOut = false := by
  revert h; fin_cases w <;> first | (intro _; rfl) | (intro h; exact absurd (by decide) h)
/-- Region 2: a window whose array is not `main_v77` is an input window. -/
theorem in2 (w : Fin cfg2.W) (h : Pipeline.arrRef spec2 w ∉ ([main_v77] : List (Ref sig .tc))) : (cfg2.win w).isOut = false := by
  revert h; fin_cases w <;> first | (intro _; rfl) | (intro h; exact absurd (by decide) h)
/-- Region 3: a window whose array is not `main_v90` is an input window. -/
theorem in3 (w : Fin cfg3.W) (h : Pipeline.arrRef spec3 w ∉ ([main_v90] : List (Ref sig .tc))) : (cfg3.win w).isOut = false := by
  revert h; fin_cases w <;> first | (intro _; rfl) | (intro h; exact absurd (by decide) h)
/-- Region 4: a window whose array is not `main_v103` is an input window. -/
theorem in4 (w : Fin cfg4.W) (h : Pipeline.arrRef spec4 w ∉ ([main_v103] : List (Ref sig .tc))) : (cfg4.win w).isOut = false := by
  revert h; fin_cases w <;> first | (intro _; rfl) | (intro h; exact absurd (by decide) h)
/-- Region 5: a window whose array is not `main_v116` is an input window. -/
theorem in5 (w : Fin cfg5.W) (h : Pipeline.arrRef spec5 w ∉ ([main_v116] : List (Ref sig .tc))) : (cfg5.win w).isOut = false := by
  revert h; fin_cases w <;> first | (intro _; rfl) | (intro h; exact absurd (by decide) h)
/-- Region 6: a window whose array is not `main_v129` is an input window. -/
theorem in6 (w : Fin cfg6.W) (h : Pipeline.arrRef spec6 w ∉ ([main_v129] : List (Ref sig .tc))) : (cfg6.win w).isOut = false := by
  revert h; fin_cases w <;> first | (intro _; rfl) | (intro h; exact absurd (by decide) h)
/-- Region 7: a window whose array is not `main_v142` is an input window. -/
theorem in7 (w : Fin cfg7.W) (h : Pipeline.arrRef spec7 w ∉ ([main_v142] : List (Ref sig .tc))) : (cfg7.win w).isOut = false := by
  revert h; fin_cases w <;> first | (intro _; rfl) | (intro h; exact absurd (by decide) h)
/-- Region 8: a window whose array is not `main_v155` is an input window. -/
theorem in8 (w : Fin cfg8.W) (h : Pipeline.arrRef spec8 w ∉ ([main_v155] : List (Ref sig .tc))) : (cfg8.win w).isOut = false := by
  revert h; fin_cases w <;> first | (intro _; rfl) | (intro h; exact absurd (by decide) h)
/-- Region 9: a window whose array is not `main_v168` is an input window. -/
theorem in9 (w : Fin cfg9.W) (h : Pipeline.arrRef spec9 w ∉ ([main_v168] : List (Ref sig .tc))) : (cfg9.win w).isOut = false := by
  revert h; fin_cases w <;> first | (intro _; rfl) | (intro h; exact absurd (by decide) h)
/-- Region 10: a window whose array is not `main_v175` is an input window. -/
theorem in10 (w : Fin cfg10.W) (h : Pipeline.arrRef spec10 w ∉ ([main_v175] : List (Ref sig .tc))) : (cfg10.win w).isOut = false := by
  revert h; fin_cases w <;> first | (intro _; rfl) | (intro h; exact absurd (by decide) h)

/-! ## The references that may change across each boundary -/

/-- Across boundary 1 (the host stretch `hostOps0`). -/
abbrev S1 : List (Ref sig .tc) := hostOps0_W
/-- Across boundary 2 (the host stretch `hostOps0_1`). -/
abbrev S2 : List (Ref sig .tc) := hostOps0_1_W
/-- Across boundary 3 (the host stretch `hostOps0_2`). -/
abbrev S3 : List (Ref sig .tc) := hostOps0_2_W
/-- Across boundary 4 (region 0): its output array. -/
abbrev S4 : List (Ref sig .tc) := [main_v19]
/-- Across boundary 5 (the host stretch `hostOps1`). -/
abbrev S5 : List (Ref sig .tc) := hostOps1_W
/-- Across boundary 6 (region 1): its output array. -/
abbrev S6 : List (Ref sig .tc) := [main_v64]
/-- Across boundary 7 (the host stretch `hostOps2`). -/
abbrev S7 : List (Ref sig .tc) := hostOps2_W
/-- Across boundary 8 (region 2): its output array. -/
abbrev S8 : List (Ref sig .tc) := [main_v77]
/-- Across boundary 9 (the host stretch `hostOps3`). -/
abbrev S9 : List (Ref sig .tc) := hostOps3_W
/-- Across boundary 10 (region 3): its output array. -/
abbrev S10 : List (Ref sig .tc) := [main_v90]
/-- Across boundary 11 (the host stretch `hostOps4`). -/
abbrev S11 : List (Ref sig .tc) := hostOps4_W
/-- Across boundary 12 (region 4): its output array. -/
abbrev S12 : List (Ref sig .tc) := [main_v103]
/-- Across boundary 13 (the host stretch `hostOps5`). -/
abbrev S13 : List (Ref sig .tc) := hostOps5_W
/-- Across boundary 14 (region 5): its output array. -/
abbrev S14 : List (Ref sig .tc) := [main_v116]
/-- Across boundary 15 (the host stretch `hostOps6`). -/
abbrev S15 : List (Ref sig .tc) := hostOps6_W
/-- Across boundary 16 (region 6): its output array. -/
abbrev S16 : List (Ref sig .tc) := [main_v129]
/-- Across boundary 17 (the host stretch `hostOps7`). -/
abbrev S17 : List (Ref sig .tc) := hostOps7_W
/-- Across boundary 18 (region 7): its output array. -/
abbrev S18 : List (Ref sig .tc) := [main_v142]
/-- Across boundary 19 (the host stretch `hostOps8`). -/
abbrev S19 : List (Ref sig .tc) := hostOps8_W
/-- Across boundary 20 (region 8): its output array. -/
abbrev S20 : List (Ref sig .tc) := [main_v155]
/-- Across boundary 21 (the host stretch `hostOps9`). -/
abbrev S21 : List (Ref sig .tc) := hostOps9_W
/-- Across boundary 22 (region 9): its output array. -/
abbrev S22 : List (Ref sig .tc) := [main_v168]
/-- Across boundary 23 (the host stretch `hostOps10`). -/
abbrev S23 : List (Ref sig .tc) := hostOps10_W
/-- Across boundary 24 (region 10): its output array. -/
abbrev S24 : List (Ref sig .tc) := [main_v175]

/-! ## One boundary at a time -/

theorem W1_step (c : Dev nD) (r : Ref sig .tc) (h : r ∉ S1) :
    Gen.W1 m ρ c (Proc.devRef .tc r) = Gen.W0 m ρ c (Proc.devRef .tc r) :=
  StableHlo.after_of_writes_sub hostOps0 _ hostOps0_writes h
theorem W2_step (c : Dev nD) (r : Ref sig .tc) (h : r ∉ S2) :
    Gen.W2 m ρ c (Proc.devRef .tc r) = Gen.W1 m ρ c (Proc.devRef .tc r) :=
  StableHlo.after_of_writes_sub hostOps0_1 _ hostOps0_1_writes h
theorem W3_step (c : Dev nD) (r : Ref sig .tc) (h : r ∉ S3) :
    Gen.W3 m ρ c (Proc.devRef .tc r) = Gen.W2 m ρ c (Proc.devRef .tc r) :=
  StableHlo.after_of_writes_sub hostOps0_2 _ hostOps0_2_writes h
theorem W4_step (c : Dev nD) (r : Ref sig .tc) (h : r ∉ S4) :
    Gen.W4 m ρ c (Proc.devRef .tc r) = Gen.W3 m ρ c (Proc.devRef .tc r) := by
  by_cases hr : ∃ w, Pipeline.arrRef spec0 w = r
  · obtain ⟨w, rfl⟩ := hr
    exact (Gen.W4_arr m ρ c w).trans (((Gen.dat0 (Gen.V3 m ρ) c).arrAt_in w (in0 w h) _).trans (Gen.A_eq0 (Gen.V3 m ρ) c w))
  · exact Gen.W4_of_ne m ρ c r (fun w e => hr ⟨w, e⟩)
theorem W5_step (c : Dev nD) (r : Ref sig .tc) (h : r ∉ S5) :
    Gen.W5 m ρ c (Proc.devRef .tc r) = Gen.W4 m ρ c (Proc.devRef .tc r) :=
  StableHlo.after_of_writes_sub hostOps1 _ hostOps1_writes h
theorem W6_step (c : Dev nD) (r : Ref sig .tc) (h : r ∉ S6) :
    Gen.W6 m ρ c (Proc.devRef .tc r) = Gen.W5 m ρ c (Proc.devRef .tc r) := by
  by_cases hr : ∃ w, Pipeline.arrRef spec1 w = r
  · obtain ⟨w, rfl⟩ := hr
    exact (Gen.W6_arr m ρ c w).trans (((Gen.dat1 (Gen.V5 m ρ) c).arrAt_in w (in1 w h) _).trans (Gen.A_eq1 (Gen.V5 m ρ) c w))
  · exact Gen.W6_of_ne m ρ c r (fun w e => hr ⟨w, e⟩)
theorem W7_step (c : Dev nD) (r : Ref sig .tc) (h : r ∉ S7) :
    Gen.W7 m ρ c (Proc.devRef .tc r) = Gen.W6 m ρ c (Proc.devRef .tc r) :=
  StableHlo.after_of_writes_sub hostOps2 _ hostOps2_writes h
theorem W8_step (c : Dev nD) (r : Ref sig .tc) (h : r ∉ S8) :
    Gen.W8 m ρ c (Proc.devRef .tc r) = Gen.W7 m ρ c (Proc.devRef .tc r) := by
  by_cases hr : ∃ w, Pipeline.arrRef spec2 w = r
  · obtain ⟨w, rfl⟩ := hr
    exact (Gen.W8_arr m ρ c w).trans (((Gen.dat2 (Gen.V7 m ρ) c).arrAt_in w (in2 w h) _).trans (Gen.A_eq2 (Gen.V7 m ρ) c w))
  · exact Gen.W8_of_ne m ρ c r (fun w e => hr ⟨w, e⟩)
theorem W9_step (c : Dev nD) (r : Ref sig .tc) (h : r ∉ S9) :
    Gen.W9 m ρ c (Proc.devRef .tc r) = Gen.W8 m ρ c (Proc.devRef .tc r) :=
  StableHlo.after_of_writes_sub hostOps3 _ hostOps3_writes h
theorem W10_step (c : Dev nD) (r : Ref sig .tc) (h : r ∉ S10) :
    Gen.W10 m ρ c (Proc.devRef .tc r) = Gen.W9 m ρ c (Proc.devRef .tc r) := by
  by_cases hr : ∃ w, Pipeline.arrRef spec3 w = r
  · obtain ⟨w, rfl⟩ := hr
    exact (Gen.W10_arr m ρ c w).trans (((Gen.dat3 (Gen.V9 m ρ) c).arrAt_in w (in3 w h) _).trans (Gen.A_eq3 (Gen.V9 m ρ) c w))
  · exact Gen.W10_of_ne m ρ c r (fun w e => hr ⟨w, e⟩)
theorem W11_step (c : Dev nD) (r : Ref sig .tc) (h : r ∉ S11) :
    Gen.W11 m ρ c (Proc.devRef .tc r) = Gen.W10 m ρ c (Proc.devRef .tc r) :=
  StableHlo.after_of_writes_sub hostOps4 _ hostOps4_writes h
theorem W12_step (c : Dev nD) (r : Ref sig .tc) (h : r ∉ S12) :
    Gen.W12 m ρ c (Proc.devRef .tc r) = Gen.W11 m ρ c (Proc.devRef .tc r) := by
  by_cases hr : ∃ w, Pipeline.arrRef spec4 w = r
  · obtain ⟨w, rfl⟩ := hr
    exact (Gen.W12_arr m ρ c w).trans (((Gen.dat4 (Gen.V11 m ρ) c).arrAt_in w (in4 w h) _).trans (Gen.A_eq4 (Gen.V11 m ρ) c w))
  · exact Gen.W12_of_ne m ρ c r (fun w e => hr ⟨w, e⟩)
theorem W13_step (c : Dev nD) (r : Ref sig .tc) (h : r ∉ S13) :
    Gen.W13 m ρ c (Proc.devRef .tc r) = Gen.W12 m ρ c (Proc.devRef .tc r) :=
  StableHlo.after_of_writes_sub hostOps5 _ hostOps5_writes h
theorem W14_step (c : Dev nD) (r : Ref sig .tc) (h : r ∉ S14) :
    Gen.W14 m ρ c (Proc.devRef .tc r) = Gen.W13 m ρ c (Proc.devRef .tc r) := by
  by_cases hr : ∃ w, Pipeline.arrRef spec5 w = r
  · obtain ⟨w, rfl⟩ := hr
    exact (Gen.W14_arr m ρ c w).trans (((Gen.dat5 (Gen.V13 m ρ) c).arrAt_in w (in5 w h) _).trans (Gen.A_eq5 (Gen.V13 m ρ) c w))
  · exact Gen.W14_of_ne m ρ c r (fun w e => hr ⟨w, e⟩)
theorem W15_step (c : Dev nD) (r : Ref sig .tc) (h : r ∉ S15) :
    Gen.W15 m ρ c (Proc.devRef .tc r) = Gen.W14 m ρ c (Proc.devRef .tc r) :=
  StableHlo.after_of_writes_sub hostOps6 _ hostOps6_writes h
theorem W16_step (c : Dev nD) (r : Ref sig .tc) (h : r ∉ S16) :
    Gen.W16 m ρ c (Proc.devRef .tc r) = Gen.W15 m ρ c (Proc.devRef .tc r) := by
  by_cases hr : ∃ w, Pipeline.arrRef spec6 w = r
  · obtain ⟨w, rfl⟩ := hr
    exact (Gen.W16_arr m ρ c w).trans (((Gen.dat6 (Gen.V15 m ρ) c).arrAt_in w (in6 w h) _).trans (Gen.A_eq6 (Gen.V15 m ρ) c w))
  · exact Gen.W16_of_ne m ρ c r (fun w e => hr ⟨w, e⟩)
theorem W17_step (c : Dev nD) (r : Ref sig .tc) (h : r ∉ S17) :
    Gen.W17 m ρ c (Proc.devRef .tc r) = Gen.W16 m ρ c (Proc.devRef .tc r) :=
  StableHlo.after_of_writes_sub hostOps7 _ hostOps7_writes h
theorem W18_step (c : Dev nD) (r : Ref sig .tc) (h : r ∉ S18) :
    Gen.W18 m ρ c (Proc.devRef .tc r) = Gen.W17 m ρ c (Proc.devRef .tc r) := by
  by_cases hr : ∃ w, Pipeline.arrRef spec7 w = r
  · obtain ⟨w, rfl⟩ := hr
    exact (Gen.W18_arr m ρ c w).trans (((Gen.dat7 (Gen.V17 m ρ) c).arrAt_in w (in7 w h) _).trans (Gen.A_eq7 (Gen.V17 m ρ) c w))
  · exact Gen.W18_of_ne m ρ c r (fun w e => hr ⟨w, e⟩)
theorem W19_step (c : Dev nD) (r : Ref sig .tc) (h : r ∉ S19) :
    Gen.W19 m ρ c (Proc.devRef .tc r) = Gen.W18 m ρ c (Proc.devRef .tc r) :=
  StableHlo.after_of_writes_sub hostOps8 _ hostOps8_writes h
theorem W20_step (c : Dev nD) (r : Ref sig .tc) (h : r ∉ S20) :
    Gen.W20 m ρ c (Proc.devRef .tc r) = Gen.W19 m ρ c (Proc.devRef .tc r) := by
  by_cases hr : ∃ w, Pipeline.arrRef spec8 w = r
  · obtain ⟨w, rfl⟩ := hr
    exact (Gen.W20_arr m ρ c w).trans (((Gen.dat8 (Gen.V19 m ρ) c).arrAt_in w (in8 w h) _).trans (Gen.A_eq8 (Gen.V19 m ρ) c w))
  · exact Gen.W20_of_ne m ρ c r (fun w e => hr ⟨w, e⟩)
theorem W21_step (c : Dev nD) (r : Ref sig .tc) (h : r ∉ S21) :
    Gen.W21 m ρ c (Proc.devRef .tc r) = Gen.W20 m ρ c (Proc.devRef .tc r) :=
  StableHlo.after_of_writes_sub hostOps9 _ hostOps9_writes h
theorem W22_step (c : Dev nD) (r : Ref sig .tc) (h : r ∉ S22) :
    Gen.W22 m ρ c (Proc.devRef .tc r) = Gen.W21 m ρ c (Proc.devRef .tc r) := by
  by_cases hr : ∃ w, Pipeline.arrRef spec9 w = r
  · obtain ⟨w, rfl⟩ := hr
    exact (Gen.W22_arr m ρ c w).trans (((Gen.dat9 (Gen.V21 m ρ) c).arrAt_in w (in9 w h) _).trans (Gen.A_eq9 (Gen.V21 m ρ) c w))
  · exact Gen.W22_of_ne m ρ c r (fun w e => hr ⟨w, e⟩)
theorem W23_step (c : Dev nD) (r : Ref sig .tc) (h : r ∉ S23) :
    Gen.W23 m ρ c (Proc.devRef .tc r) = Gen.W22 m ρ c (Proc.devRef .tc r) :=
  StableHlo.after_of_writes_sub hostOps10 _ hostOps10_writes h
theorem W24_step (c : Dev nD) (r : Ref sig .tc) (h : r ∉ S24) :
    Gen.W24 m ρ c (Proc.devRef .tc r) = Gen.W23 m ρ c (Proc.devRef .tc r) := by
  by_cases hr : ∃ w, Pipeline.arrRef spec10 w = r
  · obtain ⟨w, rfl⟩ := hr
    exact (Gen.W24_arr m ρ c w).trans (((Gen.dat10 (Gen.V23 m ρ) c).arrAt_in w (in10 w h) _).trans (Gen.A_eq10 (Gen.V23 m ρ) c w))
  · exact Gen.W24_of_ne m ρ c r (fun w e => hr ⟨w, e⟩)

/-! ## Back to boundary 3 -/

abbrev L3_4 : List (Ref sig .tc) := S4
theorem from3_4 (c : Dev nD) (r : Ref sig .tc) (h : r ∉ L3_4) :
    Gen.W4 m ρ c (Proc.devRef .tc r) = Gen.W3 m ρ c (Proc.devRef .tc r) :=
  W4_step m ρ c r h
abbrev L3_5 : List (Ref sig .tc) := L3_4 ++ S5
theorem from3_5 (c : Dev nD) (r : Ref sig .tc) (h : r ∉ L3_5) :
    Gen.W5 m ρ c (Proc.devRef .tc r) = Gen.W3 m ρ c (Proc.devRef .tc r) :=
  (W5_step m ρ c r fun hm => h (List.mem_append_right _ hm)).trans
    (from3_4 m ρ c r fun hm => h (List.mem_append_left _ hm))
abbrev L3_6 : List (Ref sig .tc) := L3_5 ++ S6
theorem from3_6 (c : Dev nD) (r : Ref sig .tc) (h : r ∉ L3_6) :
    Gen.W6 m ρ c (Proc.devRef .tc r) = Gen.W3 m ρ c (Proc.devRef .tc r) :=
  (W6_step m ρ c r fun hm => h (List.mem_append_right _ hm)).trans
    (from3_5 m ρ c r fun hm => h (List.mem_append_left _ hm))
abbrev L3_7 : List (Ref sig .tc) := L3_6 ++ S7
theorem from3_7 (c : Dev nD) (r : Ref sig .tc) (h : r ∉ L3_7) :
    Gen.W7 m ρ c (Proc.devRef .tc r) = Gen.W3 m ρ c (Proc.devRef .tc r) :=
  (W7_step m ρ c r fun hm => h (List.mem_append_right _ hm)).trans
    (from3_6 m ρ c r fun hm => h (List.mem_append_left _ hm))
abbrev L3_8 : List (Ref sig .tc) := L3_7 ++ S8
theorem from3_8 (c : Dev nD) (r : Ref sig .tc) (h : r ∉ L3_8) :
    Gen.W8 m ρ c (Proc.devRef .tc r) = Gen.W3 m ρ c (Proc.devRef .tc r) :=
  (W8_step m ρ c r fun hm => h (List.mem_append_right _ hm)).trans
    (from3_7 m ρ c r fun hm => h (List.mem_append_left _ hm))
abbrev L3_9 : List (Ref sig .tc) := L3_8 ++ S9
theorem from3_9 (c : Dev nD) (r : Ref sig .tc) (h : r ∉ L3_9) :
    Gen.W9 m ρ c (Proc.devRef .tc r) = Gen.W3 m ρ c (Proc.devRef .tc r) :=
  (W9_step m ρ c r fun hm => h (List.mem_append_right _ hm)).trans
    (from3_8 m ρ c r fun hm => h (List.mem_append_left _ hm))
abbrev L3_10 : List (Ref sig .tc) := L3_9 ++ S10
theorem from3_10 (c : Dev nD) (r : Ref sig .tc) (h : r ∉ L3_10) :
    Gen.W10 m ρ c (Proc.devRef .tc r) = Gen.W3 m ρ c (Proc.devRef .tc r) :=
  (W10_step m ρ c r fun hm => h (List.mem_append_right _ hm)).trans
    (from3_9 m ρ c r fun hm => h (List.mem_append_left _ hm))
abbrev L3_11 : List (Ref sig .tc) := L3_10 ++ S11
theorem from3_11 (c : Dev nD) (r : Ref sig .tc) (h : r ∉ L3_11) :
    Gen.W11 m ρ c (Proc.devRef .tc r) = Gen.W3 m ρ c (Proc.devRef .tc r) :=
  (W11_step m ρ c r fun hm => h (List.mem_append_right _ hm)).trans
    (from3_10 m ρ c r fun hm => h (List.mem_append_left _ hm))
abbrev L3_12 : List (Ref sig .tc) := L3_11 ++ S12
theorem from3_12 (c : Dev nD) (r : Ref sig .tc) (h : r ∉ L3_12) :
    Gen.W12 m ρ c (Proc.devRef .tc r) = Gen.W3 m ρ c (Proc.devRef .tc r) :=
  (W12_step m ρ c r fun hm => h (List.mem_append_right _ hm)).trans
    (from3_11 m ρ c r fun hm => h (List.mem_append_left _ hm))
abbrev L3_13 : List (Ref sig .tc) := L3_12 ++ S13
theorem from3_13 (c : Dev nD) (r : Ref sig .tc) (h : r ∉ L3_13) :
    Gen.W13 m ρ c (Proc.devRef .tc r) = Gen.W3 m ρ c (Proc.devRef .tc r) :=
  (W13_step m ρ c r fun hm => h (List.mem_append_right _ hm)).trans
    (from3_12 m ρ c r fun hm => h (List.mem_append_left _ hm))
abbrev L3_14 : List (Ref sig .tc) := L3_13 ++ S14
theorem from3_14 (c : Dev nD) (r : Ref sig .tc) (h : r ∉ L3_14) :
    Gen.W14 m ρ c (Proc.devRef .tc r) = Gen.W3 m ρ c (Proc.devRef .tc r) :=
  (W14_step m ρ c r fun hm => h (List.mem_append_right _ hm)).trans
    (from3_13 m ρ c r fun hm => h (List.mem_append_left _ hm))
abbrev L3_15 : List (Ref sig .tc) := L3_14 ++ S15
theorem from3_15 (c : Dev nD) (r : Ref sig .tc) (h : r ∉ L3_15) :
    Gen.W15 m ρ c (Proc.devRef .tc r) = Gen.W3 m ρ c (Proc.devRef .tc r) :=
  (W15_step m ρ c r fun hm => h (List.mem_append_right _ hm)).trans
    (from3_14 m ρ c r fun hm => h (List.mem_append_left _ hm))
abbrev L3_16 : List (Ref sig .tc) := L3_15 ++ S16
theorem from3_16 (c : Dev nD) (r : Ref sig .tc) (h : r ∉ L3_16) :
    Gen.W16 m ρ c (Proc.devRef .tc r) = Gen.W3 m ρ c (Proc.devRef .tc r) :=
  (W16_step m ρ c r fun hm => h (List.mem_append_right _ hm)).trans
    (from3_15 m ρ c r fun hm => h (List.mem_append_left _ hm))
abbrev L3_17 : List (Ref sig .tc) := L3_16 ++ S17
theorem from3_17 (c : Dev nD) (r : Ref sig .tc) (h : r ∉ L3_17) :
    Gen.W17 m ρ c (Proc.devRef .tc r) = Gen.W3 m ρ c (Proc.devRef .tc r) :=
  (W17_step m ρ c r fun hm => h (List.mem_append_right _ hm)).trans
    (from3_16 m ρ c r fun hm => h (List.mem_append_left _ hm))
abbrev L3_18 : List (Ref sig .tc) := L3_17 ++ S18
theorem from3_18 (c : Dev nD) (r : Ref sig .tc) (h : r ∉ L3_18) :
    Gen.W18 m ρ c (Proc.devRef .tc r) = Gen.W3 m ρ c (Proc.devRef .tc r) :=
  (W18_step m ρ c r fun hm => h (List.mem_append_right _ hm)).trans
    (from3_17 m ρ c r fun hm => h (List.mem_append_left _ hm))
abbrev L3_19 : List (Ref sig .tc) := L3_18 ++ S19
theorem from3_19 (c : Dev nD) (r : Ref sig .tc) (h : r ∉ L3_19) :
    Gen.W19 m ρ c (Proc.devRef .tc r) = Gen.W3 m ρ c (Proc.devRef .tc r) :=
  (W19_step m ρ c r fun hm => h (List.mem_append_right _ hm)).trans
    (from3_18 m ρ c r fun hm => h (List.mem_append_left _ hm))
abbrev L3_20 : List (Ref sig .tc) := L3_19 ++ S20
theorem from3_20 (c : Dev nD) (r : Ref sig .tc) (h : r ∉ L3_20) :
    Gen.W20 m ρ c (Proc.devRef .tc r) = Gen.W3 m ρ c (Proc.devRef .tc r) :=
  (W20_step m ρ c r fun hm => h (List.mem_append_right _ hm)).trans
    (from3_19 m ρ c r fun hm => h (List.mem_append_left _ hm))
abbrev L3_21 : List (Ref sig .tc) := L3_20 ++ S21
theorem from3_21 (c : Dev nD) (r : Ref sig .tc) (h : r ∉ L3_21) :
    Gen.W21 m ρ c (Proc.devRef .tc r) = Gen.W3 m ρ c (Proc.devRef .tc r) :=
  (W21_step m ρ c r fun hm => h (List.mem_append_right _ hm)).trans
    (from3_20 m ρ c r fun hm => h (List.mem_append_left _ hm))
abbrev L3_22 : List (Ref sig .tc) := L3_21 ++ S22
theorem from3_22 (c : Dev nD) (r : Ref sig .tc) (h : r ∉ L3_22) :
    Gen.W22 m ρ c (Proc.devRef .tc r) = Gen.W3 m ρ c (Proc.devRef .tc r) :=
  (W22_step m ρ c r fun hm => h (List.mem_append_right _ hm)).trans
    (from3_21 m ρ c r fun hm => h (List.mem_append_left _ hm))
abbrev L3_23 : List (Ref sig .tc) := L3_22 ++ S23
theorem from3_23 (c : Dev nD) (r : Ref sig .tc) (h : r ∉ L3_23) :
    Gen.W23 m ρ c (Proc.devRef .tc r) = Gen.W3 m ρ c (Proc.devRef .tc r) :=
  (W23_step m ρ c r fun hm => h (List.mem_append_right _ hm)).trans
    (from3_22 m ρ c r fun hm => h (List.mem_append_left _ hm))
abbrev L3_24 : List (Ref sig .tc) := L3_23 ++ S24
theorem from3_24 (c : Dev nD) (r : Ref sig .tc) (h : r ∉ L3_24) :
    Gen.W24 m ρ c (Proc.devRef .tc r) = Gen.W3 m ρ c (Proc.devRef .tc r) :=
  (W24_step m ρ c r fun hm => h (List.mem_append_right _ hm)).trans
    (from3_23 m ρ c r fun hm => h (List.mem_append_left _ hm))

/-! ## Back to boundary 5 -/

abbrev L5_6 : List (Ref sig .tc) := S6
theorem from5_6 (c : Dev nD) (r : Ref sig .tc) (h : r ∉ L5_6) :
    Gen.W6 m ρ c (Proc.devRef .tc r) = Gen.W5 m ρ c (Proc.devRef .tc r) :=
  W6_step m ρ c r h
abbrev L5_7 : List (Ref sig .tc) := L5_6 ++ S7
theorem from5_7 (c : Dev nD) (r : Ref sig .tc) (h : r ∉ L5_7) :
    Gen.W7 m ρ c (Proc.devRef .tc r) = Gen.W5 m ρ c (Proc.devRef .tc r) :=
  (W7_step m ρ c r fun hm => h (List.mem_append_right _ hm)).trans
    (from5_6 m ρ c r fun hm => h (List.mem_append_left _ hm))
abbrev L5_8 : List (Ref sig .tc) := L5_7 ++ S8
theorem from5_8 (c : Dev nD) (r : Ref sig .tc) (h : r ∉ L5_8) :
    Gen.W8 m ρ c (Proc.devRef .tc r) = Gen.W5 m ρ c (Proc.devRef .tc r) :=
  (W8_step m ρ c r fun hm => h (List.mem_append_right _ hm)).trans
    (from5_7 m ρ c r fun hm => h (List.mem_append_left _ hm))
abbrev L5_9 : List (Ref sig .tc) := L5_8 ++ S9
theorem from5_9 (c : Dev nD) (r : Ref sig .tc) (h : r ∉ L5_9) :
    Gen.W9 m ρ c (Proc.devRef .tc r) = Gen.W5 m ρ c (Proc.devRef .tc r) :=
  (W9_step m ρ c r fun hm => h (List.mem_append_right _ hm)).trans
    (from5_8 m ρ c r fun hm => h (List.mem_append_left _ hm))
abbrev L5_10 : List (Ref sig .tc) := L5_9 ++ S10
theorem from5_10 (c : Dev nD) (r : Ref sig .tc) (h : r ∉ L5_10) :
    Gen.W10 m ρ c (Proc.devRef .tc r) = Gen.W5 m ρ c (Proc.devRef .tc r) :=
  (W10_step m ρ c r fun hm => h (List.mem_append_right _ hm)).trans
    (from5_9 m ρ c r fun hm => h (List.mem_append_left _ hm))
abbrev L5_11 : List (Ref sig .tc) := L5_10 ++ S11
theorem from5_11 (c : Dev nD) (r : Ref sig .tc) (h : r ∉ L5_11) :
    Gen.W11 m ρ c (Proc.devRef .tc r) = Gen.W5 m ρ c (Proc.devRef .tc r) :=
  (W11_step m ρ c r fun hm => h (List.mem_append_right _ hm)).trans
    (from5_10 m ρ c r fun hm => h (List.mem_append_left _ hm))
abbrev L5_12 : List (Ref sig .tc) := L5_11 ++ S12
theorem from5_12 (c : Dev nD) (r : Ref sig .tc) (h : r ∉ L5_12) :
    Gen.W12 m ρ c (Proc.devRef .tc r) = Gen.W5 m ρ c (Proc.devRef .tc r) :=
  (W12_step m ρ c r fun hm => h (List.mem_append_right _ hm)).trans
    (from5_11 m ρ c r fun hm => h (List.mem_append_left _ hm))
abbrev L5_13 : List (Ref sig .tc) := L5_12 ++ S13
theorem from5_13 (c : Dev nD) (r : Ref sig .tc) (h : r ∉ L5_13) :
    Gen.W13 m ρ c (Proc.devRef .tc r) = Gen.W5 m ρ c (Proc.devRef .tc r) :=
  (W13_step m ρ c r fun hm => h (List.mem_append_right _ hm)).trans
    (from5_12 m ρ c r fun hm => h (List.mem_append_left _ hm))
abbrev L5_14 : List (Ref sig .tc) := L5_13 ++ S14
theorem from5_14 (c : Dev nD) (r : Ref sig .tc) (h : r ∉ L5_14) :
    Gen.W14 m ρ c (Proc.devRef .tc r) = Gen.W5 m ρ c (Proc.devRef .tc r) :=
  (W14_step m ρ c r fun hm => h (List.mem_append_right _ hm)).trans
    (from5_13 m ρ c r fun hm => h (List.mem_append_left _ hm))
abbrev L5_15 : List (Ref sig .tc) := L5_14 ++ S15
theorem from5_15 (c : Dev nD) (r : Ref sig .tc) (h : r ∉ L5_15) :
    Gen.W15 m ρ c (Proc.devRef .tc r) = Gen.W5 m ρ c (Proc.devRef .tc r) :=
  (W15_step m ρ c r fun hm => h (List.mem_append_right _ hm)).trans
    (from5_14 m ρ c r fun hm => h (List.mem_append_left _ hm))
abbrev L5_16 : List (Ref sig .tc) := L5_15 ++ S16
theorem from5_16 (c : Dev nD) (r : Ref sig .tc) (h : r ∉ L5_16) :
    Gen.W16 m ρ c (Proc.devRef .tc r) = Gen.W5 m ρ c (Proc.devRef .tc r) :=
  (W16_step m ρ c r fun hm => h (List.mem_append_right _ hm)).trans
    (from5_15 m ρ c r fun hm => h (List.mem_append_left _ hm))
abbrev L5_17 : List (Ref sig .tc) := L5_16 ++ S17
theorem from5_17 (c : Dev nD) (r : Ref sig .tc) (h : r ∉ L5_17) :
    Gen.W17 m ρ c (Proc.devRef .tc r) = Gen.W5 m ρ c (Proc.devRef .tc r) :=
  (W17_step m ρ c r fun hm => h (List.mem_append_right _ hm)).trans
    (from5_16 m ρ c r fun hm => h (List.mem_append_left _ hm))
abbrev L5_18 : List (Ref sig .tc) := L5_17 ++ S18
theorem from5_18 (c : Dev nD) (r : Ref sig .tc) (h : r ∉ L5_18) :
    Gen.W18 m ρ c (Proc.devRef .tc r) = Gen.W5 m ρ c (Proc.devRef .tc r) :=
  (W18_step m ρ c r fun hm => h (List.mem_append_right _ hm)).trans
    (from5_17 m ρ c r fun hm => h (List.mem_append_left _ hm))
abbrev L5_19 : List (Ref sig .tc) := L5_18 ++ S19
theorem from5_19 (c : Dev nD) (r : Ref sig .tc) (h : r ∉ L5_19) :
    Gen.W19 m ρ c (Proc.devRef .tc r) = Gen.W5 m ρ c (Proc.devRef .tc r) :=
  (W19_step m ρ c r fun hm => h (List.mem_append_right _ hm)).trans
    (from5_18 m ρ c r fun hm => h (List.mem_append_left _ hm))
abbrev L5_20 : List (Ref sig .tc) := L5_19 ++ S20
theorem from5_20 (c : Dev nD) (r : Ref sig .tc) (h : r ∉ L5_20) :
    Gen.W20 m ρ c (Proc.devRef .tc r) = Gen.W5 m ρ c (Proc.devRef .tc r) :=
  (W20_step m ρ c r fun hm => h (List.mem_append_right _ hm)).trans
    (from5_19 m ρ c r fun hm => h (List.mem_append_left _ hm))
abbrev L5_21 : List (Ref sig .tc) := L5_20 ++ S21
theorem from5_21 (c : Dev nD) (r : Ref sig .tc) (h : r ∉ L5_21) :
    Gen.W21 m ρ c (Proc.devRef .tc r) = Gen.W5 m ρ c (Proc.devRef .tc r) :=
  (W21_step m ρ c r fun hm => h (List.mem_append_right _ hm)).trans
    (from5_20 m ρ c r fun hm => h (List.mem_append_left _ hm))
abbrev L5_22 : List (Ref sig .tc) := L5_21 ++ S22
theorem from5_22 (c : Dev nD) (r : Ref sig .tc) (h : r ∉ L5_22) :
    Gen.W22 m ρ c (Proc.devRef .tc r) = Gen.W5 m ρ c (Proc.devRef .tc r) :=
  (W22_step m ρ c r fun hm => h (List.mem_append_right _ hm)).trans
    (from5_21 m ρ c r fun hm => h (List.mem_append_left _ hm))
abbrev L5_23 : List (Ref sig .tc) := L5_22 ++ S23
theorem from5_23 (c : Dev nD) (r : Ref sig .tc) (h : r ∉ L5_23) :
    Gen.W23 m ρ c (Proc.devRef .tc r) = Gen.W5 m ρ c (Proc.devRef .tc r) :=
  (W23_step m ρ c r fun hm => h (List.mem_append_right _ hm)).trans
    (from5_22 m ρ c r fun hm => h (List.mem_append_left _ hm))
abbrev L5_24 : List (Ref sig .tc) := L5_23 ++ S24
theorem from5_24 (c : Dev nD) (r : Ref sig .tc) (h : r ∉ L5_24) :
    Gen.W24 m ρ c (Proc.devRef .tc r) = Gen.W5 m ρ c (Proc.devRef .tc r) :=
  (W24_step m ρ c r fun hm => h (List.mem_append_right _ hm)).trans
    (from5_23 m ρ c r fun hm => h (List.mem_append_left _ hm))

/-! ## From boundary 3 back to the launch memory -/

theorem from0_3 (c : Dev nD) (r : Ref sig .tc) (h : r ∉ hostOps0_W ++ hostOps0_1_W ++ hostOps0_2_W) :
    Gen.W3 m ρ c (Proc.devRef .tc r) = m ((c : Thread nD τ).loc r) :=
  (W3_step m ρ c r fun hm => h (List.mem_append_right _ hm)).trans <|
    (W2_step m ρ c r fun hm => h (List.mem_append_left _ (List.mem_append_right _ hm))).trans <|
      (W1_step m ρ c r fun hm => h (List.mem_append_left _ (List.mem_append_left _ hm))).trans rfl

end Cert.KernelIdeal.Keep

end
-- ==== Proof.Reg0.lean ====
/-
  The first call as one whole-array function. Each of the ten grid points loads row block t of x (5000 rows) and of the
  normalisation column, and the whole of the weight matrix; it forms the product of the row block with the weights,
  scales row p by the column's entry p, and stores the block. So after the run the output array holds, at (i, j),
  (∑ k, x(i,k) · w(k,j)) · d(i): the blocks tile the 50000 rows, row r lying in block r / 5000.
-/
import proofs.«430747_j26834955666046_2_alg».proof.Proof.Gen.KernelIdeal.Frame
import proofs.«430747_j26834955666046_2_alg».proof.Proof.KV
import Idealize.ShloMosaic.Lib.Pipeline.Value
import Idealize.ShloMosaic.Lib.ValueIdx
import Idealize.ShloMosaic.PureOps.Ideal.Laws

noncomputable section

namespace Cert.KernelIdeal.Reg0

open Cert.KernelIdeal Idealize.ShloMosaic Idealize.ShloMosaic.TcCoe Idealize.SL.Sem
open Idealize.ShloMosaic.ValueIdx Cert.KernelIdeal.Facts₀ Cert.KernelIdeal.Facts
open Idealize.ShloMosaic.Pipeline (Dat)

/-! ## The payload at an index -/

theorem lhs_0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhs_1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
theorem rhs_0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
theorem rhs_1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The product of a row block with the weights, into the zero accumulator, at (p, q): the sum over the 128 columns. -/
theorem mm_apply (a : FVec Ideal S5000x128 .bf16) (b : FVec Ideal S128x64 .bf16) (p : Fin 5000) (q : Fin 64) :
    FloatOps.matmul (F := Ideal) dot_S5000x128_S128x64_S5000x64_1_0_0_1_n_n none a b (constant (F := Ideal) S5000x64 .f32 0x00000000#32) (ix2 p q)
      = ∑ k : Fin 128, a (ix2 p k) * b (ix2 k q) := by
  rw [Ideal.matmul_constant_zero_apply, ← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx (ix2 p q) ((ValueIdx.contrEquiv1 dot_S5000x128_S128x64_S5000x64_1_0_0_1_n_n 128 rfl rfl).symm k) = ix2 p k := funext fun a => Fin.ext (by
    match a with
    | ⟨0, _⟩ => exact lhs_0 _ _
    | ⟨1, _⟩ => exact (lhs_1 _ _).trans hk)
  have er : dot_S5000x128_S128x64_S5000x64_1_0_0_1_n_n.rhsIdx (ix2 p q) ((ValueIdx.contrEquiv1 dot_S5000x128_S128x64_S5000x64_1_0_0_1_n_n 128 rfl rfl).symm k) = ix2 k q := funext fun a => Fin.ext (by
    match a with
    | ⟨0, _⟩ => exact (rhs_0 _ _).trans hk
    | ⟨1, _⟩ => exact rhs_1 _ _)
  rw [el, er]

/-- A column [5000,1] broadcast along the 64 columns reads the column's entry of that row. -/
theorem bcol_apply (v : FVec Ideal S5000x1 .f32) (p : Fin 5000) (q : Fin 64) :
    broadcastTo S5000x64 v broadcasts_S5000x1_S5000x64 (ix2 p q) = v (ix2 p (0 : Fin 1)) :=
  broadcastTo_apply v broadcasts_S5000x1_S5000x64 (ix2 p q) (ix2 p (0 : Fin 1)) (fun a => match a with
    | ⟨0, _⟩ => by show p.val = if (5000 : Nat) = 1 then 0 else p.val; rw [if_neg (by decide)]
    | ⟨1, _⟩ => by show (0 : Nat) = if (1 : Nat) = 1 then 0 else _; rw [if_pos rfl])

/-- The body's payload at (p, q). -/
theorem pay_apply (x0 : Vec Ideal S5000x128 .f32) (x2 : Vec Ideal S128x64 .f32) (x1 : Vec Ideal S5000x1 .f32) (p : Fin 5000) (q : Fin 64) :
    Gen.k0_pay1 (F := Ideal) x0 x2 x1 (ix2 p q) = (∑ k : Fin 128, x0 (ix2 p k) * x2 (ix2 k q)) * x1 (ix2 p (0 : Fin 1)) := by
  unfold Gen.k0_pay1
  show FloatOps.matmul (F := Ideal) dot_S5000x128_S128x64_S5000x64_1_0_0_1_n_n none (truncf .bf16 x0 bitsLt_bf16_f32) (truncf .bf16 x2 bitsLt_bf16_f32) (constant (F := Ideal) S5000x64 .f32 0x00000000#32) (ix2 p q)
      * broadcastTo S5000x64 (shapeCast S5000x1 x1 shapeCasts_S5000x1_S5000x1) broadcasts_S5000x1_S5000x64 (ix2 p q) = _
  rw [mm_apply, bcol_apply, shapeCast_self]
  rfl

/-! ## The output array after the run -/

theorem hz : (![0, 0] : Fin 2 → Nat) = fun _ => 0 := funext fun a => by fin_cases a <;> rfl

/-- The printed index maps over the ten grid points: the row-blocked windows sit at block row t, column block 0; the
    weights at block (0, 0). -/
theorem idx_facts : ∀ t : Fin cfg0.N, win0_0.index t (0 : Fin 2) = win0_3.index t (0 : Fin 2)
    ∧ win0_0.index t (1 : Fin 2) = 0
    ∧ win0_1.index t (0 : Fin 2) = win0_3.index t (0 : Fin 2)
    ∧ win0_1.index t (1 : Fin 2) = 0
    ∧ win0_2.index t (0 : Fin 2) = 0
    ∧ win0_2.index t (1 : Fin 2) = 0
    ∧ win0_3.index t (1 : Fin 2) = 0
    ∧ win0_3.index t (0 : Fin 2) = t.val :=
  (by decide +kernel : ∀ t : Fin grid0.N, _)

/-! Where each input block's entries sit, against the output block's: a block's coordinate is its index times its
    extent plus the coordinate inside the block. -/

/-- Row block t of x at (p, k) is x at (the output row of p, k). -/
theorem emb_x (t : Fin cfg0.N) (j : S5000x64.Idx) (k : Fin 128) :
    ((cfg0.win 0).blk t).view.emb (ix2 (⟨(j 0).val, (j 0).isLt⟩ : Fin 5000) k)
      = ix2 (⟨((((cfg0.win 3).blk t).view.emb j) 0).val, ((((cfg0.win 3).blk t).view.emb j) 0).isLt⟩ : Fin 50000) k := by
  obtain ⟨e0, e1, e2, e3, e4, e5, e6, e7⟩ := idx_facts t
  funext a; apply Fin.ext
  match a with
  | ⟨0, _⟩ => show win0_0.index t (0 : Fin 2) * 5000 + 1 * (j 0).val = win0_3.index t (0 : Fin 2) * 5000 + 1 * (j 0).val; omega
  | ⟨1, _⟩ => show win0_0.index t (1 : Fin 2) * 128 + 1 * k.val = k.val; omega

/-- The weights are loaded whole: the block at (k, q) is w at (k, the output column of q). -/
theorem emb_w (t : Fin cfg0.N) (j : S5000x64.Idx) (k : Fin 128) :
    ((cfg0.win 2).blk t).view.emb (ix2 k (⟨(j 1).val, (j 1).isLt⟩ : Fin 64))
      = ix2 k (⟨((((cfg0.win 3).blk t).view.emb j) 1).val, ((((cfg0.win 3).blk t).view.emb j) 1).isLt⟩ : Fin 64) := by
  obtain ⟨e0, e1, e2, e3, e4, e5, e6, e7⟩ := idx_facts t
  funext a; apply Fin.ext
  match a with
  | ⟨0, _⟩ => show win0_2.index t (0 : Fin 2) * 128 + 1 * k.val = k.val; omega
  | ⟨1, _⟩ => show win0_2.index t (1 : Fin 2) * 64 + 1 * (j 1).val = win0_3.index t (1 : Fin 2) * 64 + 1 * (j 1).val; omega

/-- Row block t of the column at (p, 0) is the column at the output row of p. -/
theorem emb_d (t : Fin cfg0.N) (j : S5000x64.Idx) :
    ((cfg0.win 1).blk t).view.emb (ix2 (⟨(j 0).val, (j 0).isLt⟩ : Fin 5000) (0 : Fin 1))
      = ix2 (⟨((((cfg0.win 3).blk t).view.emb j) 0).val, ((((cfg0.win 3).blk t).view.emb j) 0).isLt⟩ : Fin 50000) (0 : Fin 1) := by
  obtain ⟨e0, e1, e2, e3, e4, e5, e6, e7⟩ := idx_facts t
  funext a; apply Fin.ext
  match a with
  | ⟨0, _⟩ => show win0_1.index t (0 : Fin 2) * 5000 + 1 * (j 0).val = win0_3.index t (0 : Fin 2) * 5000 + 1 * (j 0).val; omega
  | ⟨1, _⟩ => show win0_1.index t (1 : Fin 2) * 1 + 1 * 0 = 0; omega

/-- The whole-array function at an entry of output block t, in terms of the three input blocks' entries. -/
theorem G0_at (x : KV.C S50000x128 .f32) (d : KV.C S50000x1 .f32) (w : KV.C S128x64 .f32) (t : Fin cfg0.N) (j : S5000x64.Idx) :
    KV.G0 x d w (((cfg0.win 3).blk t).view.emb j)
      = (∑ k : Fin 128, x (((cfg0.win 0).blk t).view.emb (ix2 (⟨(j 0).val, (j 0).isLt⟩ : Fin 5000) k))
            * w (((cfg0.win 2).blk t).view.emb (ix2 k (⟨(j 1).val, (j 1).isLt⟩ : Fin 64))))
          * d (((cfg0.win 1).blk t).view.emb (ix2 (⟨(j 0).val, (j 0).isLt⟩ : Fin 5000) (0 : Fin 1))) := by
  rw [emb_d t j]
  refine congrArg (· * _) (Finset.sum_congr rfl fun k _ => ?_)
  rw [emb_x t j k, emb_w t j k]

section
variable (V : (c : Dev nD) → (b : Ref sig .tc) → Buf (Elt Ideal) ((c : Thread nD τ).loc b))

/-- What grid point t writes back is block t of the whole-array function. -/
theorem flushed_eq (c : Dev nD) (t : Fin cfg0.N) :
    (Gen.dat0 (F := Ideal) V c).flushed 3 t
      = ((cfg0.win 3).blk t).view.read (Elt Ideal) (KV.G0 (V c main_arg0) (V c main_v17) (V c main_arg3)) := by
  show (cfg0.win 3).cut (grid0.coords t) ((Gen.dat0 (F := Ideal) V c).after 3 t) = _
  rw [Gen.after0_3]
  unfold Gen.out0_3
  rw [View.canon_unit_zero hz]
  simp only [View.ld_unit_zero (S := S5000x128) hz, View.ld_unit_zero (S := S128x64) hz, View.ld_unit_zero (S := S5000x1) hz]
  funext j
  have hj : (j : S5000x64.Idx) = ix2 (⟨(j 0).val, (j 0).isLt⟩ : Fin 5000) (⟨(j 1).val, (j 1).isLt⟩ : Fin 64) := by
    funext a; match a with | ⟨0, _⟩ => rfl | ⟨1, _⟩ => rfl
  show Gen.k0_pay1 (F := Ideal) (Gen.iblk0 V c 0 t) (Gen.iblk0 V c 2 t) (Gen.iblk0 V c 1 t) j
      = KV.G0 (V c main_arg0) (V c main_v17) (V c main_arg3) (((cfg0.win 3).blk t).view.emb j)
  refine (congrArg (Gen.k0_pay1 (F := Ideal) (Gen.iblk0 V c 0 t) (Gen.iblk0 V c 2 t) (Gen.iblk0 V c 1 t)) hj).trans ?_
  refine (pay_apply _ _ _ _ _).trans ?_
  exact (G0_at (V c main_arg0) (V c main_v17) (V c main_arg3) t j).symm

end

/-- An index of the array is in point t's block iff each coordinate is in the block's range on its axis. -/
theorem mem_blk (t : Fin cfg0.N) (i : S50000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v19).slice (win0_3.rect t)).set ↔ _
  rw [View.set_slice_whole, Rect.mem_set_unit]
  exact Iff.rfl

/-- The ten blocks tile the array: row r lies in block r / 5000. -/
theorem cover (i : S50000x64.Idx) : ∃ t : Fin cfg0.N, (cfg0.win 3).flush t = true ∧ i ∈ ((cfg0.win 3).blk t).view.set := by
  have hi0 : (i 0).val < 50000 := (i 0).isLt
  have hi1 : (i 1).val < 64 := (i 1).isLt
  obtain ⟨t, ht⟩ : ∃ t : Fin cfg0.N, t.val = (i 0).val / 5000 := ⟨Fin.cast Gen.N_0.symm ⟨(i 0).val / 5000, by omega⟩, rfl⟩
  obtain ⟨e0, e1, e2, e3, e4, e5, e6, e7⟩ := idx_facts t
  refine ⟨t, Gen.flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 64 ≤ (i 1).val ∧ (i 1).val < win0_3.index t (1 : Fin 2) * 64 + 64; omega

/-- The first call's output array after the run: (x · w), row i scaled by d(i). -/
theorem final (V : (c : Dev nD) → (b : Ref sig .tc) → Buf (Elt Ideal) ((c : Thread nD τ).loc b)) (c : Dev nD) :
    (Gen.dat0 (F := Ideal) V c).arrAt 3 cfg0.N = KV.G0 (V c main_arg0) (V c main_v17) (V c main_arg3) :=
  (Gen.dat0 (F := Ideal) V c).arrAt_eq_of_cover 3 (KV.G0 (V c main_arg0) (V c main_v17) (V c main_arg3))
    (fun t _ => flushed_eq V c t) cover

end Cert.KernelIdeal.Reg0

end
-- ==== Proof.KPre.lean ====
/-
  What the host operations before the first call compute, and the table the first call leaves. From the launch
  memory: the edge sources and targets with the self loops appended, the in-degree, the normalisation factor
  d = rsqrt(max(deg, 1)) where deg > 0 (else 0) as a column, the graph ids as a column; the ten argument arrays are
  untouched. The first call then leaves (x · w0) with row i scaled by d(i).
-/
import proofs.«430747_j26834955666046_2_alg».proof.Proof.Gen.KernelIdeal.Frame
import proofs.«430747_j26834955666046_2_alg».proof.Proof.KV
import proofs.«430747_j26834955666046_2_alg».proof.Proof.Keep
import proofs.«430747_j26834955666046_2_alg».proof.Proof.Reg0
import Idealize.ShloMosaic.Lib.StableHlo.Run

noncomputable section

namespace Cert.KernelIdeal.KPre

open Cert.KernelIdeal Idealize.ShloMosaic Idealize.ShloMosaic.TcCoe Idealize.SL.Sem
open Cert.KernelIdeal.Facts₀ Cert.KernelIdeal.Facts

variable (m : (ℓ : Loc nD τ sig) → Buf (Elt Ideal) ℓ) (ρ : Dev nD → PrngReg) (c : Dev nD)

/-! ## The argument arrays are untouched by the host operations before the first call -/

theorem arg0 : Gen.W3 m ρ c (Proc.devRef .tc main_arg0) = m ((c : Thread nD τ).loc main_arg0) :=
  Keep.from0_3 m ρ c main_arg0 (by decide)
theorem arg1 : Gen.W3 m ρ c (Proc.devRef .tc main_arg1) = m ((c : Thread nD τ).loc main_arg1) :=
  Keep.from0_3 m ρ c main_arg1 (by decide)
theorem arg2 : Gen.W3 m ρ c (Proc.devRef .tc main_arg2) = m ((c : Thread nD τ).loc main_arg2) :=
  Keep.from0_3 m ρ c main_arg2 (by decide)
theorem arg3 : Gen.W3 m ρ c (Proc.devRef .tc main_arg3) = m ((c : Thread nD τ).loc main_arg3) :=
  Keep.from0_3 m ρ c main_arg3 (by decide)
theorem arg4 : Gen.W3 m ρ c (Proc.devRef .tc main_arg4) = m ((c : Thread nD τ).loc main_arg4) :=
  Keep.from0_3 m ρ c main_arg4 (by decide)
theorem arg5 : Gen.W3 m ρ c (Proc.devRef .tc main_arg5) = m ((c : Thread nD τ).loc main_arg5) :=
  Keep.from0_3 m ρ c main_arg5 (by decide)
theorem arg6 : Gen.W3 m ρ c (Proc.devRef .tc main_arg6) = m ((c : Thread nD τ).loc main_arg6) :=
  Keep.from0_3 m ρ c main_arg6 (by decide)
theorem arg7 : Gen.W3 m ρ c (Proc.devRef .tc main_arg7) = m ((c : Thread nD τ).loc main_arg7) :=
  Keep.from0_3 m ρ c main_arg7 (by decide)
theorem arg8 : Gen.W3 m ρ c (Proc.devRef .tc main_arg8) = m ((c : Thread nD τ).loc main_arg8) :=
  Keep.from0_3 m ρ c main_arg8 (by decide)
theorem arg9 : Gen.W3 m ρ c (Proc.devRef .tc main_arg9) = m ((c : Thread nD τ).loc main_arg9) :=
  Keep.from0_3 m ρ c main_arg9 (by decide)

/-! ## The first stretch: sources, targets, in-degree, and the pieces of the normalisation factor -/

/-- The edge sources, self loops appended. -/
theorem w1_v3 : Gen.W1 m ρ c (Proc.devRef .tc main_v3) = KV.src (m ((c : Thread nD τ).loc main_arg1)) := by
  dsimp only [Gen.W1, Gen.hostOps0]
  after_results
  rfl

/-- The edge targets, self loops appended. -/
theorem w1_v6 : Gen.W1 m ρ c (Proc.devRef .tc main_v6) = KV.dst (m ((c : Thread nD τ).loc main_arg1)) := by
  dsimp only [Gen.W1, Gen.hostOps0]
  after_results
  rfl

/-- Where the in-degree is positive. -/
theorem w1_v12 : Gen.W1 m ρ c (Proc.devRef .tc main_v12)
    = cmpf .ogt (KV.deg (m ((c : Thread nD τ).loc main_arg1))) (broadcastInDim S50000 ![] bcast_S_S50000 (constant (F := Ideal) S_ .f32 0x00000000#32)) := by
  dsimp only [Gen.W1, Gen.hostOps0]
  after_results
  rfl

/-- The reciprocal square root of max(deg, 1). -/
theorem w1_v15 : Gen.W1 m ρ c (Proc.devRef .tc main_v15)
    = Host.rsqrt (F := Ideal) (maximumf (KV.deg (m ((c : Thread nD τ).loc main_arg1))) (broadcastInDim S50000 ![] bcast_S_S50000 (constant (F := Ideal) S_ .f32 0x3F800000#32))) := by
  dsimp only [Gen.W1, Gen.hostOps0]
  after_results
  rfl

/-- The zero the select falls back to. -/
theorem w1_cst3 : Gen.W1 m ρ c (Proc.devRef .tc main_cst_3) = constant (F := Ideal) S_ .f32 0x00000000#32 := by
  dsimp only [Gen.W1, Gen.hostOps0]
  after_results

/-! ## The second stretch: the select, from any contents -/

theorem where_v16 (X : Valuation τ sig (Elt Ideal)) :
    StableHlo.after (Gen.hostOps0_1 (F := Ideal)) X (Proc.devRef .tc main_v16)
      = select (X (Proc.devRef .tc main_v12)) (X (Proc.devRef .tc main_v15))
          (broadcastInDim S50000 ![] bcast_S_S50000 (X (Proc.devRef .tc main_cst_3))) := by
  dsimp only [Gen.hostOps0_1]
  after_results
  rfl

/-- The normalisation factor. -/
theorem w2_v16 : Gen.W2 m ρ c (Proc.devRef .tc main_v16) = KV.dis (m ((c : Thread nD τ).loc main_arg1)) := by
  refine (where_v16 (Gen.W1 m ρ c)).trans ?_
  rw [w1_v12, w1_v15, w1_cst3]
  rfl

/-! ## The third stretch: the two columns, from any contents -/

theorem cols_v17 (X : Valuation τ sig (Elt Ideal)) :
    StableHlo.after (Gen.hostOps0_2 (F := Ideal)) X (Proc.devRef .tc main_v17)
      = shapeCast S50000x1 (X (Proc.devRef .tc main_v16)) shapeCasts_S50000_S50000x1 := by
  dsimp only [Gen.hostOps0_2]
  after_results
  rfl

theorem cols_v18 (X : Valuation τ sig (Elt Ideal)) :
    StableHlo.after (Gen.hostOps0_2 (F := Ideal)) X (Proc.devRef .tc main_v18)
      = shapeCast S50000x1 (X (Proc.devRef .tc main_arg2)) shapeCasts_S50000_S50000x1 := by
  dsimp only [Gen.hostOps0_2]
  after_results
  rfl

/-! ## At the first call's entry -/

/-- The edge sources, self loops appended. -/
theorem v3 : Gen.W3 m ρ c (Proc.devRef .tc main_v3) = KV.src (m ((c : Thread nD τ).loc main_arg1)) :=
  (Keep.W3_step m ρ c main_v3 (by decide)).trans ((Keep.W2_step m ρ c main_v3 (by decide)).trans (w1_v3 m ρ c))

/-- The edge targets, self loops appended. -/
theorem v6 : Gen.W3 m ρ c (Proc.devRef .tc main_v6) = KV.dst (m ((c : Thread nD τ).loc main_arg1)) :=
  (Keep.W3_step m ρ c main_v6 (by decide)).trans ((Keep.W2_step m ρ c main_v6 (by decide)).trans (w1_v6 m ρ c))

/-- The normalisation factor, as a column. -/
theorem v17 : Gen.W3 m ρ c (Proc.devRef .tc main_v17) = KV.disCol (m ((c : Thread nD τ).loc main_arg1)) := by
  refine (cols_v17 (Gen.W2 m ρ c)).trans ?_
  rw [w2_v16]
  rfl

/-- The graph ids, as a column. -/
theorem v18 : Gen.W3 m ρ c (Proc.devRef .tc main_v18) = KV.nbCol (m ((c : Thread nD τ).loc main_arg2)) := by
  refine (cols_v18 (Gen.W2 m ρ c)).trans ?_
  have h2 : Gen.W2 m ρ c (Proc.devRef .tc main_arg2) = (m ((c : Thread nD τ).loc main_arg2)) :=
    (Keep.W2_step m ρ c main_arg2 (by decide)).trans ((Keep.W1_step m ρ c main_arg2 (by decide)).trans rfl)
  rw [h2]
  rfl

/-! ## The table the first call leaves -/

/-- After the first call its output array holds the first table: (x · w0), row i scaled by d(i). -/
theorem T0 :
    Gen.W4 m ρ c (Proc.devRef .tc main_v19) = KV.T (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) 0 := by
  refine ((Gen.W4_arr m ρ c 3).trans (Reg0.final (Gen.V3 m ρ) c)).trans ?_
  show KV.G0 (Gen.W3 m ρ c (Proc.devRef .tc main_arg0)) (Gen.W3 m ρ c (Proc.devRef .tc main_v17)) (Gen.W3 m ρ c (Proc.devRef .tc main_arg3))
    = KV.G0 _ (KV.disCol _) _
  rw [arg0, v17, arg3]

end Cert.KernelIdeal.KPre

end
-- ==== Proof.Reg1.lean ====
import proofs.«430747_j26834955666046_2_alg».proof.Proof.Gen.KernelIdeal.Frame
import proofs.«430747_j26834955666046_2_alg».proof.Proof.KV
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Reg1

open Idealize.ShloMosaic Idealize.ShloMosaic.TcCoe Idealize.ShloMosaic.ValueIdx Cert.KernelIdeal Cert.KernelIdeal.Facts₀ Cert.KernelIdeal.Facts
open Idealize.ShloMosaic.Pipeline (Dat)

/-- A column broadcast along its rows reads, at (p, c), the column's entry p. -/
theorem bcast_col {α : Type} {a b : ℕ} (hb : b ≠ 1) (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem lhs_ax0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs_ax1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhs_ax0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhs_ax1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The body's result at (p, q): the row-p activation times column q of the weight, scaled by the row's factor. -/
theorem pay_ix (v0 : Vec Ideal S5000x1 .f32) (v2 : Vec Ideal S5000x64 .f32) (v6 : Vec Ideal S1x64 .f32) (v13 : Vec Ideal S64x64 .f32)
    (p : Fin 5000) (q : Fin 64) :
    Gen.k1_pay1 (F := Ideal) v0 v2 v6 v13 (ix2 p q)
      = (∑ k : Fin 64, max (v2 (ix2 p k) * v0 (ix2 p (0 : Fin 1)) + v6 (ix2 (0 : Fin 1) k)) 0 * v13 (ix2 k q)) * v0 (ix2 p (0 : Fin 1)) := by
  unfold Gen.k1_pay1
  simp only [shapeCast_self]
  rw [truncf_apply, mulf_apply]
  rw [bcast_col (by decide)]
  congr 1
  simp only [matmul]
  rw [Ideal.matmul_constant_zero_apply, ← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 p q) ((ValueIdx.contrEquiv1 dot_S5000x64_S64x64_S5000x64_1_0_0_1_n_n 64 rfl rfl).symm k) = ix2 p k := funext fun a => Fin.ext (by
    match a with
    | ⟨0, _⟩ => exact lhs_ax0 _ _
    | ⟨1, _⟩ => exact (lhs_ax1 _ _).trans hk)
  have er : dot_S5000x64_S64x64_S5000x64_1_0_0_1_n_n.rhsIdx (ix2 p q) ((ValueIdx.contrEquiv1 dot_S5000x64_S64x64_S5000x64_1_0_0_1_n_n 64 rfl rfl).symm k) = ix2 k q := funext fun a => Fin.ext (by
    match a with
    | ⟨0, _⟩ => exact (rhs_ax0 _ _).trans hk
    | ⟨1, _⟩ => exact rhs_ax1 _ _)
  rw [el, er]
  rw [truncf_apply, truncf_apply, maximumf_apply, addf_apply, mulf_apply, bcast_col (by decide), broadcastTo_1b_ab_apply, broadcast_apply]
  congr 2
  exact Ideal.ofBits_zero_f32

/-! ## The region's run: what each grid point writes back, and the array after the last point -/

section Run
variable (V : (c : Dev nD) → (b : Ref sig .tc) → Buf (Elt Ideal) ((c : Thread nD τ).loc b))

theorem hz : (![0, 0] : Fin 2 → Nat) = fun _ => 0 := funext fun a => by fin_cases a <;> rfl

/-- The printed index maps, decided once over the grid: point t takes row block t of the row-blocked windows and the
    whole of the small ones. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Point t's block of the aggregate: rows 5000·t … 5000·t + 4999. -/
theorem blk_agg (c : Dev nD) (t : Fin cfg1.N) (p : Fin 5000) (k : Fin 64) (r : Fin 50000) (hr : r.val = t.val * 5000 + p.val) :
    (Gen.iblk1 (F := Ideal) V c 0 t : Vec Ideal S5000x64 .f32) (ix2 p k) = (V c main_v30 : KV.C S50000x64 .f32) (ix2 r k) := by
  obtain ⟨e0, e1, -⟩ := idx_facts t
  unfold Gen.iblk1
  rw [View.read_apply]
  show V c main_v30 _ = V c main_v30 _
  congr 1
  funext a; apply Fin.ext
  match a with
  | ⟨0, _⟩ => show win1_0.index t (0 : Fin 2) * 5000 + 1 * p.val = r.val; omega
  | ⟨1, _⟩ => show win1_0.index t (1 : Fin 2) * 64 + 1 * k.val = k.val; omega

/-- Point t's block of the factor column: the same rows. -/
theorem blk_dis (c : Dev nD) (t : Fin cfg1.N) (p : Fin 5000) (r : Fin 50000) (hr : r.val = t.val * 5000 + p.val) :
    (Gen.iblk1 (F := Ideal) V c 1 t : Vec Ideal S5000x1 .f32) (ix2 p (0 : Fin 1)) = (V c main_v17 : KV.C S50000x1 .f32) (ix2 r (0 : Fin 1)) := by
  obtain ⟨-, -, e2, e3, -⟩ := idx_facts t
  unfold Gen.iblk1
  rw [View.read_apply]
  show V c main_v17 _ = V c main_v17 _
  congr 1
  funext a; apply Fin.ext
  match a with
  | ⟨0, _⟩ => show win1_1.index t (0 : Fin 2) * 5000 + 1 * p.val = r.val; omega
  | ⟨1, _⟩ => show win1_1.index t (1 : Fin 2) * 1 + 1 * 0 = 0; omega

/-- Every point reads the whole bias row -/
theorem blk_bias (c : Dev nD) (t : Fin cfg1.N) (k : Fin 64) :
    (Gen.iblk1 (F := Ideal) V c 2 t : Vec Ideal S1x64 .f32) (ix2 (0 : Fin 1) k) = (V c main_v63 : KV.C S1x64 .f32) (ix2 (0 : Fin 1) k) := by
  obtain ⟨-, -, -, -, e4, e5, -⟩ := idx_facts t
  unfold Gen.iblk1
  rw [View.read_apply]
  show V c main_v63 _ = V c main_v63 _
  congr 1
  funext a; apply Fin.ext
  match a with
  | ⟨0, _⟩ => show win1_2.index t (0 : Fin 2) * 1 + 1 * 0 = 0; omega
  | ⟨1, _⟩ => show win1_2.index t (1 : Fin 2) * 64 + 1 * k.val = k.val; omega

/-- and the whole weight matrix. -/
theorem blk_w (c : Dev nD) (t : Fin cfg1.N) (k q q' : Fin 64) (hq : q'.val = q.val) :
    (Gen.iblk1 (F := Ideal) V c 3 t : Vec Ideal S64x64 .f32) (ix2 k q) = (V c main_v48 : KV.C S64x64 .f32) (ix2 k q') := by
  obtain ⟨-, -, -, -, -, -, e6, e7, -⟩ := idx_facts t
  unfold Gen.iblk1
  rw [View.read_apply]
  show V c main_v48 _ = V c main_v48 _
  congr 1
  funext a; apply Fin.ext
  match a with
  | ⟨0, _⟩ => show win1_3.index t (0 : Fin 2) * 64 + 1 * k.val = k.val; omega
  | ⟨1, _⟩ => show win1_3.index t (1 : Fin 2) * 64 + 1 * q.val = q'.val; omega

/-- The whole-array function the region computes. -/
abbrev G (c : Dev nD) : KV.C S50000x64 .bf16 := KV.Gf (V c main_v30) (V c main_v17) (V c main_v63) (V c main_v48)

/-- The body's result at a point's local index is the whole-array function at that index's place in the array. -/
theorem point_eq (c : Dev nD) (t : Fin cfg1.N) (j : S5000x64.Idx) :
    Gen.k1_pay1 (F := Ideal) (Gen.iblk1 V c 1 t) (Gen.iblk1 V c 0 t) (Gen.iblk1 V c 2 t) (Gen.iblk1 V c 3 t) j
      = G V c (((cfg1.win 4).blk t).view.emb j) := by
  obtain ⟨-, -, -, -, -, -, -, -, e8, e9⟩ := idx_facts t
  have hrow : (((cfg1.win 4).blk t).view.emb j 0).val = t.val * 5000 + (j 0).val := by
    show win1_4.index t (0 : Fin 2) * 5000 + 1 * (j 0).val = _; omega
  have hcol : (((cfg1.win 4).blk t).view.emb j 1).val = (j 1).val := by
    show win1_4.index t (1 : Fin 2) * 64 + 1 * (j 1).val = _; omega
  refine ((congrArg _ (eq_ix2 j)).trans (pay_ix _ _ _ _ (j 0) (j 1))).trans ?_
  show _ = (∑ k : Fin 64, KV.act _ _ _ _ k * _) * _
  rw [blk_dis V c t (j 0) _ hrow]
  refine congrArg₂ (· * ·) (Finset.sum_congr rfl fun k _ => ?_) rfl
  unfold KV.act
  rw [blk_agg V c t (j 0) k _ hrow, blk_bias V c t k, blk_w V c t k (j 1) _ hcol]
  rfl

/-- WHAT POINT t WRITES BACK is block t of the whole-array function. -/
theorem flushed_eq (c : Dev nD) (t : Fin cfg1.N) :
    (Gen.dat1 (F := Ideal) V c).flushed 4 t = ((cfg1.win 4).blk t).view.read (Elt Ideal) (G V c) := by
  show (cfg1.win 4).cut (grid1.coords t) ((Gen.dat1 (F := Ideal) V c).after 4 t) = _
  rw [Gen.after1_4]
  unfold Gen.out1_4
  rw [View.canon_unit_zero hz]
  simp only [View.ld_unit_zero (S := S5000x64) hz, View.ld_unit_zero (S := S5000x1) hz, View.ld_unit_zero (S := S1x64) hz, View.ld_unit_zero (S := S64x64) hz]
  funext j
  exact point_eq V c t j

/-- An index of the array is in point t's block iff each coordinate is in the block's range on its axis. -/
theorem mem_blk (t : Fin cfg1.N) (i : S50000x64.Idx) :
    i ∈ ((cfg1.win 4).blk t).view.set ↔ ∀ a : Fin 2, win1_4.index t a * S5000x64.size a ≤ (i a).val ∧ (i a).val < win1_4.index t a * S5000x64.size a + S5000x64.size a := by
  show i ∈ ((View.whole main_v64).slice (win1_4.rect t)).set ↔ _
  rw [View.set_slice_whole, Rect.mem_set_unit]
  exact Iff.rfl

/-- Row r of the array is in the block of point r / 5000. -/
theorem cover (i : S50000x64.Idx) : ∃ t : Fin cfg1.N, (cfg1.win 4).flush t = true ∧ i ∈ ((cfg1.win 4).blk t).view.set := by
  have hi0 : (i 0).val < 50000 := (i 0).isLt
  have hi1 : (i 1).val < 64 := (i 1).isLt
  have hN : cfg1.N = 10 := Gen.N_1
  obtain ⟨t, ht⟩ : ∃ t : Fin cfg1.N, t.val = (i 0).val / 5000 := ⟨⟨(i 0).val / 5000, by omega⟩, rfl⟩
  obtain ⟨-, -, -, -, -, -, -, -, e8, e9⟩ := idx_facts t
  refine ⟨t, Gen.flush1_4 t, ?_⟩
  rw [mem_blk]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 64 ≤ (i 1).val ∧ (i 1).val < win1_4.index t (1 : Fin 2) * 64 + 64; omega

/-- THE ARRAY after the region: the fused layer of the four input arrays as the region finds them. -/
theorem final (c : Dev nD) :
    (Gen.dat1 (F := Ideal) V c).arrAt 4 cfg1.N = KV.Gf (V c main_v30) (V c main_v17) (V c main_v63) (V c main_v48) :=
  (Gen.dat1 (F := Ideal) V c).arrAt_eq_of_cover 4 (G V c) (fun t _ => flushed_eq V c t) cover

end Run

end Cert.KernelIdeal.Reg1

end
-- ==== Proof.Reg2.lean ====
import proofs.«430747_j26834955666046_2_alg».proof.Proof.Gen.KernelIdeal.Frame
import proofs.«430747_j26834955666046_2_alg».proof.Proof.KV
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Reg2

open Idealize.ShloMosaic Idealize.ShloMosaic.TcCoe Idealize.ShloMosaic.ValueIdx Cert.KernelIdeal Cert.KernelIdeal.Facts₀ Cert.KernelIdeal.Facts
open Idealize.ShloMosaic.Pipeline (Dat)

/-- A column broadcast along its rows reads, at (p, c), the column's entry p. -/
theorem bcast_col {α : Type} {a b : ℕ} (hb : b ≠ 1) (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem lhs_ax0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs_ax1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhs_ax0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhs_ax1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The body's result at (p, q): the row-p activation times column q of the weight, scaled by the row's factor. -/
theorem pay_ix (v0 : Vec Ideal S5000x1 .f32) (v2 : Vec Ideal S5000x64 .f32) (v6 : Vec Ideal S1x64 .f32) (v13 : Vec Ideal S64x64 .f32)
    (p : Fin 5000) (q : Fin 64) :
    Gen.k2_pay1 (F := Ideal) v0 v2 v6 v13 (ix2 p q)
      = (∑ k : Fin 64, max (v2 (ix2 p k) * v0 (ix2 p (0 : Fin 1)) + v6 (ix2 (0 : Fin 1) k)) 0 * v13 (ix2 k q)) * v0 (ix2 p (0 : Fin 1)) := by
  unfold Gen.k2_pay1
  simp only [shapeCast_self]
  rw [truncf_apply, mulf_apply]
  rw [bcast_col (by decide)]
  congr 1
  simp only [matmul]
  rw [Ideal.matmul_constant_zero_apply, ← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 p q) ((ValueIdx.contrEquiv1 dot_S5000x64_S64x64_S5000x64_1_0_0_1_n_n 64 rfl rfl).symm k) = ix2 p k := funext fun a => Fin.ext (by
    match a with
    | ⟨0, _⟩ => exact lhs_ax0 _ _
    | ⟨1, _⟩ => exact (lhs_ax1 _ _).trans hk)
  have er : dot_S5000x64_S64x64_S5000x64_1_0_0_1_n_n.rhsIdx (ix2 p q) ((ValueIdx.contrEquiv1 dot_S5000x64_S64x64_S5000x64_1_0_0_1_n_n 64 rfl rfl).symm k) = ix2 k q := funext fun a => Fin.ext (by
    match a with
    | ⟨0, _⟩ => exact (rhs_ax0 _ _).trans hk
    | ⟨1, _⟩ => exact rhs_ax1 _ _)
  rw [el, er]
  rw [truncf_apply, truncf_apply, maximumf_apply, addf_apply, mulf_apply, bcast_col (by decide), broadcastTo_1b_ab_apply, broadcast_apply]
  congr 2
  exact Ideal.ofBits_zero_f32

/-! ## The region's run: what each grid point writes back, and the array after the last point -/

section Run
variable (V : (c : Dev nD) → (b : Ref sig .tc) → Buf (Elt Ideal) ((c : Thread nD τ).loc b))

theorem hz : (![0, 0] : Fin 2 → Nat) = fun _ => 0 := funext fun a => by fin_cases a <;> rfl

/-- The printed index maps, decided once over the grid: point t takes row block t of the row-blocked windows and the
    whole of the small ones. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- Point t's block of the aggregate: rows 5000·t … 5000·t + 4999. -/
theorem blk_agg (c : Dev nD) (t : Fin cfg2.N) (p : Fin 5000) (k : Fin 64) (r : Fin 50000) (hr : r.val = t.val * 5000 + p.val) :
    (Gen.iblk2 (F := Ideal) V c 0 t : Vec Ideal S5000x64 .f32) (ix2 p k) = (V c main_v75 : KV.C S50000x64 .f32) (ix2 r k) := by
  obtain ⟨e0, e1, -⟩ := idx_facts t
  unfold Gen.iblk2
  rw [View.read_apply]
  show V c main_v75 _ = V c main_v75 _
  congr 1
  funext a; apply Fin.ext
  match a with
  | ⟨0, _⟩ => show win2_0.index t (0 : Fin 2) * 5000 + 1 * p.val = r.val; omega
  | ⟨1, _⟩ => show win2_0.index t (1 : Fin 2) * 64 + 1 * k.val = k.val; omega

/-- Point t's block of the factor column: the same rows. -/
theorem blk_dis (c : Dev nD) (t : Fin cfg2.N) (p : Fin 5000) (r : Fin 50000) (hr : r.val = t.val * 5000 + p.val) :
    (Gen.iblk2 (F := Ideal) V c 1 t : Vec Ideal S5000x1 .f32) (ix2 p (0 : Fin 1)) = (V c main_v17 : KV.C S50000x1 .f32) (ix2 r (0 : Fin 1)) := by
  obtain ⟨-, -, e2, e3, -⟩ := idx_facts t
  unfold Gen.iblk2
  rw [View.read_apply]
  show V c main_v17 _ = V c main_v17 _
  congr 1
  funext a; apply Fin.ext
  match a with
  | ⟨0, _⟩ => show win2_1.index t (0 : Fin 2) * 5000 + 1 * p.val = r.val; omega
  | ⟨1, _⟩ => show win2_1.index t (1 : Fin 2) * 1 + 1 * 0 = 0; omega

/-- Every point reads the whole bias row -/
theorem blk_bias (c : Dev nD) (t : Fin cfg2.N) (k : Fin 64) :
    (Gen.iblk2 (F := Ideal) V c 2 t : Vec Ideal S1x64 .f32) (ix2 (0 : Fin 1) k) = (V c main_v76 : KV.C S1x64 .f32) (ix2 (0 : Fin 1) k) := by
  obtain ⟨-, -, -, -, e4, e5, -⟩ := idx_facts t
  unfold Gen.iblk2
  rw [View.read_apply]
  show V c main_v76 _ = V c main_v76 _
  congr 1
  funext a; apply Fin.ext
  match a with
  | ⟨0, _⟩ => show win2_2.index t (0 : Fin 2) * 1 + 1 * 0 = 0; omega
  | ⟨1, _⟩ => show win2_2.index t (1 : Fin 2) * 64 + 1 * k.val = k.val; omega

/-- and the whole weight matrix. -/
theorem blk_w (c : Dev nD) (t : Fin cfg2.N) (k q q' : Fin 64) (hq : q'.val = q.val) :
    (Gen.iblk2 (F := Ideal) V c 3 t : Vec Ideal S64x64 .f32) (ix2 k q) = (V c main_v50 : KV.C S64x64 .f32) (ix2 k q') := by
  obtain ⟨-, -, -, -, -, -, e6, e7, -⟩ := idx_facts t
  unfold Gen.iblk2
  rw [View.read_apply]
  show V c main_v50 _ = V c main_v50 _
  congr 1
  funext a; apply Fin.ext
  match a with
  | ⟨0, _⟩ => show win2_3.index t (0 : Fin 2) * 64 + 1 * k.val = k.val; omega
  | ⟨1, _⟩ => show win2_3.index t (1 : Fin 2) * 64 + 1 * q.val = q'.val; omega

/-- The whole-array function the region computes. -/
abbrev G (c : Dev nD) : KV.C S50000x64 .bf16 := KV.Gf (V c main_v75) (V c main_v17) (V c main_v76) (V c main_v50)

/-- The body's result at a point's local index is the whole-array function at that index's place in the array. -/
theorem point_eq (c : Dev nD) (t : Fin cfg2.N) (j : S5000x64.Idx) :
    Gen.k2_pay1 (F := Ideal) (Gen.iblk2 V c 1 t) (Gen.iblk2 V c 0 t) (Gen.iblk2 V c 2 t) (Gen.iblk2 V c 3 t) j
      = G V c (((cfg2.win 4).blk t).view.emb j) := by
  obtain ⟨-, -, -, -, -, -, -, -, e8, e9⟩ := idx_facts t
  have hrow : (((cfg2.win 4).blk t).view.emb j 0).val = t.val * 5000 + (j 0).val := by
    show win2_4.index t (0 : Fin 2) * 5000 + 1 * (j 0).val = _; omega
  have hcol : (((cfg2.win 4).blk t).view.emb j 1).val = (j 1).val := by
    show win2_4.index t (1 : Fin 2) * 64 + 1 * (j 1).val = _; omega
  refine ((congrArg _ (eq_ix2 j)).trans (pay_ix _ _ _ _ (j 0) (j 1))).trans ?_
  show _ = (∑ k : Fin 64, KV.act _ _ _ _ k * _) * _
  rw [blk_dis V c t (j 0) _ hrow]
  refine congrArg₂ (· * ·) (Finset.sum_congr rfl fun k _ => ?_) rfl
  unfold KV.act
  rw [blk_agg V c t (j 0) k _ hrow, blk_bias V c t k, blk_w V c t k (j 1) _ hcol]
  rfl

/-- WHAT POINT t WRITES BACK is block t of the whole-array function. -/
theorem flushed_eq (c : Dev nD) (t : Fin cfg2.N) :
    (Gen.dat2 (F := Ideal) V c).flushed 4 t = ((cfg2.win 4).blk t).view.read (Elt Ideal) (G V c) := by
  show (cfg2.win 4).cut (grid2.coords t) ((Gen.dat2 (F := Ideal) V c).after 4 t) = _
  rw [Gen.after2_4]
  unfold Gen.out2_4
  rw [View.canon_unit_zero hz]
  simp only [View.ld_unit_zero (S := S5000x64) hz, View.ld_unit_zero (S := S5000x1) hz, View.ld_unit_zero (S := S1x64) hz, View.ld_unit_zero (S := S64x64) hz]
  funext j
  exact point_eq V c t j

/-- An index of the array is in point t's block iff each coordinate is in the block's range on its axis. -/
theorem mem_blk (t : Fin cfg2.N) (i : S50000x64.Idx) :
    i ∈ ((cfg2.win 4).blk t).view.set ↔ ∀ a : Fin 2, win2_4.index t a * S5000x64.size a ≤ (i a).val ∧ (i a).val < win2_4.index t a * S5000x64.size a + S5000x64.size a := by
  show i ∈ ((View.whole main_v77).slice (win2_4.rect t)).set ↔ _
  rw [View.set_slice_whole, Rect.mem_set_unit]
  exact Iff.rfl

/-- Row r of the array is in the block of point r / 5000. -/
theorem cover (i : S50000x64.Idx) : ∃ t : Fin cfg2.N, (cfg2.win 4).flush t = true ∧ i ∈ ((cfg2.win 4).blk t).view.set := by
  have hi0 : (i 0).val < 50000 := (i 0).isLt
  have hi1 : (i 1).val < 64 := (i 1).isLt
  have hN : cfg2.N = 10 := Gen.N_2
  obtain ⟨t, ht⟩ : ∃ t : Fin cfg2.N, t.val = (i 0).val / 5000 := ⟨⟨(i 0).val / 5000, by omega⟩, rfl⟩
  obtain ⟨-, -, -, -, -, -, -, -, e8, e9⟩ := idx_facts t
  refine ⟨t, Gen.flush2_4 t, ?_⟩
  rw [mem_blk]
  intro a
  match a with
  | ⟨0, _⟩ => show win2_4.index t (0 : Fin 2) * 5000 ≤ (i 0).val ∧ (i 0).val < win2_4.index t (0 : Fin 2) * 5000 + 5000; omega
  | ⟨1, _⟩ => show win2_4.index t (1 : Fin 2) * 64 ≤ (i 1).val ∧ (i 1).val < win2_4.index t (1 : Fin 2) * 64 + 64; omega

/-- THE ARRAY after the region: the fused layer of the four input arrays as the region finds them. -/
theorem final (c : Dev nD) :
    (Gen.dat2 (F := Ideal) V c).arrAt 4 cfg2.N = KV.Gf (V c main_v75) (V c main_v17) (V c main_v76) (V c main_v50) :=
  (Gen.dat2 (F := Ideal) V c).arrAt_eq_of_cover 4 (G V c) (fun t _ => flushed_eq V c t) cover

end Run

end Cert.KernelIdeal.Reg2

end
-- ==== Proof.Reg3.lean ====
import proofs.«430747_j26834955666046_2_alg».proof.Proof.Gen.KernelIdeal.Frame
import proofs.«430747_j26834955666046_2_alg».proof.Proof.KV
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Reg3

open Idealize.ShloMosaic Idealize.ShloMosaic.TcCoe Idealize.ShloMosaic.ValueIdx Cert.KernelIdeal Cert.KernelIdeal.Facts₀ Cert.KernelIdeal.Facts
open Idealize.ShloMosaic.Pipeline (Dat)

/-- A column broadcast along its rows reads, at (p, c), the column's entry p. -/
theorem bcast_col {α : Type} {a b : ℕ} (hb : b ≠ 1) (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem lhs_ax0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs_ax1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhs_ax0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhs_ax1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The body's result at (p, q): the row-p activation times column q of the weight, scaled by the row's factor. -/
theorem pay_ix (v0 : Vec Ideal S5000x1 .f32) (v2 : Vec Ideal S5000x64 .f32) (v6 : Vec Ideal S1x64 .f32) (v13 : Vec Ideal S64x64 .f32)
    (p : Fin 5000) (q : Fin 64) :
    Gen.k3_pay1 (F := Ideal) v0 v2 v6 v13 (ix2 p q)
      = (∑ k : Fin 64, max (v2 (ix2 p k) * v0 (ix2 p (0 : Fin 1)) + v6 (ix2 (0 : Fin 1) k)) 0 * v13 (ix2 k q)) * v0 (ix2 p (0 : Fin 1)) := by
  unfold Gen.k3_pay1
  simp only [shapeCast_self]
  rw [truncf_apply, mulf_apply]
  rw [bcast_col (by decide)]
  congr 1
  simp only [matmul]
  rw [Ideal.matmul_constant_zero_apply, ← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 p q) ((ValueIdx.contrEquiv1 dot_S5000x64_S64x64_S5000x64_1_0_0_1_n_n 64 rfl rfl).symm k) = ix2 p k := funext fun a => Fin.ext (by
    match a with
    | ⟨0, _⟩ => exact lhs_ax0 _ _
    | ⟨1, _⟩ => exact (lhs_ax1 _ _).trans hk)
  have er : dot_S5000x64_S64x64_S5000x64_1_0_0_1_n_n.rhsIdx (ix2 p q) ((ValueIdx.contrEquiv1 dot_S5000x64_S64x64_S5000x64_1_0_0_1_n_n 64 rfl rfl).symm k) = ix2 k q := funext fun a => Fin.ext (by
    match a with
    | ⟨0, _⟩ => exact (rhs_ax0 _ _).trans hk
    | ⟨1, _⟩ => exact rhs_ax1 _ _)
  rw [el, er]
  rw [truncf_apply, truncf_apply, maximumf_apply, addf_apply, mulf_apply, bcast_col (by decide), broadcastTo_1b_ab_apply, broadcast_apply]
  congr 2
  exact Ideal.ofBits_zero_f32

/-! ## The region's run: what each grid point writes back, and the array after the last point -/

section Run
variable (V : (c : Dev nD) → (b : Ref sig .tc) → Buf (Elt Ideal) ((c : Thread nD τ).loc b))

theorem hz : (![0, 0] : Fin 2 → Nat) = fun _ => 0 := funext fun a => by fin_cases a <;> rfl

/-- The printed index maps, decided once over the grid: point t takes row block t of the row-blocked windows and the
    whole of the small ones. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- Point t's block of the aggregate: rows 5000·t … 5000·t + 4999. -/
theorem blk_agg (c : Dev nD) (t : Fin cfg3.N) (p : Fin 5000) (k : Fin 64) (r : Fin 50000) (hr : r.val = t.val * 5000 + p.val) :
    (Gen.iblk3 (F := Ideal) V c 0 t : Vec Ideal S5000x64 .f32) (ix2 p k) = (V c main_v88 : KV.C S50000x64 .f32) (ix2 r k) := by
  obtain ⟨e0, e1, -⟩ := idx_facts t
  unfold Gen.iblk3
  rw [View.read_apply]
  show V c main_v88 _ = V c main_v88 _
  congr 1
  funext a; apply Fin.ext
  match a with
  | ⟨0, _⟩ => show win3_0.index t (0 : Fin 2) * 5000 + 1 * p.val = r.val; omega
  | ⟨1, _⟩ => show win3_0.index t (1 : Fin 2) * 64 + 1 * k.val = k.val; omega

/-- Point t's block of the factor column: the same rows. -/
theorem blk_dis (c : Dev nD) (t : Fin cfg3.N) (p : Fin 5000) (r : Fin 50000) (hr : r.val = t.val * 5000 + p.val) :
    (Gen.iblk3 (F := Ideal) V c 1 t : Vec Ideal S5000x1 .f32) (ix2 p (0 : Fin 1)) = (V c main_v17 : KV.C S50000x1 .f32) (ix2 r (0 : Fin 1)) := by
  obtain ⟨-, -, e2, e3, -⟩ := idx_facts t
  unfold Gen.iblk3
  rw [View.read_apply]
  show V c main_v17 _ = V c main_v17 _
  congr 1
  funext a; apply Fin.ext
  match a with
  | ⟨0, _⟩ => show win3_1.index t (0 : Fin 2) * 5000 + 1 * p.val = r.val; omega
  | ⟨1, _⟩ => show win3_1.index t (1 : Fin 2) * 1 + 1 * 0 = 0; omega

/-- Every point reads the whole bias row -/
theorem blk_bias (c : Dev nD) (t : Fin cfg3.N) (k : Fin 64) :
    (Gen.iblk3 (F := Ideal) V c 2 t : Vec Ideal S1x64 .f32) (ix2 (0 : Fin 1) k) = (V c main_v89 : KV.C S1x64 .f32) (ix2 (0 : Fin 1) k) := by
  obtain ⟨-, -, -, -, e4, e5, -⟩ := idx_facts t
  unfold Gen.iblk3
  rw [View.read_apply]
  show V c main_v89 _ = V c main_v89 _
  congr 1
  funext a; apply Fin.ext
  match a with
  | ⟨0, _⟩ => show win3_2.index t (0 : Fin 2) * 1 + 1 * 0 = 0; omega
  | ⟨1, _⟩ => show win3_2.index t (1 : Fin 2) * 64 + 1 * k.val = k.val; omega

/-- and the whole weight matrix. -/
theorem blk_w (c : Dev nD) (t : Fin cfg3.N) (k q q' : Fin 64) (hq : q'.val = q.val) :
    (Gen.iblk3 (F := Ideal) V c 3 t : Vec Ideal S64x64 .f32) (ix2 k q) = (V c main_v52 : KV.C S64x64 .f32) (ix2 k q') := by
  obtain ⟨-, -, -, -, -, -, e6, e7, -⟩ := idx_facts t
  unfold Gen.iblk3
  rw [View.read_apply]
  show V c main_v52 _ = V c main_v52 _
  congr 1
  funext a; apply Fin.ext
  match a with
  | ⟨0, _⟩ => show win3_3.index t (0 : Fin 2) * 64 + 1 * k.val = k.val; omega
  | ⟨1, _⟩ => show win3_3.index t (1 : Fin 2) * 64 + 1 * q.val = q'.val; omega

/-- The whole-array function the region computes. -/
abbrev G (c : Dev nD) : KV.C S50000x64 .bf16 := KV.Gf (V c main_v88) (V c main_v17) (V c main_v89) (V c main_v52)

/-- The body's result at a point's local index is the whole-array function at that index's place in the array. -/
theorem point_eq (c : Dev nD) (t : Fin cfg3.N) (j : S5000x64.Idx) :
    Gen.k3_pay1 (F := Ideal) (Gen.iblk3 V c 1 t) (Gen.iblk3 V c 0 t) (Gen.iblk3 V c 2 t) (Gen.iblk3 V c 3 t) j
      = G V c (((cfg3.win 4).blk t).view.emb j) := by
  obtain ⟨-, -, -, -, -, -, -, -, e8, e9⟩ := idx_facts t
  have hrow : (((cfg3.win 4).blk t).view.emb j 0).val = t.val * 5000 + (j 0).val := by
    show win3_4.index t (0 : Fin 2) * 5000 + 1 * (j 0).val = _; omega
  have hcol : (((cfg3.win 4).blk t).view.emb j 1).val = (j 1).val := by
    show win3_4.index t (1 : Fin 2) * 64 + 1 * (j 1).val = _; omega
  refine ((congrArg _ (eq_ix2 j)).trans (pay_ix _ _ _ _ (j 0) (j 1))).trans ?_
  show _ = (∑ k : Fin 64, KV.act _ _ _ _ k * _) * _
  rw [blk_dis V c t (j 0) _ hrow]
  refine congrArg₂ (· * ·) (Finset.sum_congr rfl fun k _ => ?_) rfl
  unfold KV.act
  rw [blk_agg V c t (j 0) k _ hrow, blk_bias V c t k, blk_w V c t k (j 1) _ hcol]
  rfl

/-- WHAT POINT t WRITES BACK is block t of the whole-array function. -/
theorem flushed_eq (c : Dev nD) (t : Fin cfg3.N) :
    (Gen.dat3 (F := Ideal) V c).flushed 4 t = ((cfg3.win 4).blk t).view.read (Elt Ideal) (G V c) := by
  show (cfg3.win 4).cut (grid3.coords t) ((Gen.dat3 (F := Ideal) V c).after 4 t) = _
  rw [Gen.after3_4]
  unfold Gen.out3_4
  rw [View.canon_unit_zero hz]
  simp only [View.ld_unit_zero (S := S5000x64) hz, View.ld_unit_zero (S := S5000x1) hz, View.ld_unit_zero (S := S1x64) hz, View.ld_unit_zero (S := S64x64) hz]
  funext j
  exact point_eq V c t j

/-- An index of the array is in point t's block iff each coordinate is in the block's range on its axis. -/
theorem mem_blk (t : Fin cfg3.N) (i : S50000x64.Idx) :
    i ∈ ((cfg3.win 4).blk t).view.set ↔ ∀ a : Fin 2, win3_4.index t a * S5000x64.size a ≤ (i a).val ∧ (i a).val < win3_4.index t a * S5000x64.size a + S5000x64.size a := by
  show i ∈ ((View.whole main_v90).slice (win3_4.rect t)).set ↔ _
  rw [View.set_slice_whole, Rect.mem_set_unit]
  exact Iff.rfl

/-- Row r of the array is in the block of point r / 5000. -/
theorem cover (i : S50000x64.Idx) : ∃ t : Fin cfg3.N, (cfg3.win 4).flush t = true ∧ i ∈ ((cfg3.win 4).blk t).view.set := by
  have hi0 : (i 0).val < 50000 := (i 0).isLt
  have hi1 : (i 1).val < 64 := (i 1).isLt
  have hN : cfg3.N = 10 := Gen.N_3
  obtain ⟨t, ht⟩ : ∃ t : Fin cfg3.N, t.val = (i 0).val / 5000 := ⟨⟨(i 0).val / 5000, by omega⟩, rfl⟩
  obtain ⟨-, -, -, -, -, -, -, -, e8, e9⟩ := idx_facts t
  refine ⟨t, Gen.flush3_4 t, ?_⟩
  rw [mem_blk]
  intro a
  match a with
  | ⟨0, _⟩ => show win3_4.index t (0 : Fin 2) * 5000 ≤ (i 0).val ∧ (i 0).val < win3_4.index t (0 : Fin 2) * 5000 + 5000; omega
  | ⟨1, _⟩ => show win3_4.index t (1 : Fin 2) * 64 ≤ (i 1).val ∧ (i 1).val < win3_4.index t (1 : Fin 2) * 64 + 64; omega

/-- THE ARRAY after the region: the fused layer of the four input arrays as the region finds them. -/
theorem final (c : Dev nD) :
    (Gen.dat3 (F := Ideal) V c).arrAt 4 cfg3.N = KV.Gf (V c main_v88) (V c main_v17) (V c main_v89) (V c main_v52) :=
  (Gen.dat3 (F := Ideal) V c).arrAt_eq_of_cover 4 (G V c) (fun t _ => flushed_eq V c t) cover

end Run

end Cert.KernelIdeal.Reg3

end
-- ==== Proof.Reg4.lean ====
import proofs.«430747_j26834955666046_2_alg».proof.Proof.Gen.KernelIdeal.Frame
import proofs.«430747_j26834955666046_2_alg».proof.Proof.KV
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Reg4

open Idealize.ShloMosaic Idealize.ShloMosaic.TcCoe Idealize.ShloMosaic.ValueIdx Cert.KernelIdeal Cert.KernelIdeal.Facts₀ Cert.KernelIdeal.Facts
open Idealize.ShloMosaic.Pipeline (Dat)

/-- A column broadcast along its rows reads, at (p, c), the column's entry p. -/
theorem bcast_col {α : Type} {a b : ℕ} (hb : b ≠ 1) (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem lhs_ax0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs_ax1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhs_ax0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhs_ax1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The body's result at (p, q): the row-p activation times column q of the weight, scaled by the row's factor. -/
theorem pay_ix (v0 : Vec Ideal S5000x1 .f32) (v2 : Vec Ideal S5000x64 .f32) (v6 : Vec Ideal S1x64 .f32) (v13 : Vec Ideal S64x64 .f32)
    (p : Fin 5000) (q : Fin 64) :
    Gen.k4_pay1 (F := Ideal) v0 v2 v6 v13 (ix2 p q)
      = (∑ k : Fin 64, max (v2 (ix2 p k) * v0 (ix2 p (0 : Fin 1)) + v6 (ix2 (0 : Fin 1) k)) 0 * v13 (ix2 k q)) * v0 (ix2 p (0 : Fin 1)) := by
  unfold Gen.k4_pay1
  simp only [shapeCast_self]
  rw [truncf_apply, mulf_apply]
  rw [bcast_col (by decide)]
  congr 1
  simp only [matmul]
  rw [Ideal.matmul_constant_zero_apply, ← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 p q) ((ValueIdx.contrEquiv1 dot_S5000x64_S64x64_S5000x64_1_0_0_1_n_n 64 rfl rfl).symm k) = ix2 p k := funext fun a => Fin.ext (by
    match a with
    | ⟨0, _⟩ => exact lhs_ax0 _ _
    | ⟨1, _⟩ => exact (lhs_ax1 _ _).trans hk)
  have er : dot_S5000x64_S64x64_S5000x64_1_0_0_1_n_n.rhsIdx (ix2 p q) ((ValueIdx.contrEquiv1 dot_S5000x64_S64x64_S5000x64_1_0_0_1_n_n 64 rfl rfl).symm k) = ix2 k q := funext fun a => Fin.ext (by
    match a with
    | ⟨0, _⟩ => exact (rhs_ax0 _ _).trans hk
    | ⟨1, _⟩ => exact rhs_ax1 _ _)
  rw [el, er]
  rw [truncf_apply, truncf_apply, maximumf_apply, addf_apply, mulf_apply, bcast_col (by decide), broadcastTo_1b_ab_apply, broadcast_apply]
  congr 2
  exact Ideal.ofBits_zero_f32

/-! ## The region's run: what each grid point writes back, and the array after the last point -/

section Run
variable (V : (c : Dev nD) → (b : Ref sig .tc) → Buf (Elt Ideal) ((c : Thread nD τ).loc b))

theorem hz : (![0, 0] : Fin 2 → Nat) = fun _ => 0 := funext fun a => by fin_cases a <;> rfl

/-- The printed index maps, decided once over the grid: point t takes row block t of the row-blocked windows and the
    whole of the small ones. -/
theorem idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0 :=
  (by decide +kernel : ∀ t : Fin grid4.N, _)

/-- Point t's block of the aggregate: rows 5000·t … 5000·t + 4999. -/
theorem blk_agg (c : Dev nD) (t : Fin cfg4.N) (p : Fin 5000) (k : Fin 64) (r : Fin 50000) (hr : r.val = t.val * 5000 + p.val) :
    (Gen.iblk4 (F := Ideal) V c 0 t : Vec Ideal S5000x64 .f32) (ix2 p k) = (V c main_v101 : KV.C S50000x64 .f32) (ix2 r k) := by
  obtain ⟨e0, e1, -⟩ := idx_facts t
  unfold Gen.iblk4
  rw [View.read_apply]
  show V c main_v101 _ = V c main_v101 _
  congr 1
  funext a; apply Fin.ext
  match a with
  | ⟨0, _⟩ => show win4_0.index t (0 : Fin 2) * 5000 + 1 * p.val = r.val; omega
  | ⟨1, _⟩ => show win4_0.index t (1 : Fin 2) * 64 + 1 * k.val = k.val; omega

/-- Point t's block of the factor column: the same rows. -/
theorem blk_dis (c : Dev nD) (t : Fin cfg4.N) (p : Fin 5000) (r : Fin 50000) (hr : r.val = t.val * 5000 + p.val) :
    (Gen.iblk4 (F := Ideal) V c 1 t : Vec Ideal S5000x1 .f32) (ix2 p (0 : Fin 1)) = (V c main_v17 : KV.C S50000x1 .f32) (ix2 r (0 : Fin 1)) := by
  obtain ⟨-, -, e2, e3, -⟩ := idx_facts t
  unfold Gen.iblk4
  rw [View.read_apply]
  show V c main_v17 _ = V c main_v17 _
  congr 1
  funext a; apply Fin.ext
  match a with
  | ⟨0, _⟩ => show win4_1.index t (0 : Fin 2) * 5000 + 1 * p.val = r.val; omega
  | ⟨1, _⟩ => show win4_1.index t (1 : Fin 2) * 1 + 1 * 0 = 0; omega

/-- Every point reads the whole bias row -/
theorem blk_bias (c : Dev nD) (t : Fin cfg4.N) (k : Fin 64) :
    (Gen.iblk4 (F := Ideal) V c 2 t : Vec Ideal S1x64 .f32) (ix2 (0 : Fin 1) k) = (V c main_v102 : KV.C S1x64 .f32) (ix2 (0 : Fin 1) k) := by
  obtain ⟨-, -, -, -, e4, e5, -⟩ := idx_facts t
  unfold Gen.iblk4
  rw [View.read_apply]
  show V c main_v102 _ = V c main_v102 _
  congr 1
  funext a; apply Fin.ext
  match a with
  | ⟨0, _⟩ => show win4_2.index t (0 : Fin 2) * 1 + 1 * 0 = 0; omega
  | ⟨1, _⟩ => show win4_2.index t (1 : Fin 2) * 64 + 1 * k.val = k.val; omega

/-- and the whole weight matrix. -/
theorem blk_w (c : Dev nD) (t : Fin cfg4.N) (k q q' : Fin 64) (hq : q'.val = q.val) :
    (Gen.iblk4 (F := Ideal) V c 3 t : Vec Ideal S64x64 .f32) (ix2 k q) = (V c main_v54 : KV.C S64x64 .f32) (ix2 k q') := by
  obtain ⟨-, -, -, -, -, -, e6, e7, -⟩ := idx_facts t
  unfold Gen.iblk4
  rw [View.read_apply]
  show V c main_v54 _ = V c main_v54 _
  congr 1
  funext a; apply Fin.ext
  match a with
  | ⟨0, _⟩ => show win4_3.index t (0 : Fin 2) * 64 + 1 * k.val = k.val; omega
  | ⟨1, _⟩ => show win4_3.index t (1 : Fin 2) * 64 + 1 * q.val = q'.val; omega

/-- The whole-array function the region computes. -/
abbrev G (c : Dev nD) : KV.C S50000x64 .bf16 := KV.Gf (V c main_v101) (V c main_v17) (V c main_v102) (V c main_v54)

/-- The body's result at a point's local index is the whole-array function at that index's place in the array. -/
theorem point_eq (c : Dev nD) (t : Fin cfg4.N) (j : S5000x64.Idx) :
    Gen.k4_pay1 (F := Ideal) (Gen.iblk4 V c 1 t) (Gen.iblk4 V c 0 t) (Gen.iblk4 V c 2 t) (Gen.iblk4 V c 3 t) j
      = G V c (((cfg4.win 4).blk t).view.emb j) := by
  obtain ⟨-, -, -, -, -, -, -, -, e8, e9⟩ := idx_facts t
  have hrow : (((cfg4.win 4).blk t).view.emb j 0).val = t.val * 5000 + (j 0).val := by
    show win4_4.index t (0 : Fin 2) * 5000 + 1 * (j 0).val = _; omega
  have hcol : (((cfg4.win 4).blk t).view.emb j 1).val = (j 1).val := by
    show win4_4.index t (1 : Fin 2) * 64 + 1 * (j 1).val = _; omega
  refine ((congrArg _ (eq_ix2 j)).trans (pay_ix _ _ _ _ (j 0) (j 1))).trans ?_
  show _ = (∑ k : Fin 64, KV.act _ _ _ _ k * _) * _
  rw [blk_dis V c t (j 0) _ hrow]
  refine congrArg₂ (· * ·) (Finset.sum_congr rfl fun k _ => ?_) rfl
  unfold KV.act
  rw [blk_agg V c t (j 0) k _ hrow, blk_bias V c t k, blk_w V c t k (j 1) _ hcol]
  rfl

/-- WHAT POINT t WRITES BACK is block t of the whole-array function. -/
theorem flushed_eq (c : Dev nD) (t : Fin cfg4.N) :
    (Gen.dat4 (F := Ideal) V c).flushed 4 t = ((cfg4.win 4).blk t).view.read (Elt Ideal) (G V c) := by
  show (cfg4.win 4).cut (grid4.coords t) ((Gen.dat4 (F := Ideal) V c).after 4 t) = _
  rw [Gen.after4_4]
  unfold Gen.out4_4
  rw [View.canon_unit_zero hz]
  simp only [View.ld_unit_zero (S := S5000x64) hz, View.ld_unit_zero (S := S5000x1) hz, View.ld_unit_zero (S := S1x64) hz, View.ld_unit_zero (S := S64x64) hz]
  funext j
  exact point_eq V c t j

/-- An index of the array is in point t's block iff each coordinate is in the block's range on its axis. -/
theorem mem_blk (t : Fin cfg4.N) (i : S50000x64.Idx) :
    i ∈ ((cfg4.win 4).blk t).view.set ↔ ∀ a : Fin 2, win4_4.index t a * S5000x64.size a ≤ (i a).val ∧ (i a).val < win4_4.index t a * S5000x64.size a + S5000x64.size a := by
  show i ∈ ((View.whole main_v103).slice (win4_4.rect t)).set ↔ _
  rw [View.set_slice_whole, Rect.mem_set_unit]
  exact Iff.rfl

/-- Row r of the array is in the block of point r / 5000. -/
theorem cover (i : S50000x64.Idx) : ∃ t : Fin cfg4.N, (cfg4.win 4).flush t = true ∧ i ∈ ((cfg4.win 4).blk t).view.set := by
  have hi0 : (i 0).val < 50000 := (i 0).isLt
  have hi1 : (i 1).val < 64 := (i 1).isLt
  have hN : cfg4.N = 10 := Gen.N_4
  obtain ⟨t, ht⟩ : ∃ t : Fin cfg4.N, t.val = (i 0).val / 5000 := ⟨⟨(i 0).val / 5000, by omega⟩, rfl⟩
  obtain ⟨-, -, -, -, -, -, -, -, e8, e9⟩ := idx_facts t
  refine ⟨t, Gen.flush4_4 t, ?_⟩
  rw [mem_blk]
  intro a
  match a with
  | ⟨0, _⟩ => show win4_4.index t (0 : Fin 2) * 5000 ≤ (i 0).val ∧ (i 0).val < win4_4.index t (0 : Fin 2) * 5000 + 5000; omega
  | ⟨1, _⟩ => show win4_4.index t (1 : Fin 2) * 64 ≤ (i 1).val ∧ (i 1).val < win4_4.index t (1 : Fin 2) * 64 + 64; omega

/-- THE ARRAY after the region: the fused layer of the four input arrays as the region finds them. -/
theorem final (c : Dev nD) :
    (Gen.dat4 (F := Ideal) V c).arrAt 4 cfg4.N = KV.Gf (V c main_v101) (V c main_v17) (V c main_v102) (V c main_v54) :=
  (Gen.dat4 (F := Ideal) V c).arrAt_eq_of_cover 4 (G V c) (fun t _ => flushed_eq V c t) cover

end Run

end Cert.KernelIdeal.Reg4

end
-- ==== Proof.Reg5.lean ====
import proofs.«430747_j26834955666046_2_alg».proof.Proof.Gen.KernelIdeal.Frame
import proofs.«430747_j26834955666046_2_alg».proof.Proof.KV
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Reg5

open Idealize.ShloMosaic Idealize.ShloMosaic.TcCoe Idealize.ShloMosaic.ValueIdx Cert.KernelIdeal Cert.KernelIdeal.Facts₀ Cert.KernelIdeal.Facts
open Idealize.ShloMosaic.Pipeline (Dat)

/-- A column broadcast along its rows reads, at (p, c), the column's entry p. -/
theorem bcast_col {α : Type} {a b : ℕ} (hb : b ≠ 1) (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem lhs_ax0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs_ax1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhs_ax0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhs_ax1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The body's result at (p, q): the row-p activation times column q of the weight, scaled by the row's factor. -/
theorem pay_ix (v0 : Vec Ideal S5000x1 .f32) (v2 : Vec Ideal S5000x64 .f32) (v6 : Vec Ideal S1x64 .f32) (v13 : Vec Ideal S64x64 .f32)
    (p : Fin 5000) (q : Fin 64) :
    Gen.k5_pay1 (F := Ideal) v0 v2 v6 v13 (ix2 p q)
      = (∑ k : Fin 64, max (v2 (ix2 p k) * v0 (ix2 p (0 : Fin 1)) + v6 (ix2 (0 : Fin 1) k)) 0 * v13 (ix2 k q)) * v0 (ix2 p (0 : Fin 1)) := by
  unfold Gen.k5_pay1
  simp only [shapeCast_self]
  rw [truncf_apply, mulf_apply]
  rw [bcast_col (by decide)]
  congr 1
  simp only [matmul]
  rw [Ideal.matmul_constant_zero_apply, ← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 p q) ((ValueIdx.contrEquiv1 dot_S5000x64_S64x64_S5000x64_1_0_0_1_n_n 64 rfl rfl).symm k) = ix2 p k := funext fun a => Fin.ext (by
    match a with
    | ⟨0, _⟩ => exact lhs_ax0 _ _
    | ⟨1, _⟩ => exact (lhs_ax1 _ _).trans hk)
  have er : dot_S5000x64_S64x64_S5000x64_1_0_0_1_n_n.rhsIdx (ix2 p q) ((ValueIdx.contrEquiv1 dot_S5000x64_S64x64_S5000x64_1_0_0_1_n_n 64 rfl rfl).symm k) = ix2 k q := funext fun a => Fin.ext (by
    match a with
    | ⟨0, _⟩ => exact (rhs_ax0 _ _).trans hk
    | ⟨1, _⟩ => exact rhs_ax1 _ _)
  rw [el, er]
  rw [truncf_apply, truncf_apply, maximumf_apply, addf_apply, mulf_apply, bcast_col (by decide), broadcastTo_1b_ab_apply, broadcast_apply]
  congr 2
  exact Ideal.ofBits_zero_f32

/-! ## The region's run: what each grid point writes back, and the array after the last point -/

section Run
variable (V : (c : Dev nD) → (b : Ref sig .tc) → Buf (Elt Ideal) ((c : Thread nD τ).loc b))

theorem hz : (![0, 0] : Fin 2 → Nat) = fun _ => 0 := funext fun a => by fin_cases a <;> rfl

/-- The printed index maps, decided once over the grid: point t takes row block t of the row-blocked windows and the
    whole of the small ones. -/
theorem idx_facts : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

/-- Point t's block of the aggregate: rows 5000·t … 5000·t + 4999. -/
theorem blk_agg (c : Dev nD) (t : Fin cfg5.N) (p : Fin 5000) (k : Fin 64) (r : Fin 50000) (hr : r.val = t.val * 5000 + p.val) :
    (Gen.iblk5 (F := Ideal) V c 0 t : Vec Ideal S5000x64 .f32) (ix2 p k) = (V c main_v114 : KV.C S50000x64 .f32) (ix2 r k) := by
  obtain ⟨e0, e1, -⟩ := idx_facts t
  unfold Gen.iblk5
  rw [View.read_apply]
  show V c main_v114 _ = V c main_v114 _
  congr 1
  funext a; apply Fin.ext
  match a with
  | ⟨0, _⟩ => show win5_0.index t (0 : Fin 2) * 5000 + 1 * p.val = r.val; omega
  | ⟨1, _⟩ => show win5_0.index t (1 : Fin 2) * 64 + 1 * k.val = k.val; omega

/-- Point t's block of the factor column: the same rows. -/
theorem blk_dis (c : Dev nD) (t : Fin cfg5.N) (p : Fin 5000) (r : Fin 50000) (hr : r.val = t.val * 5000 + p.val) :
    (Gen.iblk5 (F := Ideal) V c 1 t : Vec Ideal S5000x1 .f32) (ix2 p (0 : Fin 1)) = (V c main_v17 : KV.C S50000x1 .f32) (ix2 r (0 : Fin 1)) := by
  obtain ⟨-, -, e2, e3, -⟩ := idx_facts t
  unfold Gen.iblk5
  rw [View.read_apply]
  show V c main_v17 _ = V c main_v17 _
  congr 1
  funext a; apply Fin.ext
  match a with
  | ⟨0, _⟩ => show win5_1.index t (0 : Fin 2) * 5000 + 1 * p.val = r.val; omega
  | ⟨1, _⟩ => show win5_1.index t (1 : Fin 2) * 1 + 1 * 0 = 0; omega

/-- Every point reads the whole bias row -/
theorem blk_bias (c : Dev nD) (t : Fin cfg5.N) (k : Fin 64) :
    (Gen.iblk5 (F := Ideal) V c 2 t : Vec Ideal S1x64 .f32) (ix2 (0 : Fin 1) k) = (V c main_v115 : KV.C S1x64 .f32) (ix2 (0 : Fin 1) k) := by
  obtain ⟨-, -, -, -, e4, e5, -⟩ := idx_facts t
  unfold Gen.iblk5
  rw [View.read_apply]
  show V c main_v115 _ = V c main_v115 _
  congr 1
  funext a; apply Fin.ext
  match a with
  | ⟨0, _⟩ => show win5_2.index t (0 : Fin 2) * 1 + 1 * 0 = 0; omega
  | ⟨1, _⟩ => show win5_2.index t (1 : Fin 2) * 64 + 1 * k.val = k.val; omega

/-- and the whole weight matrix. -/
theorem blk_w (c : Dev nD) (t : Fin cfg5.N) (k q q' : Fin 64) (hq : q'.val = q.val) :
    (Gen.iblk5 (F := Ideal) V c 3 t : Vec Ideal S64x64 .f32) (ix2 k q) = (V c main_v56 : KV.C S64x64 .f32) (ix2 k q') := by
  obtain ⟨-, -, -, -, -, -, e6, e7, -⟩ := idx_facts t
  unfold Gen.iblk5
  rw [View.read_apply]
  show V c main_v56 _ = V c main_v56 _
  congr 1
  funext a; apply Fin.ext
  match a with
  | ⟨0, _⟩ => show win5_3.index t (0 : Fin 2) * 64 + 1 * k.val = k.val; omega
  | ⟨1, _⟩ => show win5_3.index t (1 : Fin 2) * 64 + 1 * q.val = q'.val; omega

/-- The whole-array function the region computes. -/
abbrev G (c : Dev nD) : KV.C S50000x64 .bf16 := KV.Gf (V c main_v114) (V c main_v17) (V c main_v115) (V c main_v56)

/-- The body's result at a point's local index is the whole-array function at that index's place in the array. -/
theorem point_eq (c : Dev nD) (t : Fin cfg5.N) (j : S5000x64.Idx) :
    Gen.k5_pay1 (F := Ideal) (Gen.iblk5 V c 1 t) (Gen.iblk5 V c 0 t) (Gen.iblk5 V c 2 t) (Gen.iblk5 V c 3 t) j
      = G V c (((cfg5.win 4).blk t).view.emb j) := by
  obtain ⟨-, -, -, -, -, -, -, -, e8, e9⟩ := idx_facts t
  have hrow : (((cfg5.win 4).blk t).view.emb j 0).val = t.val * 5000 + (j 0).val := by
    show win5_4.index t (0 : Fin 2) * 5000 + 1 * (j 0).val = _; omega
  have hcol : (((cfg5.win 4).blk t).view.emb j 1).val = (j 1).val := by
    show win5_4.index t (1 : Fin 2) * 64 + 1 * (j 1).val = _; omega
  refine ((congrArg _ (eq_ix2 j)).trans (pay_ix _ _ _ _ (j 0) (j 1))).trans ?_
  show _ = (∑ k : Fin 64, KV.act _ _ _ _ k * _) * _
  rw [blk_dis V c t (j 0) _ hrow]
  refine congrArg₂ (· * ·) (Finset.sum_congr rfl fun k _ => ?_) rfl
  unfold KV.act
  rw [blk_agg V c t (j 0) k _ hrow, blk_bias V c t k, blk_w V c t k (j 1) _ hcol]
  rfl

/-- WHAT POINT t WRITES BACK is block t of the whole-array function. -/
theorem flushed_eq (c : Dev nD) (t : Fin cfg5.N) :
    (Gen.dat5 (F := Ideal) V c).flushed 4 t = ((cfg5.win 4).blk t).view.read (Elt Ideal) (G V c) := by
  show (cfg5.win 4).cut (grid5.coords t) ((Gen.dat5 (F := Ideal) V c).after 4 t) = _
  rw [Gen.after5_4]
  unfold Gen.out5_4
  rw [View.canon_unit_zero hz]
  simp only [View.ld_unit_zero (S := S5000x64) hz, View.ld_unit_zero (S := S5000x1) hz, View.ld_unit_zero (S := S1x64) hz, View.ld_unit_zero (S := S64x64) hz]
  funext j
  exact point_eq V c t j

/-- An index of the array is in point t's block iff each coordinate is in the block's range on its axis. -/
theorem mem_blk (t : Fin cfg5.N) (i : S50000x64.Idx) :
    i ∈ ((cfg5.win 4).blk t).view.set ↔ ∀ a : Fin 2, win5_4.index t a * S5000x64.size a ≤ (i a).val ∧ (i a).val < win5_4.index t a * S5000x64.size a + S5000x64.size a := by
  show i ∈ ((View.whole main_v116).slice (win5_4.rect t)).set ↔ _
  rw [View.set_slice_whole, Rect.mem_set_unit]
  exact Iff.rfl

/-- Row r of the array is in the block of point r / 5000. -/
theorem cover (i : S50000x64.Idx) : ∃ t : Fin cfg5.N, (cfg5.win 4).flush t = true ∧ i ∈ ((cfg5.win 4).blk t).view.set := by
  have hi0 : (i 0).val < 50000 := (i 0).isLt
  have hi1 : (i 1).val < 64 := (i 1).isLt
  have hN : cfg5.N = 10 := Gen.N_5
  obtain ⟨t, ht⟩ : ∃ t : Fin cfg5.N, t.val = (i 0).val / 5000 := ⟨⟨(i 0).val / 5000, by omega⟩, rfl⟩
  obtain ⟨-, -, -, -, -, -, -, -, e8, e9⟩ := idx_facts t
  refine ⟨t, Gen.flush5_4 t, ?_⟩
  rw [mem_blk]
  intro a
  match a with
  | ⟨0, _⟩ => show win5_4.index t (0 : Fin 2) * 5000 ≤ (i 0).val ∧ (i 0).val < win5_4.index t (0 : Fin 2) * 5000 + 5000; omega
  | ⟨1, _⟩ => show win5_4.index t (1 : Fin 2) * 64 ≤ (i 1).val ∧ (i 1).val < win5_4.index t (1 : Fin 2) * 64 + 64; omega

/-- THE ARRAY after the region: the fused layer of the four input arrays as the region finds them. -/
theorem final (c : Dev nD) :
    (Gen.dat5 (F := Ideal) V c).arrAt 4 cfg5.N = KV.Gf (V c main_v114) (V c main_v17) (V c main_v115) (V c main_v56) :=
  (Gen.dat5 (F := Ideal) V c).arrAt_eq_of_cover 4 (G V c) (fun t _ => flushed_eq V c t) cover

end Run

end Cert.KernelIdeal.Reg5

end
-- ==== Proof.Reg6.lean ====
import proofs.«430747_j26834955666046_2_alg».proof.Proof.Gen.KernelIdeal.Frame
import proofs.«430747_j26834955666046_2_alg».proof.Proof.KV
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Reg6

open Idealize.ShloMosaic Idealize.ShloMosaic.TcCoe Idealize.ShloMosaic.ValueIdx Cert.KernelIdeal Cert.KernelIdeal.Facts₀ Cert.KernelIdeal.Facts
open Idealize.ShloMosaic.Pipeline (Dat)

/-- A column broadcast along its rows reads, at (p, c), the column's entry p. -/
theorem bcast_col {α : Type} {a b : ℕ} (hb : b ≠ 1) (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem lhs_ax0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs_ax1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhs_ax0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhs_ax1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The body's result at (p, q): the row-p activation times column q of the weight, scaled by the row's factor. -/
theorem pay_ix (v0 : Vec Ideal S5000x1 .f32) (v2 : Vec Ideal S5000x64 .f32) (v6 : Vec Ideal S1x64 .f32) (v13 : Vec Ideal S64x64 .f32)
    (p : Fin 5000) (q : Fin 64) :
    Gen.k6_pay1 (F := Ideal) v0 v2 v6 v13 (ix2 p q)
      = (∑ k : Fin 64, max (v2 (ix2 p k) * v0 (ix2 p (0 : Fin 1)) + v6 (ix2 (0 : Fin 1) k)) 0 * v13 (ix2 k q)) * v0 (ix2 p (0 : Fin 1)) := by
  unfold Gen.k6_pay1
  simp only [shapeCast_self]
  rw [truncf_apply, mulf_apply]
  rw [bcast_col (by decide)]
  congr 1
  simp only [matmul]
  rw [Ideal.matmul_constant_zero_apply, ← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 p q) ((ValueIdx.contrEquiv1 dot_S5000x64_S64x64_S5000x64_1_0_0_1_n_n 64 rfl rfl).symm k) = ix2 p k := funext fun a => Fin.ext (by
    match a with
    | ⟨0, _⟩ => exact lhs_ax0 _ _
    | ⟨1, _⟩ => exact (lhs_ax1 _ _).trans hk)
  have er : dot_S5000x64_S64x64_S5000x64_1_0_0_1_n_n.rhsIdx (ix2 p q) ((ValueIdx.contrEquiv1 dot_S5000x64_S64x64_S5000x64_1_0_0_1_n_n 64 rfl rfl).symm k) = ix2 k q := funext fun a => Fin.ext (by
    match a with
    | ⟨0, _⟩ => exact (rhs_ax0 _ _).trans hk
    | ⟨1, _⟩ => exact rhs_ax1 _ _)
  rw [el, er]
  rw [truncf_apply, truncf_apply, maximumf_apply, addf_apply, mulf_apply, bcast_col (by decide), broadcastTo_1b_ab_apply, broadcast_apply]
  congr 2
  exact Ideal.ofBits_zero_f32

/-! ## The region's run: what each grid point writes back, and the array after the last point -/

section Run
variable (V : (c : Dev nD) → (b : Ref sig .tc) → Buf (Elt Ideal) ((c : Thread nD τ).loc b))

theorem hz : (![0, 0] : Fin 2 → Nat) = fun _ => 0 := funext fun a => by fin_cases a <;> rfl

/-- The printed index maps, decided once over the grid: point t takes row block t of the row-blocked windows and the
    whole of the small ones. -/
theorem idx_facts : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = t.val ∧ win6_4.index t (1 : Fin 2) = 0 :=
  (by decide +kernel : ∀ t : Fin grid6.N, _)

/-- Point t's block of the aggregate: rows 5000·t … 5000·t + 4999. -/
theorem blk_agg (c : Dev nD) (t : Fin cfg6.N) (p : Fin 5000) (k : Fin 64) (r : Fin 50000) (hr : r.val = t.val * 5000 + p.val) :
    (Gen.iblk6 (F := Ideal) V c 0 t : Vec Ideal S5000x64 .f32) (ix2 p k) = (V c main_v127 : KV.C S50000x64 .f32) (ix2 r k) := by
  obtain ⟨e0, e1, -⟩ := idx_facts t
  unfold Gen.iblk6
  rw [View.read_apply]
  show V c main_v127 _ = V c main_v127 _
  congr 1
  funext a; apply Fin.ext
  match a with
  | ⟨0, _⟩ => show win6_0.index t (0 : Fin 2) * 5000 + 1 * p.val = r.val; omega
  | ⟨1, _⟩ => show win6_0.index t (1 : Fin 2) * 64 + 1 * k.val = k.val; omega

/-- Point t's block of the factor column: the same rows. -/
theorem blk_dis (c : Dev nD) (t : Fin cfg6.N) (p : Fin 5000) (r : Fin 50000) (hr : r.val = t.val * 5000 + p.val) :
    (Gen.iblk6 (F := Ideal) V c 1 t : Vec Ideal S5000x1 .f32) (ix2 p (0 : Fin 1)) = (V c main_v17 : KV.C S50000x1 .f32) (ix2 r (0 : Fin 1)) := by
  obtain ⟨-, -, e2, e3, -⟩ := idx_facts t
  unfold Gen.iblk6
  rw [View.read_apply]
  show V c main_v17 _ = V c main_v17 _
  congr 1
  funext a; apply Fin.ext
  match a with
  | ⟨0, _⟩ => show win6_1.index t (0 : Fin 2) * 5000 + 1 * p.val = r.val; omega
  | ⟨1, _⟩ => show win6_1.index t (1 : Fin 2) * 1 + 1 * 0 = 0; omega

/-- Every point reads the whole bias row -/
theorem blk_bias (c : Dev nD) (t : Fin cfg6.N) (k : Fin 64) :
    (Gen.iblk6 (F := Ideal) V c 2 t : Vec Ideal S1x64 .f32) (ix2 (0 : Fin 1) k) = (V c main_v128 : KV.C S1x64 .f32) (ix2 (0 : Fin 1) k) := by
  obtain ⟨-, -, -, -, e4, e5, -⟩ := idx_facts t
  unfold Gen.iblk6
  rw [View.read_apply]
  show V c main_v128 _ = V c main_v128 _
  congr 1
  funext a; apply Fin.ext
  match a with
  | ⟨0, _⟩ => show win6_2.index t (0 : Fin 2) * 1 + 1 * 0 = 0; omega
  | ⟨1, _⟩ => show win6_2.index t (1 : Fin 2) * 64 + 1 * k.val = k.val; omega

/-- and the whole weight matrix. -/
theorem blk_w (c : Dev nD) (t : Fin cfg6.N) (k q q' : Fin 64) (hq : q'.val = q.val) :
    (Gen.iblk6 (F := Ideal) V c 3 t : Vec Ideal S64x64 .f32) (ix2 k q) = (V c main_v58 : KV.C S64x64 .f32) (ix2 k q') := by
  obtain ⟨-, -, -, -, -, -, e6, e7, -⟩ := idx_facts t
  unfold Gen.iblk6
  rw [View.read_apply]
  show V c main_v58 _ = V c main_v58 _
  congr 1
  funext a; apply Fin.ext
  match a with
  | ⟨0, _⟩ => show win6_3.index t (0 : Fin 2) * 64 + 1 * k.val = k.val; omega
  | ⟨1, _⟩ => show win6_3.index t (1 : Fin 2) * 64 + 1 * q.val = q'.val; omega

/-- The whole-array function the region computes. -/
abbrev G (c : Dev nD) : KV.C S50000x64 .bf16 := KV.Gf (V c main_v127) (V c main_v17) (V c main_v128) (V c main_v58)

/-- The body's result at a point's local index is the whole-array function at that index's place in the array. -/
theorem point_eq (c : Dev nD) (t : Fin cfg6.N) (j : S5000x64.Idx) :
    Gen.k6_pay1 (F := Ideal) (Gen.iblk6 V c 1 t) (Gen.iblk6 V c 0 t) (Gen.iblk6 V c 2 t) (Gen.iblk6 V c 3 t) j
      = G V c (((cfg6.win 4).blk t).view.emb j) := by
  obtain ⟨-, -, -, -, -, -, -, -, e8, e9⟩ := idx_facts t
  have hrow : (((cfg6.win 4).blk t).view.emb j 0).val = t.val * 5000 + (j 0).val := by
    show win6_4.index t (0 : Fin 2) * 5000 + 1 * (j 0).val = _; omega
  have hcol : (((cfg6.win 4).blk t).view.emb j 1).val = (j 1).val := by
    show win6_4.index t (1 : Fin 2) * 64 + 1 * (j 1).val = _; omega
  refine ((congrArg _ (eq_ix2 j)).trans (pay_ix _ _ _ _ (j 0) (j 1))).trans ?_
  show _ = (∑ k : Fin 64, KV.act _ _ _ _ k * _) * _
  rw [blk_dis V c t (j 0) _ hrow]
  refine congrArg₂ (· * ·) (Finset.sum_congr rfl fun k _ => ?_) rfl
  unfold KV.act
  rw [blk_agg V c t (j 0) k _ hrow, blk_bias V c t k, blk_w V c t k (j 1) _ hcol]
  rfl

/-- WHAT POINT t WRITES BACK is block t of the whole-array function. -/
theorem flushed_eq (c : Dev nD) (t : Fin cfg6.N) :
    (Gen.dat6 (F := Ideal) V c).flushed 4 t = ((cfg6.win 4).blk t).view.read (Elt Ideal) (G V c) := by
  show (cfg6.win 4).cut (grid6.coords t) ((Gen.dat6 (F := Ideal) V c).after 4 t) = _
  rw [Gen.after6_4]
  unfold Gen.out6_4
  rw [View.canon_unit_zero hz]
  simp only [View.ld_unit_zero (S := S5000x64) hz, View.ld_unit_zero (S := S5000x1) hz, View.ld_unit_zero (S := S1x64) hz, View.ld_unit_zero (S := S64x64) hz]
  funext j
  exact point_eq V c t j

/-- An index of the array is in point t's block iff each coordinate is in the block's range on its axis. -/
theorem mem_blk (t : Fin cfg6.N) (i : S50000x64.Idx) :
    i ∈ ((cfg6.win 4).blk t).view.set ↔ ∀ a : Fin 2, win6_4.index t a * S5000x64.size a ≤ (i a).val ∧ (i a).val < win6_4.index t a * S5000x64.size a + S5000x64.size a := by
  show i ∈ ((View.whole main_v129).slice (win6_4.rect t)).set ↔ _
  rw [View.set_slice_whole, Rect.mem_set_unit]
  exact Iff.rfl

/-- Row r of the array is in the block of point r / 5000. -/
theorem cover (i : S50000x64.Idx) : ∃ t : Fin cfg6.N, (cfg6.win 4).flush t = true ∧ i ∈ ((cfg6.win 4).blk t).view.set := by
  have hi0 : (i 0).val < 50000 := (i 0).isLt
  have hi1 : (i 1).val < 64 := (i 1).isLt
  have hN : cfg6.N = 10 := Gen.N_6
  obtain ⟨t, ht⟩ : ∃ t : Fin cfg6.N, t.val = (i 0).val / 5000 := ⟨⟨(i 0).val / 5000, by omega⟩, rfl⟩
  obtain ⟨-, -, -, -, -, -, -, -, e8, e9⟩ := idx_facts t
  refine ⟨t, Gen.flush6_4 t, ?_⟩
  rw [mem_blk]
  intro a
  match a with
  | ⟨0, _⟩ => show win6_4.index t (0 : Fin 2) * 5000 ≤ (i 0).val ∧ (i 0).val < win6_4.index t (0 : Fin 2) * 5000 + 5000; omega
  | ⟨1, _⟩ => show win6_4.index t (1 : Fin 2) * 64 ≤ (i 1).val ∧ (i 1).val < win6_4.index t (1 : Fin 2) * 64 + 64; omega

/-- THE ARRAY after the region: the fused layer of the four input arrays as the region finds them. -/
theorem final (c : Dev nD) :
    (Gen.dat6 (F := Ideal) V c).arrAt 4 cfg6.N = KV.Gf (V c main_v127) (V c main_v17) (V c main_v128) (V c main_v58) :=
  (Gen.dat6 (F := Ideal) V c).arrAt_eq_of_cover 4 (G V c) (fun t _ => flushed_eq V c t) cover

end Run

end Cert.KernelIdeal.Reg6

end
-- ==== Proof.Reg7.lean ====
import proofs.«430747_j26834955666046_2_alg».proof.Proof.Gen.KernelIdeal.Frame
import proofs.«430747_j26834955666046_2_alg».proof.Proof.KV
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Reg7

open Idealize.ShloMosaic Idealize.ShloMosaic.TcCoe Idealize.ShloMosaic.ValueIdx Cert.KernelIdeal Cert.KernelIdeal.Facts₀ Cert.KernelIdeal.Facts
open Idealize.ShloMosaic.Pipeline (Dat)

/-- A column broadcast along its rows reads, at (p, c), the column's entry p. -/
theorem bcast_col {α : Type} {a b : ℕ} (hb : b ≠ 1) (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem lhs_ax0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs_ax1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhs_ax0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhs_ax1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The body's result at (p, q): the row-p activation times column q of the weight, scaled by the row's factor. -/
theorem pay_ix (v0 : Vec Ideal S5000x1 .f32) (v2 : Vec Ideal S5000x64 .f32) (v6 : Vec Ideal S1x64 .f32) (v13 : Vec Ideal S64x64 .f32)
    (p : Fin 5000) (q : Fin 64) :
    Gen.k7_pay1 (F := Ideal) v0 v2 v6 v13 (ix2 p q)
      = (∑ k : Fin 64, max (v2 (ix2 p k) * v0 (ix2 p (0 : Fin 1)) + v6 (ix2 (0 : Fin 1) k)) 0 * v13 (ix2 k q)) * v0 (ix2 p (0 : Fin 1)) := by
  unfold Gen.k7_pay1
  simp only [shapeCast_self]
  rw [truncf_apply, mulf_apply]
  rw [bcast_col (by decide)]
  congr 1
  simp only [matmul]
  rw [Ideal.matmul_constant_zero_apply, ← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 p q) ((ValueIdx.contrEquiv1 dot_S5000x64_S64x64_S5000x64_1_0_0_1_n_n 64 rfl rfl).symm k) = ix2 p k := funext fun a => Fin.ext (by
    match a with
    | ⟨0, _⟩ => exact lhs_ax0 _ _
    | ⟨1, _⟩ => exact (lhs_ax1 _ _).trans hk)
  have er : dot_S5000x64_S64x64_S5000x64_1_0_0_1_n_n.rhsIdx (ix2 p q) ((ValueIdx.contrEquiv1 dot_S5000x64_S64x64_S5000x64_1_0_0_1_n_n 64 rfl rfl).symm k) = ix2 k q := funext fun a => Fin.ext (by
    match a with
    | ⟨0, _⟩ => exact (rhs_ax0 _ _).trans hk
    | ⟨1, _⟩ => exact rhs_ax1 _ _)
  rw [el, er]
  rw [truncf_apply, truncf_apply, maximumf_apply, addf_apply, mulf_apply, bcast_col (by decide), broadcastTo_1b_ab_apply, broadcast_apply]
  congr 2
  exact Ideal.ofBits_zero_f32

/-! ## The region's run: what each grid point writes back, and the array after the last point -/

section Run
variable (V : (c : Dev nD) → (b : Ref sig .tc) → Buf (Elt Ideal) ((c : Thread nD τ).loc b))

theorem hz : (![0, 0] : Fin 2 → Nat) = fun _ => 0 := funext fun a => by fin_cases a <;> rfl

/-- The printed index maps, decided once over the grid: point t takes row block t of the row-blocked windows and the
    whole of the small ones. -/
theorem idx_facts : ∀ t : Fin cfg7.N,
    win7_0.index t (0 : Fin 2) = t.val ∧ win7_0.index t (1 : Fin 2) = 0
    ∧ win7_1.index t (0 : Fin 2) = t.val ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = t.val ∧ win7_4.index t (1 : Fin 2) = 0 :=
  (by decide +kernel : ∀ t : Fin grid7.N, _)

/-- Point t's block of the aggregate: rows 5000·t … 5000·t + 4999. -/
theorem blk_agg (c : Dev nD) (t : Fin cfg7.N) (p : Fin 5000) (k : Fin 64) (r : Fin 50000) (hr : r.val = t.val * 5000 + p.val) :
    (Gen.iblk7 (F := Ideal) V c 0 t : Vec Ideal S5000x64 .f32) (ix2 p k) = (V c main_v140 : KV.C S50000x64 .f32) (ix2 r k) := by
  obtain ⟨e0, e1, -⟩ := idx_facts t
  unfold Gen.iblk7
  rw [View.read_apply]
  show V c main_v140 _ = V c main_v140 _
  congr 1
  funext a; apply Fin.ext
  match a with
  | ⟨0, _⟩ => show win7_0.index t (0 : Fin 2) * 5000 + 1 * p.val = r.val; omega
  | ⟨1, _⟩ => show win7_0.index t (1 : Fin 2) * 64 + 1 * k.val = k.val; omega

/-- Point t's block of the factor column: the same rows. -/
theorem blk_dis (c : Dev nD) (t : Fin cfg7.N) (p : Fin 5000) (r : Fin 50000) (hr : r.val = t.val * 5000 + p.val) :
    (Gen.iblk7 (F := Ideal) V c 1 t : Vec Ideal S5000x1 .f32) (ix2 p (0 : Fin 1)) = (V c main_v17 : KV.C S50000x1 .f32) (ix2 r (0 : Fin 1)) := by
  obtain ⟨-, -, e2, e3, -⟩ := idx_facts t
  unfold Gen.iblk7
  rw [View.read_apply]
  show V c main_v17 _ = V c main_v17 _
  congr 1
  funext a; apply Fin.ext
  match a with
  | ⟨0, _⟩ => show win7_1.index t (0 : Fin 2) * 5000 + 1 * p.val = r.val; omega
  | ⟨1, _⟩ => show win7_1.index t (1 : Fin 2) * 1 + 1 * 0 = 0; omega

/-- Every point reads the whole bias row -/
theorem blk_bias (c : Dev nD) (t : Fin cfg7.N) (k : Fin 64) :
    (Gen.iblk7 (F := Ideal) V c 2 t : Vec Ideal S1x64 .f32) (ix2 (0 : Fin 1) k) = (V c main_v141 : KV.C S1x64 .f32) (ix2 (0 : Fin 1) k) := by
  obtain ⟨-, -, -, -, e4, e5, -⟩ := idx_facts t
  unfold Gen.iblk7
  rw [View.read_apply]
  show V c main_v141 _ = V c main_v141 _
  congr 1
  funext a; apply Fin.ext
  match a with
  | ⟨0, _⟩ => show win7_2.index t (0 : Fin 2) * 1 + 1 * 0 = 0; omega
  | ⟨1, _⟩ => show win7_2.index t (1 : Fin 2) * 64 + 1 * k.val = k.val; omega

/-- and the whole weight matrix. -/
theorem blk_w (c : Dev nD) (t : Fin cfg7.N) (k q q' : Fin 64) (hq : q'.val = q.val) :
    (Gen.iblk7 (F := Ideal) V c 3 t : Vec Ideal S64x64 .f32) (ix2 k q) = (V c main_v60 : KV.C S64x64 .f32) (ix2 k q') := by
  obtain ⟨-, -, -, -, -, -, e6, e7, -⟩ := idx_facts t
  unfold Gen.iblk7
  rw [View.read_apply]
  show V c main_v60 _ = V c main_v60 _
  congr 1
  funext a; apply Fin.ext
  match a with
  | ⟨0, _⟩ => show win7_3.index t (0 : Fin 2) * 64 + 1 * k.val = k.val; omega
  | ⟨1, _⟩ => show win7_3.index t (1 : Fin 2) * 64 + 1 * q.val = q'.val; omega

/-- The whole-array function the region computes. -/
abbrev G (c : Dev nD) : KV.C S50000x64 .bf16 := KV.Gf (V c main_v140) (V c main_v17) (V c main_v141) (V c main_v60)

/-- The body's result at a point's local index is the whole-array function at that index's place in the array. -/
theorem point_eq (c : Dev nD) (t : Fin cfg7.N) (j : S5000x64.Idx) :
    Gen.k7_pay1 (F := Ideal) (Gen.iblk7 V c 1 t) (Gen.iblk7 V c 0 t) (Gen.iblk7 V c 2 t) (Gen.iblk7 V c 3 t) j
      = G V c (((cfg7.win 4).blk t).view.emb j) := by
  obtain ⟨-, -, -, -, -, -, -, -, e8, e9⟩ := idx_facts t
  have hrow : (((cfg7.win 4).blk t).view.emb j 0).val = t.val * 5000 + (j 0).val := by
    show win7_4.index t (0 : Fin 2) * 5000 + 1 * (j 0).val = _; omega
  have hcol : (((cfg7.win 4).blk t).view.emb j 1).val = (j 1).val := by
    show win7_4.index t (1 : Fin 2) * 64 + 1 * (j 1).val = _; omega
  refine ((congrArg _ (eq_ix2 j)).trans (pay_ix _ _ _ _ (j 0) (j 1))).trans ?_
  show _ = (∑ k : Fin 64, KV.act _ _ _ _ k * _) * _
  rw [blk_dis V c t (j 0) _ hrow]
  refine congrArg₂ (· * ·) (Finset.sum_congr rfl fun k _ => ?_) rfl
  unfold KV.act
  rw [blk_agg V c t (j 0) k _ hrow, blk_bias V c t k, blk_w V c t k (j 1) _ hcol]
  rfl

/-- WHAT POINT t WRITES BACK is block t of the whole-array function. -/
theorem flushed_eq (c : Dev nD) (t : Fin cfg7.N) :
    (Gen.dat7 (F := Ideal) V c).flushed 4 t = ((cfg7.win 4).blk t).view.read (Elt Ideal) (G V c) := by
  show (cfg7.win 4).cut (grid7.coords t) ((Gen.dat7 (F := Ideal) V c).after 4 t) = _
  rw [Gen.after7_4]
  unfold Gen.out7_4
  rw [View.canon_unit_zero hz]
  simp only [View.ld_unit_zero (S := S5000x64) hz, View.ld_unit_zero (S := S5000x1) hz, View.ld_unit_zero (S := S1x64) hz, View.ld_unit_zero (S := S64x64) hz]
  funext j
  exact point_eq V c t j

/-- An index of the array is in point t's block iff each coordinate is in the block's range on its axis. -/
theorem mem_blk (t : Fin cfg7.N) (i : S50000x64.Idx) :
    i ∈ ((cfg7.win 4).blk t).view.set ↔ ∀ a : Fin 2, win7_4.index t a * S5000x64.size a ≤ (i a).val ∧ (i a).val < win7_4.index t a * S5000x64.size a + S5000x64.size a := by
  show i ∈ ((View.whole main_v142).slice (win7_4.rect t)).set ↔ _
  rw [View.set_slice_whole, Rect.mem_set_unit]
  exact Iff.rfl

/-- Row r of the array is in the block of point r / 5000. -/
theorem cover (i : S50000x64.Idx) : ∃ t : Fin cfg7.N, (cfg7.win 4).flush t = true ∧ i ∈ ((cfg7.win 4).blk t).view.set := by
  have hi0 : (i 0).val < 50000 := (i 0).isLt
  have hi1 : (i 1).val < 64 := (i 1).isLt
  have hN : cfg7.N = 10 := Gen.N_7
  obtain ⟨t, ht⟩ : ∃ t : Fin cfg7.N, t.val = (i 0).val / 5000 := ⟨⟨(i 0).val / 5000, by omega⟩, rfl⟩
  obtain ⟨-, -, -, -, -, -, -, -, e8, e9⟩ := idx_facts t
  refine ⟨t, Gen.flush7_4 t, ?_⟩
  rw [mem_blk]
  intro a
  match a with
  | ⟨0, _⟩ => show win7_4.index t (0 : Fin 2) * 5000 ≤ (i 0).val ∧ (i 0).val < win7_4.index t (0 : Fin 2) * 5000 + 5000; omega
  | ⟨1, _⟩ => show win7_4.index t (1 : Fin 2) * 64 ≤ (i 1).val ∧ (i 1).val < win7_4.index t (1 : Fin 2) * 64 + 64; omega

/-- THE ARRAY after the region: the fused layer of the four input arrays as the region finds them. -/
theorem final (c : Dev nD) :
    (Gen.dat7 (F := Ideal) V c).arrAt 4 cfg7.N = KV.Gf (V c main_v140) (V c main_v17) (V c main_v141) (V c main_v60) :=
  (Gen.dat7 (F := Ideal) V c).arrAt_eq_of_cover 4 (G V c) (fun t _ => flushed_eq V c t) cover

end Run

end Cert.KernelIdeal.Reg7

end
-- ==== Proof.Reg8.lean ====
import proofs.«430747_j26834955666046_2_alg».proof.Proof.Gen.KernelIdeal.Frame
import proofs.«430747_j26834955666046_2_alg».proof.Proof.KV
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Reg8

open Idealize.ShloMosaic Idealize.ShloMosaic.TcCoe Idealize.ShloMosaic.ValueIdx Cert.KernelIdeal Cert.KernelIdeal.Facts₀ Cert.KernelIdeal.Facts
open Idealize.ShloMosaic.Pipeline (Dat)

/-- A column broadcast along its rows reads, at (p, c), the column's entry p. -/
theorem bcast_col {α : Type} {a b : ℕ} (hb : b ≠ 1) (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem lhs_ax0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs_ax1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhs_ax0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhs_ax1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The body's result at (p, q): the row-p activation times column q of the weight, scaled by the row's factor. -/
theorem pay_ix (v0 : Vec Ideal S5000x1 .f32) (v2 : Vec Ideal S5000x64 .f32) (v6 : Vec Ideal S1x64 .f32) (v13 : Vec Ideal S64x64 .f32)
    (p : Fin 5000) (q : Fin 64) :
    Gen.k8_pay1 (F := Ideal) v0 v2 v6 v13 (ix2 p q)
      = (∑ k : Fin 64, max (v2 (ix2 p k) * v0 (ix2 p (0 : Fin 1)) + v6 (ix2 (0 : Fin 1) k)) 0 * v13 (ix2 k q)) * v0 (ix2 p (0 : Fin 1)) := by
  unfold Gen.k8_pay1
  simp only [shapeCast_self]
  rw [truncf_apply, mulf_apply]
  rw [bcast_col (by decide)]
  congr 1
  simp only [matmul]
  rw [Ideal.matmul_constant_zero_apply, ← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 p q) ((ValueIdx.contrEquiv1 dot_S5000x64_S64x64_S5000x64_1_0_0_1_n_n 64 rfl rfl).symm k) = ix2 p k := funext fun a => Fin.ext (by
    match a with
    | ⟨0, _⟩ => exact lhs_ax0 _ _
    | ⟨1, _⟩ => exact (lhs_ax1 _ _).trans hk)
  have er : dot_S5000x64_S64x64_S5000x64_1_0_0_1_n_n.rhsIdx (ix2 p q) ((ValueIdx.contrEquiv1 dot_S5000x64_S64x64_S5000x64_1_0_0_1_n_n 64 rfl rfl).symm k) = ix2 k q := funext fun a => Fin.ext (by
    match a with
    | ⟨0, _⟩ => exact (rhs_ax0 _ _).trans hk
    | ⟨1, _⟩ => exact rhs_ax1 _ _)
  rw [el, er]
  rw [truncf_apply, truncf_apply, maximumf_apply, addf_apply, mulf_apply, bcast_col (by decide), broadcastTo_1b_ab_apply, broadcast_apply]
  congr 2
  exact Ideal.ofBits_zero_f32

/-! ## The region's run: what each grid point writes back, and the array after the last point -/

section Run
variable (V : (c : Dev nD) → (b : Ref sig .tc) → Buf (Elt Ideal) ((c : Thread nD τ).loc b))

theorem hz : (![0, 0] : Fin 2 → Nat) = fun _ => 0 := funext fun a => by fin_cases a <;> rfl

/-- The printed index maps, decided once over the grid: point t takes row block t of the row-blocked windows and the
    whole of the small ones. -/
theorem idx_facts : ∀ t : Fin cfg8.N,
    win8_0.index t (0 : Fin 2) = t.val ∧ win8_0.index t (1 : Fin 2) = 0
    ∧ win8_1.index t (0 : Fin 2) = t.val ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = t.val ∧ win8_4.index t (1 : Fin 2) = 0 :=
  (by decide +kernel : ∀ t : Fin grid8.N, _)

/-- Point t's block of the aggregate: rows 5000·t … 5000·t + 4999. -/
theorem blk_agg (c : Dev nD) (t : Fin cfg8.N) (p : Fin 5000) (k : Fin 64) (r : Fin 50000) (hr : r.val = t.val * 5000 + p.val) :
    (Gen.iblk8 (F := Ideal) V c 0 t : Vec Ideal S5000x64 .f32) (ix2 p k) = (V c main_v153 : KV.C S50000x64 .f32) (ix2 r k) := by
  obtain ⟨e0, e1, -⟩ := idx_facts t
  unfold Gen.iblk8
  rw [View.read_apply]
  show V c main_v153 _ = V c main_v153 _
  congr 1
  funext a; apply Fin.ext
  match a with
  | ⟨0, _⟩ => show win8_0.index t (0 : Fin 2) * 5000 + 1 * p.val = r.val; omega
  | ⟨1, _⟩ => show win8_0.index t (1 : Fin 2) * 64 + 1 * k.val = k.val; omega

/-- Point t's block of the factor column: the same rows. -/
theorem blk_dis (c : Dev nD) (t : Fin cfg8.N) (p : Fin 5000) (r : Fin 50000) (hr : r.val = t.val * 5000 + p.val) :
    (Gen.iblk8 (F := Ideal) V c 1 t : Vec Ideal S5000x1 .f32) (ix2 p (0 : Fin 1)) = (V c main_v17 : KV.C S50000x1 .f32) (ix2 r (0 : Fin 1)) := by
  obtain ⟨-, -, e2, e3, -⟩ := idx_facts t
  unfold Gen.iblk8
  rw [View.read_apply]
  show V c main_v17 _ = V c main_v17 _
  congr 1
  funext a; apply Fin.ext
  match a with
  | ⟨0, _⟩ => show win8_1.index t (0 : Fin 2) * 5000 + 1 * p.val = r.val; omega
  | ⟨1, _⟩ => show win8_1.index t (1 : Fin 2) * 1 + 1 * 0 = 0; omega

/-- Every point reads the whole bias row -/
theorem blk_bias (c : Dev nD) (t : Fin cfg8.N) (k : Fin 64) :
    (Gen.iblk8 (F := Ideal) V c 2 t : Vec Ideal S1x64 .f32) (ix2 (0 : Fin 1) k) = (V c main_v154 : KV.C S1x64 .f32) (ix2 (0 : Fin 1) k) := by
  obtain ⟨-, -, -, -, e4, e5, -⟩ := idx_facts t
  unfold Gen.iblk8
  rw [View.read_apply]
  show V c main_v154 _ = V c main_v154 _
  congr 1
  funext a; apply Fin.ext
  match a with
  | ⟨0, _⟩ => show win8_2.index t (0 : Fin 2) * 1 + 1 * 0 = 0; omega
  | ⟨1, _⟩ => show win8_2.index t (1 : Fin 2) * 64 + 1 * k.val = k.val; omega

/-- and the whole weight matrix. -/
theorem blk_w (c : Dev nD) (t : Fin cfg8.N) (k q q' : Fin 64) (hq : q'.val = q.val) :
    (Gen.iblk8 (F := Ideal) V c 3 t : Vec Ideal S64x64 .f32) (ix2 k q) = (V c main_v62 : KV.C S64x64 .f32) (ix2 k q') := by
  obtain ⟨-, -, -, -, -, -, e6, e7, -⟩ := idx_facts t
  unfold Gen.iblk8
  rw [View.read_apply]
  show V c main_v62 _ = V c main_v62 _
  congr 1
  funext a; apply Fin.ext
  match a with
  | ⟨0, _⟩ => show win8_3.index t (0 : Fin 2) * 64 + 1 * k.val = k.val; omega
  | ⟨1, _⟩ => show win8_3.index t (1 : Fin 2) * 64 + 1 * q.val = q'.val; omega

/-- The whole-array function the region computes. -/
abbrev G (c : Dev nD) : KV.C S50000x64 .bf16 := KV.Gf (V c main_v153) (V c main_v17) (V c main_v154) (V c main_v62)

/-- The body's result at a point's local index is the whole-array function at that index's place in the array. -/
theorem point_eq (c : Dev nD) (t : Fin cfg8.N) (j : S5000x64.Idx) :
    Gen.k8_pay1 (F := Ideal) (Gen.iblk8 V c 1 t) (Gen.iblk8 V c 0 t) (Gen.iblk8 V c 2 t) (Gen.iblk8 V c 3 t) j
      = G V c (((cfg8.win 4).blk t).view.emb j) := by
  obtain ⟨-, -, -, -, -, -, -, -, e8, e9⟩ := idx_facts t
  have hrow : (((cfg8.win 4).blk t).view.emb j 0).val = t.val * 5000 + (j 0).val := by
    show win8_4.index t (0 : Fin 2) * 5000 + 1 * (j 0).val = _; omega
  have hcol : (((cfg8.win 4).blk t).view.emb j 1).val = (j 1).val := by
    show win8_4.index t (1 : Fin 2) * 64 + 1 * (j 1).val = _; omega
  refine ((congrArg _ (eq_ix2 j)).trans (pay_ix _ _ _ _ (j 0) (j 1))).trans ?_
  show _ = (∑ k : Fin 64, KV.act _ _ _ _ k * _) * _
  rw [blk_dis V c t (j 0) _ hrow]
  refine congrArg₂ (· * ·) (Finset.sum_congr rfl fun k _ => ?_) rfl
  unfold KV.act
  rw [blk_agg V c t (j 0) k _ hrow, blk_bias V c t k, blk_w V c t k (j 1) _ hcol]
  rfl

/-- WHAT POINT t WRITES BACK is block t of the whole-array function. -/
theorem flushed_eq (c : Dev nD) (t : Fin cfg8.N) :
    (Gen.dat8 (F := Ideal) V c).flushed 4 t = ((cfg8.win 4).blk t).view.read (Elt Ideal) (G V c) := by
  show (cfg8.win 4).cut (grid8.coords t) ((Gen.dat8 (F := Ideal) V c).after 4 t) = _
  rw [Gen.after8_4]
  unfold Gen.out8_4
  rw [View.canon_unit_zero hz]
  simp only [View.ld_unit_zero (S := S5000x64) hz, View.ld_unit_zero (S := S5000x1) hz, View.ld_unit_zero (S := S1x64) hz, View.ld_unit_zero (S := S64x64) hz]
  funext j
  exact point_eq V c t j

/-- An index of the array is in point t's block iff each coordinate is in the block's range on its axis. -/
theorem mem_blk (t : Fin cfg8.N) (i : S50000x64.Idx) :
    i ∈ ((cfg8.win 4).blk t).view.set ↔ ∀ a : Fin 2, win8_4.index t a * S5000x64.size a ≤ (i a).val ∧ (i a).val < win8_4.index t a * S5000x64.size a + S5000x64.size a := by
  show i ∈ ((View.whole main_v155).slice (win8_4.rect t)).set ↔ _
  rw [View.set_slice_whole, Rect.mem_set_unit]
  exact Iff.rfl

/-- Row r of the array is in the block of point r / 5000. -/
theorem cover (i : S50000x64.Idx) : ∃ t : Fin cfg8.N, (cfg8.win 4).flush t = true ∧ i ∈ ((cfg8.win 4).blk t).view.set := by
  have hi0 : (i 0).val < 50000 := (i 0).isLt
  have hi1 : (i 1).val < 64 := (i 1).isLt
  have hN : cfg8.N = 10 := Gen.N_8
  obtain ⟨t, ht⟩ : ∃ t : Fin cfg8.N, t.val = (i 0).val / 5000 := ⟨⟨(i 0).val / 5000, by omega⟩, rfl⟩
  obtain ⟨-, -, -, -, -, -, -, -, e8, e9⟩ := idx_facts t
  refine ⟨t, Gen.flush8_4 t, ?_⟩
  rw [mem_blk]
  intro a
  match a with
  | ⟨0, _⟩ => show win8_4.index t (0 : Fin 2) * 5000 ≤ (i 0).val ∧ (i 0).val < win8_4.index t (0 : Fin 2) * 5000 + 5000; omega
  | ⟨1, _⟩ => show win8_4.index t (1 : Fin 2) * 64 ≤ (i 1).val ∧ (i 1).val < win8_4.index t (1 : Fin 2) * 64 + 64; omega

/-- THE ARRAY after the region: the fused layer of the four input arrays as the region finds them. -/
theorem final (c : Dev nD) :
    (Gen.dat8 (F := Ideal) V c).arrAt 4 cfg8.N = KV.Gf (V c main_v153) (V c main_v17) (V c main_v154) (V c main_v62) :=
  (Gen.dat8 (F := Ideal) V c).arrAt_eq_of_cover 4 (G V c) (fun t _ => flushed_eq V c t) cover

end Run

end Cert.KernelIdeal.Reg8

end
-- ==== Proof.Reg9.lean ====
import proofs.«430747_j26834955666046_2_alg».proof.Proof.Gen.KernelIdeal.Frame
import proofs.«430747_j26834955666046_2_alg».proof.Proof.KV
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Reg9

open Idealize.ShloMosaic Idealize.ShloMosaic.TcCoe Idealize.ShloMosaic.ValueIdx Cert.KernelIdeal Cert.KernelIdeal.Facts₀ Cert.KernelIdeal.Facts
open Idealize.ShloMosaic.Pipeline (Dat)

/-- A column broadcast along its rows reads, at (p, c), the column's entry p. -/
theorem bcast_col {α : Type} {a b : ℕ} (hb : b ≠ 1) (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem lhs_ax0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs_ax1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhs_ax0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhs_ax1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The body's result at (p, q): the row-p activation times column q of the weight. -/
theorem pay_ix (v0 : Vec Ideal S5000x64 .f32) (v2 : Vec Ideal S5000x1 .f32) (v6 : Vec Ideal S1x64 .f32) (v13 : Vec Ideal S64x64 .f32)
    (p : Fin 5000) (q : Fin 64) :
    Gen.k9_pay1 (F := Ideal) v0 v2 v6 v13 (ix2 p q)
      = ∑ k : Fin 64, max (v0 (ix2 p k) * v2 (ix2 p (0 : Fin 1)) + v6 (ix2 (0 : Fin 1) k)) 0 * v13 (ix2 k q) := by
  unfold Gen.k9_pay1
  simp only [shapeCast_self]
  simp only [matmul]
  rw [Ideal.matmul_constant_zero_apply, ← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 p q) ((ValueIdx.contrEquiv1 dot_S5000x64_S64x64_S5000x64_1_0_0_1_n_n 64 rfl rfl).symm k) = ix2 p k := funext fun a => Fin.ext (by
    match a with
    | ⟨0, _⟩ => exact lhs_ax0 _ _
    | ⟨1, _⟩ => exact (lhs_ax1 _ _).trans hk)
  have er : dot_S5000x64_S64x64_S5000x64_1_0_0_1_n_n.rhsIdx (ix2 p q) ((ValueIdx.contrEquiv1 dot_S5000x64_S64x64_S5000x64_1_0_0_1_n_n 64 rfl rfl).symm k) = ix2 k q := funext fun a => Fin.ext (by
    match a with
    | ⟨0, _⟩ => exact (rhs_ax0 _ _).trans hk
    | ⟨1, _⟩ => exact rhs_ax1 _ _)
  rw [el, er]
  rw [truncf_apply, truncf_apply, maximumf_apply, addf_apply, mulf_apply, bcast_col (by decide), broadcastTo_1b_ab_apply, broadcast_apply]
  congr 2
  exact Ideal.ofBits_zero_f32

/-! ## The region's run: what each grid point writes back, and the array after the last point -/

section Run
variable (V : (c : Dev nD) → (b : Ref sig .tc) → Buf (Elt Ideal) ((c : Thread nD τ).loc b))

theorem hz : (![0, 0] : Fin 2 → Nat) = fun _ => 0 := funext fun a => by fin_cases a <;> rfl

/-- The printed index maps, decided once over the grid: point t takes row block t of the row-blocked windows and the
    whole of the small ones. -/
theorem idx_facts : ∀ t : Fin cfg9.N,
    win9_0.index t (0 : Fin 2) = t.val ∧ win9_0.index t (1 : Fin 2) = 0
    ∧ win9_1.index t (0 : Fin 2) = t.val ∧ win9_1.index t (1 : Fin 2) = 0
    ∧ win9_2.index t (0 : Fin 2) = 0 ∧ win9_2.index t (1 : Fin 2) = 0
    ∧ win9_3.index t (0 : Fin 2) = 0 ∧ win9_3.index t (1 : Fin 2) = 0
    ∧ win9_4.index t (0 : Fin 2) = t.val ∧ win9_4.index t (1 : Fin 2) = 0 :=
  (by decide +kernel : ∀ t : Fin grid9.N, _)

/-- Point t's block of the aggregate: rows 5000·t … 5000·t + 4999. -/
theorem blk_agg (c : Dev nD) (t : Fin cfg9.N) (p : Fin 5000) (k : Fin 64) (r : Fin 50000) (hr : r.val = t.val * 5000 + p.val) :
    (Gen.iblk9 (F := Ideal) V c 0 t : Vec Ideal S5000x64 .f32) (ix2 p k) = (V c main_v166 : KV.C S50000x64 .f32) (ix2 r k) := by
  obtain ⟨e0, e1, -⟩ := idx_facts t
  unfold Gen.iblk9
  rw [View.read_apply]
  show V c main_v166 _ = V c main_v166 _
  congr 1
  funext a; apply Fin.ext
  match a with
  | ⟨0, _⟩ => show win9_0.index t (0 : Fin 2) * 5000 + 1 * p.val = r.val; omega
  | ⟨1, _⟩ => show win9_0.index t (1 : Fin 2) * 64 + 1 * k.val = k.val; omega

/-- Point t's block of the factor column: the same rows. -/
theorem blk_dis (c : Dev nD) (t : Fin cfg9.N) (p : Fin 5000) (r : Fin 50000) (hr : r.val = t.val * 5000 + p.val) :
    (Gen.iblk9 (F := Ideal) V c 1 t : Vec Ideal S5000x1 .f32) (ix2 p (0 : Fin 1)) = (V c main_v17 : KV.C S50000x1 .f32) (ix2 r (0 : Fin 1)) := by
  obtain ⟨-, -, e2, e3, -⟩ := idx_facts t
  unfold Gen.iblk9
  rw [View.read_apply]
  show V c main_v17 _ = V c main_v17 _
  congr 1
  funext a; apply Fin.ext
  match a with
  | ⟨0, _⟩ => show win9_1.index t (0 : Fin 2) * 5000 + 1 * p.val = r.val; omega
  | ⟨1, _⟩ => show win9_1.index t (1 : Fin 2) * 1 + 1 * 0 = 0; omega

/-- Every point reads the whole bias row -/
theorem blk_bias (c : Dev nD) (t : Fin cfg9.N) (k : Fin 64) :
    (Gen.iblk9 (F := Ideal) V c 2 t : Vec Ideal S1x64 .f32) (ix2 (0 : Fin 1) k) = (V c main_v167 : KV.C S1x64 .f32) (ix2 (0 : Fin 1) k) := by
  obtain ⟨-, -, -, -, e4, e5, -⟩ := idx_facts t
  unfold Gen.iblk9
  rw [View.read_apply]
  show V c main_v167 _ = V c main_v167 _
  congr 1
  funext a; apply Fin.ext
  match a with
  | ⟨0, _⟩ => show win9_2.index t (0 : Fin 2) * 1 + 1 * 0 = 0; omega
  | ⟨1, _⟩ => show win9_2.index t (1 : Fin 2) * 64 + 1 * k.val = k.val; omega

/-- and the whole weight matrix. -/
theorem blk_w (c : Dev nD) (t : Fin cfg9.N) (k q q' : Fin 64) (hq : q'.val = q.val) :
    (Gen.iblk9 (F := Ideal) V c 3 t : Vec Ideal S64x64 .f32) (ix2 k q) = (V c main_arg7 : KV.C S64x64 .f32) (ix2 k q') := by
  obtain ⟨-, -, -, -, -, -, e6, e7, -⟩ := idx_facts t
  unfold Gen.iblk9
  rw [View.read_apply]
  show V c main_arg7 _ = V c main_arg7 _
  congr 1
  funext a; apply Fin.ext
  match a with
  | ⟨0, _⟩ => show win9_3.index t (0 : Fin 2) * 64 + 1 * k.val = k.val; omega
  | ⟨1, _⟩ => show win9_3.index t (1 : Fin 2) * 64 + 1 * q.val = q'.val; omega

/-- The whole-array function the region computes. -/
abbrev G (c : Dev nD) : KV.C S50000x64 .f32 := KV.Gp (V c main_v166) (V c main_v17) (V c main_v167) (V c main_arg7)

/-- The body's result at a point's local index is the whole-array function at that index's place in the array. -/
theorem point_eq (c : Dev nD) (t : Fin cfg9.N) (j : S5000x64.Idx) :
    Gen.k9_pay1 (F := Ideal) (Gen.iblk9 V c 0 t) (Gen.iblk9 V c 1 t) (Gen.iblk9 V c 2 t) (Gen.iblk9 V c 3 t) j
      = G V c (((cfg9.win 4).blk t).view.emb j) := by
  obtain ⟨-, -, -, -, -, -, -, -, e8, e9⟩ := idx_facts t
  have hrow : (((cfg9.win 4).blk t).view.emb j 0).val = t.val * 5000 + (j 0).val := by
    show win9_4.index t (0 : Fin 2) * 5000 + 1 * (j 0).val = _; omega
  have hcol : (((cfg9.win 4).blk t).view.emb j 1).val = (j 1).val := by
    show win9_4.index t (1 : Fin 2) * 64 + 1 * (j 1).val = _; omega
  refine ((congrArg _ (eq_ix2 j)).trans (pay_ix _ _ _ _ (j 0) (j 1))).trans ?_
  show _ = ∑ k : Fin 64, KV.act _ _ _ _ k * _
  refine Finset.sum_congr rfl fun k _ => ?_
  unfold KV.act
  rw [blk_agg V c t (j 0) k _ hrow, blk_dis V c t (j 0) _ hrow, blk_bias V c t k, blk_w V c t k (j 1) _ hcol]
  rfl

/-- WHAT POINT t WRITES BACK is block t of the whole-array function. -/
theorem flushed_eq (c : Dev nD) (t : Fin cfg9.N) :
    (Gen.dat9 (F := Ideal) V c).flushed 4 t = ((cfg9.win 4).blk t).view.read (Elt Ideal) (G V c) := by
  show (cfg9.win 4).cut (grid9.coords t) ((Gen.dat9 (F := Ideal) V c).after 4 t) = _
  rw [Gen.after9_4]
  unfold Gen.out9_4
  rw [View.canon_unit_zero hz]
  simp only [View.ld_unit_zero (S := S5000x64) hz, View.ld_unit_zero (S := S5000x1) hz, View.ld_unit_zero (S := S1x64) hz, View.ld_unit_zero (S := S64x64) hz]
  funext j
  exact point_eq V c t j

/-- An index of the array is in point t's block iff each coordinate is in the block's range on its axis. -/
theorem mem_blk (t : Fin cfg9.N) (i : S50000x64.Idx) :
    i ∈ ((cfg9.win 4).blk t).view.set ↔ ∀ a : Fin 2, win9_4.index t a * S5000x64.size a ≤ (i a).val ∧ (i a).val < win9_4.index t a * S5000x64.size a + S5000x64.size a := by
  show i ∈ ((View.whole main_v168).slice (win9_4.rect t)).set ↔ _
  rw [View.set_slice_whole, Rect.mem_set_unit]
  exact Iff.rfl

/-- Row r of the array is in the block of point r / 5000. -/
theorem cover (i : S50000x64.Idx) : ∃ t : Fin cfg9.N, (cfg9.win 4).flush t = true ∧ i ∈ ((cfg9.win 4).blk t).view.set := by
  have hi0 : (i 0).val < 50000 := (i 0).isLt
  have hi1 : (i 1).val < 64 := (i 1).isLt
  have hN : cfg9.N = 10 := Gen.N_9
  obtain ⟨t, ht⟩ : ∃ t : Fin cfg9.N, t.val = (i 0).val / 5000 := ⟨⟨(i 0).val / 5000, by omega⟩, rfl⟩
  obtain ⟨-, -, -, -, -, -, -, -, e8, e9⟩ := idx_facts t
  refine ⟨t, Gen.flush9_4 t, ?_⟩
  rw [mem_blk]
  intro a
  match a with
  | ⟨0, _⟩ => show win9_4.index t (0 : Fin 2) * 5000 ≤ (i 0).val ∧ (i 0).val < win9_4.index t (0 : Fin 2) * 5000 + 5000; omega
  | ⟨1, _⟩ => show win9_4.index t (1 : Fin 2) * 64 ≤ (i 1).val ∧ (i 1).val < win9_4.index t (1 : Fin 2) * 64 + 64; omega

/-- THE ARRAY after the region: the last fused layer (no row scaling) of the four input arrays as the region finds them. -/
theorem final (c : Dev nD) :
    (Gen.dat9 (F := Ideal) V c).arrAt 4 cfg9.N = KV.Gp (V c main_v166) (V c main_v17) (V c main_v167) (V c main_arg7) :=
  (Gen.dat9 (F := Ideal) V c).arrAt_eq_of_cover 4 (G V c) (fun t _ => flushed_eq V c t) cover

end Run

end Cert.KernelIdeal.Reg9

end
-- ==== Proof.Reg10.lean ====
/-
  The readout call as one whole-array function. At each of its 25 grid points the call loads a block of 2000 rows of
  the node features and of the graph-id column, and the pooled table and the two readout columns whole, and stores
      tanh( relu(h) · wa₁ + relu(onehot(id) · pt) · wa₂ )
  for those rows: the one-hot row of an id is the compare of the column counter 0 … 255 with the id, widened and
  converted (one where they agree, zero elsewhere); the three matrix products are exact sums over their contraction
  axis. The blocks tile the 50000 rows (row r lies in block r / 2000), so the output array after the run is the
  readout function `KV.G10` of the five input arrays as the call finds them.
-/
import proofs.«430747_j26834955666046_2_alg».proof.Proof.Gen.KernelIdeal.Frame
import proofs.«430747_j26834955666046_2_alg».proof.Proof.KV
import Idealize.ShloMosaic.PureOps.Ideal
import Idealize.ShloMosaic.PureOps.Ideal.Laws
import Idealize.ShloMosaic.Lib.ValueIdx
import Idealize.ShloMosaic.Lib.Pipeline.Value
import Idealize.ShloMosaic.Lib.StableHlo.Predicate

noncomputable section

namespace Cert.KernelIdeal.Reg10

open Idealize.ShloMosaic Idealize.ShloMosaic.ValueIdx Cert.KernelIdeal Cert.KernelIdeal.Facts₀ Cert.KernelIdeal.Facts

/-! ## The one-hot row -/

/-- A column `[a, 1]` broadcast to `[a, b]` reads, at `(p, g)`, the column at `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (g : Fin b) : broadcastTo ⟨2, ![a, b]⟩ v h (ix2 p g) = v (ix2 p (0 : Fin 1)) := by
  refine broadcastTo_apply v h (ix2 p g) (ix2 p (0 : Fin 1)) fun ax => ?_
  match ax with
  | ⟨0, _⟩ =>
    show p.val = if a = 1 then 0 else p.val
    split
    · have := p.isLt; omega
    · rfl
  | ⟨1, _⟩ => rfl

/-- The word `1` on one bit, widened and read signed, is the integer one; the word `0` is zero. -/
theorem toInt_setWidth_one : (((1#1 : BitVec 1).setWidth 32).toInt : ℤ) = 1 := by decide
theorem toInt_setWidth_zero : (((0#1 : BitVec 1).setWidth 32).toInt : ℤ) = 0 := by decide

/-- Entry `(p, g)` of the compare of the column counter with the broadcast id column, widened and converted:
    one where `g` is row `p`'s id, zero elsewhere. -/
theorem onehot_apply (nb : Vec Ideal S2000x1 .i32) (p : Fin 2000) (g : Fin 256) :
    (sitofp .f32 (extui 32 (cmpi .eq (iota .tc S2000x256 32 [1] iota_S2000x256_d1_w32)
        (broadcastTo S2000x256 nb broadcasts_S2000x1_S2000x256)) natLt_1_32) : FVec Ideal S2000x256 .f32) (ix2 p g)
      = KV.oneHot (nb (ix2 p (0 : Fin 1))) g := by
  show ((((IntOp.cmpi .eq (iota .tc S2000x256 32 [1] iota_S2000x256_d1_w32 (ix2 p g))
      (broadcastTo S2000x256 nb broadcasts_S2000x1_S2000x256 (ix2 p g))).setWidth 32).toInt : ℝ) : EReal) = _
  rw [show broadcastTo S2000x256 nb broadcasts_S2000x1_S2000x256 (ix2 p g) = nb (ix2 p (0 : Fin 1)) from
    broadcastTo_a1_ab_apply nb broadcasts_S2000x1_S2000x256 p g]
  have hi : iota .tc S2000x256 32 [1] iota_S2000x256_d1_w32 (ix2 p g) = BitVec.ofNat 32 g.val := by
    show BitVec.ofNat 32 (0 * 256 + g.val) = _
    rw [Nat.zero_mul, Nat.zero_add]
  rw [hi]
  unfold KV.oneHot
  by_cases h : BitVec.ofNat 32 g.val = nb (ix2 p (0 : Fin 1))
  · rw [if_pos h, StableHlo.Predicate.cmpi_eq_iff.mpr h, toInt_setWidth_one]; norm_num
  · rw [if_neg h, eq_zero_of_ne_one (fun e => h (StableHlo.Predicate.cmpi_eq_iff.mp e)), toInt_setWidth_zero]; norm_num

/-! ## The three products, read at an index -/

theorem lhs_rep_0 (i : S2000x64.Idx) (q : dot_S2000x256_S256x64_S2000x64_1_0_0_1_n_n.contr.Idx) :
    (dot_S2000x256_S256x64_S2000x64_1_0_0_1_n_n.lhsIdx i q 0).val = (i 0).val := by
  unfold DotDims.lhsIdx
  rw [dif_neg (show ¬(0 : Fin S2000x256.rank) ∈ dot_S2000x256_S256x64_S2000x64_1_0_0_1_n_n.lhsBatch by decide), dif_pos (show (0 : Fin S2000x256.rank) ∈ dot_S2000x256_S256x64_S2000x64_1_0_0_1_n_n.lhsNonContracting by decide)]
  rfl
theorem lhs_rep_1 (i : S2000x64.Idx) (q : dot_S2000x256_S256x64_S2000x64_1_0_0_1_n_n.contr.Idx) :
    (dot_S2000x256_S256x64_S2000x64_1_0_0_1_n_n.lhsIdx i q 1).val = (q ⟨0, by decide⟩).val :=
  dot_S2000x256_S256x64_S2000x64_1_0_0_1_n_n.lhsIdx_val_of_single rfl i q
theorem rhs_rep_0 (i : S2000x64.Idx) (q : dot_S2000x256_S256x64_S2000x64_1_0_0_1_n_n.contr.Idx) :
    (dot_S2000x256_S256x64_S2000x64_1_0_0_1_n_n.rhsIdx i q 0).val = (q ⟨0, by decide⟩).val :=
  dot_S2000x256_S256x64_S2000x64_1_0_0_1_n_n.rhsIdx_val_of_single rfl i q
theorem rhs_rep_1 (i : S2000x64.Idx) (q : dot_S2000x256_S256x64_S2000x64_1_0_0_1_n_n.contr.Idx) :
    (dot_S2000x256_S256x64_S2000x64_1_0_0_1_n_n.rhsIdx i q 1).val = (i 1).val := by
  unfold DotDims.rhsIdx
  rw [dif_neg (show ¬(1 : Fin S256x64.rank) ∈ dot_S2000x256_S256x64_S2000x64_1_0_0_1_n_n.rhsBatch by decide), dif_pos (show (1 : Fin S256x64.rank) ∈ dot_S2000x256_S256x64_S2000x64_1_0_0_1_n_n.rhsNonContracting by decide)]
  rfl

/-- The product of a `[2000, 256]` by a `[256, 64]` matrix into the zero splat, at `(p, k)`: the sum over the 256 columns. -/
theorem rep_apply (a : FVec Ideal S2000x256 .bf16) (b : FVec Ideal S256x64 .bf16) (p : Fin 2000) (k : Fin 64) :
    matmul (F := Ideal) dot_S2000x256_S256x64_S2000x64_1_0_0_1_n_n none a b (constant (F := Ideal) S2000x64 .f32 0x00000000#32) (ix2 p k)
      = ∑ g : Fin 256, a (ix2 p g) * b (ix2 g k) := by
  simp only [matmul]
  rw [Ideal.matmul_constant_zero_apply, ← Equiv.sum_comp (ValueIdx.contrEquiv1 dot_S2000x256_S256x64_S2000x64_1_0_0_1_n_n 256 rfl rfl).symm]
  refine Finset.sum_congr rfl fun g _ => ?_
  have hk := ValueIdx.contrEquiv1_symm_val dot_S2000x256_S256x64_S2000x64_1_0_0_1_n_n 256 rfl rfl g
  have el : dot_S2000x256_S256x64_S2000x64_1_0_0_1_n_n.lhsIdx (ix2 p k) ((ValueIdx.contrEquiv1 dot_S2000x256_S256x64_S2000x64_1_0_0_1_n_n 256 rfl rfl).symm g) = ix2 p g := funext fun ax => Fin.ext (by
    match ax with
    | ⟨0, _⟩ => exact lhs_rep_0 _ _
    | ⟨1, _⟩ => exact (lhs_rep_1 _ _).trans hk)
  have er : dot_S2000x256_S256x64_S2000x64_1_0_0_1_n_n.rhsIdx (ix2 p k) ((ValueIdx.contrEquiv1 dot_S2000x256_S256x64_S2000x64_1_0_0_1_n_n 256 rfl rfl).symm g) = ix2 g k := funext fun ax => Fin.ext (by
    match ax with
    | ⟨0, _⟩ => exact (rhs_rep_0 _ _).trans hk
    | ⟨1, _⟩ => exact rhs_rep_1 _ _)
  rw [el, er]

theorem lhs_z_0 (i : S2000x1.Idx) (q : dot_S2000x64_S64x1_S2000x1_1_0_0_1_n_n.contr.Idx) :
    (dot_S2000x64_S64x1_S2000x1_1_0_0_1_n_n.lhsIdx i q 0).val = (i 0).val := by
  unfold DotDims.lhsIdx
  rw [dif_neg (show ¬(0 : Fin S2000x64.rank) ∈ dot_S2000x64_S64x1_S2000x1_1_0_0_1_n_n.lhsBatch by decide), dif_pos (show (0 : Fin S2000x64.rank) ∈ dot_S2000x64_S64x1_S2000x1_1_0_0_1_n_n.lhsNonContracting by decide)]
  rfl
theorem lhs_z_1 (i : S2000x1.Idx) (q : dot_S2000x64_S64x1_S2000x1_1_0_0_1_n_n.contr.Idx) :
    (dot_S2000x64_S64x1_S2000x1_1_0_0_1_n_n.lhsIdx i q 1).val = (q ⟨0, by decide⟩).val :=
  dot_S2000x64_S64x1_S2000x1_1_0_0_1_n_n.lhsIdx_val_of_single rfl i q
theorem rhs_z_0 (i : S2000x1.Idx) (q : dot_S2000x64_S64x1_S2000x1_1_0_0_1_n_n.contr.Idx) :
    (dot_S2000x64_S64x1_S2000x1_1_0_0_1_n_n.rhsIdx i q 0).val = (q ⟨0, by decide⟩).val :=
  dot_S2000x64_S64x1_S2000x1_1_0_0_1_n_n.rhsIdx_val_of_single rfl i q
theorem rhs_z_1 (i : S2000x1.Idx) (q : dot_S2000x64_S64x1_S2000x1_1_0_0_1_n_n.contr.Idx) :
    (dot_S2000x64_S64x1_S2000x1_1_0_0_1_n_n.rhsIdx i q 1).val = (i 1).val := by
  unfold DotDims.rhsIdx
  rw [dif_neg (show ¬(1 : Fin S64x1.rank) ∈ dot_S2000x64_S64x1_S2000x1_1_0_0_1_n_n.rhsBatch by decide), dif_pos (show (1 : Fin S64x1.rank) ∈ dot_S2000x64_S64x1_S2000x1_1_0_0_1_n_n.rhsNonContracting by decide)]
  rfl

/-- The product of a `[2000, 64]` matrix by a `[64, 1]` column into the zero splat, at row `p`: the sum over the 64 columns. -/
theorem z_apply (a : FVec Ideal S2000x64 .bf16) (b : FVec Ideal S64x1 .bf16) (p : Fin 2000) :
    matmul (F := Ideal) dot_S2000x64_S64x1_S2000x1_1_0_0_1_n_n none a b (constant (F := Ideal) S2000x1 .f32 0x00000000#32) (ix2 p (0 : Fin 1))
      = ∑ k : Fin 64, a (ix2 p k) * b (ix2 k (0 : Fin 1)) := by
  simp only [matmul]
  rw [Ideal.matmul_constant_zero_apply, ← Equiv.sum_comp (ValueIdx.contrEquiv1 dot_S2000x64_S64x1_S2000x1_1_0_0_1_n_n 64 rfl rfl).symm]
  refine Finset.sum_congr rfl fun k _ => ?_
  have hk := ValueIdx.contrEquiv1_symm_val dot_S2000x64_S64x1_S2000x1_1_0_0_1_n_n 64 rfl rfl k
  have el : dot_S2000x64_S64x1_S2000x1_1_0_0_1_n_n.lhsIdx (ix2 p (0 : Fin 1)) ((ValueIdx.contrEquiv1 dot_S2000x64_S64x1_S2000x1_1_0_0_1_n_n 64 rfl rfl).symm k) = ix2 p k := funext fun ax => Fin.ext (by
    match ax with
    | ⟨0, _⟩ => exact lhs_z_0 _ _
    | ⟨1, _⟩ => exact (lhs_z_1 _ _).trans hk)
  have er : dot_S2000x64_S64x1_S2000x1_1_0_0_1_n_n.rhsIdx (ix2 p (0 : Fin 1)) ((ValueIdx.contrEquiv1 dot_S2000x64_S64x1_S2000x1_1_0_0_1_n_n 64 rfl rfl).symm k) = ix2 k (0 : Fin 1) := funext fun ax => Fin.ext (by
    match ax with
    | ⟨0, _⟩ => exact (rhs_z_0 _ _).trans hk
    | ⟨1, _⟩ => exact rhs_z_1 _ _)
  rw [el, er]

/-! ## The body's payload at a row -/

/-- Row `p` of the payload: the hyperbolic tangent of the two readout products' sum. -/
theorem pay_apply (x0 : Vec Ideal S2000x64 .f32) (x1 : Vec Ideal S2000x1 .i32) (x2 : Vec Ideal S256x64 .f32)
    (x3 x4 : Vec Ideal S64x1 .f32) (p : Fin 2000) :
    Gen.k10_pay1 (F := Ideal) x0 x1 x2 x3 x4 (ix2 p (0 : Fin 1))
      = Ideal.tanh ((∑ k : Fin 64, max (x0 (ix2 p k)) 0 * x3 (ix2 k (0 : Fin 1)))
          + ∑ k : Fin 64, max (∑ g : Fin 256, KV.oneHot (x1 (ix2 p (0 : Fin 1))) g * x2 (ix2 g k)) 0 * x4 (ix2 k (0 : Fin 1))) := by
  unfold Gen.k10_pay1
  simp only [shapeCast_self]
  show Ideal.tanh (_ + _) = _
  rw [z_apply, z_apply]
  congr 2
  · refine Finset.sum_congr rfl fun k _ => ?_
    rw [truncf_apply, truncf_apply, maximumf_apply, broadcast_apply]
    show max (x0 (ix2 p k)) (Ideal.ofBits .f32 0x00000000#32) * _ = _
    rw [Ideal.ofBits_zero_f32]
  · refine Finset.sum_congr rfl fun k _ => ?_
    rw [truncf_apply, truncf_apply, maximumf_apply, broadcast_apply, rep_apply]
    show max _ (Ideal.ofBits .f32 0x00000000#32) * _ = _
    rw [Ideal.ofBits_zero_f32]
    congr 2
    refine Finset.sum_congr rfl fun g _ => ?_
    rw [truncf_apply, truncf_apply, onehot_apply]

/-- The payload at any index of its one-column block. -/
theorem pay_apply_idx (x0 : Vec Ideal S2000x64 .f32) (x1 : Vec Ideal S2000x1 .i32) (x2 : Vec Ideal S256x64 .f32)
    (x3 x4 : Vec Ideal S64x1 .f32) (j : S2000x1.Idx) :
    Gen.k10_pay1 (F := Ideal) x0 x1 x2 x3 x4 j
      = Ideal.tanh ((∑ k : Fin 64, max (x0 (ix2 (j 0 : Fin 2000) k)) 0 * x3 (ix2 k (0 : Fin 1)))
          + ∑ k : Fin 64, max (∑ g : Fin 256, KV.oneHot (x1 (ix2 (j 0 : Fin 2000) (0 : Fin 1))) g * x2 (ix2 g k)) 0 * x4 (ix2 k (0 : Fin 1))) := by
  have hj : j = ix2 (j 0 : Fin 2000) (0 : Fin 1) := by
    funext a
    match a with
    | ⟨0, _⟩ => rfl
    | ⟨1, _⟩ => exact Fin.ext (by have h1 : (j 1).val < 1 := (j 1).isLt; show (j 1).val = 0; omega)
  conv_lhs => rw [hj]
  exact pay_apply x0 x1 x2 x3 x4 (j 0)

/-! ## From the blocks to the array -/

section Array
open Idealize.ShloMosaic.TcCoe
open Idealize.ShloMosaic.Pipeline (Dat Cfg Window)

variable (V : (c : Dev nD) → (b : Ref sig .tc) → Buf (Elt Ideal) ((c : Thread nD τ).loc b))

theorem zero_offset : (![0, 0] : Fin 2 → Nat) = fun _ => 0 := funext fun a => by fin_cases a <;> rfl

/-- The printed index maps over the 25 grid points: the row-blocked windows sit at block row `t`, column block 0; the
    small windows are loaded whole. -/
theorem idx_facts : ∀ t : Fin cfg10.N, win10_0.index t (0 : Fin 2) = t.val ∧ win10_0.index t (1 : Fin 2) = 0
    ∧ win10_1.index t (0 : Fin 2) = t.val ∧ win10_1.index t (1 : Fin 2) = 0
    ∧ win10_2.index t (0 : Fin 2) = 0 ∧ win10_2.index t (1 : Fin 2) = 0
    ∧ win10_3.index t (0 : Fin 2) = 0 ∧ win10_3.index t (1 : Fin 2) = 0
    ∧ win10_4.index t (0 : Fin 2) = 0 ∧ win10_4.index t (1 : Fin 2) = 0
    ∧ win10_5.index t (0 : Fin 2) = t.val ∧ win10_5.index t (1 : Fin 2) = 0 :=
  (by decide +kernel : ∀ t : Fin grid10.N, _)

/-- Window 0's block at point `t`, read at `(p, k)`: the array at the row the output block's rectangle names. -/
theorem blk0_apply (c : Dev nD) (t : Fin cfg10.N) (p : Fin 2000) (k : Fin 64) (r : Fin 50000)
    (hr : r.val = win10_5.index t (0 : Fin 2) * 2000 + 1 * p.val) :
    Gen.iblk10 V c 0 t (ix2 p k) = V c main_v168 (ix2 r k) := by
  obtain ⟨e00, e01, -, -, -, -, -, -, -, -, e50, -⟩ := idx_facts t
  show V c main_v168 (((cfg10.win 0).blk t).view.emb (ix2 p k)) = _
  refine congrArg (V c main_v168) (funext fun a => Fin.ext ?_)
  match a with
  | ⟨0, _⟩ => show win10_0.index t (0 : Fin 2) * 2000 + 1 * p.val = r.val; rw [hr, e00, e50]
  | ⟨1, _⟩ => show win10_0.index t (1 : Fin 2) * 64 + 1 * k.val = k.val; rw [e01]; omega

/-- Window 1's block at point `t`, read at row `p`. -/
theorem blk1_apply (c : Dev nD) (t : Fin cfg10.N) (p : Fin 2000) (r : Fin 50000)
    (hr : r.val = win10_5.index t (0 : Fin 2) * 2000 + 1 * p.val) :
    Gen.iblk10 V c 1 t (ix2 p (0 : Fin 1)) = V c main_v18 (ix2 r (0 : Fin 1)) := by
  obtain ⟨-, -, e10, e11, -, -, -, -, -, -, e50, -⟩ := idx_facts t
  show V c main_v18 (((cfg10.win 1).blk t).view.emb (ix2 p (0 : Fin 1))) = _
  refine congrArg (V c main_v18) (funext fun a => Fin.ext ?_)
  match a with
  | ⟨0, _⟩ => show win10_1.index t (0 : Fin 2) * 2000 + 1 * p.val = r.val; rw [hr, e10, e50]
  | ⟨1, _⟩ => show win10_1.index t (1 : Fin 2) * 1 + 1 * 0 = 0; rw [e11]

/-- The small windows are loaded whole at every point. -/
theorem blk2_apply (c : Dev nD) (t : Fin cfg10.N) (g : Fin 256) (k : Fin 64) :
    Gen.iblk10 V c 2 t (ix2 g k) = V c main_v172 (ix2 g k) := by
  obtain ⟨-, -, -, -, e20, e21, -, -, -, -, -, -⟩ := idx_facts t
  show V c main_v172 (((cfg10.win 2).blk t).view.emb (ix2 g k)) = _
  refine congrArg (V c main_v172) (funext fun a => Fin.ext ?_)
  match a with
  | ⟨0, _⟩ => show win10_2.index t (0 : Fin 2) * 256 + 1 * g.val = g.val; rw [e20]; omega
  | ⟨1, _⟩ => show win10_2.index t (1 : Fin 2) * 64 + 1 * k.val = k.val; rw [e21]; omega
theorem blk3_apply (c : Dev nD) (t : Fin cfg10.N) (k : Fin 64) :
    Gen.iblk10 V c 3 t (ix2 k (0 : Fin 1)) = V c main_v173 (ix2 k (0 : Fin 1)) := by
  obtain ⟨-, -, -, -, -, -, e30, e31, -, -, -, -⟩ := idx_facts t
  show V c main_v173 (((cfg10.win 3).blk t).view.emb (ix2 k (0 : Fin 1))) = _
  refine congrArg (V c main_v173) (funext fun a => Fin.ext ?_)
  match a with
  | ⟨0, _⟩ => show win10_3.index t (0 : Fin 2) * 64 + 1 * k.val = k.val; rw [e30]; omega
  | ⟨1, _⟩ => show win10_3.index t (1 : Fin 2) * 1 + 1 * 0 = 0; rw [e31]
theorem blk4_apply (c : Dev nD) (t : Fin cfg10.N) (k : Fin 64) :
    Gen.iblk10 V c 4 t (ix2 k (0 : Fin 1)) = V c main_v174 (ix2 k (0 : Fin 1)) := by
  obtain ⟨-, -, -, -, -, -, -, -, e40, e41, -, -⟩ := idx_facts t
  show V c main_v174 (((cfg10.win 4).blk t).view.emb (ix2 k (0 : Fin 1))) = _
  refine congrArg (V c main_v174) (funext fun a => Fin.ext ?_)
  match a with
  | ⟨0, _⟩ => show win10_4.index t (0 : Fin 2) * 64 + 1 * k.val = k.val; rw [e40]; omega
  | ⟨1, _⟩ => show win10_4.index t (1 : Fin 2) * 1 + 1 * 0 = 0; rw [e41]

/-- What point `t` writes back is block `t` of the readout function of the arrays as the region finds them. -/
theorem flushed_eq (c : Dev nD) (t : Fin cfg10.N) :
    (Gen.dat10 (F := Ideal) V c).flushed 5 t = ((cfg10.win 5).blk t).view.read (Elt Ideal)
      (KV.G10 (V c main_v168) (V c main_v18) (V c main_v172) (V c main_v173) (V c main_v174)) := by
  show (cfg10.win 5).cut (grid10.coords t) ((Gen.dat10 (F := Ideal) V c).after 5 t) = _
  rw [Gen.after10_5]
  unfold Gen.out10_5
  rw [View.canon_unit_zero zero_offset]
  simp only [View.ld_unit_zero (S := S2000x64) zero_offset, View.ld_unit_zero (S := S2000x1) zero_offset,
    View.ld_unit_zero (S := S256x64) zero_offset, View.ld_unit_zero (S := S64x1) zero_offset]
  funext j
  show Gen.k10_pay1 (F := Ideal) (Gen.iblk10 V c 0 t) (Gen.iblk10 V c 1 t) (Gen.iblk10 V c 2 t) (Gen.iblk10 V c 3 t) (Gen.iblk10 V c 4 t) j
    = KV.G10 (V c main_v168) (V c main_v18) (V c main_v172) (V c main_v173) (V c main_v174) (((cfg10.win 5).blk t).view.emb j)
  refine (pay_apply_idx _ _ _ _ _ j).trans ?_
  have hr : ((⟨((((cfg10.win 5).blk t).view.emb j) 0).val, ((((cfg10.win 5).blk t).view.emb j) 0).isLt⟩ : Fin 50000)).val
      = win10_5.index t (0 : Fin 2) * 2000 + 1 * (j 0).val := rfl
  unfold KV.G10
  refine congrArg Ideal.tanh (congrArg₂ (· + ·) (Finset.sum_congr rfl fun k _ => ?_) (Finset.sum_congr rfl fun k _ => ?_))
  · rw [blk0_apply V c t (j 0) k _ hr, blk3_apply V c t k]
  · rw [blk4_apply V c t k, blk1_apply V c t (j 0) _ hr]
    refine congrArg (fun x => max x 0 * _) (Finset.sum_congr rfl fun g _ => ?_)
    rw [blk2_apply V c t g k]

/-- An index of the array is in point `t`'s block iff each coordinate is in the block's range on its axis. -/
theorem mem_blk (t : Fin cfg10.N) (i : S50000x1.Idx) :
    i ∈ ((cfg10.win 5).blk t).view.set ↔ ∀ a : Fin 2, win10_5.index t a * S2000x1.size a ≤ (i a).val ∧ (i a).val < win10_5.index t a * S2000x1.size a + S2000x1.size a := by
  show i ∈ ((View.whole main_v175).slice (win10_5.rect t)).set ↔ _
  rw [View.set_slice_whole, Rect.mem_set_unit]
  exact Iff.rfl

/-- Row `r` is in the block of point `r / 2000`. -/
theorem cover (i : S50000x1.Idx) :
    ∃ t : Fin cfg10.N, (cfg10.win 5).flush t = true ∧ i ∈ ((cfg10.win 5).blk t).view.set := by
  have hi0 : (i 0).val < 50000 := (i 0).isLt
  have hi1 : (i 1).val < 1 := (i 1).isLt
  have hN : cfg10.N = 25 := Gen.N_10
  obtain ⟨-, -, -, -, -, -, -, -, -, -, e50, e51⟩ := idx_facts ⟨(i 0).val / 2000, by rw [hN]; omega⟩
  refine ⟨⟨(i 0).val / 2000, by rw [hN]; omega⟩, Gen.flush10_5 _, ?_⟩
  rw [mem_blk]
  intro a
  match a with
  | ⟨0, _⟩ =>
    show win10_5.index ⟨(i 0).val / 2000, _⟩ (0 : Fin 2) * 2000 ≤ (i 0).val ∧ (i 0).val < win10_5.index ⟨(i 0).val / 2000, _⟩ (0 : Fin 2) * 2000 + 2000
    rw [e50]
    show (i 0).val / 2000 * 2000 ≤ (i 0).val ∧ (i 0).val < (i 0).val / 2000 * 2000 + 2000
    omega
  | ⟨1, _⟩ =>
    show win10_5.index ⟨(i 0).val / 2000, _⟩ (1 : Fin 2) * 1 ≤ (i 1).val ∧ (i 1).val < win10_5.index ⟨(i 0).val / 2000, _⟩ (1 : Fin 2) * 1 + 1
    rw [e51]
    omega

/-- The readout's output array after the run: the readout function of the arrays as the region finds them. -/
theorem final (c : Dev nD) :
    (Gen.dat10 (F := Ideal) V c).arrAt 5 cfg10.N
      = KV.G10 (V c main_v168) (V c main_v18) (V c main_v172) (V c main_v173) (V c main_v174) :=
  (Gen.dat10 (F := Ideal) V c).arrAt_eq_of_cover 5
    (KV.G10 (V c main_v168) (V c main_v18) (V c main_v172) (V c main_v173) (V c main_v174))
    (fun t _ => flushed_eq V c t) cover

end Array

end Cert.KernelIdeal.Reg10

end
-- ==== Proof.KStep1.lean ====
/-
  The second call of the chain. Between the first call and the second the host forms, from the table T₀ the first call
  left, the aggregate A₀(i,·) = the sum over the edges e landing on node i of T₀(src e, ·): the sources (a negative one
  wrapped once) select rows of T₀, the rows are widened, and they are added up at the edges' targets onto a zero array.
  The same stretch slices the eight hidden biases (as vectors) and the eight hidden weight matrices out of their stacks
  and turns the first layer's bias into a one-row matrix. The second call then computes, from the aggregate, the
  normalisation column, that bias row and hidden weight 0, the table T₁ = relu(A₀ · d + b₀) · W₁ with row i scaled by
  d(i). Here: what each buffer the call reads holds when the call is entered, and so what its output array holds at
  its exit; and the sixteen sliced biases and weights, which later calls read.
-/
import proofs.«430747_j26834955666046_2_alg».proof.Proof.Gen.KernelIdeal.Frame
import proofs.«430747_j26834955666046_2_alg».proof.Proof.KV
import proofs.«430747_j26834955666046_2_alg».proof.Proof.Keep
import Idealize.ShloMosaic.Lib.StableHlo.Run

noncomputable section

namespace Cert.KernelIdeal.KStep1

open Idealize.ShloMosaic Idealize.ShloMosaic.TcCoe Idealize.ShloMosaic.ValueIdx Idealize.ShloMosaic.StableHlo Cert.KernelIdeal Cert.KernelIdeal.Facts₀ Cert.KernelIdeal.Facts

variable (m : (ℓ : Loc nD τ sig) → Buf (Elt Ideal) ℓ) (ρ : Dev nD → PrngReg) (c : Dev nD)

/-! The program's argument arrays as device `c` holds them at launch. -/
set_option quotPrecheck false in
local notation "𝐚0" => m ((c : Thread nD τ).loc main_arg0)
set_option quotPrecheck false in
local notation "𝐚1" => m ((c : Thread nD τ).loc main_arg1)
set_option quotPrecheck false in
local notation "𝐚3" => m ((c : Thread nD τ).loc main_arg3)
set_option quotPrecheck false in
local notation "𝐚4" => m ((c : Thread nD τ).loc main_arg4)
set_option quotPrecheck false in
local notation "𝐚5" => m ((c : Thread nD τ).loc main_arg5)
set_option quotPrecheck false in
local notation "𝐚6" => m ((c : Thread nD τ).loc main_arg6)
set_option quotPrecheck false in
local notation "𝐚7" => m ((c : Thread nD τ).loc main_arg7)

/-! ## What the host stretch leaves in the buffers the call reads -/

/-- The aggregate: the rows of the first call's table gathered at the sources and added up at the targets. The edge
    lists are as they were made before the first call (the call writes only its output array). -/
theorem agg (h3 : Gen.W3 m ρ c (Proc.devRef .tc main_v3) = KV.src 𝐚1) (h6 : Gen.W3 m ρ c (Proc.devRef .tc main_v6) = KV.dst 𝐚1) :
    Gen.W5 m ρ c (Proc.devRef .tc main_v30) = KV.agg (Gen.W4 m ρ c (Proc.devRef .tc main_v19)) 𝐚1 := by
  have h3' : Gen.W4 m ρ c (Proc.devRef .tc main_v3) = KV.src 𝐚1 := (Keep.from3_4 m ρ c main_v3 (by decide)).trans h3
  have h6' : Gen.W4 m ρ c (Proc.devRef .tc main_v6) = KV.dst 𝐚1 := (Keep.from3_4 m ρ c main_v6 (by decide)).trans h6
  dsimp only [Gen.W5, Gen.hostOps1]
  after_results_simp
  rw [h3', h6']
  rfl

/-- The normalisation column is untouched since it was made. -/
theorem dcol (h17 : Gen.W3 m ρ c (Proc.devRef .tc main_v17) = KV.disCol 𝐚1) :
    Gen.W5 m ρ c (Proc.devRef .tc main_v17) = KV.disCol 𝐚1 :=
  (Keep.from3_5 m ρ c main_v17 (by decide)).trans h17

/-- The first layer's bias as a one-row matrix. -/
theorem brow (ha4 : Gen.W3 m ρ c (Proc.devRef .tc main_arg4) = 𝐚4) :
    Gen.W5 m ρ c (Proc.devRef .tc main_v63) = KV.b0row 𝐚4 := by
  have ha4' : Gen.W4 m ρ c (Proc.devRef .tc main_arg4) = 𝐚4 := (Keep.from3_4 m ρ c main_arg4 (by decide)).trans ha4
  dsimp only [Gen.W5, Gen.hostOps1]
  after_results_simp
  rw [ha4']
  rfl

/-! ## The hidden weights: slice j of the stack with its unit axis dropped -/

theorem wmat0 (ha5 : Gen.W3 m ρ c (Proc.devRef .tc main_arg5) = 𝐚5) :
    Gen.W5 m ρ c (Proc.devRef .tc main_v48) = KV.wsl 0 𝐚5 := by
  have ha5' : Gen.W4 m ρ c (Proc.devRef .tc main_arg5) = 𝐚5 := (Keep.from3_4 m ρ c main_arg5 (by decide)).trans ha5
  dsimp only [Gen.W5, Gen.hostOps1]
  after_results_simp
  rw [ha5']
  rfl

theorem wmat1 (ha5 : Gen.W3 m ρ c (Proc.devRef .tc main_arg5) = 𝐚5) :
    Gen.W5 m ρ c (Proc.devRef .tc main_v50) = KV.wsl 1 𝐚5 := by
  have ha5' : Gen.W4 m ρ c (Proc.devRef .tc main_arg5) = 𝐚5 := (Keep.from3_4 m ρ c main_arg5 (by decide)).trans ha5
  dsimp only [Gen.W5, Gen.hostOps1]
  after_results_simp
  rw [ha5']
  rfl

theorem wmat2 (ha5 : Gen.W3 m ρ c (Proc.devRef .tc main_arg5) = 𝐚5) :
    Gen.W5 m ρ c (Proc.devRef .tc main_v52) = KV.wsl 2 𝐚5 := by
  have ha5' : Gen.W4 m ρ c (Proc.devRef .tc main_arg5) = 𝐚5 := (Keep.from3_4 m ρ c main_arg5 (by decide)).trans ha5
  dsimp only [Gen.W5, Gen.hostOps1]
  after_results_simp
  rw [ha5']
  rfl

theorem wmat3 (ha5 : Gen.W3 m ρ c (Proc.devRef .tc main_arg5) = 𝐚5) :
    Gen.W5 m ρ c (Proc.devRef .tc main_v54) = KV.wsl 3 𝐚5 := by
  have ha5' : Gen.W4 m ρ c (Proc.devRef .tc main_arg5) = 𝐚5 := (Keep.from3_4 m ρ c main_arg5 (by decide)).trans ha5
  dsimp only [Gen.W5, Gen.hostOps1]
  after_results_simp
  rw [ha5']
  rfl

theorem wmat4 (ha5 : Gen.W3 m ρ c (Proc.devRef .tc main_arg5) = 𝐚5) :
    Gen.W5 m ρ c (Proc.devRef .tc main_v56) = KV.wsl 4 𝐚5 := by
  have ha5' : Gen.W4 m ρ c (Proc.devRef .tc main_arg5) = 𝐚5 := (Keep.from3_4 m ρ c main_arg5 (by decide)).trans ha5
  dsimp only [Gen.W5, Gen.hostOps1]
  after_results_simp
  rw [ha5']
  rfl

theorem wmat5 (ha5 : Gen.W3 m ρ c (Proc.devRef .tc main_arg5) = 𝐚5) :
    Gen.W5 m ρ c (Proc.devRef .tc main_v58) = KV.wsl 5 𝐚5 := by
  have ha5' : Gen.W4 m ρ c (Proc.devRef .tc main_arg5) = 𝐚5 := (Keep.from3_4 m ρ c main_arg5 (by decide)).trans ha5
  dsimp only [Gen.W5, Gen.hostOps1]
  after_results_simp
  rw [ha5']
  rfl

theorem wmat6 (ha5 : Gen.W3 m ρ c (Proc.devRef .tc main_arg5) = 𝐚5) :
    Gen.W5 m ρ c (Proc.devRef .tc main_v60) = KV.wsl 6 𝐚5 := by
  have ha5' : Gen.W4 m ρ c (Proc.devRef .tc main_arg5) = 𝐚5 := (Keep.from3_4 m ρ c main_arg5 (by decide)).trans ha5
  dsimp only [Gen.W5, Gen.hostOps1]
  after_results_simp
  rw [ha5']
  rfl

theorem wmat7 (ha5 : Gen.W3 m ρ c (Proc.devRef .tc main_arg5) = 𝐚5) :
    Gen.W5 m ρ c (Proc.devRef .tc main_v62) = KV.wsl 7 𝐚5 := by
  have ha5' : Gen.W4 m ρ c (Proc.devRef .tc main_arg5) = 𝐚5 := (Keep.from3_4 m ρ c main_arg5 (by decide)).trans ha5
  dsimp only [Gen.W5, Gen.hostOps1]
  after_results_simp
  rw [ha5']
  rfl

/-! ## The hidden biases: row j of the stack as a vector (a later stretch turns it into a one-row matrix) -/

theorem bvec0 (ha6 : Gen.W3 m ρ c (Proc.devRef .tc main_arg6) = 𝐚6) :
    Gen.W5 m ρ c (Proc.devRef .tc main_v32)
      = shapeCast S64 (extractStridedSlice S1x64 ![0, 0] 𝐚6 slices_S8x64_S1x64_0_0) shapeCasts_S1x64_S64 := by
  have ha6' : Gen.W4 m ρ c (Proc.devRef .tc main_arg6) = 𝐚6 := (Keep.from3_4 m ρ c main_arg6 (by decide)).trans ha6
  dsimp only [Gen.W5, Gen.hostOps1]
  after_results_simp
  rw [ha6']
  rfl

theorem bvec1 (ha6 : Gen.W3 m ρ c (Proc.devRef .tc main_arg6) = 𝐚6) :
    Gen.W5 m ρ c (Proc.devRef .tc main_v34)
      = shapeCast S64 (extractStridedSlice S1x64 ![1, 0] 𝐚6 slices_S8x64_S1x64_1_0) shapeCasts_S1x64_S64 := by
  have ha6' : Gen.W4 m ρ c (Proc.devRef .tc main_arg6) = 𝐚6 := (Keep.from3_4 m ρ c main_arg6 (by decide)).trans ha6
  dsimp only [Gen.W5, Gen.hostOps1]
  after_results_simp
  rw [ha6']
  rfl

theorem bvec2 (ha6 : Gen.W3 m ρ c (Proc.devRef .tc main_arg6) = 𝐚6) :
    Gen.W5 m ρ c (Proc.devRef .tc main_v36)
      = shapeCast S64 (extractStridedSlice S1x64 ![2, 0] 𝐚6 slices_S8x64_S1x64_2_0) shapeCasts_S1x64_S64 := by
  have ha6' : Gen.W4 m ρ c (Proc.devRef .tc main_arg6) = 𝐚6 := (Keep.from3_4 m ρ c main_arg6 (by decide)).trans ha6
  dsimp only [Gen.W5, Gen.hostOps1]
  after_results_simp
  rw [ha6']
  rfl

theorem bvec3 (ha6 : Gen.W3 m ρ c (Proc.devRef .tc main_arg6) = 𝐚6) :
    Gen.W5 m ρ c (Proc.devRef .tc main_v38)
      = shapeCast S64 (extractStridedSlice S1x64 ![3, 0] 𝐚6 slices_S8x64_S1x64_3_0) shapeCasts_S1x64_S64 := by
  have ha6' : Gen.W4 m ρ c (Proc.devRef .tc main_arg6) = 𝐚6 := (Keep.from3_4 m ρ c main_arg6 (by decide)).trans ha6
  dsimp only [Gen.W5, Gen.hostOps1]
  after_results_simp
  rw [ha6']
  rfl

theorem bvec4 (ha6 : Gen.W3 m ρ c (Proc.devRef .tc main_arg6) = 𝐚6) :
    Gen.W5 m ρ c (Proc.devRef .tc main_v40)
      = shapeCast S64 (extractStridedSlice S1x64 ![4, 0] 𝐚6 slices_S8x64_S1x64_4_0) shapeCasts_S1x64_S64 := by
  have ha6' : Gen.W4 m ρ c (Proc.devRef .tc main_arg6) = 𝐚6 := (Keep.from3_4 m ρ c main_arg6 (by decide)).trans ha6
  dsimp only [Gen.W5, Gen.hostOps1]
  after_results_simp
  rw [ha6']
  rfl

theorem bvec5 (ha6 : Gen.W3 m ρ c (Proc.devRef .tc main_arg6) = 𝐚6) :
    Gen.W5 m ρ c (Proc.devRef .tc main_v42)
      = shapeCast S64 (extractStridedSlice S1x64 ![5, 0] 𝐚6 slices_S8x64_S1x64_5_0) shapeCasts_S1x64_S64 := by
  have ha6' : Gen.W4 m ρ c (Proc.devRef .tc main_arg6) = 𝐚6 := (Keep.from3_4 m ρ c main_arg6 (by decide)).trans ha6
  dsimp only [Gen.W5, Gen.hostOps1]
  after_results_simp
  rw [ha6']
  rfl

theorem bvec6 (ha6 : Gen.W3 m ρ c (Proc.devRef .tc main_arg6) = 𝐚6) :
    Gen.W5 m ρ c (Proc.devRef .tc main_v44)
      = shapeCast S64 (extractStridedSlice S1x64 ![6, 0] 𝐚6 slices_S8x64_S1x64_6_0) shapeCasts_S1x64_S64 := by
  have ha6' : Gen.W4 m ρ c (Proc.devRef .tc main_arg6) = 𝐚6 := (Keep.from3_4 m ρ c main_arg6 (by decide)).trans ha6
  dsimp only [Gen.W5, Gen.hostOps1]
  after_results_simp
  rw [ha6']
  rfl

theorem bvec7 (ha6 : Gen.W3 m ρ c (Proc.devRef .tc main_arg6) = 𝐚6) :
    Gen.W5 m ρ c (Proc.devRef .tc main_v46)
      = shapeCast S64 (extractStridedSlice S1x64 ![7, 0] 𝐚6 slices_S8x64_S1x64_7_0) shapeCasts_S1x64_S64 := by
  have ha6' : Gen.W4 m ρ c (Proc.devRef .tc main_arg6) = 𝐚6 := (Keep.from3_4 m ρ c main_arg6 (by decide)).trans ha6
  dsimp only [Gen.W5, Gen.hostOps1]
  after_results_simp
  rw [ha6']
  rfl

/-! ## The call -/

/-- Given what the call computes from the buffers it reads (`hreg`), its output array holds T₁ at its exit. -/
theorem step_of
    (hreg : (Gen.dat1 (F := Ideal) (Gen.V5 m ρ) c).arrAt 4 cfg1.N
      = KV.Gf (Gen.V5 m ρ c main_v30) (Gen.V5 m ρ c main_v17) (Gen.V5 m ρ c main_v63) (Gen.V5 m ρ c main_v48))
    (hprev : Gen.W4 m ρ c (Proc.devRef .tc main_v19) = KV.T 𝐚0 𝐚1 𝐚3 𝐚4 𝐚5 𝐚6 𝐚7 0)
    (h3 : Gen.W3 m ρ c (Proc.devRef .tc main_v3) = KV.src 𝐚1) (h6 : Gen.W3 m ρ c (Proc.devRef .tc main_v6) = KV.dst 𝐚1)
    (h17 : Gen.W3 m ρ c (Proc.devRef .tc main_v17) = KV.disCol 𝐚1)
    (ha4 : Gen.W3 m ρ c (Proc.devRef .tc main_arg4) = 𝐚4) (ha5 : Gen.W3 m ρ c (Proc.devRef .tc main_arg5) = 𝐚5) :
    Gen.W6 m ρ c (Proc.devRef .tc main_v64) = KV.T 𝐚0 𝐚1 𝐚3 𝐚4 𝐚5 𝐚6 𝐚7 1 := by
  refine (Gen.W6_arr m ρ c 4).trans ?_
  rw [hreg]
  show KV.Gf (Gen.W5 m ρ c (Proc.devRef .tc main_v30)) (Gen.W5 m ρ c (Proc.devRef .tc main_v17))
    (Gen.W5 m ρ c (Proc.devRef .tc main_v63)) (Gen.W5 m ρ c (Proc.devRef .tc main_v48)) = _
  rw [agg m ρ c h3 h6, dcol m ρ c h17, brow m ρ c ha4, wmat0 m ρ c ha5, hprev, KV.T_1]

end Cert.KernelIdeal.KStep1

end
-- ==== Proof.KStep2.lean ====
/-
  The third call of the chain (hidden layer 1 → 2). Between the second call and the third the host forms, from the table
  T₁ the previous call left, the aggregate A₁(i,·) = the sum over the edges e landing on node i of T₁(src e, ·): the
  sources (a negative one wrapped once) select rows of T₁, the rows are widened, and they are added up at the edges'
  targets onto a zero array. The same stretch turns hidden bias 0, sliced out as a vector before the second call,
  into a one-row matrix. The third call then computes, from the aggregate, the normalisation column, that bias row
  and hidden weight 1 (sliced out before the second call), the table T₂ = relu(A₁ · d + b₁) · W₂ with row i
  scaled by d(i). Here: what each buffer the call reads holds when the call is entered, and so what its output array
  holds at its exit.
-/
import proofs.«430747_j26834955666046_2_alg».proof.Proof.Gen.KernelIdeal.Frame
import proofs.«430747_j26834955666046_2_alg».proof.Proof.KV
import proofs.«430747_j26834955666046_2_alg».proof.Proof.Keep
import Idealize.ShloMosaic.Lib.StableHlo.Run

noncomputable section

namespace Cert.KernelIdeal.KStep2

open Idealize.ShloMosaic Idealize.ShloMosaic.TcCoe Idealize.ShloMosaic.ValueIdx Idealize.ShloMosaic.StableHlo Cert.KernelIdeal Cert.KernelIdeal.Facts₀ Cert.KernelIdeal.Facts

variable (m : (ℓ : Loc nD τ sig) → Buf (Elt Ideal) ℓ) (ρ : Dev nD → PrngReg) (c : Dev nD)

/-! The program's argument arrays as device `c` holds them at launch. -/
set_option quotPrecheck false in
local notation "𝐚0" => m ((c : Thread nD τ).loc main_arg0)
set_option quotPrecheck false in
local notation "𝐚1" => m ((c : Thread nD τ).loc main_arg1)
set_option quotPrecheck false in
local notation "𝐚3" => m ((c : Thread nD τ).loc main_arg3)
set_option quotPrecheck false in
local notation "𝐚4" => m ((c : Thread nD τ).loc main_arg4)
set_option quotPrecheck false in
local notation "𝐚5" => m ((c : Thread nD τ).loc main_arg5)
set_option quotPrecheck false in
local notation "𝐚6" => m ((c : Thread nD τ).loc main_arg6)
set_option quotPrecheck false in
local notation "𝐚7" => m ((c : Thread nD τ).loc main_arg7)

/-! ## What the host stretch leaves in the buffers the call reads -/

/-- The aggregate: the rows of the previous call's table gathered at the sources and added up at the targets. The edge
    lists are as they were made before the first call (no call and no later stretch writes them). -/
theorem agg (h3 : Gen.W3 m ρ c (Proc.devRef .tc main_v3) = KV.src 𝐚1) (h6 : Gen.W3 m ρ c (Proc.devRef .tc main_v6) = KV.dst 𝐚1) :
    Gen.W7 m ρ c (Proc.devRef .tc main_v75) = KV.agg (Gen.W6 m ρ c (Proc.devRef .tc main_v64)) 𝐚1 := by
  have h3' : Gen.W6 m ρ c (Proc.devRef .tc main_v3) = KV.src 𝐚1 := (Keep.from3_6 m ρ c main_v3 (by decide)).trans h3
  have h6' : Gen.W6 m ρ c (Proc.devRef .tc main_v6) = KV.dst 𝐚1 := (Keep.from3_6 m ρ c main_v6 (by decide)).trans h6
  dsimp only [Gen.W7, Gen.hostOps2]
  after_results_simp
  rw [h3', h6']
  rfl

/-- The normalisation column is untouched since it was made. -/
theorem dcol (h17 : Gen.W3 m ρ c (Proc.devRef .tc main_v17) = KV.disCol 𝐚1) :
    Gen.W7 m ρ c (Proc.devRef .tc main_v17) = KV.disCol 𝐚1 :=
  (Keep.from3_7 m ρ c main_v17 (by decide)).trans h17

/-- The layer's bias as a one-row matrix: the vector sliced out before the second call, reshaped here. -/
theorem brow (hb : Gen.W5 m ρ c (Proc.devRef .tc main_v32)
      = shapeCast S64 (extractStridedSlice S1x64 ![0, 0] 𝐚6 slices_S8x64_S1x64_0_0) shapeCasts_S1x64_S64) :
    Gen.W7 m ρ c (Proc.devRef .tc main_v76) = KV.bsl 0 𝐚6 := by
  have hb' : Gen.W6 m ρ c (Proc.devRef .tc main_v32)
      = shapeCast S64 (extractStridedSlice S1x64 ![0, 0] 𝐚6 slices_S8x64_S1x64_0_0) shapeCasts_S1x64_S64 :=
    (Keep.from5_6 m ρ c main_v32 (by decide)).trans hb
  dsimp only [Gen.W7, Gen.hostOps2]
  after_results_simp
  rw [hb']
  rfl

/-- The layer's weight matrix is untouched since it was sliced out before the second call. -/
theorem wmat (hw : Gen.W5 m ρ c (Proc.devRef .tc main_v50) = KV.wsl 1 𝐚5) :
    Gen.W7 m ρ c (Proc.devRef .tc main_v50) = KV.wsl 1 𝐚5 :=
  (Keep.from5_7 m ρ c main_v50 (by decide)).trans hw

/-! ## The call -/

/-- Given what the call computes from the buffers it reads (`hreg`), its output array holds T₂ at its exit. -/
theorem step_of
    (hreg : (Gen.dat2 (F := Ideal) (Gen.V7 m ρ) c).arrAt 4 cfg2.N
      = KV.Gf (Gen.V7 m ρ c main_v75) (Gen.V7 m ρ c main_v17) (Gen.V7 m ρ c main_v76) (Gen.V7 m ρ c main_v50))
    (hprev : Gen.W6 m ρ c (Proc.devRef .tc main_v64) = KV.T 𝐚0 𝐚1 𝐚3 𝐚4 𝐚5 𝐚6 𝐚7 1)
    (h3 : Gen.W3 m ρ c (Proc.devRef .tc main_v3) = KV.src 𝐚1) (h6 : Gen.W3 m ρ c (Proc.devRef .tc main_v6) = KV.dst 𝐚1)
    (h17 : Gen.W3 m ρ c (Proc.devRef .tc main_v17) = KV.disCol 𝐚1)
    (hb : Gen.W5 m ρ c (Proc.devRef .tc main_v32)
      = shapeCast S64 (extractStridedSlice S1x64 ![0, 0] 𝐚6 slices_S8x64_S1x64_0_0) shapeCasts_S1x64_S64)
    (hw : Gen.W5 m ρ c (Proc.devRef .tc main_v50) = KV.wsl 1 𝐚5) :
    Gen.W8 m ρ c (Proc.devRef .tc main_v77) = KV.T 𝐚0 𝐚1 𝐚3 𝐚4 𝐚5 𝐚6 𝐚7 2 := by
  refine (Gen.W8_arr m ρ c 4).trans ?_
  rw [hreg]
  show KV.Gf (Gen.W7 m ρ c (Proc.devRef .tc main_v75)) (Gen.W7 m ρ c (Proc.devRef .tc main_v17))
    (Gen.W7 m ρ c (Proc.devRef .tc main_v76)) (Gen.W7 m ρ c (Proc.devRef .tc main_v50)) = _
  rw [agg m ρ c h3 h6, dcol m ρ c h17, brow m ρ c hb, wmat m ρ c hw, hprev, KV.T_2]

end Cert.KernelIdeal.KStep2

end
-- ==== Proof.KStep3.lean ====
/-
  The fourth call of the chain (hidden layer 2 → 3). Between the third call and the fourth the host forms, from the table
  T₂ the previous call left, the aggregate A₂(i,·) = the sum over the edges e landing on node i of T₂(src e, ·): the
  sources (a negative one wrapped once) select rows of T₂, the rows are widened, and they are added up at the edges'
  targets onto a zero array. The same stretch turns hidden bias 1, sliced out as a vector before the second call,
  into a one-row matrix. The fourth call then computes, from the aggregate, the normalisation column, that bias row
  and hidden weight 2 (sliced out before the second call), the table T₃ = relu(A₂ · d + b₂) · W₃ with row i
  scaled by d(i). Here: what each buffer the call reads holds when the call is entered, and so what its output array
  holds at its exit.
-/
import proofs.«430747_j26834955666046_2_alg».proof.Proof.Gen.KernelIdeal.Frame
import proofs.«430747_j26834955666046_2_alg».proof.Proof.KV
import proofs.«430747_j26834955666046_2_alg».proof.Proof.Keep
import Idealize.ShloMosaic.Lib.StableHlo.Run

noncomputable section

namespace Cert.KernelIdeal.KStep3

open Idealize.ShloMosaic Idealize.ShloMosaic.TcCoe Idealize.ShloMosaic.ValueIdx Idealize.ShloMosaic.StableHlo Cert.KernelIdeal Cert.KernelIdeal.Facts₀ Cert.KernelIdeal.Facts

variable (m : (ℓ : Loc nD τ sig) → Buf (Elt Ideal) ℓ) (ρ : Dev nD → PrngReg) (c : Dev nD)

/-! The program's argument arrays as device `c` holds them at launch. -/
set_option quotPrecheck false in
local notation "𝐚0" => m ((c : Thread nD τ).loc main_arg0)
set_option quotPrecheck false in
local notation "𝐚1" => m ((c : Thread nD τ).loc main_arg1)
set_option quotPrecheck false in
local notation "𝐚3" => m ((c : Thread nD τ).loc main_arg3)
set_option quotPrecheck false in
local notation "𝐚4" => m ((c : Thread nD τ).loc main_arg4)
set_option quotPrecheck false in
local notation "𝐚5" => m ((c : Thread nD τ).loc main_arg5)
set_option quotPrecheck false in
local notation "𝐚6" => m ((c : Thread nD τ).loc main_arg6)
set_option quotPrecheck false in
local notation "𝐚7" => m ((c : Thread nD τ).loc main_arg7)

/-! ## What the host stretch leaves in the buffers the call reads -/

/-- The aggregate: the rows of the previous call's table gathered at the sources and added up at the targets. The edge
    lists are as they were made before the first call (no call and no later stretch writes them). -/
theorem agg (h3 : Gen.W3 m ρ c (Proc.devRef .tc main_v3) = KV.src 𝐚1) (h6 : Gen.W3 m ρ c (Proc.devRef .tc main_v6) = KV.dst 𝐚1) :
    Gen.W9 m ρ c (Proc.devRef .tc main_v88) = KV.agg (Gen.W8 m ρ c (Proc.devRef .tc main_v77)) 𝐚1 := by
  have h3' : Gen.W8 m ρ c (Proc.devRef .tc main_v3) = KV.src 𝐚1 := (Keep.from3_8 m ρ c main_v3 (by decide)).trans h3
  have h6' : Gen.W8 m ρ c (Proc.devRef .tc main_v6) = KV.dst 𝐚1 := (Keep.from3_8 m ρ c main_v6 (by decide)).trans h6
  dsimp only [Gen.W9, Gen.hostOps3]
  after_results_simp
  rw [h3', h6']
  rfl

/-- The normalisation column is untouched since it was made. -/
theorem dcol (h17 : Gen.W3 m ρ c (Proc.devRef .tc main_v17) = KV.disCol 𝐚1) :
    Gen.W9 m ρ c (Proc.devRef .tc main_v17) = KV.disCol 𝐚1 :=
  (Keep.from3_9 m ρ c main_v17 (by decide)).trans h17

/-- The layer's bias as a one-row matrix: the vector sliced out before the second call, reshaped here. -/
theorem brow (hb : Gen.W5 m ρ c (Proc.devRef .tc main_v34)
      = shapeCast S64 (extractStridedSlice S1x64 ![1, 0] 𝐚6 slices_S8x64_S1x64_1_0) shapeCasts_S1x64_S64) :
    Gen.W9 m ρ c (Proc.devRef .tc main_v89) = KV.bsl 1 𝐚6 := by
  have hb' : Gen.W8 m ρ c (Proc.devRef .tc main_v34)
      = shapeCast S64 (extractStridedSlice S1x64 ![1, 0] 𝐚6 slices_S8x64_S1x64_1_0) shapeCasts_S1x64_S64 :=
    (Keep.from5_8 m ρ c main_v34 (by decide)).trans hb
  dsimp only [Gen.W9, Gen.hostOps3]
  after_results_simp
  rw [hb']
  rfl

/-- The layer's weight matrix is untouched since it was sliced out before the second call. -/
theorem wmat (hw : Gen.W5 m ρ c (Proc.devRef .tc main_v52) = KV.wsl 2 𝐚5) :
    Gen.W9 m ρ c (Proc.devRef .tc main_v52) = KV.wsl 2 𝐚5 :=
  (Keep.from5_9 m ρ c main_v52 (by decide)).trans hw

/-! ## The call -/

/-- Given what the call computes from the buffers it reads (`hreg`), its output array holds T₃ at its exit. -/
theorem step_of
    (hreg : (Gen.dat3 (F := Ideal) (Gen.V9 m ρ) c).arrAt 4 cfg3.N
      = KV.Gf (Gen.V9 m ρ c main_v88) (Gen.V9 m ρ c main_v17) (Gen.V9 m ρ c main_v89) (Gen.V9 m ρ c main_v52))
    (hprev : Gen.W8 m ρ c (Proc.devRef .tc main_v77) = KV.T 𝐚0 𝐚1 𝐚3 𝐚4 𝐚5 𝐚6 𝐚7 2)
    (h3 : Gen.W3 m ρ c (Proc.devRef .tc main_v3) = KV.src 𝐚1) (h6 : Gen.W3 m ρ c (Proc.devRef .tc main_v6) = KV.dst 𝐚1)
    (h17 : Gen.W3 m ρ c (Proc.devRef .tc main_v17) = KV.disCol 𝐚1)
    (hb : Gen.W5 m ρ c (Proc.devRef .tc main_v34)
      = shapeCast S64 (extractStridedSlice S1x64 ![1, 0] 𝐚6 slices_S8x64_S1x64_1_0) shapeCasts_S1x64_S64)
    (hw : Gen.W5 m ρ c (Proc.devRef .tc main_v52) = KV.wsl 2 𝐚5) :
    Gen.W10 m ρ c (Proc.devRef .tc main_v90) = KV.T 𝐚0 𝐚1 𝐚3 𝐚4 𝐚5 𝐚6 𝐚7 3 := by
  refine (Gen.W10_arr m ρ c 4).trans ?_
  rw [hreg]
  show KV.Gf (Gen.W9 m ρ c (Proc.devRef .tc main_v88)) (Gen.W9 m ρ c (Proc.devRef .tc main_v17))
    (Gen.W9 m ρ c (Proc.devRef .tc main_v89)) (Gen.W9 m ρ c (Proc.devRef .tc main_v52)) = _
  rw [agg m ρ c h3 h6, dcol m ρ c h17, brow m ρ c hb, wmat m ρ c hw, hprev, KV.T_3]

end Cert.KernelIdeal.KStep3

end
-- ==== Proof.KStep4.lean ====
/-
  The fifth call of the chain (hidden layer 3 → 4). Between the fourth call and the fifth the host forms, from the table
  T₃ the previous call left, the aggregate A₃(i,·) = the sum over the edges e landing on node i of T₃(src e, ·): the
  sources (a negative one wrapped once) select rows of T₃, the rows are widened, and they are added up at the edges'
  targets onto a zero array. The same stretch turns hidden bias 2, sliced out as a vector before the second call,
  into a one-row matrix. The fifth call then computes, from the aggregate, the normalisation column, that bias row
  and hidden weight 3 (sliced out before the second call), the table T₄ = relu(A₃ · d + b₃) · W₄ with row i
  scaled by d(i). Here: what each buffer the call reads holds when the call is entered, and so what its output array
  holds at its exit.
-/
import proofs.«430747_j26834955666046_2_alg».proof.Proof.Gen.KernelIdeal.Frame
import proofs.«430747_j26834955666046_2_alg».proof.Proof.KV
import proofs.«430747_j26834955666046_2_alg».proof.Proof.Keep
import Idealize.ShloMosaic.Lib.StableHlo.Run

noncomputable section

namespace Cert.KernelIdeal.KStep4

open Idealize.ShloMosaic Idealize.ShloMosaic.TcCoe Idealize.ShloMosaic.ValueIdx Idealize.ShloMosaic.StableHlo Cert.KernelIdeal Cert.KernelIdeal.Facts₀ Cert.KernelIdeal.Facts

variable (m : (ℓ : Loc nD τ sig) → Buf (Elt Ideal) ℓ) (ρ : Dev nD → PrngReg) (c : Dev nD)

/-! The program's argument arrays as device `c` holds them at launch. -/
set_option quotPrecheck false in
local notation "𝐚0" => m ((c : Thread nD τ).loc main_arg0)
set_option quotPrecheck false in
local notation "𝐚1" => m ((c : Thread nD τ).loc main_arg1)
set_option quotPrecheck false in
local notation "𝐚3" => m ((c : Thread nD τ).loc main_arg3)
set_option quotPrecheck false in
local notation "𝐚4" => m ((c : Thread nD τ).loc main_arg4)
set_option quotPrecheck false in
local notation "𝐚5" => m ((c : Thread nD τ).loc main_arg5)
set_option quotPrecheck false in
local notation "𝐚6" => m ((c : Thread nD τ).loc main_arg6)
set_option quotPrecheck false in
local notation "𝐚7" => m ((c : Thread nD τ).loc main_arg7)

/-! ## What the host stretch leaves in the buffers the call reads -/

/-- The aggregate: the rows of the previous call's table gathered at the sources and added up at the targets. The edge
    lists are as they were made before the first call (no call and no later stretch writes them). -/
theorem agg (h3 : Gen.W3 m ρ c (Proc.devRef .tc main_v3) = KV.src 𝐚1) (h6 : Gen.W3 m ρ c (Proc.devRef .tc main_v6) = KV.dst 𝐚1) :
    Gen.W11 m ρ c (Proc.devRef .tc main_v101) = KV.agg (Gen.W10 m ρ c (Proc.devRef .tc main_v90)) 𝐚1 := by
  have h3' : Gen.W10 m ρ c (Proc.devRef .tc main_v3) = KV.src 𝐚1 := (Keep.from3_10 m ρ c main_v3 (by decide)).trans h3
  have h6' : Gen.W10 m ρ c (Proc.devRef .tc main_v6) = KV.dst 𝐚1 := (Keep.from3_10 m ρ c main_v6 (by decide)).trans h6
  dsimp only [Gen.W11, Gen.hostOps4]
  after_results_simp
  rw [h3', h6']
  rfl

/-- The normalisation column is untouched since it was made. -/
theorem dcol (h17 : Gen.W3 m ρ c (Proc.devRef .tc main_v17) = KV.disCol 𝐚1) :
    Gen.W11 m ρ c (Proc.devRef .tc main_v17) = KV.disCol 𝐚1 :=
  (Keep.from3_11 m ρ c main_v17 (by decide)).trans h17

/-- The layer's bias as a one-row matrix: the vector sliced out before the second call, reshaped here. -/
theorem brow (hb : Gen.W5 m ρ c (Proc.devRef .tc main_v36)
      = shapeCast S64 (extractStridedSlice S1x64 ![2, 0] 𝐚6 slices_S8x64_S1x64_2_0) shapeCasts_S1x64_S64) :
    Gen.W11 m ρ c (Proc.devRef .tc main_v102) = KV.bsl 2 𝐚6 := by
  have hb' : Gen.W10 m ρ c (Proc.devRef .tc main_v36)
      = shapeCast S64 (extractStridedSlice S1x64 ![2, 0] 𝐚6 slices_S8x64_S1x64_2_0) shapeCasts_S1x64_S64 :=
    (Keep.from5_10 m ρ c main_v36 (by decide)).trans hb
  dsimp only [Gen.W11, Gen.hostOps4]
  after_results_simp
  rw [hb']
  rfl

/-- The layer's weight matrix is untouched since it was sliced out before the second call. -/
theorem wmat (hw : Gen.W5 m ρ c (Proc.devRef .tc main_v54) = KV.wsl 3 𝐚5) :
    Gen.W11 m ρ c (Proc.devRef .tc main_v54) = KV.wsl 3 𝐚5 :=
  (Keep.from5_11 m ρ c main_v54 (by decide)).trans hw

/-! ## The call -/

/-- Given what the call computes from the buffers it reads (`hreg`), its output array holds T₄ at its exit. -/
theorem step_of
    (hreg : (Gen.dat4 (F := Ideal) (Gen.V11 m ρ) c).arrAt 4 cfg4.N
      = KV.Gf (Gen.V11 m ρ c main_v101) (Gen.V11 m ρ c main_v17) (Gen.V11 m ρ c main_v102) (Gen.V11 m ρ c main_v54))
    (hprev : Gen.W10 m ρ c (Proc.devRef .tc main_v90) = KV.T 𝐚0 𝐚1 𝐚3 𝐚4 𝐚5 𝐚6 𝐚7 3)
    (h3 : Gen.W3 m ρ c (Proc.devRef .tc main_v3) = KV.src 𝐚1) (h6 : Gen.W3 m ρ c (Proc.devRef .tc main_v6) = KV.dst 𝐚1)
    (h17 : Gen.W3 m ρ c (Proc.devRef .tc main_v17) = KV.disCol 𝐚1)
    (hb : Gen.W5 m ρ c (Proc.devRef .tc main_v36)
      = shapeCast S64 (extractStridedSlice S1x64 ![2, 0] 𝐚6 slices_S8x64_S1x64_2_0) shapeCasts_S1x64_S64)
    (hw : Gen.W5 m ρ c (Proc.devRef .tc main_v54) = KV.wsl 3 𝐚5) :
    Gen.W12 m ρ c (Proc.devRef .tc main_v103) = KV.T 𝐚0 𝐚1 𝐚3 𝐚4 𝐚5 𝐚6 𝐚7 4 := by
  refine (Gen.W12_arr m ρ c 4).trans ?_
  rw [hreg]
  show KV.Gf (Gen.W11 m ρ c (Proc.devRef .tc main_v101)) (Gen.W11 m ρ c (Proc.devRef .tc main_v17))
    (Gen.W11 m ρ c (Proc.devRef .tc main_v102)) (Gen.W11 m ρ c (Proc.devRef .tc main_v54)) = _
  rw [agg m ρ c h3 h6, dcol m ρ c h17, brow m ρ c hb, wmat m ρ c hw, hprev, KV.T_4]

end Cert.KernelIdeal.KStep4

end
-- ==== Proof.KStep5.lean ====
/-
  The sixth call of the chain (hidden layer 4 → 5). Between the fifth call and the sixth the host forms, from the table
  T₄ the previous call left, the aggregate A₄(i,·) = the sum over the edges e landing on node i of T₄(src e, ·): the
  sources (a negative one wrapped once) select rows of T₄, the rows are widened, and they are added up at the edges'
  targets onto a zero array. The same stretch turns hidden bias 3, sliced out as a vector before the second call,
  into a one-row matrix. The sixth call then computes, from the aggregate, the normalisation column, that bias row
  and hidden weight 4 (sliced out before the second call), the table T₅ = relu(A₄ · d + b₄) · W₅ with row i
  scaled by d(i). Here: what each buffer the call reads holds when the call is entered, and so what its output array
  holds at its exit.
-/
import proofs.«430747_j26834955666046_2_alg».proof.Proof.Gen.KernelIdeal.Frame
import proofs.«430747_j26834955666046_2_alg».proof.Proof.KV
import proofs.«430747_j26834955666046_2_alg».proof.Proof.Keep
import Idealize.ShloMosaic.Lib.StableHlo.Run

noncomputable section

namespace Cert.KernelIdeal.KStep5

open Idealize.ShloMosaic Idealize.ShloMosaic.TcCoe Idealize.ShloMosaic.ValueIdx Idealize.ShloMosaic.StableHlo Cert.KernelIdeal Cert.KernelIdeal.Facts₀ Cert.KernelIdeal.Facts

variable (m : (ℓ : Loc nD τ sig) → Buf (Elt Ideal) ℓ) (ρ : Dev nD → PrngReg) (c : Dev nD)

/-! The program's argument arrays as device `c` holds them at launch. -/
set_option quotPrecheck false in
local notation "𝐚0" => m ((c : Thread nD τ).loc main_arg0)
set_option quotPrecheck false in
local notation "𝐚1" => m ((c : Thread nD τ).loc main_arg1)
set_option quotPrecheck false in
local notation "𝐚3" => m ((c : Thread nD τ).loc main_arg3)
set_option quotPrecheck false in
local notation "𝐚4" => m ((c : Thread nD τ).loc main_arg4)
set_option quotPrecheck false in
local notation "𝐚5" => m ((c : Thread nD τ).loc main_arg5)
set_option quotPrecheck false in
local notation "𝐚6" => m ((c : Thread nD τ).loc main_arg6)
set_option quotPrecheck false in
local notation "𝐚7" => m ((c : Thread nD τ).loc main_arg7)

/-! ## What the host stretch leaves in the buffers the call reads -/

/-- The aggregate: the rows of the previous call's table gathered at the sources and added up at the targets. The edge
    lists are as they were made before the first call (no call and no later stretch writes them). -/
theorem agg (h3 : Gen.W3 m ρ c (Proc.devRef .tc main_v3) = KV.src 𝐚1) (h6 : Gen.W3 m ρ c (Proc.devRef .tc main_v6) = KV.dst 𝐚1) :
    Gen.W13 m ρ c (Proc.devRef .tc main_v114) = KV.agg (Gen.W12 m ρ c (Proc.devRef .tc main_v103)) 𝐚1 := by
  have h3' : Gen.W12 m ρ c (Proc.devRef .tc main_v3) = KV.src 𝐚1 := (Keep.from3_12 m ρ c main_v3 (by decide)).trans h3
  have h6' : Gen.W12 m ρ c (Proc.devRef .tc main_v6) = KV.dst 𝐚1 := (Keep.from3_12 m ρ c main_v6 (by decide)).trans h6
  dsimp only [Gen.W13, Gen.hostOps5]
  after_results_simp
  rw [h3', h6']
  rfl

/-- The normalisation column is untouched since it was made. -/
theorem dcol (h17 : Gen.W3 m ρ c (Proc.devRef .tc main_v17) = KV.disCol 𝐚1) :
    Gen.W13 m ρ c (Proc.devRef .tc main_v17) = KV.disCol 𝐚1 :=
  (Keep.from3_13 m ρ c main_v17 (by decide)).trans h17

/-- The layer's bias as a one-row matrix: the vector sliced out before the second call, reshaped here. -/
theorem brow (hb : Gen.W5 m ρ c (Proc.devRef .tc main_v38)
      = shapeCast S64 (extractStridedSlice S1x64 ![3, 0] 𝐚6 slices_S8x64_S1x64_3_0) shapeCasts_S1x64_S64) :
    Gen.W13 m ρ c (Proc.devRef .tc main_v115) = KV.bsl 3 𝐚6 := by
  have hb' : Gen.W12 m ρ c (Proc.devRef .tc main_v38)
      = shapeCast S64 (extractStridedSlice S1x64 ![3, 0] 𝐚6 slices_S8x64_S1x64_3_0) shapeCasts_S1x64_S64 :=
    (Keep.from5_12 m ρ c main_v38 (by decide)).trans hb
  dsimp only [Gen.W13, Gen.hostOps5]
  after_results_simp
  rw [hb']
  rfl

/-- The layer's weight matrix is untouched since it was sliced out before the second call. -/
theorem wmat (hw : Gen.W5 m ρ c (Proc.devRef .tc main_v56) = KV.wsl 4 𝐚5) :
    Gen.W13 m ρ c (Proc.devRef .tc main_v56) = KV.wsl 4 𝐚5 :=
  (Keep.from5_13 m ρ c main_v56 (by decide)).trans hw

/-! ## The call -/

/-- Given what the call computes from the buffers it reads (`hreg`), its output array holds T₅ at its exit. -/
theorem step_of
    (hreg : (Gen.dat5 (F := Ideal) (Gen.V13 m ρ) c).arrAt 4 cfg5.N
      = KV.Gf (Gen.V13 m ρ c main_v114) (Gen.V13 m ρ c main_v17) (Gen.V13 m ρ c main_v115) (Gen.V13 m ρ c main_v56))
    (hprev : Gen.W12 m ρ c (Proc.devRef .tc main_v103) = KV.T 𝐚0 𝐚1 𝐚3 𝐚4 𝐚5 𝐚6 𝐚7 4)
    (h3 : Gen.W3 m ρ c (Proc.devRef .tc main_v3) = KV.src 𝐚1) (h6 : Gen.W3 m ρ c (Proc.devRef .tc main_v6) = KV.dst 𝐚1)
    (h17 : Gen.W3 m ρ c (Proc.devRef .tc main_v17) = KV.disCol 𝐚1)
    (hb : Gen.W5 m ρ c (Proc.devRef .tc main_v38)
      = shapeCast S64 (extractStridedSlice S1x64 ![3, 0] 𝐚6 slices_S8x64_S1x64_3_0) shapeCasts_S1x64_S64)
    (hw : Gen.W5 m ρ c (Proc.devRef .tc main_v56) = KV.wsl 4 𝐚5) :
    Gen.W14 m ρ c (Proc.devRef .tc main_v116) = KV.T 𝐚0 𝐚1 𝐚3 𝐚4 𝐚5 𝐚6 𝐚7 5 := by
  refine (Gen.W14_arr m ρ c 4).trans ?_
  rw [hreg]
  show KV.Gf (Gen.W13 m ρ c (Proc.devRef .tc main_v114)) (Gen.W13 m ρ c (Proc.devRef .tc main_v17))
    (Gen.W13 m ρ c (Proc.devRef .tc main_v115)) (Gen.W13 m ρ c (Proc.devRef .tc main_v56)) = _
  rw [agg m ρ c h3 h6, dcol m ρ c h17, brow m ρ c hb, wmat m ρ c hw, hprev, KV.T_5]

end Cert.KernelIdeal.KStep5

end
-- ==== Proof.KStep6.lean ====
/-
  The seventh call of the chain (hidden layer 5 → 6). Between the sixth call and the seventh the host forms, from the table
  T₅ the previous call left, the aggregate A₅(i,·) = the sum over the edges e landing on node i of T₅(src e, ·): the
  sources (a negative one wrapped once) select rows of T₅, the rows are widened, and they are added up at the edges'
  targets onto a zero array. The same stretch turns hidden bias 4, sliced out as a vector before the second call,
  into a one-row matrix. The seventh call then computes, from the aggregate, the normalisation column, that bias row
  and hidden weight 5 (sliced out before the second call), the table T₆ = relu(A₅ · d + b₅) · W₆ with row i
  scaled by d(i). Here: what each buffer the call reads holds when the call is entered, and so what its output array
  holds at its exit.
-/
import proofs.«430747_j26834955666046_2_alg».proof.Proof.Gen.KernelIdeal.Frame
import proofs.«430747_j26834955666046_2_alg».proof.Proof.KV
import proofs.«430747_j26834955666046_2_alg».proof.Proof.Keep
import Idealize.ShloMosaic.Lib.StableHlo.Run

noncomputable section

namespace Cert.KernelIdeal.KStep6

open Idealize.ShloMosaic Idealize.ShloMosaic.TcCoe Idealize.ShloMosaic.ValueIdx Idealize.ShloMosaic.StableHlo Cert.KernelIdeal Cert.KernelIdeal.Facts₀ Cert.KernelIdeal.Facts

variable (m : (ℓ : Loc nD τ sig) → Buf (Elt Ideal) ℓ) (ρ : Dev nD → PrngReg) (c : Dev nD)

/-! The program's argument arrays as device `c` holds them at launch. -/
set_option quotPrecheck false in
local notation "𝐚0" => m ((c : Thread nD τ).loc main_arg0)
set_option quotPrecheck false in
local notation "𝐚1" => m ((c : Thread nD τ).loc main_arg1)
set_option quotPrecheck false in
local notation "𝐚3" => m ((c : Thread nD τ).loc main_arg3)
set_option quotPrecheck false in
local notation "𝐚4" => m ((c : Thread nD τ).loc main_arg4)
set_option quotPrecheck false in
local notation "𝐚5" => m ((c : Thread nD τ).loc main_arg5)
set_option quotPrecheck false in
local notation "𝐚6" => m ((c : Thread nD τ).loc main_arg6)
set_option quotPrecheck false in
local notation "𝐚7" => m ((c : Thread nD τ).loc main_arg7)

/-! ## What the host stretch leaves in the buffers the call reads -/

/-- The aggregate: the rows of the previous call's table gathered at the sources and added up at the targets. The edge
    lists are as they were made before the first call (no call and no later stretch writes them). -/
theorem agg (h3 : Gen.W3 m ρ c (Proc.devRef .tc main_v3) = KV.src 𝐚1) (h6 : Gen.W3 m ρ c (Proc.devRef .tc main_v6) = KV.dst 𝐚1) :
    Gen.W15 m ρ c (Proc.devRef .tc main_v127) = KV.agg (Gen.W14 m ρ c (Proc.devRef .tc main_v116)) 𝐚1 := by
  have h3' : Gen.W14 m ρ c (Proc.devRef .tc main_v3) = KV.src 𝐚1 := (Keep.from3_14 m ρ c main_v3 (by decide)).trans h3
  have h6' : Gen.W14 m ρ c (Proc.devRef .tc main_v6) = KV.dst 𝐚1 := (Keep.from3_14 m ρ c main_v6 (by decide)).trans h6
  dsimp only [Gen.W15, Gen.hostOps6]
  after_results_simp
  rw [h3', h6']
  rfl

/-- The normalisation column is untouched since it was made. -/
theorem dcol (h17 : Gen.W3 m ρ c (Proc.devRef .tc main_v17) = KV.disCol 𝐚1) :
    Gen.W15 m ρ c (Proc.devRef .tc main_v17) = KV.disCol 𝐚1 :=
  (Keep.from3_15 m ρ c main_v17 (by decide)).trans h17

/-- The layer's bias as a one-row matrix: the vector sliced out before the second call, reshaped here. -/
theorem brow (hb : Gen.W5 m ρ c (Proc.devRef .tc main_v40)
      = shapeCast S64 (extractStridedSlice S1x64 ![4, 0] 𝐚6 slices_S8x64_S1x64_4_0) shapeCasts_S1x64_S64) :
    Gen.W15 m ρ c (Proc.devRef .tc main_v128) = KV.bsl 4 𝐚6 := by
  have hb' : Gen.W14 m ρ c (Proc.devRef .tc main_v40)
      = shapeCast S64 (extractStridedSlice S1x64 ![4, 0] 𝐚6 slices_S8x64_S1x64_4_0) shapeCasts_S1x64_S64 :=
    (Keep.from5_14 m ρ c main_v40 (by decide)).trans hb
  dsimp only [Gen.W15, Gen.hostOps6]
  after_results_simp
  rw [hb']
  rfl

/-- The layer's weight matrix is untouched since it was sliced out before the second call. -/
theorem wmat (hw : Gen.W5 m ρ c (Proc.devRef .tc main_v58) = KV.wsl 5 𝐚5) :
    Gen.W15 m ρ c (Proc.devRef .tc main_v58) = KV.wsl 5 𝐚5 :=
  (Keep.from5_15 m ρ c main_v58 (by decide)).trans hw

/-! ## The call -/

/-- Given what the call computes from the buffers it reads (`hreg`), its output array holds T₆ at its exit. -/
theorem step_of
    (hreg : (Gen.dat6 (F := Ideal) (Gen.V15 m ρ) c).arrAt 4 cfg6.N
      = KV.Gf (Gen.V15 m ρ c main_v127) (Gen.V15 m ρ c main_v17) (Gen.V15 m ρ c main_v128) (Gen.V15 m ρ c main_v58))
    (hprev : Gen.W14 m ρ c (Proc.devRef .tc main_v116) = KV.T 𝐚0 𝐚1 𝐚3 𝐚4 𝐚5 𝐚6 𝐚7 5)
    (h3 : Gen.W3 m ρ c (Proc.devRef .tc main_v3) = KV.src 𝐚1) (h6 : Gen.W3 m ρ c (Proc.devRef .tc main_v6) = KV.dst 𝐚1)
    (h17 : Gen.W3 m ρ c (Proc.devRef .tc main_v17) = KV.disCol 𝐚1)
    (hb : Gen.W5 m ρ c (Proc.devRef .tc main_v40)
      = shapeCast S64 (extractStridedSlice S1x64 ![4, 0] 𝐚6 slices_S8x64_S1x64_4_0) shapeCasts_S1x64_S64)
    (hw : Gen.W5 m ρ c (Proc.devRef .tc main_v58) = KV.wsl 5 𝐚5) :
    Gen.W16 m ρ c (Proc.devRef .tc main_v129) = KV.T 𝐚0 𝐚1 𝐚3 𝐚4 𝐚5 𝐚6 𝐚7 6 := by
  refine (Gen.W16_arr m ρ c 4).trans ?_
  rw [hreg]
  show KV.Gf (Gen.W15 m ρ c (Proc.devRef .tc main_v127)) (Gen.W15 m ρ c (Proc.devRef .tc main_v17))
    (Gen.W15 m ρ c (Proc.devRef .tc main_v128)) (Gen.W15 m ρ c (Proc.devRef .tc main_v58)) = _
  rw [agg m ρ c h3 h6, dcol m ρ c h17, brow m ρ c hb, wmat m ρ c hw, hprev, KV.T_6]

end Cert.KernelIdeal.KStep6

end
-- ==== Proof.KStep7.lean ====
/-
  The eighth call of the chain (hidden layer 6 → 7). Between the seventh call and the eighth the host forms, from the table
  T₆ the previous call left, the aggregate A₆(i,·) = the sum over the edges e landing on node i of T₆(src e, ·): the
  sources (a negative one wrapped once) select rows of T₆, the rows are widened, and they are added up at the edges'
  targets onto a zero array. The same stretch turns hidden bias 5, sliced out as a vector before the second call,
  into a one-row matrix. The eighth call then computes, from the aggregate, the normalisation column, that bias row
  and hidden weight 6 (sliced out before the second call), the table T₇ = relu(A₆ · d + b₆) · W₇ with row i
  scaled by d(i). Here: what each buffer the call reads holds when the call is entered, and so what its output array
  holds at its exit.
-/
import proofs.«430747_j26834955666046_2_alg».proof.Proof.Gen.KernelIdeal.Frame
import proofs.«430747_j26834955666046_2_alg».proof.Proof.KV
import proofs.«430747_j26834955666046_2_alg».proof.Proof.Keep
import Idealize.ShloMosaic.Lib.StableHlo.Run

noncomputable section

namespace Cert.KernelIdeal.KStep7

open Idealize.ShloMosaic Idealize.ShloMosaic.TcCoe Idealize.ShloMosaic.ValueIdx Idealize.ShloMosaic.StableHlo Cert.KernelIdeal Cert.KernelIdeal.Facts₀ Cert.KernelIdeal.Facts

variable (m : (ℓ : Loc nD τ sig) → Buf (Elt Ideal) ℓ) (ρ : Dev nD → PrngReg) (c : Dev nD)

/-! The program's argument arrays as device `c` holds them at launch. -/
set_option quotPrecheck false in
local notation "𝐚0" => m ((c : Thread nD τ).loc main_arg0)
set_option quotPrecheck false in
local notation "𝐚1" => m ((c : Thread nD τ).loc main_arg1)
set_option quotPrecheck false in
local notation "𝐚3" => m ((c : Thread nD τ).loc main_arg3)
set_option quotPrecheck false in
local notation "𝐚4" => m ((c : Thread nD τ).loc main_arg4)
set_option quotPrecheck false in
local notation "𝐚5" => m ((c : Thread nD τ).loc main_arg5)
set_option quotPrecheck false in
local notation "𝐚6" => m ((c : Thread nD τ).loc main_arg6)
set_option quotPrecheck false in
local notation "𝐚7" => m ((c : Thread nD τ).loc main_arg7)

/-! ## What the host stretch leaves in the buffers the call reads -/

/-- The aggregate: the rows of the previous call's table gathered at the sources and added up at the targets. The edge
    lists are as they were made before the first call (no call and no later stretch writes them). -/
theorem agg (h3 : Gen.W3 m ρ c (Proc.devRef .tc main_v3) = KV.src 𝐚1) (h6 : Gen.W3 m ρ c (Proc.devRef .tc main_v6) = KV.dst 𝐚1) :
    Gen.W17 m ρ c (Proc.devRef .tc main_v140) = KV.agg (Gen.W16 m ρ c (Proc.devRef .tc main_v129)) 𝐚1 := by
  have h3' : Gen.W16 m ρ c (Proc.devRef .tc main_v3) = KV.src 𝐚1 := (Keep.from3_16 m ρ c main_v3 (by decide)).trans h3
  have h6' : Gen.W16 m ρ c (Proc.devRef .tc main_v6) = KV.dst 𝐚1 := (Keep.from3_16 m ρ c main_v6 (by decide)).trans h6
  dsimp only [Gen.W17, Gen.hostOps7]
  after_results_simp
  rw [h3', h6']
  rfl

/-- The normalisation column is untouched since it was made. -/
theorem dcol (h17 : Gen.W3 m ρ c (Proc.devRef .tc main_v17) = KV.disCol 𝐚1) :
    Gen.W17 m ρ c (Proc.devRef .tc main_v17) = KV.disCol 𝐚1 :=
  (Keep.from3_17 m ρ c main_v17 (by decide)).trans h17

/-- The layer's bias as a one-row matrix: the vector sliced out before the second call, reshaped here. -/
theorem brow (hb : Gen.W5 m ρ c (Proc.devRef .tc main_v42)
      = shapeCast S64 (extractStridedSlice S1x64 ![5, 0] 𝐚6 slices_S8x64_S1x64_5_0) shapeCasts_S1x64_S64) :
    Gen.W17 m ρ c (Proc.devRef .tc main_v141) = KV.bsl 5 𝐚6 := by
  have hb' : Gen.W16 m ρ c (Proc.devRef .tc main_v42)
      = shapeCast S64 (extractStridedSlice S1x64 ![5, 0] 𝐚6 slices_S8x64_S1x64_5_0) shapeCasts_S1x64_S64 :=
    (Keep.from5_16 m ρ c main_v42 (by decide)).trans hb
  dsimp only [Gen.W17, Gen.hostOps7]
  after_results_simp
  rw [hb']
  rfl

/-- The layer's weight matrix is untouched since it was sliced out before the second call. -/
theorem wmat (hw : Gen.W5 m ρ c (Proc.devRef .tc main_v60) = KV.wsl 6 𝐚5) :
    Gen.W17 m ρ c (Proc.devRef .tc main_v60) = KV.wsl 6 𝐚5 :=
  (Keep.from5_17 m ρ c main_v60 (by decide)).trans hw

/-! ## The call -/

/-- Given what the call computes from the buffers it reads (`hreg`), its output array holds T₇ at its exit. -/
theorem step_of
    (hreg : (Gen.dat7 (F := Ideal) (Gen.V17 m ρ) c).arrAt 4 cfg7.N
      = KV.Gf (Gen.V17 m ρ c main_v140) (Gen.V17 m ρ c main_v17) (Gen.V17 m ρ c main_v141) (Gen.V17 m ρ c main_v60))
    (hprev : Gen.W16 m ρ c (Proc.devRef .tc main_v129) = KV.T 𝐚0 𝐚1 𝐚3 𝐚4 𝐚5 𝐚6 𝐚7 6)
    (h3 : Gen.W3 m ρ c (Proc.devRef .tc main_v3) = KV.src 𝐚1) (h6 : Gen.W3 m ρ c (Proc.devRef .tc main_v6) = KV.dst 𝐚1)
    (h17 : Gen.W3 m ρ c (Proc.devRef .tc main_v17) = KV.disCol 𝐚1)
    (hb : Gen.W5 m ρ c (Proc.devRef .tc main_v42)
      = shapeCast S64 (extractStridedSlice S1x64 ![5, 0] 𝐚6 slices_S8x64_S1x64_5_0) shapeCasts_S1x64_S64)
    (hw : Gen.W5 m ρ c (Proc.devRef .tc main_v60) = KV.wsl 6 𝐚5) :
    Gen.W18 m ρ c (Proc.devRef .tc main_v142) = KV.T 𝐚0 𝐚1 𝐚3 𝐚4 𝐚5 𝐚6 𝐚7 7 := by
  refine (Gen.W18_arr m ρ c 4).trans ?_
  rw [hreg]
  show KV.Gf (Gen.W17 m ρ c (Proc.devRef .tc main_v140)) (Gen.W17 m ρ c (Proc.devRef .tc main_v17))
    (Gen.W17 m ρ c (Proc.devRef .tc main_v141)) (Gen.W17 m ρ c (Proc.devRef .tc main_v60)) = _
  rw [agg m ρ c h3 h6, dcol m ρ c h17, brow m ρ c hb, wmat m ρ c hw, hprev, KV.T_7]

end Cert.KernelIdeal.KStep7

end
-- ==== Proof.KStep8.lean ====
/-
  The ninth call of the chain (hidden layer 7 → 8). Between the eighth call and the ninth the host forms, from the table
  T₇ the previous call left, the aggregate A₇(i,·) = the sum over the edges e landing on node i of T₇(src e, ·): the
  sources (a negative one wrapped once) select rows of T₇, the rows are widened, and they are added up at the edges'
  targets onto a zero array. The same stretch turns hidden bias 6, sliced out as a vector before the second call,
  into a one-row matrix. The ninth call then computes, from the aggregate, the normalisation column, that bias row
  and hidden weight 7 (sliced out before the second call), the table T₈ = relu(A₇ · d + b₇) · W₈ with row i
  scaled by d(i). Here: what each buffer the call reads holds when the call is entered, and so what its output array
  holds at its exit.
-/
import proofs.«430747_j26834955666046_2_alg».proof.Proof.Gen.KernelIdeal.Frame
import proofs.«430747_j26834955666046_2_alg».proof.Proof.KV
import proofs.«430747_j26834955666046_2_alg».proof.Proof.Keep
import Idealize.ShloMosaic.Lib.StableHlo.Run

noncomputable section

namespace Cert.KernelIdeal.KStep8

open Idealize.ShloMosaic Idealize.ShloMosaic.TcCoe Idealize.ShloMosaic.ValueIdx Idealize.ShloMosaic.StableHlo Cert.KernelIdeal Cert.KernelIdeal.Facts₀ Cert.KernelIdeal.Facts

variable (m : (ℓ : Loc nD τ sig) → Buf (Elt Ideal) ℓ) (ρ : Dev nD → PrngReg) (c : Dev nD)

/-! The program's argument arrays as device `c` holds them at launch. -/
set_option quotPrecheck false in
local notation "𝐚0" => m ((c : Thread nD τ).loc main_arg0)
set_option quotPrecheck false in
local notation "𝐚1" => m ((c : Thread nD τ).loc main_arg1)
set_option quotPrecheck false in
local notation "𝐚3" => m ((c : Thread nD τ).loc main_arg3)
set_option quotPrecheck false in
local notation "𝐚4" => m ((c : Thread nD τ).loc main_arg4)
set_option quotPrecheck false in
local notation "𝐚5" => m ((c : Thread nD τ).loc main_arg5)
set_option quotPrecheck false in
local notation "𝐚6" => m ((c : Thread nD τ).loc main_arg6)
set_option quotPrecheck false in
local notation "𝐚7" => m ((c : Thread nD τ).loc main_arg7)

/-! ## What the host stretch leaves in the buffers the call reads -/

/-- The aggregate: the rows of the previous call's table gathered at the sources and added up at the targets. The edge
    lists are as they were made before the first call (no call and no later stretch writes them). -/
theorem agg (h3 : Gen.W3 m ρ c (Proc.devRef .tc main_v3) = KV.src 𝐚1) (h6 : Gen.W3 m ρ c (Proc.devRef .tc main_v6) = KV.dst 𝐚1) :
    Gen.W19 m ρ c (Proc.devRef .tc main_v153) = KV.agg (Gen.W18 m ρ c (Proc.devRef .tc main_v142)) 𝐚1 := by
  have h3' : Gen.W18 m ρ c (Proc.devRef .tc main_v3) = KV.src 𝐚1 := (Keep.from3_18 m ρ c main_v3 (by decide)).trans h3
  have h6' : Gen.W18 m ρ c (Proc.devRef .tc main_v6) = KV.dst 𝐚1 := (Keep.from3_18 m ρ c main_v6 (by decide)).trans h6
  dsimp only [Gen.W19, Gen.hostOps8]
  after_results_simp
  rw [h3', h6']
  rfl

/-- The normalisation column is untouched since it was made. -/
theorem dcol (h17 : Gen.W3 m ρ c (Proc.devRef .tc main_v17) = KV.disCol 𝐚1) :
    Gen.W19 m ρ c (Proc.devRef .tc main_v17) = KV.disCol 𝐚1 :=
  (Keep.from3_19 m ρ c main_v17 (by decide)).trans h17

/-- The layer's bias as a one-row matrix: the vector sliced out before the second call, reshaped here. -/
theorem brow (hb : Gen.W5 m ρ c (Proc.devRef .tc main_v44)
      = shapeCast S64 (extractStridedSlice S1x64 ![6, 0] 𝐚6 slices_S8x64_S1x64_6_0) shapeCasts_S1x64_S64) :
    Gen.W19 m ρ c (Proc.devRef .tc main_v154) = KV.bsl 6 𝐚6 := by
  have hb' : Gen.W18 m ρ c (Proc.devRef .tc main_v44)
      = shapeCast S64 (extractStridedSlice S1x64 ![6, 0] 𝐚6 slices_S8x64_S1x64_6_0) shapeCasts_S1x64_S64 :=
    (Keep.from5_18 m ρ c main_v44 (by decide)).trans hb
  dsimp only [Gen.W19, Gen.hostOps8]
  after_results_simp
  rw [hb']
  rfl

/-- The layer's weight matrix is untouched since it was sliced out before the second call. -/
theorem wmat (hw : Gen.W5 m ρ c (Proc.devRef .tc main_v62) = KV.wsl 7 𝐚5) :
    Gen.W19 m ρ c (Proc.devRef .tc main_v62) = KV.wsl 7 𝐚5 :=
  (Keep.from5_19 m ρ c main_v62 (by decide)).trans hw

/-! ## The call -/

/-- Given what the call computes from the buffers it reads (`hreg`), its output array holds T₈ at its exit. -/
theorem step_of
    (hreg : (Gen.dat8 (F := Ideal) (Gen.V19 m ρ) c).arrAt 4 cfg8.N
      = KV.Gf (Gen.V19 m ρ c main_v153) (Gen.V19 m ρ c main_v17) (Gen.V19 m ρ c main_v154) (Gen.V19 m ρ c main_v62))
    (hprev : Gen.W18 m ρ c (Proc.devRef .tc main_v142) = KV.T 𝐚0 𝐚1 𝐚3 𝐚4 𝐚5 𝐚6 𝐚7 7)
    (h3 : Gen.W3 m ρ c (Proc.devRef .tc main_v3) = KV.src 𝐚1) (h6 : Gen.W3 m ρ c (Proc.devRef .tc main_v6) = KV.dst 𝐚1)
    (h17 : Gen.W3 m ρ c (Proc.devRef .tc main_v17) = KV.disCol 𝐚1)
    (hb : Gen.W5 m ρ c (Proc.devRef .tc main_v44)
      = shapeCast S64 (extractStridedSlice S1x64 ![6, 0] 𝐚6 slices_S8x64_S1x64_6_0) shapeCasts_S1x64_S64)
    (hw : Gen.W5 m ρ c (Proc.devRef .tc main_v62) = KV.wsl 7 𝐚5) :
    Gen.W20 m ρ c (Proc.devRef .tc main_v155) = KV.T 𝐚0 𝐚1 𝐚3 𝐚4 𝐚5 𝐚6 𝐚7 8 := by
  refine (Gen.W20_arr m ρ c 4).trans ?_
  rw [hreg]
  show KV.Gf (Gen.W19 m ρ c (Proc.devRef .tc main_v153)) (Gen.W19 m ρ c (Proc.devRef .tc main_v17))
    (Gen.W19 m ρ c (Proc.devRef .tc main_v154)) (Gen.W19 m ρ c (Proc.devRef .tc main_v62)) = _
  rw [agg m ρ c h3 h6, dcol m ρ c h17, brow m ρ c hb, wmat m ρ c hw, hprev, KV.T_8]

end Cert.KernelIdeal.KStep8

end
-- ==== Proof.KStep9.lean ====
/-
  The last fused call and the host stretch before it. The stretch gathers the rows of the table left by the eighth fused
  call at the edge sources (a negative source wrapped once), widens them, and adds them up at the edge targets: the
  aggregate A₈. It also turns the last hidden bias vector into a one-row matrix. The call then forms
  relu(A₈ · dis + b₈) · w_node, index by index. Every other buffer the call reads (the normalisation column, w_node, the
  edge lists, the bias vector) has not changed since it was written, so the call's four windows read A₈, the
  normalisation column, the eighth hidden bias row and w_node: the node transform's output.
-/
import proofs.«430747_j26834955666046_2_alg».proof.Proof.Gen.KernelIdeal.Frame
import proofs.«430747_j26834955666046_2_alg».proof.Proof.KV
import proofs.«430747_j26834955666046_2_alg».proof.Proof.Keep
import Idealize.ShloMosaic.Lib.StableHlo.Run

noncomputable section

namespace Cert.KernelIdeal.KStep9

open Cert.KernelIdeal Idealize.ShloMosaic Idealize.ShloMosaic.TcCoe
open Cert.KernelIdeal.Facts₀ Cert.KernelIdeal.Facts
open Idealize.ShloMosaic.StableHlo (after after_cons after_nil)

variable (m : (ℓ : Loc nD τ sig) → Buf (Elt Ideal) ℓ) (ρ : Dev nD → PrngReg) (c : Dev nD)

/-! ## What the stretch before the call leaves in the buffers the call reads -/

/-- The stretch does not write the normalisation column. -/
theorem r17 : Gen.W21 m ρ c (Proc.devRef .tc main_v17) = Gen.W20 m ρ c (Proc.devRef .tc main_v17) := by
  dsimp only [Gen.W21, Gen.hostOps9]
  after_results

/-- The stretch does not write w_node. -/
theorem r7 : Gen.W21 m ρ c (Proc.devRef .tc main_arg7) = Gen.W20 m ρ c (Proc.devRef .tc main_arg7) := by
  dsimp only [Gen.W21, Gen.hostOps9]
  after_results

/-- The bias row is the bias vector reshaped. -/
theorem r167 : Gen.W21 m ρ c (Proc.devRef .tc main_v167) = shapeCast S1x64 (Gen.W20 m ρ c (Proc.devRef .tc main_v46)) shapeCasts_S64_S1x64 := by
  dsimp only [Gen.W21, Gen.hostOps9]
  after_results
  rfl

/-- The aggregate: with the edge sources and targets in their buffers, the stretch's gather, widening and scatter-add
    are the aggregation of the table the previous call left. -/
theorem r166 (x1 : KV.C S2x800000 .i32) (h3 : Gen.W20 m ρ c (Proc.devRef .tc main_v3) = KV.src x1)
    (h6 : Gen.W20 m ρ c (Proc.devRef .tc main_v6) = KV.dst x1) :
    Gen.W21 m ρ c (Proc.devRef .tc main_v166) = KV.agg (Gen.W20 m ρ c (Proc.devRef .tc main_v155)) x1 := by
  dsimp only [Gen.W21, Gen.hostOps9]
  after_results_simp
  rw [h3, h6]
  rfl

/-! ## The step -/

/-- The call's output array is its fifth window's. -/
example : Pipeline.arrRef spec9 4 = main_v168 := rfl

/-- From the table after the eighth fused call to the node transform's output, given what the call computes from the
    buffers it reads (`hreg`). -/
theorem step_of
    (hreg : (Gen.dat9 (F := Ideal) (Gen.V21 m ρ) c).arrAt 4 cfg9.N
      = KV.Gp (Gen.V21 m ρ c main_v166) (Gen.V21 m ρ c main_v17) (Gen.V21 m ρ c main_v167) (Gen.V21 m ρ c main_arg7))
    (hprev : Gen.W20 m ρ c (Proc.devRef .tc main_v155) =
      KV.T (m ((c : Thread nD τ).loc main_arg0)) (m ((c : Thread nD τ).loc main_arg1)) (m ((c : Thread nD τ).loc main_arg3))
        (m ((c : Thread nD τ).loc main_arg4)) (m ((c : Thread nD τ).loc main_arg5)) (m ((c : Thread nD τ).loc main_arg6))
        (m ((c : Thread nD τ).loc main_arg7)) 8)
    (h3 : Gen.W3 m ρ c (Proc.devRef .tc main_v3) = KV.src (m ((c : Thread nD τ).loc main_arg1)))
    (h6 : Gen.W3 m ρ c (Proc.devRef .tc main_v6) = KV.dst (m ((c : Thread nD τ).loc main_arg1)))
    (h17 : Gen.W3 m ρ c (Proc.devRef .tc main_v17) = KV.disCol (m ((c : Thread nD τ).loc main_arg1)))
    (hb : Gen.W5 m ρ c (Proc.devRef .tc main_v46) =
      shapeCast S64 (extractStridedSlice S1x64 ![7, 0] (m ((c : Thread nD τ).loc main_arg6)) slices_S8x64_S1x64_7_0) shapeCasts_S1x64_S64)
    (h7 : Gen.W3 m ρ c (Proc.devRef .tc main_arg7) = m ((c : Thread nD τ).loc main_arg7)) :
    Gen.W22 m ρ c (Proc.devRef .tc main_v168) =
      KV.HNT (m ((c : Thread nD τ).loc main_arg0)) (m ((c : Thread nD τ).loc main_arg1)) (m ((c : Thread nD τ).loc main_arg3))
        (m ((c : Thread nD τ).loc main_arg4)) (m ((c : Thread nD τ).loc main_arg5)) (m ((c : Thread nD τ).loc main_arg6))
        (m ((c : Thread nD τ).loc main_arg7)) := by
  -- the buffers the stretch reads, unchanged since they were written
  have k3 := (Keep.from3_20 m ρ c main_v3 (by decide)).trans h3
  have k6 := (Keep.from3_20 m ρ c main_v6 (by decide)).trans h6
  have k17 := (Keep.from3_20 m ρ c main_v17 (by decide)).trans h17
  have k7 := (Keep.from3_20 m ρ c main_arg7 (by decide)).trans h7
  have k46 := (Keep.from5_20 m ρ c main_v46 (by decide)).trans hb
  -- the output array holds the call's whole-array function of its windows' arrays at entry
  refine ((Gen.W22_arr m ρ c 4).trans hreg).trans ?_
  show KV.Gp (Gen.W21 m ρ c (Proc.devRef .tc main_v166)) (Gen.W21 m ρ c (Proc.devRef .tc main_v17))
      (Gen.W21 m ρ c (Proc.devRef .tc main_v167)) (Gen.W21 m ρ c (Proc.devRef .tc main_arg7)) = _
  rw [r166 m ρ c _ k3 k6, r17, r167, r7, k17, k7, k46, hprev, KV.HNT_eq]
  rfl

end Cert.KernelIdeal.KStep9

end
-- ==== Proof.KStep10.lean ====
/-
  The readout call and the host stretch before it. The stretch sums the node transform's rows per graph id (a
  scatter-add onto 256 rows), multiplies the pooled table by w_grph, and cuts the readout weight column into its two
  halves. The call then forms, per node, tanh(relu(h) · wa₁ + relu(onehot(id) · PT) · wa₂). The node transform's output
  is what the previous call left; the graph-id column, the ids, w_grph and the readout weights have not changed since
  the launch or since they were written.
-/
import proofs.«430747_j26834955666046_2_alg».proof.Proof.Gen.KernelIdeal.Frame
import proofs.«430747_j26834955666046_2_alg».proof.Proof.KV
import proofs.«430747_j26834955666046_2_alg».proof.Proof.Keep
import Idealize.ShloMosaic.Lib.StableHlo.Run

noncomputable section

namespace Cert.KernelIdeal.KStep10

open Cert.KernelIdeal Idealize.ShloMosaic Idealize.ShloMosaic.TcCoe
open Cert.KernelIdeal.Facts₀ Cert.KernelIdeal.Facts
open Idealize.ShloMosaic.StableHlo (after after_cons after_nil)

variable (m : (ℓ : Loc nD τ sig) → Buf (Elt Ideal) ℓ) (ρ : Dev nD → PrngReg) (c : Dev nD)

/-! ## What the stretch before the call leaves in the buffers the call reads -/

/-- The stretch does not write the node transform's output. -/
theorem r168 : Gen.W23 m ρ c (Proc.devRef .tc main_v168) = Gen.W22 m ρ c (Proc.devRef .tc main_v168) := by
  dsimp only [Gen.W23, Gen.hostOps10]
  after_results

/-- The stretch does not write the graph-id column. -/
theorem r18 : Gen.W23 m ρ c (Proc.devRef .tc main_v18) = Gen.W22 m ρ c (Proc.devRef .tc main_v18) := by
  dsimp only [Gen.W23, Gen.hostOps10]
  after_results

/-- The pooled table times w_grph. -/
theorem r172 : Gen.W23 m ρ c (Proc.devRef .tc main_v172) =
    KV.pt (Gen.W22 m ρ c (Proc.devRef .tc main_v168)) (Gen.W22 m ρ c (Proc.devRef .tc main_arg2)) (Gen.W22 m ρ c (Proc.devRef .tc main_arg8)) := by
  dsimp only [Gen.W23, Gen.hostOps10]
  after_results
  rfl

/-- The first half of the readout weight column. -/
theorem r173 : Gen.W23 m ρ c (Proc.devRef .tc main_v173) = KV.wa1 (Gen.W22 m ρ c (Proc.devRef .tc main_arg9)) := by
  dsimp only [Gen.W23, Gen.hostOps10]
  after_results
  rfl

/-- The second half of the readout weight column. -/
theorem r174 : Gen.W23 m ρ c (Proc.devRef .tc main_v174) = KV.wa2 (Gen.W22 m ρ c (Proc.devRef .tc main_arg9)) := by
  dsimp only [Gen.W23, Gen.hostOps10]
  after_results
  rfl

/-! ## The step -/

/-- The call's output array is its sixth window's. -/
example : Pipeline.arrRef spec10 5 = main_v175 := rfl

/-- From the node transform's output to the program's result, given what the call computes from the buffers it reads
    (`hreg`). -/
theorem step_of
    (hreg : (Gen.dat10 (F := Ideal) (Gen.V23 m ρ) c).arrAt 5 cfg10.N
      = KV.G10 (Gen.V23 m ρ c main_v168) (Gen.V23 m ρ c main_v18) (Gen.V23 m ρ c main_v172) (Gen.V23 m ρ c main_v173)
          (Gen.V23 m ρ c main_v174))
    (hprev : Gen.W22 m ρ c (Proc.devRef .tc main_v168) =
      KV.HNT (m ((c : Thread nD τ).loc main_arg0)) (m ((c : Thread nD τ).loc main_arg1)) (m ((c : Thread nD τ).loc main_arg3))
        (m ((c : Thread nD τ).loc main_arg4)) (m ((c : Thread nD τ).loc main_arg5)) (m ((c : Thread nD τ).loc main_arg6))
        (m ((c : Thread nD τ).loc main_arg7)))
    (h18 : Gen.W3 m ρ c (Proc.devRef .tc main_v18) = KV.nbCol (m ((c : Thread nD τ).loc main_arg2)))
    (h2 : Gen.W3 m ρ c (Proc.devRef .tc main_arg2) = m ((c : Thread nD τ).loc main_arg2))
    (h8 : Gen.W3 m ρ c (Proc.devRef .tc main_arg8) = m ((c : Thread nD τ).loc main_arg8))
    (h9 : Gen.W3 m ρ c (Proc.devRef .tc main_arg9) = m ((c : Thread nD τ).loc main_arg9)) :
    Gen.W24 m ρ c (Proc.devRef .tc main_v175) =
      KV.OUT (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) := by
  -- the buffers the stretch reads, unchanged since they were written
  have k18 := (Keep.from3_22 m ρ c main_v18 (by decide)).trans h18
  have k2 := (Keep.from3_22 m ρ c main_arg2 (by decide)).trans h2
  have k8 := (Keep.from3_22 m ρ c main_arg8 (by decide)).trans h8
  have k9 := (Keep.from3_22 m ρ c main_arg9 (by decide)).trans h9
  -- the output array holds the call's whole-array function of its windows' arrays at entry
  refine ((Gen.W24_arr m ρ c 5).trans hreg).trans ?_
  show KV.G10 (Gen.W23 m ρ c (Proc.devRef .tc main_v168)) (Gen.W23 m ρ c (Proc.devRef .tc main_v18))
      (Gen.W23 m ρ c (Proc.devRef .tc main_v172)) (Gen.W23 m ρ c (Proc.devRef .tc main_v173))
      (Gen.W23 m ρ c (Proc.devRef .tc main_v174)) = _
  rw [r168, r18, r172, r173, r174, k18, k2, k8, k9, hprev, KV.OUT_eq]

end Cert.KernelIdeal.KStep10

end
-- ==== Proof.KVal.lean ====
/-
  The kernel program's result as one function of its ten argument arrays: the first call's table, then the eight fused
  calls one after the other (each reads the aggregate of the table before it), then the node transform, then the
  readout. Each link is one stretch of host operations followed by one call, the call's output array being the call's
  whole-array function of the arrays its windows read at entry; the links are chained from the launch memory to the
  last segment boundary.
-/
import proofs.«430747_j26834955666046_2_alg».proof.Proof.KPre
import proofs.«430747_j26834955666046_2_alg».proof.Proof.Reg1
import proofs.«430747_j26834955666046_2_alg».proof.Proof.Reg2
import proofs.«430747_j26834955666046_2_alg».proof.Proof.Reg3
import proofs.«430747_j26834955666046_2_alg».proof.Proof.Reg4
import proofs.«430747_j26834955666046_2_alg».proof.Proof.Reg5
import proofs.«430747_j26834955666046_2_alg».proof.Proof.Reg6
import proofs.«430747_j26834955666046_2_alg».proof.Proof.Reg7
import proofs.«430747_j26834955666046_2_alg».proof.Proof.Reg8
import proofs.«430747_j26834955666046_2_alg».proof.Proof.Reg9
import proofs.«430747_j26834955666046_2_alg».proof.Proof.Reg10
import proofs.«430747_j26834955666046_2_alg».proof.Proof.KStep1
import proofs.«430747_j26834955666046_2_alg».proof.Proof.KStep2
import proofs.«430747_j26834955666046_2_alg».proof.Proof.KStep3
import proofs.«430747_j26834955666046_2_alg».proof.Proof.KStep4
import proofs.«430747_j26834955666046_2_alg».proof.Proof.KStep5
import proofs.«430747_j26834955666046_2_alg».proof.Proof.KStep6
import proofs.«430747_j26834955666046_2_alg».proof.Proof.KStep7
import proofs.«430747_j26834955666046_2_alg».proof.Proof.KStep8
import proofs.«430747_j26834955666046_2_alg».proof.Proof.KStep9
import proofs.«430747_j26834955666046_2_alg».proof.Proof.KStep10

noncomputable section

namespace Cert.KernelIdeal.KVal

open Cert.KernelIdeal Idealize.ShloMosaic Idealize.ShloMosaic.TcCoe
open Cert.KernelIdeal.Facts₀ Cert.KernelIdeal.Facts

variable (m : (ℓ : Loc nD τ sig) → Buf (Elt Ideal) ℓ) (ρ : Dev nD → PrngReg) (c : Dev nD)

/-- The result buffer at the last segment boundary is the program's result function of the launch contents of the
    ten argument arrays. -/
theorem W24_out : Gen.W24 (F := Ideal) m ρ c (Proc.devRef .tc main_v175) =
    KV.OUT (m ((c : Thread nD τ).loc main_arg0)) (m ((c : Thread nD τ).loc main_arg1)) (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) (m ((c : Thread nD τ).loc main_arg8)) (m ((c : Thread nD τ).loc main_arg9)) := by
  -- the edge lists, the normalisation column and the graph-id column, as the first stretches leave them
  have h3 := KPre.v3 m ρ c
  have h6 := KPre.v6 m ρ c
  have h17 := KPre.v17 m ρ c
  have h18 := KPre.v18 m ρ c
  -- the weight stack and the bias stack, as launched
  have g5 := KPre.arg5 m ρ c
  have g6 := KPre.arg6 m ρ c
  -- the table after each call
  have t0 := KPre.T0 m ρ c
  have t1 := KStep1.step_of m ρ c (Reg1.final (Gen.V5 m ρ) c) t0 h3 h6 h17 (KPre.arg4 m ρ c) g5
  have t2 := KStep2.step_of m ρ c (Reg2.final (Gen.V7 m ρ) c) t1 h3 h6 h17 (KStep1.bvec0 m ρ c g6) (KStep1.wmat1 m ρ c g5)
  have t3 := KStep3.step_of m ρ c (Reg3.final (Gen.V9 m ρ) c) t2 h3 h6 h17 (KStep1.bvec1 m ρ c g6) (KStep1.wmat2 m ρ c g5)
  have t4 := KStep4.step_of m ρ c (Reg4.final (Gen.V11 m ρ) c) t3 h3 h6 h17 (KStep1.bvec2 m ρ c g6) (KStep1.wmat3 m ρ c g5)
  have t5 := KStep5.step_of m ρ c (Reg5.final (Gen.V13 m ρ) c) t4 h3 h6 h17 (KStep1.bvec3 m ρ c g6) (KStep1.wmat4 m ρ c g5)
  have t6 := KStep6.step_of m ρ c (Reg6.final (Gen.V15 m ρ) c) t5 h3 h6 h17 (KStep1.bvec4 m ρ c g6) (KStep1.wmat5 m ρ c g5)
  have t7 := KStep7.step_of m ρ c (Reg7.final (Gen.V17 m ρ) c) t6 h3 h6 h17 (KStep1.bvec5 m ρ c g6) (KStep1.wmat6 m ρ c g5)
  have t8 := KStep8.step_of m ρ c (Reg8.final (Gen.V19 m ρ) c) t7 h3 h6 h17 (KStep1.bvec6 m ρ c g6) (KStep1.wmat7 m ρ c g5)
  -- the node transform, then the readout
  have t9 := KStep9.step_of m ρ c (Reg9.final (Gen.V21 m ρ) c) t8 h3 h6 h17 (KStep1.bvec7 m ρ c g6) (KPre.arg7 m ρ c)
  exact KStep10.step_of m ρ c (Reg10.final (Gen.V23 m ρ) c) t9 h18 (KPre.arg2 m ρ c) (KPre.arg8 m ρ c) (KPre.arg9 m ρ c)

end Cert.KernelIdeal.KVal

end
-- ==== Proof.RefRunHLive.lean ====
import proofs.«430747_j26834955666046_2_alg».proof.Proof.RefStages
import Idealize.ShloMosaic.Lib.StableHlo.Run

/-! # The reference program's run, chunk by chunk: what is known of the buffers at each cut

@main's 303 operations are cut into 14 chunks. At a cut, a buffer written before it and read after it (or the result)
holds its stage function of the arguments x0 … x9, and each argument buffer holds its argument. LiveK V x0 … x9 says
so of a valuation V at the cut that ends chunk K (Live0: at the start, the arguments only). -/

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

/-- At operation 0 (the start). -/
structure Live0 (V : Valuation τ sig (Elt F)) (x0 : (⟨S50000x128, .f32⟩ : BufTy).Contents (Elt F)) (x1 : (⟨S2x800000, .i32⟩ : BufTy).Contents (Elt F)) (x2 : (⟨S50000, .i32⟩ : BufTy).Contents (Elt F)) (x3 : (⟨S128x64, .f32⟩ : BufTy).Contents (Elt F)) (x4 : (⟨S64, .f32⟩ : BufTy).Contents (Elt F)) (x5 : (⟨S8x64x64, .f32⟩ : BufTy).Contents (Elt F)) (x6 : (⟨S8x64, .f32⟩ : BufTy).Contents (Elt F)) (x7 : (⟨S64x64, .f32⟩ : BufTy).Contents (Elt F)) (x8 : (⟨S64x64, .f32⟩ : BufTy).Contents (Elt F)) (x9 : (⟨S128x1, .f32⟩ : BufTy).Contents (Elt F)) : Prop where
  h_main_arg0 : V (Proc.devRef .tc main_arg0) = x0
  h_main_arg1 : V (Proc.devRef .tc main_arg1) = x1
  h_main_arg2 : V (Proc.devRef .tc main_arg2) = x2
  h_main_arg3 : V (Proc.devRef .tc main_arg3) = x3
  h_main_arg4 : V (Proc.devRef .tc main_arg4) = x4
  h_main_arg5 : V (Proc.devRef .tc main_arg5) = x5
  h_main_arg6 : V (Proc.devRef .tc main_arg6) = x6
  h_main_arg7 : V (Proc.devRef .tc main_arg7) = x7
  h_main_arg8 : V (Proc.devRef .tc main_arg8) = x8
  h_main_arg9 : V (Proc.devRef .tc main_arg9) = x9

/-- At operation 3 (the end of chunk 1). -/
structure Live1 (V : Valuation τ sig (Elt F)) (x0 : (⟨S50000x128, .f32⟩ : BufTy).Contents (Elt F)) (x1 : (⟨S2x800000, .i32⟩ : BufTy).Contents (Elt F)) (x2 : (⟨S50000, .i32⟩ : BufTy).Contents (Elt F)) (x3 : (⟨S128x64, .f32⟩ : BufTy).Contents (Elt F)) (x4 : (⟨S64, .f32⟩ : BufTy).Contents (Elt F)) (x5 : (⟨S8x64x64, .f32⟩ : BufTy).Contents (Elt F)) (x6 : (⟨S8x64, .f32⟩ : BufTy).Contents (Elt F)) (x7 : (⟨S64x64, .f32⟩ : BufTy).Contents (Elt F)) (x8 : (⟨S64x64, .f32⟩ : BufTy).Contents (Elt F)) (x9 : (⟨S128x1, .f32⟩ : BufTy).Contents (Elt F)) : Prop where
  h_main_arg0 : V (Proc.devRef .tc main_arg0) = x0
  h_main_arg1 : V (Proc.devRef .tc main_arg1) = x1
  h_main_arg2 : V (Proc.devRef .tc main_arg2) = x2
  h_main_arg3 : V (Proc.devRef .tc main_arg3) = x3
  h_main_arg4 : V (Proc.devRef .tc main_arg4) = x4
  h_main_arg5 : V (Proc.devRef .tc main_arg5) = x5
  h_main_arg6 : V (Proc.devRef .tc main_arg6) = x6
  h_main_arg7 : V (Proc.devRef .tc main_arg7) = x7
  h_main_arg8 : V (Proc.devRef .tc main_arg8) = x8
  h_main_arg9 : V (Proc.devRef .tc main_arg9) = x9
  h_main_v0 : V (Proc.devRef .tc main_v0) = ReadP.val_main_v0 (F := F)
  h_main_v2 : V (Proc.devRef .tc main_v2) = ReadP.val_main_v2 (F := F) x1

/-- At operation 6 (the end of chunk 2). -/
structure Live2 (V : Valuation τ sig (Elt F)) (x0 : (⟨S50000x128, .f32⟩ : BufTy).Contents (Elt F)) (x1 : (⟨S2x800000, .i32⟩ : BufTy).Contents (Elt F)) (x2 : (⟨S50000, .i32⟩ : BufTy).Contents (Elt F)) (x3 : (⟨S128x64, .f32⟩ : BufTy).Contents (Elt F)) (x4 : (⟨S64, .f32⟩ : BufTy).Contents (Elt F)) (x5 : (⟨S8x64x64, .f32⟩ : BufTy).Contents (Elt F)) (x6 : (⟨S8x64, .f32⟩ : BufTy).Contents (Elt F)) (x7 : (⟨S64x64, .f32⟩ : BufTy).Contents (Elt F)) (x8 : (⟨S64x64, .f32⟩ : BufTy).Contents (Elt F)) (x9 : (⟨S128x1, .f32⟩ : BufTy).Contents (Elt F)) : Prop where
  h_main_arg0 : V (Proc.devRef .tc main_arg0) = x0
  h_main_arg1 : V (Proc.devRef .tc main_arg1) = x1
  h_main_arg2 : V (Proc.devRef .tc main_arg2) = x2
  h_main_arg3 : V (Proc.devRef .tc main_arg3) = x3
  h_main_arg4 : V (Proc.devRef .tc main_arg4) = x4
  h_main_arg5 : V (Proc.devRef .tc main_arg5) = x5
  h_main_arg6 : V (Proc.devRef .tc main_arg6) = x6
  h_main_arg7 : V (Proc.devRef .tc main_arg7) = x7
  h_main_arg8 : V (Proc.devRef .tc main_arg8) = x8
  h_main_arg9 : V (Proc.devRef .tc main_arg9) = x9
  h_main_v0 : V (Proc.devRef .tc main_v0) = ReadP.val_main_v0 (F := F)
  h_main_v3 : V (Proc.devRef .tc main_v3) = ReadP.val_main_v3 (F := F) x1
  h_main_v5 : V (Proc.devRef .tc main_v5) = ReadP.val_main_v5 (F := F) x1

/-- At operation 43 (the end of chunk 3). -/
structure Live3 (V : Valuation τ sig (Elt F)) (x0 : (⟨S50000x128, .f32⟩ : BufTy).Contents (Elt F)) (x1 : (⟨S2x800000, .i32⟩ : BufTy).Contents (Elt F)) (x2 : (⟨S50000, .i32⟩ : BufTy).Contents (Elt F)) (x3 : (⟨S128x64, .f32⟩ : BufTy).Contents (Elt F)) (x4 : (⟨S64, .f32⟩ : BufTy).Contents (Elt F)) (x5 : (⟨S8x64x64, .f32⟩ : BufTy).Contents (Elt F)) (x6 : (⟨S8x64, .f32⟩ : BufTy).Contents (Elt F)) (x7 : (⟨S64x64, .f32⟩ : BufTy).Contents (Elt F)) (x8 : (⟨S64x64, .f32⟩ : BufTy).Contents (Elt F)) (x9 : (⟨S128x1, .f32⟩ : BufTy).Contents (Elt F)) : Prop where
  h_main_arg0 : V (Proc.devRef .tc main_arg0) = x0
  h_main_arg1 : V (Proc.devRef .tc main_arg1) = x1
  h_main_arg2 : V (Proc.devRef .tc main_arg2) = x2
  h_main_arg3 : V (Proc.devRef .tc main_arg3) = x3
  h_main_arg4 : V (Proc.devRef .tc main_arg4) = x4
  h_main_arg5 : V (Proc.devRef .tc main_arg5) = x5
  h_main_arg6 : V (Proc.devRef .tc main_arg6) = x6
  h_main_arg7 : V (Proc.devRef .tc main_arg7) = x7
  h_main_arg8 : V (Proc.devRef .tc main_arg8) = x8
  h_main_arg9 : V (Proc.devRef .tc main_arg9) = x9
  h_main_v3 : V (Proc.devRef .tc main_v3) = ReadP.val_main_v3 (F := F) x1
  h_main_v6 : V (Proc.devRef .tc main_v6) = ReadP.val_main_v6 (F := F) x1
  h_main_v31 : V (Proc.devRef .tc main_v31) = ReadP.val_main_v31 (F := F) x1

/-- At operation 63 (the end of chunk 4). -/
structure Live4 (V : Valuation τ sig (Elt F)) (x0 : (⟨S50000x128, .f32⟩ : BufTy).Contents (Elt F)) (x1 : (⟨S2x800000, .i32⟩ : BufTy).Contents (Elt F)) (x2 : (⟨S50000, .i32⟩ : BufTy).Contents (Elt F)) (x3 : (⟨S128x64, .f32⟩ : BufTy).Contents (Elt F)) (x4 : (⟨S64, .f32⟩ : BufTy).Contents (Elt F)) (x5 : (⟨S8x64x64, .f32⟩ : BufTy).Contents (Elt F)) (x6 : (⟨S8x64, .f32⟩ : BufTy).Contents (Elt F)) (x7 : (⟨S64x64, .f32⟩ : BufTy).Contents (Elt F)) (x8 : (⟨S64x64, .f32⟩ : BufTy).Contents (Elt F)) (x9 : (⟨S128x1, .f32⟩ : BufTy).Contents (Elt F)) : Prop where
  h_main_arg0 : V (Proc.devRef .tc main_arg0) = x0
  h_main_arg1 : V (Proc.devRef .tc main_arg1) = x1
  h_main_arg2 : V (Proc.devRef .tc main_arg2) = x2
  h_main_arg3 : V (Proc.devRef .tc main_arg3) = x3
  h_main_arg4 : V (Proc.devRef .tc main_arg4) = x4
  h_main_arg5 : V (Proc.devRef .tc main_arg5) = x5
  h_main_arg6 : V (Proc.devRef .tc main_arg6) = x6
  h_main_arg7 : V (Proc.devRef .tc main_arg7) = x7
  h_main_arg8 : V (Proc.devRef .tc main_arg8) = x8
  h_main_arg9 : V (Proc.devRef .tc main_arg9) = x9
  h_main_v3 : V (Proc.devRef .tc main_v3) = ReadP.val_main_v3 (F := F) x1
  h_main_v6 : V (Proc.devRef .tc main_v6) = ReadP.val_main_v6 (F := F) x1
  h_main_v31 : V (Proc.devRef .tc main_v31) = ReadP.val_main_v31 (F := F) x1
  h_main_v48 : V (Proc.devRef .tc main_v48) = ReadP.val_main_v48 (F := F) x0 x1 x3 x4

/-- At operation 90 (the end of chunk 5). -/
structure Live5 (V : Valuation τ sig (Elt F)) (x0 : (⟨S50000x128, .f32⟩ : BufTy).Contents (Elt F)) (x1 : (⟨S2x800000, .i32⟩ : BufTy).Contents (Elt F)) (x2 : (⟨S50000, .i32⟩ : BufTy).Contents (Elt F)) (x3 : (⟨S128x64, .f32⟩ : BufTy).Contents (Elt F)) (x4 : (⟨S64, .f32⟩ : BufTy).Contents (Elt F)) (x5 : (⟨S8x64x64, .f32⟩ : BufTy).Contents (Elt F)) (x6 : (⟨S8x64, .f32⟩ : BufTy).Contents (Elt F)) (x7 : (⟨S64x64, .f32⟩ : BufTy).Contents (Elt F)) (x8 : (⟨S64x64, .f32⟩ : BufTy).Contents (Elt F)) (x9 : (⟨S128x1, .f32⟩ : BufTy).Contents (Elt F)) : Prop where
  h_main_arg0 : V (Proc.devRef .tc main_arg0) = x0
  h_main_arg1 : V (Proc.devRef .tc main_arg1) = x1
  h_main_arg2 : V (Proc.devRef .tc main_arg2) = x2
  h_main_arg3 : V (Proc.devRef .tc main_arg3) = x3
  h_main_arg4 : V (Proc.devRef .tc main_arg4) = x4
  h_main_arg5 : V (Proc.devRef .tc main_arg5) = x5
  h_main_arg6 : V (Proc.devRef .tc main_arg6) = x6
  h_main_arg7 : V (Proc.devRef .tc main_arg7) = x7
  h_main_arg8 : V (Proc.devRef .tc main_arg8) = x8
  h_main_arg9 : V (Proc.devRef .tc main_arg9) = x9
  h_main_v3 : V (Proc.devRef .tc main_v3) = ReadP.val_main_v3 (F := F) x1
  h_main_v6 : V (Proc.devRef .tc main_v6) = ReadP.val_main_v6 (F := F) x1
  h_main_v31 : V (Proc.devRef .tc main_v31) = ReadP.val_main_v31 (F := F) x1
  h_main_v70 : V (Proc.devRef .tc main_v70) = ReadP.val_main_v70 (F := F) x0 x1 x3 x4 x5 x6

/-- At operation 117 (the end of chunk 6). -/
structure Live6 (V : Valuation τ sig (Elt F)) (x0 : (⟨S50000x128, .f32⟩ : BufTy).Contents (Elt F)) (x1 : (⟨S2x800000, .i32⟩ : BufTy).Contents (Elt F)) (x2 : (⟨S50000, .i32⟩ : BufTy).Contents (Elt F)) (x3 : (⟨S128x64, .f32⟩ : BufTy).Contents (Elt F)) (x4 : (⟨S64, .f32⟩ : BufTy).Contents (Elt F)) (x5 : (⟨S8x64x64, .f32⟩ : BufTy).Contents (Elt F)) (x6 : (⟨S8x64, .f32⟩ : BufTy).Contents (Elt F)) (x7 : (⟨S64x64, .f32⟩ : BufTy).Contents (Elt F)) (x8 : (⟨S64x64, .f32⟩ : BufTy).Contents (Elt F)) (x9 : (⟨S128x1, .f32⟩ : BufTy).Contents (Elt F)) : Prop where
  h_main_arg0 : V (Proc.devRef .tc main_arg0) = x0
  h_main_arg1 : V (Proc.devRef .tc main_arg1) = x1
  h_main_arg2 : V (Proc.devRef .tc main_arg2) = x2
  h_main_arg3 : V (Proc.devRef .tc main_arg3) = x3
  h_main_arg4 : V (Proc.devRef .tc main_arg4) = x4
  h_main_arg5 : V (Proc.devRef .tc main_arg5) = x5
  h_main_arg6 : V (Proc.devRef .tc main_arg6) = x6
  h_main_arg7 : V (Proc.devRef .tc main_arg7) = x7
  h_main_arg8 : V (Proc.devRef .tc main_arg8) = x8
  h_main_arg9 : V (Proc.devRef .tc main_arg9) = x9
  h_main_v3 : V (Proc.devRef .tc main_v3) = ReadP.val_main_v3 (F := F) x1
  h_main_v6 : V (Proc.devRef .tc main_v6) = ReadP.val_main_v6 (F := F) x1
  h_main_v31 : V (Proc.devRef .tc main_v31) = ReadP.val_main_v31 (F := F) x1
  h_main_v92 : V (Proc.devRef .tc main_v92) = ReadP.val_main_v92 (F := F) x0 x1 x3 x4 x5 x6

/-- At operation 144 (the end of chunk 7). -/
structure Live7 (V : Valuation τ sig (Elt F)) (x0 : (⟨S50000x128, .f32⟩ : BufTy).Contents (Elt F)) (x1 : (⟨S2x800000, .i32⟩ : BufTy).Contents (Elt F)) (x2 : (⟨S50000, .i32⟩ : BufTy).Contents (Elt F)) (x3 : (⟨S128x64, .f32⟩ : BufTy).Contents (Elt F)) (x4 : (⟨S64, .f32⟩ : BufTy).Contents (Elt F)) (x5 : (⟨S8x64x64, .f32⟩ : BufTy).Contents (Elt F)) (x6 : (⟨S8x64, .f32⟩ : BufTy).Contents (Elt F)) (x7 : (⟨S64x64, .f32⟩ : BufTy).Contents (Elt F)) (x8 : (⟨S64x64, .f32⟩ : BufTy).Contents (Elt F)) (x9 : (⟨S128x1, .f32⟩ : BufTy).Contents (Elt F)) : Prop where
  h_main_arg0 : V (Proc.devRef .tc main_arg0) = x0
  h_main_arg1 : V (Proc.devRef .tc main_arg1) = x1
  h_main_arg2 : V (Proc.devRef .tc main_arg2) = x2
  h_main_arg3 : V (Proc.devRef .tc main_arg3) = x3
  h_main_arg4 : V (Proc.devRef .tc main_arg4) = x4
  h_main_arg5 : V (Proc.devRef .tc main_arg5) = x5
  h_main_arg6 : V (Proc.devRef .tc main_arg6) = x6
  h_main_arg7 : V (Proc.devRef .tc main_arg7) = x7
  h_main_arg8 : V (Proc.devRef .tc main_arg8) = x8
  h_main_arg9 : V (Proc.devRef .tc main_arg9) = x9
  h_main_v3 : V (Proc.devRef .tc main_v3) = ReadP.val_main_v3 (F := F) x1
  h_main_v6 : V (Proc.devRef .tc main_v6) = ReadP.val_main_v6 (F := F) x1
  h_main_v31 : V (Proc.devRef .tc main_v31) = ReadP.val_main_v31 (F := F) x1
  h_main_v114 : V (Proc.devRef .tc main_v114) = ReadP.val_main_v114 (F := F) x0 x1 x3 x4 x5 x6

/-- At operation 171 (the end of chunk 8). -/
structure Live8 (V : Valuation τ sig (Elt F)) (x0 : (⟨S50000x128, .f32⟩ : BufTy).Contents (Elt F)) (x1 : (⟨S2x800000, .i32⟩ : BufTy).Contents (Elt F)) (x2 : (⟨S50000, .i32⟩ : BufTy).Contents (Elt F)) (x3 : (⟨S128x64, .f32⟩ : BufTy).Contents (Elt F)) (x4 : (⟨S64, .f32⟩ : BufTy).Contents (Elt F)) (x5 : (⟨S8x64x64, .f32⟩ : BufTy).Contents (Elt F)) (x6 : (⟨S8x64, .f32⟩ : BufTy).Contents (Elt F)) (x7 : (⟨S64x64, .f32⟩ : BufTy).Contents (Elt F)) (x8 : (⟨S64x64, .f32⟩ : BufTy).Contents (Elt F)) (x9 : (⟨S128x1, .f32⟩ : BufTy).Contents (Elt F)) : Prop where
  h_main_arg0 : V (Proc.devRef .tc main_arg0) = x0
  h_main_arg1 : V (Proc.devRef .tc main_arg1) = x1
  h_main_arg2 : V (Proc.devRef .tc main_arg2) = x2
  h_main_arg3 : V (Proc.devRef .tc main_arg3) = x3
  h_main_arg4 : V (Proc.devRef .tc main_arg4) = x4
  h_main_arg5 : V (Proc.devRef .tc main_arg5) = x5
  h_main_arg6 : V (Proc.devRef .tc main_arg6) = x6
  h_main_arg7 : V (Proc.devRef .tc main_arg7) = x7
  h_main_arg8 : V (Proc.devRef .tc main_arg8) = x8
  h_main_arg9 : V (Proc.devRef .tc main_arg9) = x9
  h_main_v3 : V (Proc.devRef .tc main_v3) = ReadP.val_main_v3 (F := F) x1
  h_main_v6 : V (Proc.devRef .tc main_v6) = ReadP.val_main_v6 (F := F) x1
  h_main_v31 : V (Proc.devRef .tc main_v31) = ReadP.val_main_v31 (F := F) x1
  h_main_v136 : V (Proc.devRef .tc main_v136) = ReadP.val_main_v136 (F := F) x0 x1 x3 x4 x5 x6

/-- At operation 198 (the end of chunk 9). -/
structure Live9 (V : Valuation τ sig (Elt F)) (x0 : (⟨S50000x128, .f32⟩ : BufTy).Contents (Elt F)) (x1 : (⟨S2x800000, .i32⟩ : BufTy).Contents (Elt F)) (x2 : (⟨S50000, .i32⟩ : BufTy).Contents (Elt F)) (x3 : (⟨S128x64, .f32⟩ : BufTy).Contents (Elt F)) (x4 : (⟨S64, .f32⟩ : BufTy).Contents (Elt F)) (x5 : (⟨S8x64x64, .f32⟩ : BufTy).Contents (Elt F)) (x6 : (⟨S8x64, .f32⟩ : BufTy).Contents (Elt F)) (x7 : (⟨S64x64, .f32⟩ : BufTy).Contents (Elt F)) (x8 : (⟨S64x64, .f32⟩ : BufTy).Contents (Elt F)) (x9 : (⟨S128x1, .f32⟩ : BufTy).Contents (Elt F)) : Prop where
  h_main_arg0 : V (Proc.devRef .tc main_arg0) = x0
  h_main_arg1 : V (Proc.devRef .tc main_arg1) = x1
  h_main_arg2 : V (Proc.devRef .tc main_arg2) = x2
  h_main_arg3 : V (Proc.devRef .tc main_arg3) = x3
  h_main_arg4 : V (Proc.devRef .tc main_arg4) = x4
  h_main_arg5 : V (Proc.devRef .tc main_arg5) = x5
  h_main_arg6 : V (Proc.devRef .tc main_arg6) = x6
  h_main_arg7 : V (Proc.devRef .tc main_arg7) = x7
  h_main_arg8 : V (Proc.devRef .tc main_arg8) = x8
  h_main_arg9 : V (Proc.devRef .tc main_arg9) = x9
  h_main_v3 : V (Proc.devRef .tc main_v3) = ReadP.val_main_v3 (F := F) x1
  h_main_v6 : V (Proc.devRef .tc main_v6) = ReadP.val_main_v6 (F := F) x1
  h_main_v31 : V (Proc.devRef .tc main_v31) = ReadP.val_main_v31 (F := F) x1
  h_main_v158 : V (Proc.devRef .tc main_v158) = ReadP.val_main_v158 (F := F) x0 x1 x3 x4 x5 x6

/-- At operation 225 (the end of chunk 10). -/
structure Live10 (V : Valuation τ sig (Elt F)) (x0 : (⟨S50000x128, .f32⟩ : BufTy).Contents (Elt F)) (x1 : (⟨S2x800000, .i32⟩ : BufTy).Contents (Elt F)) (x2 : (⟨S50000, .i32⟩ : BufTy).Contents (Elt F)) (x3 : (⟨S128x64, .f32⟩ : BufTy).Contents (Elt F)) (x4 : (⟨S64, .f32⟩ : BufTy).Contents (Elt F)) (x5 : (⟨S8x64x64, .f32⟩ : BufTy).Contents (Elt F)) (x6 : (⟨S8x64, .f32⟩ : BufTy).Contents (Elt F)) (x7 : (⟨S64x64, .f32⟩ : BufTy).Contents (Elt F)) (x8 : (⟨S64x64, .f32⟩ : BufTy).Contents (Elt F)) (x9 : (⟨S128x1, .f32⟩ : BufTy).Contents (Elt F)) : Prop where
  h_main_arg0 : V (Proc.devRef .tc main_arg0) = x0
  h_main_arg1 : V (Proc.devRef .tc main_arg1) = x1
  h_main_arg2 : V (Proc.devRef .tc main_arg2) = x2
  h_main_arg3 : V (Proc.devRef .tc main_arg3) = x3
  h_main_arg4 : V (Proc.devRef .tc main_arg4) = x4
  h_main_arg5 : V (Proc.devRef .tc main_arg5) = x5
  h_main_arg6 : V (Proc.devRef .tc main_arg6) = x6
  h_main_arg7 : V (Proc.devRef .tc main_arg7) = x7
  h_main_arg8 : V (Proc.devRef .tc main_arg8) = x8
  h_main_arg9 : V (Proc.devRef .tc main_arg9) = x9
  h_main_v3 : V (Proc.devRef .tc main_v3) = ReadP.val_main_v3 (F := F) x1
  h_main_v6 : V (Proc.devRef .tc main_v6) = ReadP.val_main_v6 (F := F) x1
  h_main_v31 : V (Proc.devRef .tc main_v31) = ReadP.val_main_v31 (F := F) x1
  h_main_v180 : V (Proc.devRef .tc main_v180) = ReadP.val_main_v180 (F := F) x0 x1 x3 x4 x5 x6

/-- At operation 252 (the end of chunk 11). -/
structure Live11 (V : Valuation τ sig (Elt F)) (x0 : (⟨S50000x128, .f32⟩ : BufTy).Contents (Elt F)) (x1 : (⟨S2x800000, .i32⟩ : BufTy).Contents (Elt F)) (x2 : (⟨S50000, .i32⟩ : BufTy).Contents (Elt F)) (x3 : (⟨S128x64, .f32⟩ : BufTy).Contents (Elt F)) (x4 : (⟨S64, .f32⟩ : BufTy).Contents (Elt F)) (x5 : (⟨S8x64x64, .f32⟩ : BufTy).Contents (Elt F)) (x6 : (⟨S8x64, .f32⟩ : BufTy).Contents (Elt F)) (x7 : (⟨S64x64, .f32⟩ : BufTy).Contents (Elt F)) (x8 : (⟨S64x64, .f32⟩ : BufTy).Contents (Elt F)) (x9 : (⟨S128x1, .f32⟩ : BufTy).Contents (Elt F)) : Prop where
  h_main_arg0 : V (Proc.devRef .tc main_arg0) = x0
  h_main_arg1 : V (Proc.devRef .tc main_arg1) = x1
  h_main_arg2 : V (Proc.devRef .tc main_arg2) = x2
  h_main_arg3 : V (Proc.devRef .tc main_arg3) = x3
  h_main_arg4 : V (Proc.devRef .tc main_arg4) = x4
  h_main_arg5 : V (Proc.devRef .tc main_arg5) = x5
  h_main_arg6 : V (Proc.devRef .tc main_arg6) = x6
  h_main_arg7 : V (Proc.devRef .tc main_arg7) = x7
  h_main_arg8 : V (Proc.devRef .tc main_arg8) = x8
  h_main_arg9 : V (Proc.devRef .tc main_arg9) = x9
  h_main_v3 : V (Proc.devRef .tc main_v3) = ReadP.val_main_v3 (F := F) x1
  h_main_v6 : V (Proc.devRef .tc main_v6) = ReadP.val_main_v6 (F := F) x1
  h_main_v31 : V (Proc.devRef .tc main_v31) = ReadP.val_main_v31 (F := F) x1
  h_main_v202 : V (Proc.devRef .tc main_v202) = ReadP.val_main_v202 (F := F) x0 x1 x3 x4 x5 x6

/-- At operation 279 (the end of chunk 12). -/
structure Live12 (V : Valuation τ sig (Elt F)) (x0 : (⟨S50000x128, .f32⟩ : BufTy).Contents (Elt F)) (x1 : (⟨S2x800000, .i32⟩ : BufTy).Contents (Elt F)) (x2 : (⟨S50000, .i32⟩ : BufTy).Contents (Elt F)) (x3 : (⟨S128x64, .f32⟩ : BufTy).Contents (Elt F)) (x4 : (⟨S64, .f32⟩ : BufTy).Contents (Elt F)) (x5 : (⟨S8x64x64, .f32⟩ : BufTy).Contents (Elt F)) (x6 : (⟨S8x64, .f32⟩ : BufTy).Contents (Elt F)) (x7 : (⟨S64x64, .f32⟩ : BufTy).Contents (Elt F)) (x8 : (⟨S64x64, .f32⟩ : BufTy).Contents (Elt F)) (x9 : (⟨S128x1, .f32⟩ : BufTy).Contents (Elt F)) : Prop where
  h_main_arg0 : V (Proc.devRef .tc main_arg0) = x0
  h_main_arg1 : V (Proc.devRef .tc main_arg1) = x1
  h_main_arg2 : V (Proc.devRef .tc main_arg2) = x2
  h_main_arg3 : V (Proc.devRef .tc main_arg3) = x3
  h_main_arg4 : V (Proc.devRef .tc main_arg4) = x4
  h_main_arg5 : V (Proc.devRef .tc main_arg5) = x5
  h_main_arg6 : V (Proc.devRef .tc main_arg6) = x6
  h_main_arg7 : V (Proc.devRef .tc main_arg7) = x7
  h_main_arg8 : V (Proc.devRef .tc main_arg8) = x8
  h_main_arg9 : V (Proc.devRef .tc main_arg9) = x9
  h_main_v224 : V (Proc.devRef .tc main_v224) = ReadP.val_main_v224 (F := F) x0 x1 x3 x4 x5 x6

/-- At operation 297 (the end of chunk 13). -/
structure Live13 (V : Valuation τ sig (Elt F)) (x0 : (⟨S50000x128, .f32⟩ : BufTy).Contents (Elt F)) (x1 : (⟨S2x800000, .i32⟩ : BufTy).Contents (Elt F)) (x2 : (⟨S50000, .i32⟩ : BufTy).Contents (Elt F)) (x3 : (⟨S128x64, .f32⟩ : BufTy).Contents (Elt F)) (x4 : (⟨S64, .f32⟩ : BufTy).Contents (Elt F)) (x5 : (⟨S8x64x64, .f32⟩ : BufTy).Contents (Elt F)) (x6 : (⟨S8x64, .f32⟩ : BufTy).Contents (Elt F)) (x7 : (⟨S64x64, .f32⟩ : BufTy).Contents (Elt F)) (x8 : (⟨S64x64, .f32⟩ : BufTy).Contents (Elt F)) (x9 : (⟨S128x1, .f32⟩ : BufTy).Contents (Elt F)) : Prop where
  h_main_arg0 : V (Proc.devRef .tc main_arg0) = x0
  h_main_arg1 : V (Proc.devRef .tc main_arg1) = x1
  h_main_arg2 : V (Proc.devRef .tc main_arg2) = x2
  h_main_arg3 : V (Proc.devRef .tc main_arg3) = x3
  h_main_arg4 : V (Proc.devRef .tc main_arg4) = x4
  h_main_arg5 : V (Proc.devRef .tc main_arg5) = x5
  h_main_arg6 : V (Proc.devRef .tc main_arg6) = x6
  h_main_arg7 : V (Proc.devRef .tc main_arg7) = x7
  h_main_arg8 : V (Proc.devRef .tc main_arg8) = x8
  h_main_arg9 : V (Proc.devRef .tc main_arg9) = x9
  h_main_v226 : V (Proc.devRef .tc main_v226) = ReadP.val_main_v226 (F := F) x0 x1 x3 x4 x5 x6 x7
  h_main_v237 : V (Proc.devRef .tc main_v237) = ReadP.val_main_v237 (F := F) x0 x1 x2 x3 x4 x5 x6 x7 x8

/-- At operation 303 (the end). -/
structure Live14 (V : Valuation τ sig (Elt F)) (x0 : (⟨S50000x128, .f32⟩ : BufTy).Contents (Elt F)) (x1 : (⟨S2x800000, .i32⟩ : BufTy).Contents (Elt F)) (x2 : (⟨S50000, .i32⟩ : BufTy).Contents (Elt F)) (x3 : (⟨S128x64, .f32⟩ : BufTy).Contents (Elt F)) (x4 : (⟨S64, .f32⟩ : BufTy).Contents (Elt F)) (x5 : (⟨S8x64x64, .f32⟩ : BufTy).Contents (Elt F)) (x6 : (⟨S8x64, .f32⟩ : BufTy).Contents (Elt F)) (x7 : (⟨S64x64, .f32⟩ : BufTy).Contents (Elt F)) (x8 : (⟨S64x64, .f32⟩ : BufTy).Contents (Elt F)) (x9 : (⟨S128x1, .f32⟩ : BufTy).Contents (Elt F)) : Prop where
  h_main_arg0 : V (Proc.devRef .tc main_arg0) = x0
  h_main_arg1 : V (Proc.devRef .tc main_arg1) = x1
  h_main_arg2 : V (Proc.devRef .tc main_arg2) = x2
  h_main_arg3 : V (Proc.devRef .tc main_arg3) = x3
  h_main_arg4 : V (Proc.devRef .tc main_arg4) = x4
  h_main_arg5 : V (Proc.devRef .tc main_arg5) = x5
  h_main_arg6 : V (Proc.devRef .tc main_arg6) = x6
  h_main_arg7 : V (Proc.devRef .tc main_arg7) = x7
  h_main_arg8 : V (Proc.devRef .tc main_arg8) = x8
  h_main_arg9 : V (Proc.devRef .tc main_arg9) = x9
  h_main_v241 : V (Proc.devRef .tc main_v241) = ReadP.val_main_v241 (F := F) x0 x1 x2 x3 x4 x5 x6 x7 x8 x9

/-- A list's predicate holds of a concatenation when it holds of both halves. -/
theorem forall_append {α : Type} {p : α → Prop} {l₁ l₂ : List α} (h₁ : l₁.Forall p) (h₂ : l₂.Forall p) : (l₁ ++ l₂).Forall p :=
  List.forall_iff_forall_mem.mpr fun x hx => (List.mem_append.mp hx).elim (List.forall_iff_forall_mem.mp h₁ x) (List.forall_iff_forall_mem.mp h₂ x)

/-- Running two lists one after the other is running their concatenation. -/
theorem after_append' : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_append' l₁ l₂]

/-- Every operation of a list writes a reference of the given list: each operation's written set is a singleton,
    and the singleton's member is found in the list. -/
macro "writes_in_list'" : tactic => `(tactic| (
  simp only [List.Forall, nullary_writes, unary_writes, binary_writes, ternary_writes, quaternary_writes, reshape_writes,
    binaryIndexed_writes, unaryIndexed_writes, nary_writes, Finset.singleton_subset_iff, List.mem_toFinset]
  repeat' apply And.intro
  all_goals exact List.mem_map_of_mem (by decide)))

end Cert.ReferenceIdeal.RunH

end
-- ==== Proof.RefRunH.lean ====
import proofs.«430747_j26834955666046_2_alg».proof.Proof.RefRunH01
import proofs.«430747_j26834955666046_2_alg».proof.Proof.RefRunH02
import proofs.«430747_j26834955666046_2_alg».proof.Proof.RefRunH03
import proofs.«430747_j26834955666046_2_alg».proof.Proof.RefRunH04
import proofs.«430747_j26834955666046_2_alg».proof.Proof.RefRunH05
import proofs.«430747_j26834955666046_2_alg».proof.Proof.RefRunH06
import proofs.«430747_j26834955666046_2_alg».proof.Proof.RefRunH07
import proofs.«430747_j26834955666046_2_alg».proof.Proof.RefRunH08
import proofs.«430747_j26834955666046_2_alg».proof.Proof.RefRunH09
import proofs.«430747_j26834955666046_2_alg».proof.Proof.RefRunH10
import proofs.«430747_j26834955666046_2_alg».proof.Proof.RefRunH11
import proofs.«430747_j26834955666046_2_alg».proof.Proof.RefRunH12
import proofs.«430747_j26834955666046_2_alg».proof.Proof.RefRunH13
import proofs.«430747_j26834955666046_2_alg».proof.Proof.RefRunH14

/-! # The reference program's run, over the stage functions

@main's operation list is the chunks' concatenation; the run of a straight line of operations leaves every buffer at the
fold of the operations' results over the launch contents; the fold over a concatenation is the folds in turn; the
chunks' steps, chained from the launch contents, give the result buffer its stage function of the arguments' launch
contents and leave each argument as launched. -/

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

/-- @main's 303 operations: the chunks, in order. -/
abbrev ops : List (HloOp τ sig (Elt F)) := part1 ++ part2 ++ part3 ++ part4 ++ part5 ++ part6 ++ part7 ++ part8 ++ part9 ++ part10 ++ part11 ++ part12 ++ part13 ++ part14
set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  forall_append (forall_append (forall_append (forall_append (forall_append (forall_append (forall_append (forall_append (forall_append (forall_append (forall_append (forall_append (forall_append (part1_sub) part2_sub) part3_sub) part4_sub) part5_sub) part6_sub) part7_sub) part8_sub) part9_sub) part10_sub) part11_sub) part12_sub) part13_sub) part14_sub
theorem ops_fresh : ∀ op ∈ (ops : List (HloOp τ sig (Elt F))), op.fresh = ∅ :=
  List.forall_iff_forall_mem.mp (forall_append (forall_append (forall_append (forall_append (forall_append (forall_append (forall_append (forall_append (forall_append (forall_append (forall_append (forall_append (forall_append (part1_fresh) part2_fresh) part3_fresh) part4_fresh) part5_fresh) part6_fresh) part7_fresh) part8_fresh) part9_fresh) part10_fresh) part11_fresh) part12_fresh) part13_fresh) part14_fresh)
/-- The fold over the whole list is the chunks' folds in turn. -/
theorem after_ops (V : Valuation τ sig (Elt F)) : after ops V = after part14 (after part13 (after part12 (after part11 (after part10 (after part9 (after part8 (after part7 (after part6 (after part5 (after part4 (after part3 (after part2 (after part1 (V)))))))))))))) := by
  simp only [ops, after_append']
/-- From the arguments at the start to the result at the end. -/
theorem live_end (V : Valuation τ sig (Elt F)) (x0 : (⟨S50000x128, .f32⟩ : BufTy).Contents (Elt F)) (x1 : (⟨S2x800000, .i32⟩ : BufTy).Contents (Elt F)) (x2 : (⟨S50000, .i32⟩ : BufTy).Contents (Elt F)) (x3 : (⟨S128x64, .f32⟩ : BufTy).Contents (Elt F)) (x4 : (⟨S64, .f32⟩ : BufTy).Contents (Elt F)) (x5 : (⟨S8x64x64, .f32⟩ : BufTy).Contents (Elt F)) (x6 : (⟨S8x64, .f32⟩ : BufTy).Contents (Elt F)) (x7 : (⟨S64x64, .f32⟩ : BufTy).Contents (Elt F)) (x8 : (⟨S64x64, .f32⟩ : BufTy).Contents (Elt F)) (x9 : (⟨S128x1, .f32⟩ : BufTy).Contents (Elt F))
    (h : Live0 V x0 x1 x2 x3 x4 x5 x6 x7 x8 x9) : Live14 (after ops V) x0 x1 x2 x3 x4 x5 x6 x7 x8 x9 := by
  rw [after_ops]
  exact step14 (after part13 (after part12 (after part11 (after part10 (after part9 (after part8 (after part7 (after part6 (after part5 (after part4 (after part3 (after part2 (after part1 (V)))))))))))))) x0 x1 x2 x3 x4 x5 x6 x7 x8 x9 (step13 (after part12 (after part11 (after part10 (after part9 (after part8 (after part7 (after part6 (after part5 (after part4 (after part3 (after part2 (after part1 (V))))))))))))) x0 x1 x2 x3 x4 x5 x6 x7 x8 x9 (step12 (after part11 (after part10 (after part9 (after part8 (after part7 (after part6 (after part5 (after part4 (after part3 (after part2 (after part1 (V)))))))))))) x0 x1 x2 x3 x4 x5 x6 x7 x8 x9 (step11 (after part10 (after part9 (after part8 (after part7 (after part6 (after part5 (after part4 (after part3 (after part2 (after part1 (V))))))))))) x0 x1 x2 x3 x4 x5 x6 x7 x8 x9 (step10 (after part9 (after part8 (after part7 (after part6 (after part5 (after part4 (after part3 (after part2 (after part1 (V)))))))))) x0 x1 x2 x3 x4 x5 x6 x7 x8 x9 (step9 (after part8 (after part7 (after part6 (after part5 (after part4 (after part3 (after part2 (after part1 (V))))))))) x0 x1 x2 x3 x4 x5 x6 x7 x8 x9 (step8 (after part7 (after part6 (after part5 (after part4 (after part3 (after part2 (after part1 (V)))))))) x0 x1 x2 x3 x4 x5 x6 x7 x8 x9 (step7 (after part6 (after part5 (after part4 (after part3 (after part2 (after part1 (V))))))) x0 x1 x2 x3 x4 x5 x6 x7 x8 x9 (step6 (after part5 (after part4 (after part3 (after part2 (after part1 (V)))))) x0 x1 x2 x3 x4 x5 x6 x7 x8 x9 (step5 (after part4 (after part3 (after part2 (after part1 (V))))) x0 x1 x2 x3 x4 x5 x6 x7 x8 x9 (step4 (after part3 (after part2 (after part1 (V)))) x0 x1 x2 x3 x4 x5 x6 x7 x8 x9 (step3 (after part2 (after part1 (V))) x0 x1 x2 x3 x4 x5 x6 x7 x8 x9 (step2 (after part1 (V)) x0 x1 x2 x3 x4 x5 x6 x7 x8 x9 (step1 (V) x0 x1 x2 x3 x4 x5 x6 x7 x8 x9 (h))))))))))))))

/-- On every device, for any float values, from any memory with zero counters: every weakly fair execution of @main
    terminates with the result at its stage function of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v241) = ReadP.val_main_v241 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c =>
      have e := live_end (launchContents m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
        ⟨rfl, rfl, rfl, rfl, rfl, rfl, rfl, rfl, rfl, rfl⟩
      ⟨(h c main_v241).trans e.h_main_v241, (h c main_arg0).trans e.h_main_arg0, (h c main_arg1).trans e.h_main_arg1, (h c main_arg2).trans e.h_main_arg2, (h c main_arg3).trans e.h_main_arg3, (h c main_arg4).trans e.h_main_arg4, (h c main_arg5).trans e.h_main_arg5, (h c main_arg6).trans e.h_main_arg6, (h c main_arg7).trans e.h_main_arg7, (h c main_arg8).trans e.h_main_arg8, (h c main_arg9).trans e.h_main_arg9⟩)
    (run_seq scopedRefs_eq scopedSems_eq defs main (fun _ => ops) main_eq (fun _ => ops_sub) m ρ (fun _ => ops_fresh))

end Cert.ReferenceIdeal.RunH

end
-- ==== Proof.LibGS.lean ====
/-
  General facts about the host's row gather and accumulating row scatter, and about extended reals:
  a finite sum times a non-negative finite factor distributes; the reciprocal square root of a number at least
  one is a non-negative finite number; a row gather reads the table's row at the clamped start index; an update
  that a row scatter lands on an operand element has that element's row as its start index and the same column;
  an in-range word is its own wrap and its own clamp.
-/
import Idealize.ShloMosaic.PureOps.Ideal
import Idealize.ShloMosaic.PureOps.Ideal.Laws
import Idealize.ShloMosaic.Lib.ValueIdx
import Idealize.ShloMosaic.Lib.IdealHost
import Idealize.ShloMosaic.Lib.StableHlo.Predicate
import Mathlib.Data.EReal.Operations

noncomputable section

namespace Cert.LibGS

open Idealize.ShloMosaic Idealize.ShloMosaic.ValueIdx
open scoped BigOperators

/-! ## Extended reals -/

/-- A finite sum times a non-negative finite factor distributes. -/
theorem sum_mul_const {ι : Type} [DecidableEq ι] (S : Finset ι) (f : ι → EReal) (D : EReal) (h0 : 0 ≤ D) (ht : D ≠ ⊤) :
    (∑ j ∈ S, f j) * D = ∑ j ∈ S, f j * D := by
  induction S using Finset.induction_on with
  | empty => simp
  | insert a S ha ih =>
    rw [Finset.sum_insert ha, Finset.sum_insert ha, EReal.right_distrib_of_nonneg_of_ne_top h0 ht, ih]

/-- The reciprocal square root of something at least one is a non-negative finite number. -/
theorem rsqrt_bounds (x : EReal) (h : 1 ≤ x) : 0 ≤ Ideal.rsqrt x ∧ Ideal.rsqrt x ≠ ⊤ := by
  induction x using EReal.rec with
  | bot =>
    have hlt : (⊥ : EReal) < 1 := by exact_mod_cast EReal.bot_lt_coe (1 : ℝ)
    exact absurd h (not_le.mpr hlt)
  | top => simp
  | coe r =>
    have hr : (1 : ℝ) ≤ r := by exact_mod_cast h
    have h1 : ¬ r < 0 := by linarith
    have h2 : ¬ r = 0 := by linarith
    rw [Ideal.rsqrt_coe, if_neg h1, if_neg h2]
    refine ⟨?_, EReal.coe_ne_top _⟩
    exact_mod_cast inv_nonneg.mpr (Real.sqrt_nonneg r)

/-! ## The accumulating scatter, unfolded -/

/-- The accumulating scatter at the ideal values: each operand element plus the sum of the updates landing on it. -/
theorem scatterAdd_apply {s si u : Shape} {φ : FTy} {w : Nat} (d : ScatterDims s si u) (x : FVec Ideal s φ) (idx : IVec si w)
    (upd : FVec Ideal u φ) (i : s.Idx) :
    Host.scatterAdd (F := Ideal) d x idx upd i = x i + ∑ j ∈ Finset.univ.filter (fun j => d.resultIdx? j idx = some i), upd j := rfl

/-! ## Lists with one entry -/

/-- Every entry of a one-entry list is that entry. -/
theorem getElem_of_eq_singleton {α : Type} {l : List α} {a : α} (h : l = [a]) (k : Nat) (hk : k < l.length) : l[k] = a := by
  subst h
  have hk0 : k = 0 := by simpa using hk
  subst hk0; rfl

/-! ## The row gather -/

/-- The row gather read at (p, q): for an [N, C] table and an [n, 1] column of start indices (the result's axis 1 the
    offset axis, the table's axis 0 collapsed and named by the start index map, the index vector on axis 1), the table's
    entry at column q of the row that position p's start index names, read signed and clamped into [0, N - 1]. -/
theorem gather_rows {α : Type} {N n C w : Nat} (d : GatherDims ⟨2, ![N, C]⟩ ⟨2, ![n, 1]⟩ ⟨2, ![n, C]⟩)
    (hoff : d.offsetDims = [1]) (hcoll : d.collapsedSliceDims = [0]) (hob : d.operandBatchingDims = []) (hsim : d.startIndexMap = [0]) (hivd : d.indexVectorDim = 1)
    (x : (⟨2, ![N, C]⟩ : Shape).Idx → α) (idx : IVec ⟨2, ![n, 1]⟩ w) (p : Fin n) (q : Fin C) (hN : 0 < N) :
    Host.gather d x idx (ix2 p q) = x (ix2 (⟨min (idx (ix2 p (0 : Fin 1))).toInt.toNat (N - 1), by omega⟩ : Fin N) q) := by
  have hb : ∀ a : Fin 2, a ∉ d.operandBatchingDims := by intro a; rw [hob]; exact List.not_mem_nil
  have hbd : d.batchDims = [0] := by
    show Shape.kept _ d.offsetDims = [0]
    rw [hoff]; rfl
  -- the row: the start index of position p, read signed and clamped
  have h0 : (d.operandIdx (ix2 p q) idx (0 : Fin 2)).val = min (idx (ix2 p (0 : Fin 1))).toInt.toNat (N - 1) := by
    have hk : (0 : Fin 2) ∉ d.sKept := by rw [GatherDims.mem_sKept, hcoll]; simp
    have hm : (0 : Fin 2) ∈ d.startIndexMap := by rw [hsim]; exact List.mem_singleton.mpr rfl
    have hsl : d.sliceSizes (0 : Fin 2) = 1 := d.slice_collapsed 0 (by rw [hcoll]; exact List.mem_singleton.mpr rfl)
    simp only [GatherDims.operandIdx, GatherDims.batchCoord_eq_zero _ _ _ (hb _), GatherDims.offCoord_eq_zero _ _ _ hk,
      Nat.add_zero, GatherDims.start, dif_pos hm]
    show min (idx _).toInt.toNat (N - d.sliceSizes (0 : Fin 2)) = min (idx (ix2 p 0)).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      rw [getElem_of_eq_singleton hbd]
      rfl
    | ⟨1, _⟩ =>
      unfold GatherDims.siIdx
      rw [dif_pos (by rw [hivd])]
      apply Fin.ext
      show List.idxOf (0 : Fin 2) d.startIndexMap = 0
      rw [hsim]; simp
  -- the column: the result's own column
  have h1 : (d.operandIdx (ix2 p q) idx (1 : Fin 2)).val = q.val := by
    have hk : (1 : Fin 2) ∈ d.sKept := by rw [GatherDims.mem_sKept, hcoll, hob]; simp
    have hm : (1 : Fin 2) ∉ d.startIndexMap := by rw [hsim]; simp
    simp only [GatherDims.operandIdx, GatherDims.batchCoord_eq_zero _ _ _ (hb _), Nat.add_zero, GatherDims.start, dif_neg hm,
      Nat.zero_add]
    unfold GatherDims.offCoord
    rw [dif_pos hk, getElem_of_eq_singleton hoff]
    rfl
  unfold Host.gather
  congr 1
  funext a
  apply Fin.ext
  match a with
  | ⟨0, _⟩ => exact h0
  | ⟨1, _⟩ => exact h1

/-! ## Where a row scatter lands -/

/-- Where a row scatter lands: for an [N, C] operand, an [n, 1] column of scatter indices and [n, C] updates (the
    updates' axis 1 the window axis, the operand's axis 0 inserted and named by the scatter map, the index vector on
    axis 1), if update j lands on operand index i then the start index of j's row, read signed, is i's row, and the
    two columns agree. -/
theorem scatter_rows_lands {N n C w : Nat} (d : ScatterDims ⟨2, ![N, C]⟩ ⟨2, ![n, 1]⟩ ⟨2, ![n, C]⟩)
    (huw : d.updateWindowDims = [1]) (hins : d.insertedWindowDims = [0]) (hsd : d.scatterDimsToOperandDims = [0]) (hivd : d.indexVectorDim = 1)
    (idx : IVec ⟨2, ![n, 1]⟩ w) (j : (⟨2, ![n, C]⟩ : Shape).Idx) (i : (⟨2, ![N, C]⟩ : Shape).Idx) (h : d.resultIdx? j idx = some i) :
    (idx (ix2 (⟨(j 0).val, (j 0).isLt⟩ : Fin n) (0 : Fin 1))).toInt = ((i 0).val : Int) ∧ (j 1).val = (i 1).val := by
  have hsk : d.sKept = [1] := by
    show Shape.kept _ d.insertedWindowDims = [1]
    rw [hins]; rfl
  have hus : d.uScatter = [0] := by
    show Shape.kept _ d.updateWindowDims = [0]
    rw [huw]; rfl
  -- axis 0: the start is the start index of j's row, the window coordinate is zero
  have hw0 : d.window j (0 : Fin 2) = 0 := by
    unfold ScatterDims.window
    rw [dif_neg (by rw [hsk]; simp)]
  have hs0 : d.start j idx (0 : Fin 2) = (idx (ix2 (⟨(j 0).val, (j 0).isLt⟩ : Fin n) (0 : Fin 1))).toInt := by
    have hm : (0 : Fin 2) ∈ d.scatterDimsToOperandDims := by rw [hsd]; exact List.mem_singleton.mpr rfl
    unfold ScatterDims.start
    rw [dif_pos hm]
    congr 2
    funext b
    match b with
    | ⟨0, _⟩ =>
      unfold ScatterDims.siIdx
      rw [dif_neg (by rw [hivd]; simp)]
      unfold ScatterDims.siCoord
      apply Fin.ext
      simp only [Fin.val_cast]
      rw [getElem_of_eq_singleton hus]
    | ⟨1, _⟩ =>
      unfold ScatterDims.siIdx
      rw [dif_pos (by rw [hivd])]
      apply Fin.ext
      show List.idxOf (0 : Fin 2) d.scatterDimsToOperandDims = 0
      rw [hsd]; simp
  -- axis 1: the start is zero, the window coordinate is j's column
  have hw1 : d.window j (1 : Fin 2) = (j 1).val := by
    have hk : (1 : Fin 2) ∈ d.sKept := by rw [hsk]; exact List.mem_singleton.mpr rfl
    unfold ScatterDims.window
    rw [dif_pos hk, getElem_of_eq_singleton huw]
  have hs1 : d.start j idx (1 : Fin 2) = 0 := by
    unfold ScatterDims.start
    rw [dif_neg (by rw [hsd]; simp)]
  unfold ScatterDims.resultIdx? at h
  split at h
  · rename_i hall
    have hi := Option.some.inj h
    subst hi
    have h0 := hall (0 : Fin 2)
    rw [hs0, hw0] at h0
    constructor
    · show _ = (((d.start j idx (0 : Fin 2) + d.window j (0 : Fin 2)).toNat : Nat) : Int)
      rw [hs0, hw0]
      omega
    · show _ = (d.start j idx (1 : Fin 2) + d.window j (1 : Fin 2)).toNat
      rw [hs1, hw1]
      omega
  · exact absurd h (by simp)

/-! ## In-range words -/

/-- A word that reads non-negative as a signed number is left alone by the wrap "if a < 0 then a + N else a". -/
theorem wrap_of_nonneg (a : BitVec 32) (Nw : BitVec 32) (h : 0 ≤ a.toInt) :
    Scalar.select (IntOp.cmpi .slt a 0#32) (IntOp.addi a Nw) a = a := by
  have hs : a.slt 0#32 = false := by
    simp only [BitVec.slt, BitVec.toInt_zero]
    exact decide_eq_false (by omega)
  have hc : IntOp.cmpi .slt a 0#32 = 0#1 := by
    unfold IntOp.cmpi
    show BitVec.ofBool (a.slt 0#32) = 0#1
    rw [hs]; rfl
  unfold Scalar.select
  rw [hc, if_neg (by decide)]

/-- A word whose signed value is k < N is its own clamp into [0, N - 1]. -/
theorem clamp_of_inrange (a : BitVec 32) (N k : Nat) (hk : a.toInt = (k : Int)) (hkN : k < N) : min a.toInt.toNat (N - 1) = k := by
  rw [hk, Int.toNat_natCast]; omega

/-! ## The two constants -/

/-- The single-precision patterns of zero and of one are the extended reals zero and one. -/
theorem zero_f32 : Ideal.ofBits .f32 0x00000000#32 = 0 := Ideal.ofBits_zero_f32
theorem one_f32 : Ideal.ofBits .f32 0x3F800000#32 = 1 := Ideal.ofBits_one_f32

end Cert.LibGS

end
-- ==== Proof.BridgeCore.lean ====
/-
  One graph-convolution layer, the two programs side by side.

  The reference forms, for each edge e with (wrapped, clamped) source s(e) and raw target t(e), the row
  M(s(e), ·) · (dis(s(e)) · dis(t'(e))) — t'(e) the wrapped, clamped target — and adds it into row t(e) of a zero table;
  then adds the bias row and takes the maximum with zero. The kernel program scales row i of the table by dis(i) BEFORE
  the gather, adds the gathered rows M(s(e), ·) · dis(s(e)) into row t(e), and scales row r of the aggregate by dis(r)
  AFTER the scatter. An update lands on row r only when its raw target, read signed, IS r; then r is its own wrap and
  clamp, so dis(t'(e)) = dis(r) is one factor common to every term of row r's sum. That factor is a non-negative finite
  number (a reciprocal square root of something at least one, or zero), so it distributes over the sum even among
  extended reals, whatever the table holds.
-/
import proofs.«430747_j26834955666046_2_alg».proof.Proof.KV
import proofs.«430747_j26834955666046_2_alg».proof.Proof.RefStages
import proofs.«430747_j26834955666046_2_alg».proof.Proof.LibGS
import Idealize.ShloMosaic.Lib.ValueIdx
import Idealize.ShloMosaic.Lib.Pipeline.Value
import Idealize.ShloMosaic.Lib.StableHlo.Predicate
import Idealize.ShloMosaic.PureOps.Ideal

noncomputable section

namespace Cert.Bridge

open Idealize.ShloMosaic Idealize.ShloMosaic.ValueIdx
open scoped BigOperators

/-! ## One layer of the reference, as a function of the table -/

section Reference
open Cert.ReferenceIdeal Cert.ReferenceIdeal.Gen Cert.ReferenceIdeal.ReadP
open Idealize.ShloMosaic.StableHlo.Predicate (gather_take ixP)

/-- One layer of the reference on an arbitrary pre-activation table M and bias vector b. -/
def RL (M : (⟨S50000x64, .f32⟩ : BufTy).Contents (Elt Ideal)) (b : (⟨S64, .f32⟩ : BufTy).Contents (Elt Ideal))
    (x1 : (⟨S2x800000, .i32⟩ : BufTy).Contents (Elt Ideal)) : (⟨S50000x64, .f32⟩ : BufTy).Contents (Elt Ideal) :=
  maximumf (F := Ideal) (φ := .f32) (addf (F := Ideal) (φ := .f32)
      (Host.scatterAdd (F := Ideal) (φ := .f32) scatter_S50000x64_S850000x1_S850000x64_1_0_0_1 (val_main_v43 (F := Ideal)) (val_main_v44 (F := Ideal) x1)
        (mulf (F := Ideal) (φ := .f32) (Host.gather gather_S50000x64_S850000x1_S850000x64_1_0_n_n_0_1_164 M (val_main_v38 (F := Ideal) x1)) (val_main_v41 (F := Ideal) x1)))
      (broadcastInDim S50000x64 ![0, 1] bcast_S1x64_S50000x64_0_1 (broadcastInDim S1x64 ![1] bcast_S64_S1x64_1 b))) (val_main_call1_v0 (F := Ideal))

/-- The reference's first layer is that function of its first product. -/
theorem v49_eq_RL (x0 x1 x3 x4) : val_main_v49 (F := Ideal) x0 x1 x3 x4 = RL (val_main_v32 (F := Ideal) x0 x3) x4 x1 := rfl

/-! ### The per-node factor is a non-negative finite number -/

/-- dis(i) is the reciprocal square root of something at least one, or zero: non-negative and not +∞, whatever the degree is. -/
theorem dis_bounds (x1 : (⟨S2x800000, .i32⟩ : BufTy).Contents (Elt Ideal)) (i : S50000.Idx) :
    (0 : EReal) ≤ val_main_v16 (F := Ideal) x1 i ∧ (val_main_v16 (F := Ideal) x1 i : EReal) ≠ ⊤ := by
  have h1 : (0 : EReal) ≤ val_main_v15 (F := Ideal) x1 i ∧ (val_main_v15 (F := Ideal) x1 i : EReal) ≠ ⊤ := by
    rw [val_main_v15_apply, val_main_v14_apply, Ideal.hostUnary_rsqrt_def, Ideal.maximumf_def]
    refine LibGS.rsqrt_bounds _ (le_max_of_le_right ?_)
    rw [val_main_v13_apply, val_main_cst_2_apply]
    exact le_of_eq LibGS.one_f32.symm
  have h0 : (val_main_call0_v1 (F := Ideal) i : EReal) = 0 := by
    rw [val_main_call0_v1_apply, val_main_call0_v0_apply, val_main_cst_3_apply]
    exact LibGS.zero_f32
  rw [val_main_v16_apply]
  by_cases hc : val_main_v12 (F := Ideal) x1 i = 1#1
  · rw [hc, select_one]; exact h1
  · rw [eq_zero_of_ne_one hc, select_zero, h0]; exact ⟨le_refl _, EReal.zero_ne_top⟩

/-! ### The rows an edge reads and writes -/

/-- The table row edge position p reads: its wrapped source, read signed and clamped into the table. -/
def srcRow (x1 : (⟨S2x800000, .i32⟩ : BufTy).Contents (Elt Ideal)) (p : Fin 850000) : Fin 50000 :=
  ⟨min (BitVec.toInt (val_main_v38 (F := Ideal) x1 (ix2 p (0 : Fin 1)))).toNat (50000 - 1), by omega⟩
/-- The node whose factor the reference multiplies in for the target of edge position p: the wrapped target, read signed and clamped. -/
def tgtRow (x1 : (⟨S2x800000, .i32⟩ : BufTy).Contents (Elt Ideal)) (p : Fin 850000) : Fin 50000 :=
  ⟨min (BitVec.toInt (val_main_v29 (F := Ideal) x1 (ix2 p (0 : Fin 1)))).toNat (50000 - 1), by omega⟩

theorem ixP_eq {n : Nat} (p : Fin n) : ixP p = ix2 p (0 : Fin 1) := by
  funext a; match a with | ⟨0, _⟩ => rfl | ⟨1, _⟩ => rfl

/-- The two factor gathers' source indices are the table gather's own (the program forms the same wrap twice). -/
theorem v22_eq_v38 (x1 : (⟨S2x800000, .i32⟩ : BufTy).Contents (Elt Ideal)) : val_main_v22 (F := Ideal) x1 = val_main_v38 (F := Ideal) x1 := rfl

/-- The edge norm, broadcast along the row, read at (p, q): dis at the source row times dis at the target row. -/
theorem norm_read (x1 : (⟨S2x800000, .i32⟩ : BufTy).Contents (Elt Ideal)) (p : Fin 850000) (q : Fin 64) :
    (val_main_v41 (F := Ideal) x1 (ix2 p q) : EReal) =
      val_main_v16 (F := Ideal) x1 (Shape.Idx.ofFin (srcRow x1 p)) * val_main_v16 (F := Ideal) x1 (Shape.Idx.ofFin (tgtRow x1 p)) := by
  rw [val_main_v41_apply, val_main_v40_apply, val_main_v31_apply]
  have he : idx_main_v40 (idx_main_v41 (ix2 p q)) = Shape.Idx.ofFin p := by
    funext a; match a with | ⟨0, _⟩ => rfl
  rw [he]
  unfold val_main_v23 val_main_v30
  rw [gather_take gather_S50000_S850000x1_S850000_n_0_n_n_0_1_1 rfl rfl rfl rfl _ _ p (by decide),
    gather_take gather_S50000_S850000x1_S850000_n_0_n_n_0_1_1 rfl rfl rfl rfl _ _ p (by decide)]
  have e1 : (⟨min (BitVec.toInt (val_main_v22 (F := Ideal) x1 (ixP p))).toNat (50000 - 1), by omega⟩ : Fin 50000) = srcRow x1 p :=
    Fin.ext (by show min _ _ = min _ _; rw [ixP_eq, v22_eq_v38])
  have e2 : (⟨min (BitVec.toInt (val_main_v29 (F := Ideal) x1 (ixP p))).toNat (50000 - 1), by omega⟩ : Fin 50000) = tgtRow x1 p :=
    Fin.ext (by show min _ _ = min _ _; rw [ixP_eq])
  rw [e1, e2]
  rfl

theorem idx44_eq (p : Fin 850000) : idx_main_v44 (ix2 p (0 : Fin 1)) = Shape.Idx.ofFin p := by
  funext a; match a with | ⟨0, _⟩ => rfl
theorem idx29_eq (p : Fin 850000) : idx_main_v29 (ix2 p (0 : Fin 1)) = Shape.Idx.ofFin p := by
  funext a; match a with | ⟨0, _⟩ => rfl

/-- An edge whose raw target, read signed, is the node r has r as its wrapped, clamped target too. -/
theorem tgtRow_of_lands (x1 : (⟨S2x800000, .i32⟩ : BufTy).Contents (Elt Ideal)) (p : Fin 850000) (r : Fin 50000)
    (h : BitVec.toInt (val_main_v44 (F := Ideal) x1 (ix2 p (0 : Fin 1))) = (r.val : Int)) : tgtRow x1 p = r := by
  apply Fin.ext
  show min (BitVec.toInt (val_main_v29 (F := Ideal) x1 (ix2 p (0 : Fin 1)))).toNat (50000 - 1) = r.val
  rw [val_main_v44_apply, idx44_eq] at h
  rw [val_main_v29_apply, idx29_eq, val_main_v28_apply, val_main_v25_apply, val_main_v27_apply, val_main_v24_apply,
    val_main_c_5_apply, val_main_v26_apply, val_main_c_6_apply,
    LibGS.wrap_of_nonneg _ _ (by rw [h]; exact Int.natCast_nonneg _)]
  exact LibGS.clamp_of_inrange _ 50000 r.val h r.isLt

/-! ### The constants and the bias row -/

theorem zero_read (i : S50000x64.Idx) : (val_main_v43 (F := Ideal) i : EReal) = 0 := by
  rw [val_main_v43_apply, val_main_cst_9_apply]; exact LibGS.zero_f32
theorem relu_zero_read (i : S50000x64.Idx) : (val_main_call1_v0 (F := Ideal) i : EReal) = 0 := by
  rw [val_main_call1_v0_apply, val_main_call1_cst_apply]; exact LibGS.zero_f32

/-- The bias vector as a row, broadcast down the table, read at (r, k): the vector at k. -/
theorem bias_read (b : (⟨S64, .f32⟩ : BufTy).Contents (Elt Ideal)) (r : Fin 50000) (k : Fin 64) :
    broadcastInDim S50000x64 ![0, 1] bcast_S1x64_S50000x64_0_1 (broadcastInDim S1x64 ![1] bcast_S64_S1x64_1 b) (ix2 r k) = b (ix1 k) := by
  rw [broadcastInDim_apply _ bcast_S1x64_S50000x64_0_1 _ (ix2 r k) (ix2 (0 : Fin 1) k) (fun a => match a with
    | ⟨0, _⟩ => by show 0 = if (1 : Nat) = 1 then 0 else r.val; rw [if_pos rfl]
    | ⟨1, _⟩ => by show k.val = if (64 : Nat) = 1 then 0 else k.val; rw [if_neg (by decide)])]
  exact broadcastInDim_apply _ bcast_S64_S1x64_1 b (ix2 (0 : Fin 1) k) (ix1 k) (fun a => match a with
    | ⟨0, _⟩ => by show k.val = if (64 : Nat) = 1 then 0 else k.val; rw [if_neg (by decide)])

/-! ### The layer read at (r, k) -/

/-- The update positions (an edge position and a column) that land on (r, k). -/
def landing (x1 : (⟨S2x800000, .i32⟩ : BufTy).Contents (Elt Ideal)) (r : Fin 50000) (k : Fin 64) : Finset S850000x64.Idx :=
  Finset.univ.filter (fun j => scatter_S50000x64_S850000x1_S850000x64_1_0_0_1.resultIdx? j (val_main_v44 (F := Ideal) x1) = some (ix2 r k))

/-- The reference's layer at (r, k): the landing rows M(s(e), ·) · (dis(s(e)) · dis(r)) summed, plus the bias, against zero. -/
theorem RL_read (M : (⟨S50000x64, .f32⟩ : BufTy).Contents (Elt Ideal)) (b : (⟨S64, .f32⟩ : BufTy).Contents (Elt Ideal))
    (x1 : (⟨S2x800000, .i32⟩ : BufTy).Contents (Elt Ideal)) (r : Fin 50000) (k : Fin 64) :
    (RL M b x1 (ix2 r k) : EReal) =
      max ((∑ j ∈ landing x1 r k, M (ix2 (srcRow x1 ⟨(j 0).val, idx2_lt0 j⟩) (⟨(j 1).val, idx2_lt1 j⟩ : Fin 64)) *
            (val_main_v16 (F := Ideal) x1 (Shape.Idx.ofFin (srcRow x1 ⟨(j 0).val, idx2_lt0 j⟩)) * val_main_v16 (F := Ideal) x1 (Shape.Idx.ofFin r)))
          + b (ix1 k)) 0 := by
  unfold RL
  rw [maximumf_apply, addf_apply, LibGS.scatterAdd_apply, zero_read, relu_zero_read, bias_read, zero_add]
  refine congrArg (fun t : EReal => max (t + b (ix1 k)) 0) (Finset.sum_congr rfl (fun j hj => ?_))
  obtain ⟨p, q, rfl⟩ : ∃ (p : Fin 850000) (q : Fin 64), j = ix2 p q := ⟨j 0, j 1, eq_ix2 j⟩
  have hl := LibGS.scatter_rows_lands scatter_S50000x64_S850000x1_S850000x64_1_0_0_1 rfl rfl rfl rfl
    (val_main_v44 (F := Ideal) x1) (ix2 p q) (ix2 r k) (Finset.mem_filter.mp hj).2
  rw [mulf_apply, LibGS.gather_rows gather_S50000x64_S850000x1_S850000x64_1_0_n_n_0_1_164 rfl rfl rfl rfl rfl M _ p q (by decide),
    norm_read, tgtRow_of_lands x1 p r hl.1]
  rfl

end Reference

/-! ## The kernel program's aggregation against it -/

section Kernel
open Cert.ReferenceIdeal.ReadP

/-- The aggregation is the reference's own scatter of the gathered rows: the two programs' index columns, zero table and
    dimension numbers are the same terms. -/
theorem agg_eq (T : Cert.KernelIdeal.KV.C Cert.KernelIdeal.S50000x64 .bf16) (x1 : (⟨Cert.ReferenceIdeal.S2x800000, .i32⟩ : BufTy).Contents (Elt Ideal)) :
    Cert.KernelIdeal.KV.agg T x1 = Host.scatterAdd (F := Ideal) (φ := .f32) Cert.ReferenceIdeal.scatter_S50000x64_S850000x1_S850000x64_1_0_0_1
      (val_main_v43 (F := Ideal)) (val_main_v44 (F := Ideal) x1)
      (Host.gather Cert.ReferenceIdeal.gather_S50000x64_S850000x1_S850000x64_1_0_n_n_0_1_164 T (val_main_v38 (F := Ideal) x1)) := rfl

/-- The aggregate at (r, k): the table's rows at the landing edges' sources, summed. -/
theorem agg_read (T : Cert.KernelIdeal.KV.C Cert.KernelIdeal.S50000x64 .bf16) (x1 : (⟨Cert.ReferenceIdeal.S2x800000, .i32⟩ : BufTy).Contents (Elt Ideal))
    (r : Fin 50000) (k : Fin 64) :
    (Cert.KernelIdeal.KV.agg T x1 (ix2 r k) : EReal) =
      ∑ j ∈ landing x1 r k, T (ix2 (srcRow x1 ⟨(j 0).val, idx2_lt0 j⟩) (⟨(j 1).val, idx2_lt1 j⟩ : Fin 64)) := by
  rw [agg_eq, LibGS.scatterAdd_apply, zero_read, zero_add]
  refine Finset.sum_congr rfl (fun j _ => ?_)
  obtain ⟨p, q, rfl⟩ : ∃ (p : Fin 850000) (q : Fin 64), j = ix2 p q := ⟨j 0, j 1, eq_ix2 j⟩
  exact LibGS.gather_rows Cert.ReferenceIdeal.gather_S50000x64_S850000x1_S850000x64_1_0_n_n_0_1_164 rfl rfl rfl rfl rfl T _ p q (by decide)

/-- The factor column at row r is the reference's factor at r. -/
theorem disCol_read (x1 : (⟨Cert.ReferenceIdeal.S2x800000, .i32⟩ : BufTy).Contents (Elt Ideal)) (r : Fin 50000) :
    (Cert.KernelIdeal.KV.disCol x1 (ix2 r (0 : Fin 1)) : EReal) = val_main_v16 (F := Ideal) x1 (Shape.Idx.ofFin r) := by
  unfold Cert.KernelIdeal.KV.disCol
  rw [shapeCast_apply (Cert.KernelIdeal.KV.dis x1) _ (ix2 r (0 : Fin 1)) (Shape.Idx.ofFin r)
    (by rw [Shape.rowMajor_val_one, Shape.rowMajor_val_two]; show r.val = r.val * 1 + 0; omega)]
  rfl

/-- ONE LAYER. The kernel program's activation of the aggregate of the pre-scaled table is the reference's layer. -/
theorem layer_core (M : (⟨Cert.ReferenceIdeal.S50000x64, .f32⟩ : BufTy).Contents (Elt Ideal)) (b : (⟨Cert.ReferenceIdeal.S64, .f32⟩ : BufTy).Contents (Elt Ideal))
    (brow : Cert.KernelIdeal.KV.C Cert.KernelIdeal.S1x64 .f32) (hb : ∀ k : Fin 64, brow (ix2 (0 : Fin 1) k) = b (ix1 k))
    (x1 : (⟨Cert.ReferenceIdeal.S2x800000, .i32⟩ : BufTy).Contents (Elt Ideal)) (r : Fin 50000) (k : Fin 64) :
    Cert.KernelIdeal.KV.act (Cert.KernelIdeal.KV.agg (fun j => M j * Cert.KernelIdeal.KV.disCol x1 (ix2 (⟨(j 0).val, (j 0).isLt⟩ : Fin 50000) (0 : Fin 1))) x1)
        (Cert.KernelIdeal.KV.disCol x1) brow r k = RL M b x1 (ix2 r k) := by
  unfold Cert.KernelIdeal.KV.act
  rw [RL_read, agg_read, hb k, disCol_read, LibGS.sum_mul_const _ _ _ (dis_bounds x1 _).1 (dis_bounds x1 _).2]
  refine congrArg (fun t : EReal => max (t + b (ix1 k)) 0) (Finset.sum_congr rfl (fun j _ => ?_))
  rw [disCol_read, mul_assoc]

end Kernel

end Cert.Bridge

end
-- ==== Proof.BridgeChain.lean ====
/-
  The nine graph-convolution layers, chained.

  The kernel program keeps, after call t, the table T_t whose row i is row i of the reference's pre-activation
  M_t = h_t · W_t scaled by the node factor dis(i):  T_t(i, c) = M_t(i, c) · dis(i).  One step: the fused call
  forms relu(A · dis + b) from the aggregate A of T_t, and that is the reference layer h_{t+1} = RL M_t b_t (the
  one-layer statement, proved elsewhere); the call then multiplies by the next weight matrix and scales row i
  by dis(i) again, which is M_{t+1} scaled.  Nine steps from T_0 = (x · w0) scaled give the node transform
  HNT = h_9 · w_node, the reference's value %226.
-/
import proofs.«430747_j26834955666046_2_alg».proof.Proof.BridgeCore
import proofs.«430747_j26834955666046_2_alg».proof.Proof.RefStages
import proofs.«430747_j26834955666046_2_alg».proof.Proof.KV
import Idealize.ShloMosaic.Lib.Pipeline.Value
import Idealize.ShloMosaic.Lib.ValueIdx
import Idealize.ShloMosaic.PureOps.Ideal.Laws

noncomputable section

namespace Cert.Bridge

open Idealize.ShloMosaic Idealize.ShloMosaic.ValueIdx
open Cert.ReferenceIdeal Cert.ReferenceIdeal.Facts₀ Cert.ReferenceIdeal.Facts Cert.ReferenceIdeal.ReadP
open Cert.KernelIdeal.KV (T HNT Gf Gp G0 agg act disCol b0row bsl wsl T_0 T_1 T_2 T_3 T_4 T_5 T_6 T_7 T_8 HNT_eq)

/-- Contents of a buffer at the ideal instance. -/
local notation "Cn" => Cert.KernelIdeal.KV.C

namespace Chain

/-! ## Reading a row vector and a matrix product at an index -/

/-- A vector laid out as a one-row matrix, read at column k. -/
theorem row_of_vec (v : Cn S64 .f32) (k : Fin 64) :
    (shapeCast S1x64 v Cert.KernelIdeal.Facts₀.shapeCasts_S64_S1x64 : Cn S1x64 .f32) (ix2 (0 : Fin 1) k) = v (ix1 k) :=
  shapeCast_apply v Cert.KernelIdeal.Facts₀.shapeCasts_S64_S1x64 (ix2 (0 : Fin 1) k) (ix1 k)
    (by rewrite [Shape.rowMajor_val_one, Shape.rowMajor_val_two]; show k.val = 0 * 64 + k.val; omega)

/-- Element (r, c) of a [50000,64] · [64,64] product is the sum over the contracted axis. -/
theorem dot64_apply (y0 : Cn S50000x64 .f32) (y1 : Cn S64x64 .f32) (i : S50000x64.Idx) :
    Host.dotGeneral (F := Ideal) (φ₁ := .f32) (φ₂ := .f32) dot_S50000x64_S64x64_S50000x64_1_0_0_1_n_n none y0 y1 i
      = ∑ k : Fin 64, y0 (ix2 (⟨(i 0).val, (i 0).isLt⟩ : Fin 50000) k) * y1 (ix2 k (⟨(i 1).val, (i 1).isLt⟩ : Fin 64)) := by
  simp only [Host.dotGeneral]
  rw [Ideal.dotGeneral_apply, ← Equiv.sum_comp (ValueIdx.contrEquiv1 dot_S50000x64_S64x64_S50000x64_1_0_0_1_n_n 64 rfl rfl).symm]
  refine Finset.sum_congr rfl fun k _ => ?_
  have hk := ValueIdx.contrEquiv1_symm_val dot_S50000x64_S64x64_S50000x64_1_0_0_1_n_n 64 rfl rfl k
  have el : dot_S50000x64_S64x64_S50000x64_1_0_0_1_n_n.lhsIdx i ((ValueIdx.contrEquiv1 dot_S50000x64_S64x64_S50000x64_1_0_0_1_n_n 64 rfl rfl).symm k) = ix2 (⟨(i 0).val, (i 0).isLt⟩ : Fin 50000) k := funext fun a => Fin.ext (by
    match a with
    | ⟨0, _⟩ => exact lhs_main_v54_0 _ _
    | ⟨1, _⟩ => exact (lhs_main_v54_1 _ _).trans hk)
  have er : dot_S50000x64_S64x64_S50000x64_1_0_0_1_n_n.rhsIdx i ((ValueIdx.contrEquiv1 dot_S50000x64_S64x64_S50000x64_1_0_0_1_n_n 64 rfl rfl).symm k) = ix2 k (⟨(i 1).val, (i 1).isLt⟩ : Fin 64) := funext fun a => Fin.ext (by
    match a with
    | ⟨0, _⟩ => exact (rhs_main_v54_0 _ _).trans hk
    | ⟨1, _⟩ => exact rhs_main_v54_1 _ _)
  rw [el, er]

/-! ## One step of the chain -/

/-- A table with row i scaled by the node factor dis(i). -/
def scaled (M : Cn S50000x64 .f32) (x1 : Cn S2x800000 .i32) : Cn S50000x64 .bf16 :=
  fun j => M j * disCol x1 (ix2 ⟨(j 0).val, (j 0).isLt⟩ (0 : Fin 1))

/-- The fused call on the scaled table of M yields the scaled table of (RL M b) · w. -/
theorem step (M : Cn S50000x64 .f32) (b : Cn S64 .f32) (brow : Cn S1x64 .f32)
    (hb : ∀ k : Fin 64, brow (ix2 (0 : Fin 1) k) = b (ix1 k)) (w : Cn S64x64 .f32) (x1 : Cn S2x800000 .i32) :
    Gf (agg (scaled M x1) x1) (disCol x1) brow w
      = scaled (Host.dotGeneral (F := Ideal) (φ₁ := .f32) (φ₂ := .f32) dot_S50000x64_S64x64_S50000x64_1_0_0_1_n_n none (RL M b x1) w) x1 := by
  funext i
  show (∑ k : Fin 64, act (agg (fun j => M j * disCol x1 (ix2 ⟨(j 0).val, (j 0).isLt⟩ (0 : Fin 1))) x1) (disCol x1) brow ⟨(i 0).val, (i 0).isLt⟩ k
          * w (ix2 k (⟨(i 1).val, (i 1).isLt⟩ : Fin 64))) * disCol x1 (ix2 (⟨(i 0).val, (i 0).isLt⟩ : Fin 50000) (0 : Fin 1))
      = Host.dotGeneral (F := Ideal) (φ₁ := .f32) (φ₂ := .f32) dot_S50000x64_S64x64_S50000x64_1_0_0_1_n_n none (RL M b x1) w i * disCol x1 (ix2 (⟨(i 0).val, (i 0).isLt⟩ : Fin 50000) (0 : Fin 1))
  rw [dot64_apply]
  simp only [layer_core M b brow hb x1]

/-- The last fused call (unscaled) on the scaled table of M yields (RL M b) · w. -/
theorem step_last (M : Cn S50000x64 .f32) (b : Cn S64 .f32) (brow : Cn S1x64 .f32)
    (hb : ∀ k : Fin 64, brow (ix2 (0 : Fin 1) k) = b (ix1 k)) (w : Cn S64x64 .f32) (x1 : Cn S2x800000 .i32) :
    Gp (agg (scaled M x1) x1) (disCol x1) brow w
      = Host.dotGeneral (F := Ideal) (φ₁ := .f32) (φ₂ := .f32) dot_S50000x64_S64x64_S50000x64_1_0_0_1_n_n none (RL M b x1) w := by
  funext i
  show (∑ k : Fin 64, act (agg (fun j => M j * disCol x1 (ix2 ⟨(j 0).val, (j 0).isLt⟩ (0 : Fin 1))) x1) (disCol x1) brow ⟨(i 0).val, (i 0).isLt⟩ k
          * w (ix2 k (⟨(i 1).val, (i 1).isLt⟩ : Fin 64)))
      = Host.dotGeneral (F := Ideal) (φ₁ := .f32) (φ₂ := .f32) dot_S50000x64_S64x64_S50000x64_1_0_0_1_n_n none (RL M b x1) w i
  rw [dot64_apply]
  simp only [layer_core M b brow hb x1]

/-! ## The chain -/

section Layers
variable (x0 : Cn S50000x128 .f32) (x1 : Cn S2x800000 .i32) (x3 : Cn S128x64 .f32) (x4 : Cn S64 .f32)
  (x5 : Cn S8x64x64 .f32) (x6 : Cn S8x64 .f32) (x7 : Cn S64x64 .f32)

/-- The first call's table is the first pre-activation, scaled. -/
theorem T0_eq : T x0 x1 x3 x4 x5 x6 x7 0 = scaled (val_main_v32 (F := Ideal) x0 x3) x1 := by
  rw [T_0]
  funext i
  show (∑ k : Fin 128, x0 (ix2 (⟨(i 0).val, (i 0).isLt⟩ : Fin 50000) k) * x3 (ix2 k (⟨(i 1).val, (i 1).isLt⟩ : Fin 64))) * disCol x1 (ix2 (⟨(i 0).val, (i 0).isLt⟩ : Fin 50000) (0 : Fin 1))
    = val_main_v32 (F := Ideal) x0 x3 i * disCol x1 (ix2 (⟨(i 0).val, (i 0).isLt⟩ : Fin 50000) (0 : Fin 1))
  rw [val_main_v32_apply]
  have el : ∀ k : Fin 128, lidx_main_v32 i k = ix2 (⟨(i 0).val, (i 0).isLt⟩ : Fin 50000) k := fun k => funext fun a => by
    match a with
    | ⟨0, _⟩ => rfl
    | ⟨1, _⟩ => rfl
  have er : ∀ k : Fin 128, ridx_main_v32 i k = ix2 k (⟨(i 1).val, (i 1).isLt⟩ : Fin 64) := fun k => funext fun a => by
    match a with
    | ⟨0, _⟩ => rfl
    | ⟨1, _⟩ => rfl
  simp only [el, er]

/-- The table after fused call 0 is pre-activation 1, scaled. -/
theorem T1_eq : T x0 x1 x3 x4 x5 x6 x7 1 = scaled (val_main_v54 (F := Ideal) x0 x1 x3 x4 x5) x1 := by
  rw [T_1, T0_eq x0 x1 x3 x4 x5 x6 x7, step (val_main_v32 (F := Ideal) x0 x3) x4 (b0row x4) (row_of_vec x4) (wsl 0 x5) x1]
  rfl

/-- The table after fused call 1 is pre-activation 2, scaled. -/
theorem T2_eq : T x0 x1 x3 x4 x5 x6 x7 2 = scaled (val_main_v76 (F := Ideal) x0 x1 x3 x4 x5 x6) x1 := by
  rw [T_2, T1_eq x0 x1 x3 x4 x5 x6 x7, step (val_main_v54 (F := Ideal) x0 x1 x3 x4 x5) (val_main_v53 (F := Ideal) x6) (bsl 0 x6) (row_of_vec (val_main_v53 (F := Ideal) x6)) (wsl 1 x5) x1]
  rfl

/-- The table after fused call 2 is pre-activation 3, scaled. -/
theorem T3_eq : T x0 x1 x3 x4 x5 x6 x7 3 = scaled (val_main_v98 (F := Ideal) x0 x1 x3 x4 x5 x6) x1 := by
  rw [T_3, T2_eq x0 x1 x3 x4 x5 x6 x7, step (val_main_v76 (F := Ideal) x0 x1 x3 x4 x5 x6) (val_main_v75 (F := Ideal) x6) (bsl 1 x6) (row_of_vec (val_main_v75 (F := Ideal) x6)) (wsl 2 x5) x1]
  rfl

/-- The table after fused call 3 is pre-activation 4, scaled. -/
theorem T4_eq : T x0 x1 x3 x4 x5 x6 x7 4 = scaled (val_main_v120 (F := Ideal) x0 x1 x3 x4 x5 x6) x1 := by
  rw [T_4, T3_eq x0 x1 x3 x4 x5 x6 x7, step (val_main_v98 (F := Ideal) x0 x1 x3 x4 x5 x6) (val_main_v97 (F := Ideal) x6) (bsl 2 x6) (row_of_vec (val_main_v97 (F := Ideal) x6)) (wsl 3 x5) x1]
  rfl

/-- The table after fused call 4 is pre-activation 5, scaled. -/
theorem T5_eq : T x0 x1 x3 x4 x5 x6 x7 5 = scaled (val_main_v142 (F := Ideal) x0 x1 x3 x4 x5 x6) x1 := by
  rw [T_5, T4_eq x0 x1 x3 x4 x5 x6 x7, step (val_main_v120 (F := Ideal) x0 x1 x3 x4 x5 x6) (val_main_v119 (F := Ideal) x6) (bsl 3 x6) (row_of_vec (val_main_v119 (F := Ideal) x6)) (wsl 4 x5) x1]
  rfl

/-- The table after fused call 5 is pre-activation 6, scaled. -/
theorem T6_eq : T x0 x1 x3 x4 x5 x6 x7 6 = scaled (val_main_v164 (F := Ideal) x0 x1 x3 x4 x5 x6) x1 := by
  rw [T_6, T5_eq x0 x1 x3 x4 x5 x6 x7, step (val_main_v142 (F := Ideal) x0 x1 x3 x4 x5 x6) (val_main_v141 (F := Ideal) x6) (bsl 4 x6) (row_of_vec (val_main_v141 (F := Ideal) x6)) (wsl 5 x5) x1]
  rfl

/-- The table after fused call 6 is pre-activation 7, scaled. -/
theorem T7_eq : T x0 x1 x3 x4 x5 x6 x7 7 = scaled (val_main_v186 (F := Ideal) x0 x1 x3 x4 x5 x6) x1 := by
  rw [T_7, T6_eq x0 x1 x3 x4 x5 x6 x7, step (val_main_v164 (F := Ideal) x0 x1 x3 x4 x5 x6) (val_main_v163 (F := Ideal) x6) (bsl 5 x6) (row_of_vec (val_main_v163 (F := Ideal) x6)) (wsl 6 x5) x1]
  rfl

/-- The table after fused call 7 is pre-activation 8, scaled. -/
theorem T8_eq : T x0 x1 x3 x4 x5 x6 x7 8 = scaled (val_main_v208 (F := Ideal) x0 x1 x3 x4 x5 x6) x1 := by
  rw [T_8, T7_eq x0 x1 x3 x4 x5 x6 x7, step (val_main_v186 (F := Ideal) x0 x1 x3 x4 x5 x6) (val_main_v185 (F := Ideal) x6) (bsl 6 x6) (row_of_vec (val_main_v185 (F := Ideal) x6)) (wsl 7 x5) x1]
  rfl

end Layers

end Chain

/-- The node transform's output is the reference's value %226. -/
theorem hnt_eq (x0 : Cn S50000x128 .f32) (x1 : Cn S2x800000 .i32) (x3 : Cn S128x64 .f32) (x4 : Cn S64 .f32)
    (x5 : Cn S8x64x64 .f32) (x6 : Cn S8x64 .f32) (x7 : Cn S64x64 .f32) :
    HNT x0 x1 x3 x4 x5 x6 x7 = val_main_v226 (F := Ideal) x0 x1 x3 x4 x5 x6 x7 := by
  rw [HNT_eq, Chain.T8_eq x0 x1 x3 x4 x5 x6 x7,
    Chain.step_last (val_main_v208 (F := Ideal) x0 x1 x3 x4 x5 x6) (val_main_v207 (F := Ideal) x6) (bsl 7 x6)
      (Chain.row_of_vec (val_main_v207 (F := Ideal) x6)) x7 x1]
  rfl

end Cert.Bridge

end
-- ==== Proof.BridgeFinal.lean ====
/-
  The readout: the kernel program's last call is the reference program's tail.
  On a node table H (50000 × 64), graph ids nb (each in [0, 256)), the graph transform W and the readout weights a
  (128 × 1), both programs pool H per graph id, PT = (∑_{i : nb i = g} H(i,·))_g · W, and then
    the reference:  out(i) = tanh(∑_{c < 128} relu([H(i,·), PT(nb i,·)])(c) · a(c)),
                    the graph's row fetched by a row gather at the wrapped, clamped id;
    the kernel:     out(i) = tanh(∑_{k < 64} relu(H(i,k)) · a(k) + ∑_{k < 64} relu(∑_{g < 256} onehot(nb i)(g) · PT(g,k)) · a(64 + k)).
  The sum over the 128 joined columns splits into the first 64 and the last 64; an id in [0, 256) is its own wrap and
  clamp, and the one-hot product picks exactly its row of PT; the pooled table is the same term in both programs.
-/
import proofs.«430747_j26834955666046_2_alg».proof.Proof.KV
import proofs.«430747_j26834955666046_2_alg».proof.Proof.RefStages
import proofs.«430747_j26834955666046_2_alg».proof.Proof.LibGS
import Idealize.ShloMosaic.Lib.Pipeline.Value
import Idealize.ShloMosaic.Lib.ValueIdx
import Idealize.ShloMosaic.PureOps.Ideal
import Idealize.ShloMosaic.PureOps.Ideal.Laws
import Mathlib.Algebra.BigOperators.Fin

noncomputable section

namespace Cert.Bridge.Final

open Idealize.ShloMosaic Idealize.ShloMosaic.ValueIdx
open scoped BigOperators

/-- The reference's tail on an arbitrary node table H: pool H per graph id, transform the pooled table, hand every
    node its graph's row, join it to the node's own row, rectify, contract with the readout weights, squash. -/
def RTail (H : (⟨ReferenceIdeal.S50000x64, .f32⟩ : BufTy).Contents (Elt Ideal)) (x2 : (⟨ReferenceIdeal.S50000, .i32⟩ : BufTy).Contents (Elt Ideal))
    (x8 : (⟨ReferenceIdeal.S64x64, .f32⟩ : BufTy).Contents (Elt Ideal)) (x9 : (⟨ReferenceIdeal.S128x1, .f32⟩ : BufTy).Contents (Elt Ideal)) :
    (⟨ReferenceIdeal.S50000x1, .f32⟩ : BufTy).Contents (Elt Ideal) :=
  Host.tanh (Host.dotGeneral (F := Ideal) (φ₁ := .f32) (φ₂ := .f32) ReferenceIdeal.dot_S50000x128_S128x1_S50000x1_1_0_0_1_n_n none
    (maximumf (concatenate ReferenceIdeal.S50000x128 1 [⟨ReferenceIdeal.S50000x64, H⟩, ⟨ReferenceIdeal.S50000x64,
        Host.gather ReferenceIdeal.gather_S256x64_S50000x1_S50000x64_1_0_n_n_0_1_164
          (Host.dotGeneral (F := Ideal) (φ₁ := .f32) (φ₂ := .f32) ReferenceIdeal.dot_S256x64_S64x64_S256x64_1_0_0_1_n_n none
            (Host.scatterAdd (F := Ideal) (φ := .f32) ReferenceIdeal.scatter_S256x64_S50000x1_S50000x64_1_0_0_1 (ReferenceIdeal.ReadP.val_main_v227 (F := Ideal))
              (ReferenceIdeal.ReadP.val_main_v228 (F := Ideal) x2) H) x8)
          (ReferenceIdeal.ReadP.val_main_v236 (F := Ideal) x2)⟩] ReferenceIdeal.Gen.concatenates_S50000x64_S50000x64_S50000x128_d1)
      (ReferenceIdeal.ReadP.val_main_call10_v0 (F := Ideal))) x9)

/-! ## Small facts -/

/-- A sum of 128 terms is the sum of the first 64 plus the sum of the last 64. -/
theorem sum128 (f : Fin 128 → EReal) :
    ∑ k : Fin 128, f k = (∑ k : Fin 64, f ⟨k.val, by omega⟩) + ∑ k : Fin 64, f ⟨64 + k.val, by omega⟩ :=
  Fin.sum_univ_add (a := 64) (b := 64) f

/-- A word that reads, signed, as a number in [0, 256) is the 32-bit word of that number. -/
theorem word_of_inrange (a : BitVec 32) (h0 : 0 ≤ a.toInt) (h1 : a.toInt < 256) :
    a.toInt.toNat < 256 ∧ BitVec.ofNat 32 a.toInt.toNat = a ∧ a.toInt = (a.toInt.toNat : Int) := by
  have hc := BitVec.toInt_eq_toNat_cond a
  have hlt := a.isLt
  refine ⟨by omega, ?_, by omega⟩
  apply BitVec.eq_of_toNat_eq
  rw [BitVec.toNat_ofNat]
  split at hc <;> omega

/-- The one-hot row of a graph id against a column of the pooled table picks the id's entry. -/
theorem oneHot_sum (n : BitVec 32) (g0 : Fin 256) (hg : BitVec.ofNat 32 g0.val = n) (f : Fin 256 → EReal) :
    ∑ g : Fin 256, KernelIdeal.KV.oneHot n g * f g = f g0 := by
  rw [Finset.sum_eq_single g0]
  · unfold KernelIdeal.KV.oneHot; rw [if_pos hg, one_mul]
  · intro g _ hne
    unfold KernelIdeal.KV.oneHot
    rw [if_neg, zero_mul]
    intro h
    apply hne
    have e := congrArg BitVec.toNat (h.trans hg.symm)
    rw [BitVec.toNat_ofNat, BitVec.toNat_ofNat] at e
    have := g.isLt; have := g0.isLt
    apply Fin.ext; omega
  · intro h; exact absurd (Finset.mem_univ _) h

/-- The reference's last product at row i: the sum over the 128 joined columns. -/
theorem dot240_apply (y0 : (⟨ReferenceIdeal.S50000x128, .f32⟩ : BufTy).Contents (Elt Ideal)) (x9 : (⟨ReferenceIdeal.S128x1, .f32⟩ : BufTy).Contents (Elt Ideal))
    (i : ReferenceIdeal.S50000x1.Idx) :
    Host.dotGeneral (F := Ideal) (φ₁ := .f32) (φ₂ := .f32) ReferenceIdeal.dot_S50000x128_S128x1_S50000x1_1_0_0_1_n_n none y0 x9 i
      = ∑ k : Fin 128, y0 (ReferenceIdeal.ReadP.lidx_main_v240 i k) * x9 (ReferenceIdeal.ReadP.ridx_main_v240 i k) := by
  simp only [Host.dotGeneral]
  rw [Ideal.dotGeneral_apply, ← Equiv.sum_comp (ValueIdx.contrEquiv1 ReferenceIdeal.dot_S50000x128_S128x1_S50000x1_1_0_0_1_n_n 128 rfl rfl).symm]
  refine Finset.sum_congr rfl fun k _ => ?_
  have hk := ValueIdx.contrEquiv1_symm_val ReferenceIdeal.dot_S50000x128_S128x1_S50000x1_1_0_0_1_n_n 128 rfl rfl k
  have el : ReferenceIdeal.dot_S50000x128_S128x1_S50000x1_1_0_0_1_n_n.lhsIdx i ((ValueIdx.contrEquiv1 ReferenceIdeal.dot_S50000x128_S128x1_S50000x1_1_0_0_1_n_n 128 rfl rfl).symm k) = ReferenceIdeal.ReadP.lidx_main_v240 i k := funext fun a => Fin.ext (by
    match a with
    | ⟨0, _⟩ => exact ReferenceIdeal.ReadP.lhs_main_v240_0 _ _
    | ⟨1, _⟩ => exact (ReferenceIdeal.ReadP.lhs_main_v240_1 _ _).trans hk)
  have er : ReferenceIdeal.dot_S50000x128_S128x1_S50000x1_1_0_0_1_n_n.rhsIdx i ((ValueIdx.contrEquiv1 ReferenceIdeal.dot_S50000x128_S128x1_S50000x1_1_0_0_1_n_n 128 rfl rfl).symm k) = ReferenceIdeal.ReadP.ridx_main_v240 i k := funext fun a => Fin.ext (by
    match a with
    | ⟨0, _⟩ => exact (ReferenceIdeal.ReadP.rhs_main_v240_0 _ _).trans hk
    | ⟨1, _⟩ => exact ReferenceIdeal.ReadP.rhs_main_v240_1 _ _)
  rw [el, er]

/-- The pooled table is one term in both programs. -/
theorem pt_eq (H : KernelIdeal.KV.C KernelIdeal.S50000x64 .f32) (x2 : KernelIdeal.KV.C KernelIdeal.S50000 .i32) (x8 : KernelIdeal.KV.C KernelIdeal.S64x64 .f32) :
    KernelIdeal.KV.pt H x2 x8 = Host.dotGeneral (F := Ideal) (φ₁ := .f32) (φ₂ := .f32) ReferenceIdeal.dot_S256x64_S64x64_S256x64_1_0_0_1_n_n none
            (Host.scatterAdd (F := Ideal) (φ := .f32) ReferenceIdeal.scatter_S256x64_S50000x1_S50000x64_1_0_0_1 (ReferenceIdeal.ReadP.val_main_v227 (F := Ideal))
              (ReferenceIdeal.ReadP.val_main_v228 (F := Ideal) x2) H) x8 := rfl

/-- The rectifier's zero table is zero everywhere. -/
theorem zero128 (j : ReferenceIdeal.S50000x128.Idx) : ReferenceIdeal.ReadP.val_main_call10_v0 (F := Ideal) j = 0 := by
  rw [ReferenceIdeal.ReadP.val_main_call10_v0_apply, ReferenceIdeal.ReadP.val_main_call10_cst_apply]
  exact LibGS.zero_f32

/-- The first half of the readout weights: entry k is the weight column's entry k. -/
theorem wa1_apply (x9 : KernelIdeal.KV.C KernelIdeal.S128x1 .f32) (k : Fin 64) (j : KernelIdeal.S128x1.Idx)
    (h0 : (j 0).val = k.val) (h1 : (j 1).val = 0) : KernelIdeal.KV.wa1 x9 (ix2 k (0 : Fin 1)) = x9 j := by
  unfold KernelIdeal.KV.wa1
  refine extractStridedSlice_apply _ x9 _ (ix2 k (0 : Fin 1)) j fun a => ?_
  match a with
  | ⟨0, _⟩ => show (j 0).val = 0 + k.val; omega
  | ⟨1, _⟩ => show (j 1).val = 0 + 0; omega

/-- The second half of the readout weights: entry k is the weight column's entry 64 + k. -/
theorem wa2_apply (x9 : KernelIdeal.KV.C KernelIdeal.S128x1 .f32) (k : Fin 64) (j : KernelIdeal.S128x1.Idx)
    (h0 : (j 0).val = 64 + k.val) (h1 : (j 1).val = 0) : KernelIdeal.KV.wa2 x9 (ix2 k (0 : Fin 1)) = x9 j := by
  unfold KernelIdeal.KV.wa2
  refine extractStridedSlice_apply _ x9 _ (ix2 k (0 : Fin 1)) j fun a => ?_
  match a with
  | ⟨0, _⟩ => show (j 0).val = 64 + k.val; omega
  | ⟨1, _⟩ => show (j 1).val = 0 + 0; omega

/-- The graph ids as a column: row r holds node r's id. -/
theorem nbCol_apply (x2 : KernelIdeal.KV.C KernelIdeal.S50000 .i32) (r : Fin 50000) :
    KernelIdeal.KV.nbCol x2 (ix2 r (0 : Fin 1)) = x2 (ix1 r) := by
  unfold KernelIdeal.KV.nbCol
  refine shapeCast_apply x2 _ (ix2 r (0 : Fin 1)) (ix1 r) ?_
  rewrite [Shape.rowMajor_val_one, Shape.rowMajor_val_two]
  show r.val = r.val * 1 + 0
  omega

/-- The wrapped graph ids as a column: a non-negative id is left alone. -/
theorem wrapped_apply (x2 : (⟨ReferenceIdeal.S50000, .i32⟩ : BufTy).Contents (Elt Ideal)) (r : Fin 50000) (h : 0 ≤ (x2 (ix1 r)).toInt) :
    ReferenceIdeal.ReadP.val_main_v236 (F := Ideal) x2 (ix2 r (0 : Fin 1)) = x2 (ix1 r) := by
  have e : ReferenceIdeal.ReadP.idx_main_v236 (ix2 r (0 : Fin 1)) = ix1 r := funext fun a => match a with | ⟨0, _⟩ => rfl
  rw [ReferenceIdeal.ReadP.val_main_v236_apply, e, ReferenceIdeal.ReadP.val_main_v235_apply, ReferenceIdeal.ReadP.val_main_v232_apply,
    ReferenceIdeal.ReadP.val_main_v234_apply, ReferenceIdeal.ReadP.val_main_v231_apply, ReferenceIdeal.ReadP.val_main_c_35_apply]
  exact LibGS.wrap_of_nonneg _ _ h

/-- The joined table at a column below 64 is the node's own row. -/
theorem cat_left (H REP : (⟨ReferenceIdeal.S50000x64, .f32⟩ : BufTy).Contents (Elt Ideal)) (i : ReferenceIdeal.S50000x1.Idx) (k : Fin 64) :
    concatenate ReferenceIdeal.S50000x128 1 [⟨ReferenceIdeal.S50000x64, H⟩, ⟨ReferenceIdeal.S50000x64, REP⟩]
        ReferenceIdeal.Gen.concatenates_S50000x64_S50000x64_S50000x128_d1 (ReferenceIdeal.ReadP.lidx_main_v240 i ⟨k.val, by omega⟩)
      = H (ix2 (⟨(i 0).val, (i 0).isLt⟩ : Fin 50000) k) :=
  concatenate_pair_apply_left (t := ReferenceIdeal.S50000x128) (s₁ := ReferenceIdeal.S50000x64) (s₂ := ReferenceIdeal.S50000x64) 1 H REP
    ReferenceIdeal.Gen.concatenates_S50000x64_S50000x64_S50000x128_d1 (ReferenceIdeal.ReadP.lidx_main_v240 i ⟨k.val, by omega⟩) rfl
    (ix2 (⟨(i 0).val, (i 0).isLt⟩ : Fin 50000) k) (fun b => by
    match b with
    | ⟨0, _⟩ => rfl
    | ⟨1, _⟩ => rfl)

/-- The joined table at column 64 + k is the graph's row at column k. -/
theorem cat_right (H REP : (⟨ReferenceIdeal.S50000x64, .f32⟩ : BufTy).Contents (Elt Ideal)) (i : ReferenceIdeal.S50000x1.Idx) (k : Fin 64) :
    concatenate ReferenceIdeal.S50000x128 1 [⟨ReferenceIdeal.S50000x64, H⟩, ⟨ReferenceIdeal.S50000x64, REP⟩]
        ReferenceIdeal.Gen.concatenates_S50000x64_S50000x64_S50000x128_d1 (ReferenceIdeal.ReadP.lidx_main_v240 i ⟨64 + k.val, by omega⟩)
      = REP (ix2 (⟨(i 0).val, (i 0).isLt⟩ : Fin 50000) k) :=
  concatenate_pair_apply_right (t := ReferenceIdeal.S50000x128) (s₁ := ReferenceIdeal.S50000x64) (s₂ := ReferenceIdeal.S50000x64) 1 H REP
    ReferenceIdeal.Gen.concatenates_S50000x64_S50000x64_S50000x128_d1 (ReferenceIdeal.ReadP.lidx_main_v240 i ⟨64 + k.val, by omega⟩) rfl rfl
    (ix2 (⟨(i 0).val, (i 0).isLt⟩ : Fin 50000) k)
    (fun b hb => by
      match b with
      | ⟨0, _⟩ => rfl
      | ⟨1, _⟩ => exact absurd rfl hb)
    (by show k.val + 64 = 64 + k.val; omega)

/-- The graph's row: the row gather of a 256-row table at the wrapped ids reads, at node r whose id is g ≥ 0, g < 256,
    row g. -/
theorem rep_apply (PT : (⟨ReferenceIdeal.S256x64, .f32⟩ : BufTy).Contents (Elt Ideal)) (x2 : (⟨ReferenceIdeal.S50000, .i32⟩ : BufTy).Contents (Elt Ideal))
    (r : Fin 50000) (k : Fin 64) (g0 : Fin 256) (h0 : 0 ≤ (x2 (ix1 r)).toInt) (hg : (x2 (ix1 r)).toInt = (g0.val : Int)) :
    Host.gather ReferenceIdeal.gather_S256x64_S50000x1_S50000x64_1_0_n_n_0_1_164 PT (ReferenceIdeal.ReadP.val_main_v236 (F := Ideal) x2) (ix2 r k)
      = PT (ix2 g0 k) := by
  rw [LibGS.gather_rows _ rfl rfl rfl rfl rfl _ _ _ _ (by decide)]
  refine congrArg PT (congrArg (fun g : Fin 256 => (ix2 g k : (⟨2, ![256, 64]⟩ : Shape).Idx)) (Fin.ext ?_))
  show min (ReferenceIdeal.ReadP.val_main_v236 (F := Ideal) x2 (ix2 r (0 : Fin 1))).toInt.toNat (256 - 1) = g0.val
  rw [wrapped_apply x2 r h0]
  exact LibGS.clamp_of_inrange _ 256 _ hg g0.isLt

/-! ## The reference's tail is its printed tail -/

/-- The reference's result is its tail on the ninth layer's node transform. -/
theorem tail_unfold (x0 : (⟨ReferenceIdeal.S50000x128, .f32⟩ : BufTy).Contents (Elt Ideal)) (x1 : (⟨ReferenceIdeal.S2x800000, .i32⟩ : BufTy).Contents (Elt Ideal))
    (x2 : (⟨ReferenceIdeal.S50000, .i32⟩ : BufTy).Contents (Elt Ideal)) (x3 : (⟨ReferenceIdeal.S128x64, .f32⟩ : BufTy).Contents (Elt Ideal))
    (x4 : (⟨ReferenceIdeal.S64, .f32⟩ : BufTy).Contents (Elt Ideal)) (x5 : (⟨ReferenceIdeal.S8x64x64, .f32⟩ : BufTy).Contents (Elt Ideal))
    (x6 : (⟨ReferenceIdeal.S8x64, .f32⟩ : BufTy).Contents (Elt Ideal)) (x7 x8 : (⟨ReferenceIdeal.S64x64, .f32⟩ : BufTy).Contents (Elt Ideal))
    (x9 : (⟨ReferenceIdeal.S128x1, .f32⟩ : BufTy).Contents (Elt Ideal)) :
    ReferenceIdeal.ReadP.val_main_v241 (F := Ideal) x0 x1 x2 x3 x4 x5 x6 x7 x8 x9
      = RTail (ReferenceIdeal.ReadP.val_main_v226 (F := Ideal) x0 x1 x3 x4 x5 x6 x7) x2 x8 x9 := rfl

/-! ## The readout call is the reference's tail -/

/-- The readout call on a node table H — with the graph ids as a column, the pooled table, and the two halves of the
    readout weights — is the reference's tail on H, when every graph id is in [0, 256): the reference's last product
    over the 128 joined columns splits into the node's own 64 columns and its graph's 64; the graph's row, gathered
    at the wrapped and clamped id, is the row the one-hot product picks. -/
theorem final_eq (H : KernelIdeal.KV.C KernelIdeal.S50000x64 .f32) (x2 : KernelIdeal.KV.C KernelIdeal.S50000 .i32)
    (x8 : KernelIdeal.KV.C KernelIdeal.S64x64 .f32) (x9 : KernelIdeal.KV.C KernelIdeal.S128x1 .f32)
    (hnb : ∀ i : KernelIdeal.S50000.Idx, 0 ≤ (x2 i).toInt ∧ (x2 i).toInt < 256) :
    KernelIdeal.KV.G10 H (KernelIdeal.KV.nbCol x2) (KernelIdeal.KV.pt H x2 x8) (KernelIdeal.KV.wa1 x9) (KernelIdeal.KV.wa2 x9)
      = RTail H x2 x8 x9 := by
  funext i
  have hi1 : (i 1).val = 0 := by have := idx2_lt1 i; omega
  -- node i's graph id, in range
  obtain ⟨h0, h1⟩ := hnb (ix1 (⟨(i 0).val, (i 0).isLt⟩ : Fin 50000))
  obtain ⟨hg, hw, hcast⟩ := word_of_inrange _ h0 h1
  unfold RTail
  simp only [Host.tanh]
  rw [Ideal.hostUnary_tanh_def, dot240_apply, sum128]
  unfold KernelIdeal.KV.G10
  refine congrArg Ideal.tanh (congrArg₂ (· + ·) ?_ ?_)
  · -- the node's own 64 columns
    refine Finset.sum_congr rfl fun k _ => ?_
    rw [maximumf_apply, cat_left, zero128]
    rw [wa1_apply x9 k (ReferenceIdeal.ReadP.ridx_main_v240 i ⟨k.val, by omega⟩) rfl hi1]
  · -- its graph's 64 columns
    refine Finset.sum_congr rfl fun k _ => ?_
    rw [maximumf_apply, cat_right, zero128]
    rw [wa2_apply x9 k (ReferenceIdeal.ReadP.ridx_main_v240 i ⟨64 + k.val, by omega⟩) rfl hi1]
    rw [rep_apply _ x2 _ k ⟨_, hg⟩ h0 hcast, ← pt_eq]
    rw [nbCol_apply, oneHot_sum _ ⟨_, hg⟩ hw]

end Cert.Bridge.Final
end
-- ==== Proof.PreNb.lean ====
import proofs.«430747_j26834955666046_2_alg».proof.Defs
import proofs.«430747_j26834955666046_2_alg».proof.Proof.Gen.Pre_finite_inputs
import proofs.«430747_j26834955666046_2_alg».proof.Proof.Gen.KernelIdeal
import Idealize.ShloMosaic.Lib.ReduceAll
import Idealize.ShloMosaic.Lib.ValueIdx

/-!
  The added conjunct of the precondition, read back: every word of the batch-index
  argument (argument 2, one signed 32-bit word per node) lies in [0, 256).
  The predicate's result is a conjunction whose LAST conjunct is the reduction by
  "and", over all nodes, of (0 ≤ w) ∧ (w < 256), both comparisons signed against a
  broadcast scalar; a reduction by "and" that is 1 had a 1 at every node.
-/

namespace Cert.PreNb

open Idealize.ShloMosaic Idealize.SL.Sem Idealize.ShloMosaic.ValueIdx

/-- The scalar shape has one index. -/
local instance : Subsingleton Cert.Pre_finite_inputs.S_.Idx := ⟨fun a b => funext fun d => d.elim0⟩

theorem nb_range
    (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S50000.Idx) :
    0 ≤ (m ((c.tc : Thread Cert.KernelIdeal.nD Cert.KernelIdeal.τ).loc Cert.KernelIdeal.main_arg2) i).toInt
      ∧ (m ((c.tc : Thread Cert.KernelIdeal.nD Cert.KernelIdeal.τ).loc Cert.KernelIdeal.main_arg2) i).toInt < 256 := by
  have e := congrFun (h c) ix0
  dsimp only [Cert.Pre_finite_inputs.fn, Cert.Pre_finite_inputs.fn_part1, Cert.Pre_finite_inputs.fn_part2] at e
  -- the result is (the finiteness conjuncts) ∧ (the range conjunct): keep the second
  obtain ⟨-, e44⟩ := IntOp.andi_eq_one.1 e
  -- a reduction by "and" into the one scalar index that is 1 had a 1 at node i
  have ei := Host.reduce_andi_all _ _ _ _ _ e44 i
  -- at node i: (0 ≤ w signed) ∧ (w < 256 signed), each against a broadcast scalar
  obtain ⟨a, b⟩ := IntOp.andi_eq_one.1 ei
  have a' := IntOp.cmpi_sge.1 a
  have b' := IntOp.cmpi_slt.1 b
  have z : (0#32 : BitVec 32).toInt = 0 := by decide
  have t : (256#32 : BitVec 32).toInt = 256 := by decide
  exact ⟨z ▸ a', t ▸ b'⟩

end Cert.PreNb
-- ==== Proof.lean ====
/-
  The certificate of the nine-layer graph convolution network with a pooled readout.

  The kernel program folds the symmetric normalisation dis[src]·dis[dst] of every edge message onto the dense
  side: each call scales row i of the table it writes by dis(i) before the host gathers rows at the edge sources
  and adds them up at the edge targets, and the next call scales row i of that sum by dis(i) again. The reference
  multiplies each gathered row by dis[src]·dis[dst] between the gather and the sum. Over the extended reals the
  two agree because dis(i) = rsqrt(max(deg i, 1)) (or 0) is a non-negative finite number, so it distributes over
  the finite sum of the messages landing on node i, and because an edge that lands on i has target i.
  The readout gathers row nb(i) of the pooled table in the reference and multiplies a one-hot row of width 256
  into it in the kernel: equal where every graph id lies in [0, 256), the precondition's last conjunct; the
  reference's product over the 128 concatenated columns is the kernel's two products over 64.
  The two kernel frames are the generated frame certificates; the reference's frame is its run, read one
  operation at a time, with the result dropped; the idealization rewrote no operation.
-/
import proofs.«430747_j26834955666046_2_alg».proof.Defs
import proofs.«430747_j26834955666046_2_alg».proof.Proof.Gen.Kernel
import proofs.«430747_j26834955666046_2_alg».proof.Proof.Gen.Kernel.Frame
import proofs.«430747_j26834955666046_2_alg».proof.Proof.Gen.KernelIdeal
import proofs.«430747_j26834955666046_2_alg».proof.Proof.Gen.KernelIdeal.Frame
import proofs.«430747_j26834955666046_2_alg».proof.Proof.Gen.ReferenceIdeal
import proofs.«430747_j26834955666046_2_alg».proof.Proof.Gen.Pre_finite_inputs
import proofs.«430747_j26834955666046_2_alg».proof.Proof.KV
import proofs.«430747_j26834955666046_2_alg».proof.Proof.KRun
import proofs.«430747_j26834955666046_2_alg».proof.Proof.KVal
import proofs.«430747_j26834955666046_2_alg».proof.Proof.RefStages
import proofs.«430747_j26834955666046_2_alg».proof.Proof.RefRunH
import proofs.«430747_j26834955666046_2_alg».proof.Proof.BridgeChain
import proofs.«430747_j26834955666046_2_alg».proof.Proof.BridgeFinal
import proofs.«430747_j26834955666046_2_alg».proof.Proof.PreNb
import Idealize.ShloMosaic.Adequacy
import Idealize.ShloMosaic.Init

noncomputable section

namespace Cert.Proof

open Idealize.ShloMosaic Idealize.SL.Sem

/-- The two idealized programs compute one function of the arguments, wherever every graph id is in range. -/
theorem out_eq (x0 x1 x2 x3 x4 x5 x6 x7 x8 x9)
    (hnb : ∀ i : Cert.KernelIdeal.S50000.Idx, 0 ≤ (x2 i).toInt ∧ (x2 i).toInt < 256) :
    Cert.KernelIdeal.KV.OUT x0 x1 x2 x3 x4 x5 x6 x7 x8 x9
      = Cert.ReferenceIdeal.ReadP.val_main_v241 (F := Ideal) x0 x1 x2 x3 x4 x5 x6 x7 x8 x9 := by
  rw [Cert.KernelIdeal.KV.OUT_eq, Cert.Bridge.Final.final_eq _ x2 x8 x9 hnb, Cert.Bridge.hnt_eq, Cert.Bridge.Final.tail_unfold]

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RunH.run (F := Ideal) m ρ)

theorem algebraic : Cert.algebraic_KernelIdeal_ReferenceIdeal := by
  intro m ρ m' ρ' hpre hagree
  refine ⟨_, (θ_run Cert.KernelIdeal.defs _ _).mono (fun _ h c => ⟨(h c).1.trans (Cert.KernelIdeal.KVal.W24_out m ρ c), (h c).2⟩)
    (Cert.KernelIdeal.KRun.run_val (F := Ideal) m ρ), ?_⟩
  refine (θ_run Cert.ReferenceIdeal.defs _ _).mono (fun _ h c => ⟨(h c).1.trans ?_, (h c).2⟩)
    (Cert.ReferenceIdeal.RunH.run (F := Ideal) m' ρ')
  rw [(hagree c).1, (hagree c).2.1, (hagree c).2.2.1, (hagree c).2.2.2.1, (hagree c).2.2.2.2.1,
    (hagree c).2.2.2.2.2.1, (hagree c).2.2.2.2.2.2.1, (hagree c).2.2.2.2.2.2.2.1, (hagree c).2.2.2.2.2.2.2.2.1, (hagree c).2.2.2.2.2.2.2.2.2]
  exact (out_eq _ _ _ _ _ _ _ _ _ _ (fun i => Cert.PreNb.nb_range m hpre c i)).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
